-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x2048x64 : S_.BroadcastsInDim S32x2048x64 (![] : Fin 0 → Fin S32x2048x64.rank)
  reducesTo_S32x2048x64_S_d0_1_2 : S32x2048x64.ReducesTo [0, 1, 2] S_
  bcast_S_S8 : S_.BroadcastsInDim S8 (![] : Fin 0 → Fin S8.rank)
  reducesTo_S8_S_d0 : S8.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S32x2048 .f32) (main_arg1 : FVec F S32x2048x64 .f32) (main_arg2 : IVec S32x2048 1) (main_arg3 : FVec F S8 .f32) (main_arg4 : FVec F S64x64 .f32) (main_arg5 : FVec F S64x64 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S64x128 : Shape := ⟨2, ![64, 128]⟩
abbrev S65536x64 : Shape := ⟨2, ![65536, 64]⟩
abbrev S65536x128 : Shape := ⟨2, ![65536, 128]⟩
abbrev S8192x64 : Shape := ⟨2, ![8192, 64]⟩
abbrev S8192x128 : Shape := ⟨2, ![8192, 128]⟩
abbrev S32x2048x128 : Shape := ⟨3, ![32, 2048, 128]⟩
abbrev S_ : Shape := ⟨0, ![]⟩
abbrev S32x2056x128 : Shape := ⟨3, ![32, 2056, 128]⟩
abbrev S32x2048x1 : Shape := ⟨3, ![32, 2048, 1]⟩
abbrev S32x2064x1 : Shape := ⟨3, ![32, 2064, 1]⟩
abbrev S1x8 : Shape := ⟨2, ![1, 8]⟩
abbrev S32x2048x9x64 : Shape := ⟨4, ![32, 2048, 9, 64]⟩
abbrev S32x64x128 : Shape := ⟨3, ![32, 64, 128]⟩
abbrev S32x8x128 : Shape := ⟨3, ![32, 8, 128]⟩
abbrev S32x64x1 : Shape := ⟨3, ![32, 64, 1]⟩
abbrev S32x16x1 : Shape := ⟨3, ![32, 16, 1]⟩
abbrev S32x64x9x64 : Shape := ⟨4, ![32, 64, 9, 64]⟩
abbrev S32x72x128 : Shape := ⟨3, ![32, 72, 128]⟩
abbrev S32x80x1 : Shape := ⟨3, ![32, 80, 1]⟩
abbrev S32x64x64 : Shape := ⟨3, ![32, 64, 64]⟩
abbrev S1x1x8 : Shape := ⟨3, ![1, 1, 8]⟩
abbrev S32x64x8 : Shape := ⟨3, ![32, 64, 8]⟩
abbrev S32x64x1x64 : Shape := ⟨4, ![32, 64, 1, 64]⟩
abbrev S32x64x8x1 : Shape := ⟨4, ![32, 64, 8, 1]⟩
abbrev S32x64x8x64 : Shape := ⟨4, ![32, 64, 8, 64]⟩
abbrev S32x1x1x64 : Shape := ⟨4, ![32, 1, 1, 64]⟩
abbrev S32x64 : Shape := ⟨2, ![32, 64]⟩
abbrev S32x2047x9x64 : Shape := ⟨4, ![32, 2047, 9, 64]⟩
abbrev S32x18423x64 : Shape := ⟨3, ![32, 18423, 64]⟩
abbrev S32x1x64 : Shape := ⟨3, ![32, 1, 64]⟩
abbrev S32x18424x64 : Shape := ⟨3, ![32, 18424, 64]⟩

abbrev nBuf : Space → Nat
  | .hbm => 31
  | .vmem => 20
  | .smem => 0
  | _ => 0

abbrev bufTy : (tb : Table) → Fin (tcTables nBuf tb) → BufTy
  | .hbm, ⟨0, _⟩ => ⟨S32x2048, .f32⟩
  | .hbm, ⟨1, _⟩ => ⟨S32x2048x64, .f32⟩
  | .hbm, ⟨2, _⟩ => ⟨S32x2048, .i1⟩
  | .hbm, ⟨3, _⟩ => ⟨S8, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x128, .f32⟩
  | .hbm, ⟨8, _⟩ => ⟨S65536x64, .f32⟩
  | .hbm, ⟨9, _⟩ => ⟨S65536x128, .f32⟩
  | .hbm, ⟨10, _⟩ => ⟨S32x2048x128, .f32⟩
  | .hbm, ⟨11, _⟩ => ⟨S_, .i32⟩
  | .hbm, ⟨12, _⟩ => ⟨S_, .f32⟩
  | .hbm, ⟨13, _⟩ => ⟨S32x2056x128, .f32⟩
  | .hbm, ⟨14, _⟩ => ⟨S32x2048, .f32⟩
  | .hbm, ⟨15, _⟩ => ⟨S32x2048x1, .f32⟩
  | .hbm, ⟨16, _⟩ => ⟨S_, .i32⟩
  | .hbm, ⟨17, _⟩ => ⟨S_, .f32⟩
  | .hbm, ⟨18, _⟩ => ⟨S32x2064x1, .f32⟩
  | .hbm, ⟨19, _⟩ => ⟨S32x2048x1, .f32⟩
  | .hbm, ⟨20, _⟩ => ⟨S_, .i32⟩
  | .hbm, ⟨21, _⟩ => ⟨S_, .f32⟩
  | .hbm, ⟨22, _⟩ => ⟨S32x2064x1, .f32⟩
  | .hbm, ⟨23, _⟩ => ⟨S1x8, .f32⟩
  | .hbm, ⟨24, _⟩ => ⟨S32x2048x9x64, .f32⟩
  | .hbm, ⟨25, _⟩ => ⟨S32x1x1x64, .f32⟩
  | .hbm, ⟨26, _⟩ => ⟨S32x64, .f32⟩
  | .hbm, ⟨27, _⟩ => ⟨S32x2047x9x64, .f32⟩
  | .hbm, ⟨28, _⟩ => ⟨S32x18423x64, .f32⟩
  | .hbm, ⟨29, _⟩ => ⟨S32x1x64, .f32⟩
  | .hbm, ⟨30, _⟩ => ⟨S32x18424x64, .f32⟩
  | .local _ .vmem, ⟨0, _⟩ => ⟨S8192x64, .f32⟩
  | .local _ .vmem, ⟨1, _⟩ => ⟨S8192x64, .f32⟩
  | .local _ .vmem, ⟨2, _⟩ => ⟨S64x128, .f32⟩
  | .local _ .vmem, ⟨3, _⟩ => ⟨S8192x128, .f32⟩
  | .local _ .vmem, ⟨4, _⟩ => ⟨S8192x128, .f32⟩
  | .local _ .vmem, ⟨5, _⟩ => ⟨S32x64x128, .f32⟩
  | .local _ .vmem, ⟨6, _⟩ => ⟨S32x64x128, .f32⟩
  | .local _ .vmem, ⟨7, _⟩ => ⟨S32x8x128, .f32⟩
  | .local _ .vmem, ⟨8, _⟩ => ⟨S32x8x128, .f32⟩
  | .local _ .vmem, ⟨9, _⟩ => ⟨S32x64x1, .f32⟩
  | .local _ .vmem, ⟨10, _⟩ => ⟨S32x64x1, .f32⟩
  | .local _ .vmem, ⟨11, _⟩ => ⟨S32x16x1, .f32⟩
  | .local _ .vmem, ⟨12, _⟩ => ⟨S32x16x1, .f32⟩
  | .local _ .vmem, ⟨13, _⟩ => ⟨S32x64x1, .f32⟩
  | .local _ .vmem, ⟨14, _⟩ => ⟨S32x64x1, .f32⟩
  | .local _ .vmem, ⟨15, _⟩ => ⟨S32x16x1, .f32⟩
  | .local _ .vmem, ⟨16, _⟩ => ⟨S32x16x1, .f32⟩
  | .local _ .vmem, ⟨17, _⟩ => ⟨S1x8, .f32⟩
  | .local _ .vmem, ⟨18, _⟩ => ⟨S32x64x9x64, .f32⟩
  | .local _ .vmem, ⟨19, _⟩ => ⟨S32x64x9x64, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![c0_i32.toNat, v1.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![c0_i32.toNat, v1.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S32x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x16x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x64x9x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S64x64_S64x64_1_0 : S64x64.Transposes [1, 0] S64x64
  concatenates_S64x64_S64x64_S64x128_d1 : Shape.Concatenates [S64x64, S64x64] S64x128 1
  shapeCasts_S32x2048x64_S65536x64 : S32x2048x64.ShapeCasts S65536x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  shapeCasts_S65536x128_S32x2048x128 : S65536x128.ShapeCasts S32x2048x128
  pads_S32x2048x128_S32x2056x128_000_800_000 : S32x2048x128.Pads (![0, 8, 0] : Fin 3 → Nat) ![0, 0, 0] ![0, 0, 0] S32x2056x128
  h_S_ : 0 < S_.numel
  bcast_S32x2048_S32x2048x1_0_1 : S32x2048.BroadcastsInDim S32x2048x1 (![0, 1] : Fin 2 → Fin S32x2048x1.rank)
  pads_S32x2048x1_S32x2064x1_000_880_000 : S32x2048x1.Pads (![0, 8, 0] : Fin 3 → Nat) ![0, 8, 0] ![0, 0, 0] S32x2064x1
  shapeCasts_S8_S1x8 : S8.ShapeCasts S1x8
  inb_S32x64x128_S32x64x128_0_0_0 : ∀ a, (![0, 0, 0] : Fin 3 → Nat) a + S32x64x128.size a ≤ S32x64x128.size a
  h_S32x64x128 : 0 < S32x64x128.numel
  shapeCasts_S32x64x128_S32x64x128 : S32x64x128.ShapeCasts S32x64x128
  inb_S32x8x128_S32x8x128_0_0_0 : ∀ a, (![0, 0, 0] : Fin 3 → Nat) a + S32x8x128.size a ≤ S32x8x128.size a
  h_S32x8x128 : 0 < S32x8x128.numel
  shapeCasts_S32x8x128_S32x8x128 : S32x8x128.ShapeCasts S32x8x128
  concatenates_S32x64x128_S32x8x128_S32x72x128_d1 : Shape.Concatenates [S32x64x128, S32x8x128] S32x72x128 1
  inb_S32x64x1_S32x64x1_0_0_0 : ∀ a, (![0, 0, 0] : Fin 3 → Nat) a + S32x64x1.size a ≤ S32x64x1.size a
  h_S32x64x1 : 0 < S32x64x1.numel
  shapeCasts_S32x64x1_S32x64x1 : S32x64x1.ShapeCasts S32x64x1
  inb_S32x16x1_S32x16x1_0_0_0 : ∀ a, (![0, 0, 0] : Fin 3 → Nat) a + S32x16x1.size a ≤ S32x16x1.size a
  h_S32x16x1 : 0 < S32x16x1.numel
  shapeCasts_S32x16x1_S32x16x1 : S32x16x1.ShapeCasts S32x16x1
  concatenates_S32x64x1_S32x16x1_S32x80x1_d1 : Shape.Concatenates [S32x64x1, S32x16x1] S32x80x1 1
  slices_S32x80x1_o0_8_0_S32x64x1 : S32x80x1.Slices ![0, 8, 0] S32x64x1
  slices_S32x80x1_o0_9_0_S32x64x1 : S32x80x1.Slices ![0, 9, 0] S32x64x1
  slices_S32x72x128_o0_8_0_S32x64x128 : S32x72x128.Slices ![0, 8, 0] S32x64x128
  slices_S32x64x128_o0_0_0_S32x64x64 : S32x64x128.Slices ![0, 0, 0] S32x64x64
  broadcasts_S32x64x1_S32x64x64 : S32x64x1.Broadcasts S32x64x64
  slices_S32x64x128_o0_0_64_S32x64x64 : S32x64x128.Slices ![0, 0, 64] S32x64x64
  slices_S32x72x128_o0_7_0_S32x64x128 : S32x72x128.Slices ![0, 7, 0] S32x64x128
  slices_S32x80x1_o0_7_0_S32x64x1 : S32x80x1.Slices ![0, 7, 0] S32x64x1
  slices_S32x72x128_o0_6_0_S32x64x128 : S32x72x128.Slices ![0, 6, 0] S32x64x128
  slices_S32x80x1_o0_6_0_S32x64x1 : S32x80x1.Slices ![0, 6, 0] S32x64x1
  slices_S32x72x128_o0_5_0_S32x64x128 : S32x72x128.Slices ![0, 5, 0] S32x64x128
  slices_S32x80x1_o0_5_0_S32x64x1 : S32x80x1.Slices ![0, 5, 0] S32x64x1
  slices_S32x72x128_o0_4_0_S32x64x128 : S32x72x128.Slices ![0, 4, 0] S32x64x128
  slices_S32x80x1_o0_4_0_S32x64x1 : S32x80x1.Slices ![0, 4, 0] S32x64x1
  slices_S32x72x128_o0_3_0_S32x64x128 : S32x72x128.Slices ![0, 3, 0] S32x64x128
  slices_S32x80x1_o0_3_0_S32x64x1 : S32x80x1.Slices ![0, 3, 0] S32x64x1
  slices_S32x72x128_o0_2_0_S32x64x128 : S32x72x128.Slices ![0, 2, 0] S32x64x128
  slices_S32x80x1_o0_2_0_S32x64x1 : S32x80x1.Slices ![0, 2, 0] S32x64x1
  slices_S32x72x128_o0_1_0_S32x64x128 : S32x72x128.Slices ![0, 1, 0] S32x64x128
  slices_S32x80x1_o0_1_0_S32x64x1 : S32x80x1.Slices ![0, 1, 0] S32x64x1
  slices_S32x72x128_o0_0_0_S32x64x128 : S32x72x128.Slices ![0, 0, 0] S32x64x128
  slices_S32x80x1_o0_0_0_S32x64x1 : S32x80x1.Slices ![0, 0, 0] S32x64x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S1x1x8 : S1x8.ShapeCasts S1x1x8
  broadcasts_S32x64x1_S32x64x8 : S32x64x1.Broadcasts S32x64x8
  broadcasts_S1x1x8_S32x64x8 : S1x1x8.Broadcasts S32x64x8
  shapeCasts_S32x64x64_S32x64x1x64 : S32x64x64.ShapeCasts S32x64x1x64
  shapeCasts_S32x64x8_S32x64x8x1 : S32x64x8.ShapeCasts S32x64x8x1
  broadcasts_S32x64x8x1_S32x64x8x64 : S32x64x8x1.Broadcasts S32x64x8x64
  broadcasts_S32x64x1x64_S32x64x8x64 : S32x64x1x64.Broadcasts S32x64x8x64
  inb_S32x64x9x64_S32x64x1x64_0_0_0_0 : ∀ a, (![0, 0, 0, 0] : Fin 4 → Nat) a + S32x64x1x64.size a ≤ S32x64x9x64.size a
  h_S32x64x1x64 : 0 < S32x64x1x64.numel
  inb_S32x64x9x64_S32x64x8x64_0_0_1_0 : ∀ a, (![0, 0, 1, 0] : Fin 4 → Nat) a + S32x64x8x64.size a ≤ S32x64x9x64.size a
  h_S32x64x8x64 : 0 < S32x64x8x64.numel
  slices_S32x2048x9x64_S32x1x1x64_0_2047_0_0 : S32x2048x9x64.Slices ![0, 2047, 0, 0] S32x1x1x64
  shapeCasts_S32x1x1x64_S32x64 : S32x1x1x64.ShapeCasts S32x64
  slices_S32x2048x9x64_S32x2047x9x64_0_0_0_0 : S32x2048x9x64.Slices ![0, 0, 0, 0] S32x2047x9x64
  shapeCasts_S32x2047x9x64_S32x18423x64 : S32x2047x9x64.ShapeCasts S32x18423x64
  bcast_S32x64_S32x1x64_0_2 : S32x64.BroadcastsInDim S32x1x64 (![0, 2] : Fin 2 → Fin S32x1x64.rank)
  concatenates_S32x18423x64_S32x1x64_S32x18424x64_d1 : Shape.Concatenates [S32x18423x64, S32x1x64] S32x18424x64 1
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S32x64x128.size a < S32x2056x128.size a
  hwx1_0 : ∀ i : grid1.Coords, EltTy.bits .f32 = 32 ∨ (Rect.unit (s := S32x2056x128) (fun a => cc1_transform_0 i a * S32x64x128.size a) (fun a => (Pipeline.Clip.of (cc1_transform_0 i a) (S32x64x128.size a) (S32x2056x128.size a)).extent (S32x64x128.size a)) fun a => Pipeline.Clip.inb (Pipeline.Clip.ok_of (hstart1_0 i a))).WholeWords (EltTy.packing .f32)
  hwxs1_0 : ∀ i : grid1.Coords, EltTy.bits .f32 = 32 ∨ (Rect.unit (s := S32x64x128) (fun _ => 0) (fun a => (Pipeline.Clip.of (cc1_transform_0 i a) (S32x64x128.size a) (S32x2056x128.size a)).extent (S32x64x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x8x128.size a ≤ S32x2056x128.size a
  hwx1_1 : ∀ i : grid1.Coords, EltTy.bits .f32 = 32 ∨ (Rect.block (s := S32x2056x128) S32x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S32x64x1.size a < S32x2064x1.size a
  hwx1_2 : ∀ i : grid1.Coords, EltTy.bits .f32 = 32 ∨ (Rect.unit (s := S32x2064x1) (fun a => cc1_transform_2 i a * S32x64x1.size a) (fun a => (Pipeline.Clip.of (cc1_transform_2 i a) (S32x64x1.size a) (S32x2064x1.size a)).extent (S32x64x1.size a)) fun a => Pipeline.Clip.inb (Pipeline.Clip.ok_of (hstart1_2 i a))).WholeWords (EltTy.packing .f32)
  hwxs1_2 : ∀ i : grid1.Coords, EltTy.bits .f32 = 32 ∨ (Rect.unit (s := S32x64x1) (fun _ => 0) (fun a => (Pipeline.Clip.of (cc1_transform_2 i a) (S32x64x1.size a) (S32x2064x1.size a)).extent (S32x64x1.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x16x1.size a ≤ S32x2064x1.size a
  hwx1_3 : ∀ i : grid1.Coords, EltTy.bits .f32 = 32 ∨ (Rect.block (s := S32x2064x1) S32x16x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S32x64x1.size a < S32x2064x1.size a
  hwx1_4 : ∀ i : grid1.Coords, EltTy.bits .f32 = 32 ∨ (Rect.unit (s := S32x2064x1) (fun a => cc1_transform_4 i a * S32x64x1.size a) (fun a => (Pipeline.Clip.of (cc1_transform_4 i a) (S32x64x1.size a) (S32x2064x1.size a)).extent (S32x64x1.size a)) fun a => Pipeline.Clip.inb (Pipeline.Clip.ok_of (hstart1_4 i a))).WholeWords (EltTy.packing .f32)
  hwxs1_4 : ∀ i : grid1.Coords, EltTy.bits .f32 = 32 ∨ (Rect.unit (s := S32x64x1) (fun _ => 0) (fun a => (Pipeline.Clip.of (cc1_transform_4 i a) (S32x64x1.size a) (S32x2064x1.size a)).extent (S32x64x1.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x16x1.size a ≤ S32x2064x1.size a
  hwx1_5 : ∀ i : grid1.Coords, EltTy.bits .f32 = 32 ∨ (Rect.block (s := S32x2064x1) S32x16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x64x9x64.size a ≤ S32x2048x9x64.size a
  hwx1_7 : ∀ i : grid1.Coords, EltTy.bits .f32 = 32 ∨ (Rect.block (s := S32x2048x9x64) S32x64x9x64.size (cc1_transform_7 i) (hinb1_7 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v2) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v5) S32x64x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v5) S32x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v8) S32x64x1.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v8) S32x16x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpecClip (Memref.whole main_v10) S32x64x1.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpec (Memref.whole main_v10) S32x16x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S32x64x9x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S32x2048x128 : Shape := ⟨3, ![32, 2048, 128]⟩
abbrev S_ : Shape := ⟨0, ![]⟩
abbrev S32x2056 : Shape := ⟨2, ![32, 2056]⟩
abbrev S32x2056x128 : Shape := ⟨3, ![32, 2056, 128]⟩
abbrev S32x1x2048 : Shape := ⟨3, ![32, 1, 2048]⟩
abbrev S32x9x2048 : Shape := ⟨3, ![32, 9, 2048]⟩
abbrev S32x1x2048x128 : Shape := ⟨4, ![32, 1, 2048, 128]⟩
abbrev S32x9x2048x128 : Shape := ⟨4, ![32, 9, 2048, 128]⟩
abbrev S32x9x2048x1 : Shape := ⟨4, ![32, 9, 2048, 1]⟩
abbrev S32x9x2048x64 : Shape := ⟨4, ![32, 9, 2048, 64]⟩
abbrev S32x1x2047 : Shape := ⟨3, ![32, 1, 2047]⟩
abbrev S32x2047 : Shape := ⟨2, ![32, 2047]⟩
abbrev S32x8x2048 : Shape := ⟨3, ![32, 8, 2048]⟩
abbrev S32x8x2048x1 : Shape := ⟨4, ![32, 8, 2048, 1]⟩
abbrev S32x8x2048x64 : Shape := ⟨4, ![32, 8, 2048, 64]⟩
abbrev S32x8x2047 : Shape := ⟨3, ![32, 8, 2047]⟩
abbrev S32x8x2047x1 : Shape := ⟨4, ![32, 8, 2047, 1]⟩
abbrev S32x8x2047x64 : Shape := ⟨4, ![32, 8, 2047, 64]⟩
abbrev S32x2047x64 : Shape := ⟨3, ![32, 2047, 64]⟩
abbrev S32x2047x1x64 : Shape := ⟨4, ![32, 2047, 1, 64]⟩
abbrev S32x2047x1x1 : Shape := ⟨4, ![32, 2047, 1, 1]⟩
abbrev S1x1x8x1 : Shape := ⟨4, ![1, 1, 8, 1]⟩
abbrev S32x2047x8x1 : Shape := ⟨4, ![32, 2047, 8, 1]⟩
abbrev S32x2047x8x64 : Shape := ⟨4, ![32, 2047, 8, 64]⟩
abbrev S32x1x64 : Shape := ⟨3, ![32, 1, 64]⟩
abbrev S32x2047x9x64 : Shape := ⟨4, ![32, 2047, 9, 64]⟩
abbrev S32x18423x64 : Shape := ⟨3, ![32, 18423, 64]⟩
abbrev S32x18424x64 : Shape := ⟨3, ![32, 18424, 64]⟩

abbrev nBuf : Space → Nat
  | .hbm => 137
  | .vmem => 0
  | .smem => 0
  | _ => 0

abbrev hbmTy0_0 (i : Nat) : BufTy := match i % 128 with
  | 0 => ⟨S32x2048, .f32⟩
  | 1 => ⟨S32x2048x64, .f32⟩
  | 2 => ⟨S32x2048, .i1⟩
  | 3 => ⟨S8, .f32⟩
  | 4 => ⟨S64x64, .f32⟩
  | 5 => ⟨S64x64, .f32⟩
  | 6 => ⟨S32x2048x64, .f32⟩
  | 7 => ⟨S32x2048x64, .f32⟩
  | 8 => ⟨S32x2048x128, .f32⟩
  | 9 => ⟨S_, .i32⟩
  | 10 => ⟨S_, .f32⟩
  | 11 => ⟨S32x2056, .f32⟩
  | 12 => ⟨S_, .i32⟩
  | 13 => ⟨S_, .f32⟩
  | 14 => ⟨S32x2056x128, .f32⟩
  | 15 => ⟨S_, .i32⟩
  | 16 => ⟨S_, .i32⟩
  | 17 => ⟨S_, .i32⟩
  | 18 => ⟨S_, .i1⟩
  | 19 => ⟨S_, .i1⟩
  | 20 => ⟨S32x2056, .i1⟩
  | 21 => ⟨S32x2048, .f32⟩
  | 22 => ⟨S32x2048, .f32⟩
  | 23 => ⟨S32x2048, .f32⟩
  | 24 => ⟨S32x2048, .f32⟩
  | 25 => ⟨S32x2048, .f32⟩
  | 26 => ⟨S32x2048, .f32⟩
  | 27 => ⟨S32x2048, .f32⟩
  | 28 => ⟨S32x2048, .f32⟩
  | 29 => ⟨S32x2048, .f32⟩
  | 30 => ⟨S32x1x2048, .f32⟩
  | 31 => ⟨S32x1x2048, .f32⟩
  | 32 => ⟨S32x1x2048, .f32⟩
  | 33 => ⟨S32x1x2048, .f32⟩
  | 34 => ⟨S32x1x2048, .f32⟩
  | 35 => ⟨S32x1x2048, .f32⟩
  | 36 => ⟨S32x1x2048, .f32⟩
  | 37 => ⟨S32x1x2048, .f32⟩
  | 38 => ⟨S32x1x2048, .f32⟩
  | 39 => ⟨S32x9x2048, .f32⟩
  | 40 => ⟨S32x2048x128, .f32⟩
  | 41 => ⟨S32x2048x128, .f32⟩
  | 42 => ⟨S32x2048x128, .f32⟩
  | 43 => ⟨S32x2048x128, .f32⟩
  | 44 => ⟨S32x2048x128, .f32⟩
  | 45 => ⟨S32x2048x128, .f32⟩
  | 46 => ⟨S32x2048x128, .f32⟩
  | 47 => ⟨S32x2048x128, .f32⟩
  | 48 => ⟨S32x2048x128, .f32⟩
  | 49 => ⟨S32x1x2048x128, .f32⟩
  | 50 => ⟨S32x1x2048x128, .f32⟩
  | 51 => ⟨S32x1x2048x128, .f32⟩
  | 52 => ⟨S32x1x2048x128, .f32⟩
  | 53 => ⟨S32x1x2048x128, .f32⟩
  | 54 => ⟨S32x1x2048x128, .f32⟩
  | 55 => ⟨S32x1x2048x128, .f32⟩
  | 56 => ⟨S32x1x2048x128, .f32⟩
  | 57 => ⟨S32x1x2048x128, .f32⟩
  | 58 => ⟨S32x9x2048x128, .f32⟩
  | 59 => ⟨S32x2048, .i1⟩
  | 60 => ⟨S32x2048, .i1⟩
  | 61 => ⟨S32x2048, .i1⟩
  | 62 => ⟨S32x2048, .i1⟩
  | 63 => ⟨S32x2048, .i1⟩
  | 64 => ⟨S32x2048, .i1⟩
  | 65 => ⟨S32x2048, .i1⟩
  | 66 => ⟨S32x2048, .i1⟩
  | 67 => ⟨S32x2048, .i1⟩
  | 68 => ⟨S32x1x2048, .i1⟩
  | 69 => ⟨S32x1x2048, .i1⟩
  | 70 => ⟨S32x1x2048, .i1⟩
  | 71 => ⟨S32x1x2048, .i1⟩
  | 72 => ⟨S32x1x2048, .i1⟩
  | 73 => ⟨S32x1x2048, .i1⟩
  | 74 => ⟨S32x1x2048, .i1⟩
  | 75 => ⟨S32x1x2048, .i1⟩
  | 76 => ⟨S32x1x2048, .i1⟩
  | 77 => ⟨S32x9x2048, .i1⟩
  | 78 => ⟨S32x1x2048, .i1⟩
  | 79 => ⟨S32x9x2048, .i1⟩
  | 80 => ⟨S32x9x2048, .i1⟩
  | 81 => ⟨S32x1x2048, .f32⟩
  | 82 => ⟨S32x9x2048, .f32⟩
  | 83 => ⟨S32x9x2048, .f32⟩
  | 84 => ⟨S_, .f32⟩
  | 85 => ⟨S_, .f32⟩
  | 86 => ⟨S32x9x2048, .f32⟩
  | 87 => ⟨S32x9x2048, .f32⟩
  | 88 => ⟨S32x9x2048x1, .i1⟩
  | 89 => ⟨S_, .f32⟩
  | 90 => ⟨S_, .f32⟩
  | 91 => ⟨S32x9x2048x128, .i1⟩
  | 92 => ⟨S32x9x2048x128, .f32⟩
  | 93 => ⟨S32x9x2048x128, .f32⟩
  | 94 => ⟨S32x9x2048x64, .f32⟩
  | 95 => ⟨S32x9x2048x64, .f32⟩
  | 96 => ⟨S32x1x2047, .f32⟩
  | 97 => ⟨S32x2047, .f32⟩
  | 98 => ⟨S32x8x2048, .f32⟩
  | 99 => ⟨S32x8x2048x1, .f32⟩
  | 100 => ⟨S32x8x2048x64, .f32⟩
  | 101 => ⟨S32x8x2048x64, .f32⟩
  | 102 => ⟨S32x8x2048x64, .f32⟩
  | 103 => ⟨S32x8x2048x64, .f32⟩
  | 104 => ⟨S32x8x2048x64, .f32⟩
  | 105 => ⟨S_, .f32⟩
  | 106 => ⟨S32x2048x64, .f32⟩
  | 107 => ⟨S32x8x2047, .f32⟩
  | 108 => ⟨S32x8x2047x1, .f32⟩
  | 109 => ⟨S32x8x2047x64, .f32⟩
  | 110 => ⟨S32x8x2047x64, .f32⟩
  | 111 => ⟨S32x8x2047x64, .f32⟩
  | 112 => ⟨S32x8x2047x64, .f32⟩
  | 113 => ⟨S32x8x2047x64, .f32⟩
  | 114 => ⟨S_, .f32⟩
  | 115 => ⟨S32x2047x64, .f32⟩
  | 116 => ⟨S32x8x2047x64, .f32⟩
  | 117 => ⟨S_, .f32⟩
  | 118 => ⟨S32x2047x64, .f32⟩
  | 119 => ⟨S32x2047x1x64, .f32⟩
  | 120 => ⟨S32x2047x1x1, .f32⟩
  | 121 => ⟨S1x1x8x1, .f32⟩
  | 122 => ⟨S32x2047x8x1, .f32⟩
  | 123 => ⟨S32x2047x8x1, .f32⟩
  | 124 => ⟨S32x2047x8x1, .f32⟩
  | 125 => ⟨S32x2047x1x64, .f32⟩
  | 126 => ⟨S32x2047x8x64, .f32⟩
  | 127 => ⟨S32x2047x8x64, .f32⟩
  | _ => ⟨S32x2048, .f32⟩

abbrev hbmTy0_1 (i : Nat) : BufTy := match i % 128 with
  | 0 => ⟨S32x2047x8x64, .f32⟩
  | 1 => ⟨S32x2047x8x64, .f32⟩
  | 2 => ⟨S32x2047x8x64, .f32⟩
  | 3 => ⟨S32x2047x64, .f32⟩
  | 4 => ⟨S32x2047x1x64, .f32⟩
  | 5 => ⟨S32x1x64, .f32⟩
  | 6 => ⟨S32x2047x9x64, .f32⟩
  | 7 => ⟨S32x18423x64, .f32⟩
  | 8 => ⟨S32x18424x64, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_c_1 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_v69 : Ref sig .tc := ⟨.hbm, 87, rfl⟩
abbrev main_v70 : Ref sig .tc := ⟨.hbm, 88, rfl⟩
abbrev main_cst_2 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_3 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_4 : Ref sig .tc := ⟨.hbm, 114, rfl⟩
abbrev main_v91 : Ref sig .tc := ⟨.hbm, 115, rfl⟩
abbrev main_v92 : Ref sig .tc := ⟨.hbm, 116, rfl⟩
abbrev main_cst_5 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩

abbrev nD : Nat := 1
abbrev τ : Topo := Topo.v7x

variable {F : FTy → Type} [FloatOps F]

class Facts₀ : Prop where
  concatenates_S32x2048x64_S32x2048x64_S32x2048x128_d2 : Shape.Concatenates [S32x2048x64, S32x2048x64] S32x2048x128 2
  pads_S32x2048_S32x2056_000_800 : S32x2048.Pads (![0, 8] : Fin 2 → Nat) ![0, 0] ![0, 0] S32x2056
  h_S_ : 0 < S_.numel
  pads_S32x2048x128_S32x2056x128_000_800_000 : S32x2048x128.Pads (![0, 8, 0] : Fin 3 → Nat) ![0, 0, 0] ![0, 0, 0] S32x2056x128
  bcast_S_S_ : S_.BroadcastsInDim S_ (![] : Fin 0 → Fin S_.rank)
  slices_S32x2056_S32x2048_0_0 : S32x2056.Slices ![0, 0] S32x2048
  slices_S32x2056_S32x2048_0_1 : S32x2056.Slices ![0, 1] S32x2048
  slices_S32x2056_S32x2048_0_2 : S32x2056.Slices ![0, 2] S32x2048
  slices_S32x2056_S32x2048_0_3 : S32x2056.Slices ![0, 3] S32x2048
  slices_S32x2056_S32x2048_0_4 : S32x2056.Slices ![0, 4] S32x2048
  slices_S32x2056_S32x2048_0_5 : S32x2056.Slices ![0, 5] S32x2048
  slices_S32x2056_S32x2048_0_6 : S32x2056.Slices ![0, 6] S32x2048
  slices_S32x2056_S32x2048_0_7 : S32x2056.Slices ![0, 7] S32x2048
  slices_S32x2056_S32x2048_0_8 : S32x2056.Slices ![0, 8] S32x2048
  bcast_S32x2048_S32x1x2048_0_2 : S32x2048.BroadcastsInDim S32x1x2048 (![0, 2] : Fin 2 → Fin S32x1x2048.rank)
  concatenates_S32x1x2048_S32x1x2048_S32x1x2048_S32x1x2048_S32x1x2048_S32x1x2048_S32x1x2048_S32x1x2048_S32x1x2048_S32x9x2048_d1 : Shape.Concatenates [S32x1x2048, S32x1x2048, S32x1x2048, S32x1x2048, S32x1x2048, S32x1x2048, S32x1x2048, S32x1x2048, S32x1x2048] S32x9x2048 1
  slices_S32x2056x128_S32x2048x128_0_0_0 : S32x2056x128.Slices ![0, 0, 0] S32x2048x128
  slices_S32x2056x128_S32x2048x128_0_1_0 : S32x2056x128.Slices ![0, 1, 0] S32x2048x128
  slices_S32x2056x128_S32x2048x128_0_2_0 : S32x2056x128.Slices ![0, 2, 0] S32x2048x128
  slices_S32x2056x128_S32x2048x128_0_3_0 : S32x2056x128.Slices ![0, 3, 0] S32x2048x128
  slices_S32x2056x128_S32x2048x128_0_4_0 : S32x2056x128.Slices ![0, 4, 0] S32x2048x128
  slices_S32x2056x128_S32x2048x128_0_5_0 : S32x2056x128.Slices ![0, 5, 0] S32x2048x128
  slices_S32x2056x128_S32x2048x128_0_6_0 : S32x2056x128.Slices ![0, 6, 0] S32x2048x128
  slices_S32x2056x128_S32x2048x128_0_7_0 : S32x2056x128.Slices ![0, 7, 0] S32x2048x128
  slices_S32x2056x128_S32x2048x128_0_8_0 : S32x2056x128.Slices ![0, 8, 0] S32x2048x128
  bcast_S32x2048x128_S32x1x2048x128_0_2_3 : S32x2048x128.BroadcastsInDim S32x1x2048x128 (![0, 2, 3] : Fin 3 → Fin S32x1x2048x128.rank)
  concatenates_S32x1x2048x128_S32x1x2048x128_S32x1x2048x128_S32x1x2048x128_S32x1x2048x128_S32x1x2048x128_S32x1x2048x128_S32x1x2048x128_S32x1x2048x128_S32x9x2048x128_d1 : Shape.Concatenates [S32x1x2048x128, S32x1x2048x128, S32x1x2048x128, S32x1x2048x128, S32x1x2048x128, S32x1x2048x128, S32x1x2048x128, S32x1x2048x128, S32x1x2048x128] S32x9x2048x128 1
  bcast_S32x1x2048_S32x9x2048_0_1_2 : S32x1x2048.BroadcastsInDim S32x9x2048 (![0, 1, 2] : Fin 3 → Fin S32x9x2048.rank)
  bcast_S_S32x9x2048 : S_.BroadcastsInDim S32x9x2048 (![] : Fin 0 → Fin S32x9x2048.rank)
  bcast_S32x9x2048_S32x9x2048x1_0_1_2 : S32x9x2048.BroadcastsInDim S32x9x2048x1 (![0, 1, 2] : Fin 3 → Fin S32x9x2048x1.rank)
  bcast_S32x9x2048x1_S32x9x2048x128_0_1_2_3 : S32x9x2048x1.BroadcastsInDim S32x9x2048x128 (![0, 1, 2, 3] : Fin 4 → Fin S32x9x2048x128.rank)
  bcast_S_S32x9x2048x128 : S_.BroadcastsInDim S32x9x2048x128 (![] : Fin 0 → Fin S32x9x2048x128.rank)
  slices_S32x9x2048x128_S32x9x2048x64_0_0_0_0 : S32x9x2048x128.Slices ![0, 0, 0, 0] S32x9x2048x64
  slices_S32x9x2048x128_S32x9x2048x64_0_0_0_64 : S32x9x2048x128.Slices ![0, 0, 0, 64] S32x9x2048x64
  slices_S32x9x2048_S32x1x2047_0_7_1 : S32x9x2048.Slices ![0, 7, 1] S32x1x2047
  shapeCasts_S32x1x2047_S32x2047 : S32x1x2047.ShapeCasts S32x2047
  slices_S32x9x2048_S32x8x2048_0_0_0 : S32x9x2048.Slices ![0, 0, 0] S32x8x2048
  bcast_S32x8x2048_S32x8x2048x1_0_1_2 : S32x8x2048.BroadcastsInDim S32x8x2048x1 (![0, 1, 2] : Fin 3 → Fin S32x8x2048x1.rank)
  slices_S32x9x2048x64_S32x8x2048x64_0_0_0_0 : S32x9x2048x64.Slices ![0, 0, 0, 0] S32x8x2048x64
  bcast_S32x8x2048x1_S32x8x2048x64_0_1_2_3 : S32x8x2048x1.BroadcastsInDim S32x8x2048x64 (![0, 1, 2, 3] : Fin 4 → Fin S32x8x2048x64.rank)
  reducesTo_S32x8x2048x64_S32x2048x64_d1 : S32x8x2048x64.ReducesTo [1] S32x2048x64
  slices_S32x9x2048_S32x8x2047_0_1_0 : S32x9x2048.Slices ![0, 1, 0] S32x8x2047
  bcast_S32x8x2047_S32x8x2047x1_0_1_2 : S32x8x2047.BroadcastsInDim S32x8x2047x1 (![0, 1, 2] : Fin 3 → Fin S32x8x2047x1.rank)
  slices_S32x9x2048x64_S32x8x2047x64_0_1_0_0 : S32x9x2048x64.Slices ![0, 1, 0, 0] S32x8x2047x64
  bcast_S32x8x2047x1_S32x8x2047x64_0_1_2_3 : S32x8x2047x1.BroadcastsInDim S32x8x2047x64 (![0, 1, 2, 3] : Fin 4 → Fin S32x8x2047x64.rank)
  reducesTo_S32x8x2047x64_S32x2047x64_d1 : S32x8x2047x64.ReducesTo [1] S32x2047x64
  bcast_S32x2047x64_S32x2047x1x64_0_1_3 : S32x2047x64.BroadcastsInDim S32x2047x1x64 (![0, 1, 3] : Fin 3 → Fin S32x2047x1x64.rank)
  bcast_S32x2047_S32x2047x1x1_0_1 : S32x2047.BroadcastsInDim S32x2047x1x1 (![0, 1] : Fin 2 → Fin S32x2047x1x1.rank)
  bcast_S8_S1x1x8x1_2 : S8.BroadcastsInDim S1x1x8x1 (![2] : Fin 1 → Fin S1x1x8x1.rank)
  bcast_S32x2047x1x1_S32x2047x8x1_0_1_2_3 : S32x2047x1x1.BroadcastsInDim S32x2047x8x1 (![0, 1, 2, 3] : Fin 4 → Fin S32x2047x8x1.rank)
  bcast_S1x1x8x1_S32x2047x8x1_0_1_2_3 : S1x1x8x1.BroadcastsInDim S32x2047x8x1 (![0, 1, 2, 3] : Fin 4 → Fin S32x2047x8x1.rank)
  bcast_S32x2047x8x1_S32x2047x8x64_0_1_2_3 : S32x2047x8x1.BroadcastsInDim S32x2047x8x64 (![0, 1, 2, 3] : Fin 4 → Fin S32x2047x8x64.rank)
  bcast_S32x2047x1x64_S32x2047x8x64_0_1_2_3 : S32x2047x1x64.BroadcastsInDim S32x2047x8x64 (![0, 1, 2, 3] : Fin 4 → Fin S32x2047x8x64.rank)
  slices_S32x2048x64_S32x2047x64_0_0_0 : S32x2048x64.Slices ![0, 0, 0] S32x2047x64
  slices_S32x2048x64_S32x1x64_0_2047_0 : S32x2048x64.Slices ![0, 2047, 0] S32x1x64
  concatenates_S32x2047x1x64_S32x2047x8x64_S32x2047x9x64_d2 : Shape.Concatenates [S32x2047x1x64, S32x2047x8x64] S32x2047x9x64 2
  shapeCasts_S32x2047x9x64_S32x18423x64 : S32x2047x9x64.ShapeCasts S32x18423x64
  concatenates_S32x18423x64_S32x1x64_S32x18424x64_d1 : Shape.Concatenates [S32x18423x64, S32x1x64] S32x18424x64 1
  dot_S32x2048x64_S64x64_S32x2048x64_2_1_01_0_n_n_wf : DotDims.WF S32x2048x64 S64x64 S32x2048x64 [2] [1] [0, 1] [0] [] []
  dot_S32x2048x64_S64x64_S32x2048x64_2_0_01_1_n_n_wf : DotDims.WF S32x2048x64 S64x64 S32x2048x64 [2] [0] [0, 1] [1] [] []

variable [Facts₀]

def dot_S32x2048x64_S64x64_S32x2048x64_2_1_01_0_n_n : DotDims S32x2048x64 S64x64 S32x2048x64 where
  lhsContracting := [2]
  rhsContracting := [1]
  lhsNonContracting := [0, 1]
  rhsNonContracting := [0]
  lhsBatch := []
  rhsBatch := []
  wf := dot_S32x2048x64_S64x64_S32x2048x64_2_1_01_0_n_n_wf
def dot_S32x2048x64_S64x64_S32x2048x64_2_0_01_1_n_n : DotDims S32x2048x64 S64x64 S32x2048x64 where
  lhsContracting := [2]
  rhsContracting := [0]
  lhsNonContracting := [0, 1]
  rhsNonContracting := [1]
  lhsBatch := []
  rhsBatch := []
  wf := dot_S32x2048x64_S64x64_S32x2048x64_2_0_01_1_n_n_wf

class Facts : Prop extends Facts₀ where

variable [Facts]
-- ==== Proof.Fr.Data.lean ====
/-
  The proof data of the two kernel regions, at a parameter `V`: the TensorCore's buffer contents when
  the region is entered.

  Region 0 multiplies an 8192-row block of the flattened features by the 64 x 128 matrix [Wᵀ | bias]:
  at grid point t it reads rows 8192·t … 8192·t + 8191 and writes the same rows of the product.

  Region 1 reads, at grid point t, rows 64·t … 64·t + 71 of the padded projected features (a 64-row
  block and the 8 rows after it, two windows on ONE array), rows 64·t … 64·t + 79 of the padded times and
  of the padded mask (a 64-row block and the 16 rows after it, again two windows on one array each) and the
  eight sample positions, and writes rows 64·t … 64·t + 63 of the (32, 2048, 9, 64) result: plane 0 of
  the third axis holds the window sum ending one step back, planes 1 … 8 the interpolated sums.
  Two windows on one array hold it at half shares.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S8192x64 := Rect.unit (s := S8192x64) ![0, 0] S8192x64.size inb_S8192x64_S8192x64_0_0
abbrev r0_w : Rect S64x128 := Rect.unit (s := S64x128) ![0, 0] S64x128.size inb_S64x128_S64x128_0_0
abbrev r0_o : Rect S8192x128 := Rect.unit (s := S8192x128) ![0, 0] S8192x128.size inb_S8192x128_S8192x128_0_0

/-- The product block the body stores, from the two input blocks. -/
def out0_2 (x0 : Vec F S8192x64 .f32) (x1 : Vec F S64x128 .f32) : Vec F S8192x128 .f32 :=
  View.canon [⟨r0_o, k0_pay1 (View.ld x0 r0_x) (View.ld x1 r0_w)⟩]

/-- Region 0's proof data: the inputs' buffers keep their blocks, the output's holds the product block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t`, its part inside the array (for every window and every point of this
    grid that is the whole block: no block of the grid overhangs its array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same as a whole staging buffer's contents: the block laid on the buffer (outside the part a
    transfer moves, which at this grid is empty, a word nothing reads). -/
def sblk1 (c : Dev nD) (w : Fin cfg1.W) (t : Fin cfg1.N) : (cfg1.win w).block.Idx → Elt F (cfg1.win w).elt :=
  (cfg1.win w).fill (cfg1.grid.coords t) (fun _ => Classical.arbitrary _) (iblk1 V c w t)

abbrev r1_f : Rect S32x64x128 := Rect.unit (s := S32x64x128) ![0, 0, 0] S32x64x128.size inb_S32x64x128_S32x64x128_0_0_0
abbrev r1_fn : Rect S32x8x128 := Rect.unit (s := S32x8x128) ![0, 0, 0] S32x8x128.size inb_S32x8x128_S32x8x128_0_0_0
abbrev r1_t : Rect S32x64x1 := Rect.unit (s := S32x64x1) ![0, 0, 0] S32x64x1.size inb_S32x64x1_S32x64x1_0_0_0
abbrev r1_tn : Rect S32x16x1 := Rect.unit (s := S32x16x1) ![0, 0, 0] S32x16x1.size inb_S32x16x1_S32x16x1_0_0_0
abbrev r1_u : Rect S1x8 := Rect.unit (s := S1x8) ![0, 0] S1x8.size inb_S1x8_S1x8_0_0
/-- Plane 0 of the output block's third axis, -/
abbrev r1_real : Rect S32x64x9x64 := Rect.unit (s := S32x64x9x64) ![0, 0, 0, 0] S32x64x1x64.size inb_S32x64x9x64_S32x64x1x64_0_0_0_0
/-- and planes 1 … 8. -/
abbrev r1_sim : Rect S32x64x9x64 := Rect.unit (s := S32x64x9x64) ![0, 0, 1, 0] S32x64x8x64.size inb_S32x64x9x64_S32x64x8x64_0_0_1_0

/-- What the body stores on plane 0, as one term of the six loaded blocks: the kernel's three printed
    parts composed. -/
def payReal (v0 : Vec F S32x64x128 .f32) (v2 : Vec F S32x8x128 .f32) (v5 : Vec F S32x64x1 .f32) (v7 : Vec F S32x16x1 .f32)
    (v10 : Vec F S32x64x1 .f32) (v12 : Vec F S32x16x1 .f32) : FVec F S32x64x1x64 .f32 :=
  let v4 := k1_pay4 v0 v2; let v9 := k1_pay5 v5 v7; let v14 := k1_pay6 v10 v12
  let v15 := k1_pay7 v5 v7; let v17 := k1_pay9 v10 v12
  let v19 : FVec F S32x64x64 .f32 := k1_pay11; let v21 : FVec F S32x64x64 .f32 := k1_pay12
  let v30 := k1_pay15 v0 v2 v10 v12; let v37 := k1_pay16 v0 v2 v5 v7 v10 v12
  let v90 := k1_pay29 v4 v9 v14 v15 v17 v19; let v91 := k1_pay30 v4 v9 v14 v15 v17 v37
  let v92 := k1_pay31 v4 v14 v17 v21 v30; let v93 := k1_pay32 v4; let v96 := k1_pay33 v14 v17; let v97 := k1_pay34 v9 v15
  let v144 := k1_pay45 v4 v9 v14 v15 v17 v90 v93 v96 v97
  let v152 := k1_pay50 v9 v14 v15 v17; let v155 := k1_pay51 v4 v14 v17; let v156 := k1_pay52 v4; let v157 := k1_pay53 v14 v17
  k1_pay3 v4 v9 v14 v15 v17 v144 v152 v155 v156 v157

/-- What the body stores on planes 1 … 8, likewise (it also reads the sample positions). -/
def paySim (v0 : Vec F S32x64x128 .f32) (v2 : Vec F S32x8x128 .f32) (v5 : Vec F S32x64x1 .f32) (v7 : Vec F S32x16x1 .f32)
    (v10 : Vec F S32x64x1 .f32) (v12 : Vec F S32x16x1 .f32) (v184 : Vec F S1x8 .f32) : FVec F S32x64x8x64 .f32 :=
  let v4 := k1_pay4 v0 v2; let v9 := k1_pay5 v5 v7; let v14 := k1_pay6 v10 v12
  let v15 := k1_pay7 v5 v7; let v16 := k1_pay8 v5 v7; let v17 := k1_pay9 v10 v12; let v18 := k1_pay10 v10 v12
  let v19 : FVec F S32x64x64 .f32 := k1_pay11; let v21 : FVec F S32x64x64 .f32 := k1_pay12
  let v30 := k1_pay15 v0 v2 v10 v12; let v37 := k1_pay16 v0 v2 v5 v7 v10 v12
  let v91 := k1_pay30 v4 v9 v14 v15 v17 v37
  let v92 := k1_pay31 v4 v14 v17 v21 v30; let v93 := k1_pay32 v4; let v96 := k1_pay33 v14 v17; let v97 := k1_pay34 v9 v15
  let v145 := k1_pay46 v4 v9 v14 v15 v17 v91 v93 v96 v97; let v146 := k1_pay47 v4 v14 v17 v92 v93 v96
  let v152 := k1_pay50 v9 v14 v15 v17; let v155 := k1_pay51 v4 v14 v17; let v156 := k1_pay52 v4; let v157 := k1_pay53 v14 v17
  k1_pay2 v15 v16 v17 v18 v145 v146 v152 v155 v156 v157 v184

/-- The output staging buffer after the body, from the seven input buffers' contents: its two stores as
    pieces, the later one first. -/
def out1_7 (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) : Vec F S32x64x9x64 .f32 :=
  View.canon [⟨r1_sim, paySim (View.ld x0 r1_f) (View.ld x1 r1_fn) (View.ld x2 r1_t) (View.ld x3 r1_tn) (View.ld x4 r1_t) (View.ld x5 r1_tn) (View.ld x6 r1_u)⟩,
    ⟨r1_real, payReal (View.ld x0 r1_f) (View.ld x1 r1_fn) (View.ld x2 r1_t) (View.ld x3 r1_tn) (View.ld x4 r1_t) (View.ld x5 r1_tn)⟩]

/-- Region 1's proof data. Windows 0 and 1 share the padded projected features, 2 and 3 the padded times, 4 and 5
    the padded mask: each pair holds its array at the two halves of the full share. -/
def dat1 (c : Dev nD) : Dat τ (Elt F) Unit ℕ (UR sig nD τ) ℕ cfg1 c where
  A w := V c (Pipeline.arrRef spec1 w)
  after w t := match w with
    | ⟨0, _⟩ => sblk1 V c 0 t
    | ⟨1, _⟩ => sblk1 V c 1 t
    | ⟨2, _⟩ => sblk1 V c 2 t
    | ⟨3, _⟩ => sblk1 V c 3 t
    | ⟨4, _⟩ => sblk1 V c 4 t
    | ⟨5, _⟩ => sblk1 V c 5 t
    | ⟨6, _⟩ => sblk1 V c 6 t
    | ⟨7, _⟩ => out1_7 (sblk1 V c 0 t) (sblk1 V c 1 t) (sblk1 V c 2 t) (sblk1 V c 3 t) (sblk1 V c 4 t) (sblk1 V c 5 t) (sblk1 V c 6 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_in (c : Dev nD) (t : Fin cfg1.N) :
    (dat1 V c).after 0 t = sblk1 V c 0 t ∧ (dat1 V c).after 1 t = sblk1 V c 1 t ∧ (dat1 V c).after 2 t = sblk1 V c 2 t
    ∧ (dat1 V c).after 3 t = sblk1 V c 3 t ∧ (dat1 V c).after 4 t = sblk1 V c 4 t ∧ (dat1 V c).after 5 t = sblk1 V c 5 t
    ∧ (dat1 V c).after 6 t = sblk1 V c 6 t := by
  refine ⟨?_, ?_, ?_, ?_, ?_, ?_, ?_⟩ <;> dsimp only [dat1]
theorem after1_7 (c : Dev nD) (t : Fin cfg1.N) : (dat1 V c).after 7 t
    = out1_7 (sblk1 V c 0 t) (sblk1 V c 1 t) (sblk1 V c 2 t) (sblk1 V c 3 t) (sblk1 V c 4 t) (sblk1 V c 5 t) (sblk1 V c 6 t) := by
  dsimp only [dat1]

end Cert.KernelIdeal.Fr

end
-- ==== Proof.Fr.Outs.lean ====
/-
  What the two kernel regions leave in the arrays they write, as the run's unknowns: region 0's product array
  (the fold of its eight block write-backs) and region 1's (32, 2048, 9, 64) array (the fold of its thirty-two),
  each region entered at the buffer contents the host operations before it produce.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import proofs.«158136_j57621281243745_1_alg».proof.Proof.Fr.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The buffer contents region 0 is entered at: the launch memory after the first host stretch. -/
abbrev E0 (c : Dev nD) (b : Ref sig .tc) : Buf (Elt F) ((c : Thread nD τ).loc b) := V1 m c b

/-- What region 0 leaves in the product array. -/
def o3 (c : Dev nD) : Buf (Elt F) ((c : Thread nD τ).loc main_v3) := (dat0 (E0 m) c).arrAt 2 cfg0.N

/-- The unknowns with region 0's filled in. -/
def outs3 : Outs (F := F) := fun _ r c => if h : r = main_v3 then h ▸ o3 m c else m ((c : Thread nD τ).loc r)

/-- The buffer contents region 1 is entered at. -/
abbrev E1 (c : Dev nD) (b : Ref sig .tc) : Buf (Elt F) ((c : Thread nD τ).loc b) := V9 m (outs3 m) c b

/-- What region 1 leaves in its output array. -/
def o12 (c : Dev nD) : Buf (Elt F) ((c : Thread nD τ).loc main_v12) := (dat1 (E1 m) c).arrAt 7 cfg1.N

/-- Both regions' unknowns. -/
def outs : Outs (F := F) := fun J r c => if h : r = main_v12 then h ▸ o12 m c else outs3 m J r c

theorem outs3_v3 (J : ℕ) (c : Dev nD) : outs3 m J main_v3 c = o3 m c := by
  unfold outs3; rw [dif_pos rfl]
theorem outs_v3 (J : ℕ) (c : Dev nD) : outs m J main_v3 c = o3 m c := by
  unfold outs; rw [dif_neg (by decide)]; exact outs3_v3 m J c
theorem outs_v12 (J : ℕ) (c : Dev nD) : outs m J main_v12 c = o12 m c := by
  unfold outs; rw [dif_pos rfl]

/-- Region 1's entry contents do not depend on what region 1 leaves. -/
theorem V9_outs (c : Dev nD) : V9 m (outs m) c = V9 m (outs3 m) c := by
  simp only [V9, V8, V7, V6, V5, V4, V3, V2, outs_v3, outs3_v3]

end Cert.KernelIdeal.Fr

end
-- ==== Proof.Fr.Reg0.lean ====
/-
  Region 0's body obligation: at every grid point the body, handed its two input blocks, leaves them in place
  and stores the product block.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import proofs.«158136_j57621281243745_1_alg».proof.Proof.Fr.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks

An input window's buffer holds, when the body runs at a point, the block of its array at that point's block
index: just fetched, it is the block; not fetched, the block index has not moved since the point before and
the body left the block in place. Both input windows are uncut and never idle. -/

/-- Window 0 (the feature block, fetched at every point), for any proof data on the region's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weight matrix, one block for the whole grid, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's one store covers the output block -/

/-- The store's rectangle is the whole 8192 x 128 block: every index lies in it. -/
theorem cover0_2 (p0 : Vec F S8192x128 .f32) (y : S8192x128.Idx) :
    ∃ pc ∈ ([⟨r0_o, p0⟩] : List (View.Piece (Elt F) S8192x128 .f32)), y ∈ pc.1.set :=
  View.cover_of_tiled [⟨r0_o, p0⟩] S8192x128.size (by rfl) y

/-! ## The body's triple -/

set_option maxHeartbeats 1000000 in
/-- The body on whole buffers, the two inputs' reading x0 and x1 and the output's holding anything: it loads both
    inputs whole, loads the output's old contents (a value nothing reads), and stores the product of the two loaded
    blocks over the whole output. The inputs are left as they were; the output reads the one store's payload at
    every index, since that store covers it. -/
theorem sound_kernel0 (c : Dev nD) (E : Set ℕ) (i : grid0.Coords)
    (arg1 : Memref sig .tc .vmem S8192x64 .f32) (harg1 : arg1.IsWhole) (arg2 : Memref sig .tc .vmem S64x128 .f32) (harg2 : arg2.IsWhole)
    (arg3 : Memref sig .tc .vmem S8192x128 .f32) (harg3 : arg3.IsWhole)
    (x0 : Vec F S8192x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is handed at point t: the invariant, what the core owes, and the three windows' current buffers,
    each at what it holds then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies at those two blocks;
    the invariant and the debt do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point: the windows conjoined one by one, it is the triple above. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.Reg1.lean ====
/-
  Region 1's body obligation: at every grid point the body, handed its seven input blocks, leaves them in place
  and stores plane 0 and planes 1 … 8 of the output block.

  In order: no block of the grid overhangs its array, so every input window's buffer holds its block laid on the
  whole buffer, fetched at the point or not; the two stores cover the output block; the body's triple on whole
  staging memrefs; the obligation at a point, the three windows whose arrays are longer than their blocks tile
  handed back on the part a transfer moves.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import proofs.«158136_j57621281243745_1_alg».proof.Proof.Fr.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- No block of this grid overhangs its array: the windows built to be cut are cut at no point. -/
theorem clip1_0 : ∀ (t : Fin cfg1.N) a, (cfg1.win 0).clip (cfg1.grid.coords t) a = none :=
  (by decide +kernel : ∀ (t : Fin grid1.N) a, win1_0.clip (grid1.coords t) a = none)
theorem clip1_2 : ∀ (t : Fin cfg1.N) a, (cfg1.win 2).clip (cfg1.grid.coords t) a = none :=
  (by decide +kernel : ∀ (t : Fin grid1.N) a, win1_2.clip (grid1.coords t) a = none)
theorem clip1_4 : ∀ (t : Fin cfg1.N) a, (cfg1.win 4).clip (cfg1.grid.coords t) a = none :=
  (by decide +kernel : ∀ (t : Fin grid1.N) a, win1_4.clip (grid1.coords t) a = none)

/-- An input window cut nowhere on the grid, whose block the body leaves in place, holds its block laid on the
    whole buffer at every point, fetched there or not. -/
theorem before1_in (c : Dev nD) (w : Fin cfg1.W) (hw : (cfg1.win w).isOut = false)
    (hc : ∀ (t : Fin cfg1.N) a, (cfg1.win w).clip (cfg1.grid.coords t) a = none)
    (hafter : ∀ t, (dat1 V c).after w t = sblk1 V c w t) (t : Fin cfg1.N) (d) :
    (dat1 V c).before w t d = sblk1 V c w t := by
  have hkeep : ∀ t, (cfg1.win w).cut (cfg1.grid.coords t) ((dat1 V c).after w t) = (dat1 V c).blockOf w t := fun t => by
    rw [hafter]; unfold sblk1; rw [Window.cut_fill]; unfold Dat.blockOf iblk1; rw [A_eq1]
  refine ((dat1 V c).before_in_eq_fetched w hw (fun _ => rfl)
    (fun t t' _ => funext fun a => (hc t a).trans (hc t' a).symm) hkeep t d).trans ?_
  refine ((dat1 V c).fetched_of_clip_none w t (hc t) d (fun _ => Classical.arbitrary _)).trans ?_
  unfold Dat.fetched sblk1 Dat.blockOf iblk1; rw [A_eq1]

theorem before1_0 (c : Dev nD) (t : Fin cfg1.N) (d) : (dat1 V c).before 0 t d = sblk1 V c 0 t :=
  before1_in V c 0 rfl clip1_0 (fun t => (after1_in V c t).1) t d
theorem before1_1 (c : Dev nD) (t : Fin cfg1.N) (d) : (dat1 V c).before 1 t d = sblk1 V c 1 t :=
  before1_in V c 1 rfl (fun _ _ => rfl) (fun t => (after1_in V c t).2.1) t d
theorem before1_2 (c : Dev nD) (t : Fin cfg1.N) (d) : (dat1 V c).before 2 t d = sblk1 V c 2 t :=
  before1_in V c 2 rfl clip1_2 (fun t => (after1_in V c t).2.2.1) t d
theorem before1_3 (c : Dev nD) (t : Fin cfg1.N) (d) : (dat1 V c).before 3 t d = sblk1 V c 3 t :=
  before1_in V c 3 rfl (fun _ _ => rfl) (fun t => (after1_in V c t).2.2.2.1) t d
theorem before1_4 (c : Dev nD) (t : Fin cfg1.N) (d) : (dat1 V c).before 4 t d = sblk1 V c 4 t :=
  before1_in V c 4 rfl clip1_4 (fun t => (after1_in V c t).2.2.2.2.1) t d
theorem before1_5 (c : Dev nD) (t : Fin cfg1.N) (d) : (dat1 V c).before 5 t d = sblk1 V c 5 t :=
  before1_in V c 5 rfl (fun _ _ => rfl) (fun t => (after1_in V c t).2.2.2.2.2.1) t d
theorem before1_6 (c : Dev nD) (t : Fin cfg1.N) (d) : (dat1 V c).before 6 t d = sblk1 V c 6 t :=
  before1_in V c 6 rfl (fun _ _ => rfl) (fun t => (after1_in V c t).2.2.2.2.2.2) t d

/-- The two stored pieces cover the output block: plane 0 and planes 1 … 8 of the third axis. -/
theorem cover1_7 (p0 : Vec F S32x64x8x64 .f32) (p1 : Vec F S32x64x1x64 .f32) (y : S32x64x9x64.Idx) :
    ∃ pc ∈ ([⟨r1_sim, p0⟩, ⟨r1_real, p1⟩] : List (View.Piece (Elt F) S32x64x9x64 .f32)), y ∈ pc.1.set :=
  View.cover_of_tiledBy [⟨r1_sim, p0⟩, ⟨r1_real, p1⟩] ![32, 64, 1, 64] (by sl_kernel_rfl) y

set_option maxHeartbeats 4000000 in
/-- The kernel body on whole staging memrefs, the seven inputs' at read contents `x0 … x6` and the output's at
    anything, runs to the continuation holding the inputs' as they were and the output's at `out1_7` of them:
    seven whole loads, the three parts' payloads, and the two stores, which cover the output's buffer. -/
theorem sound_kernel1 (c : Dev nD) (E : Set ℕ) (i : grid1.Coords)
    (arg1 : Memref sig .tc .vmem S32x64x128 .f32) (harg1 : arg1.IsWhole) (arg2 : Memref sig .tc .vmem S32x8x128 .f32) (harg2 : arg2.IsWhole)
    (arg3 : Memref sig .tc .vmem S32x64x1 .f32) (harg3 : arg3.IsWhole) (arg4 : Memref sig .tc .vmem S32x16x1 .f32) (harg4 : arg4.IsWhole)
    (arg5 : Memref sig .tc .vmem S32x64x1 .f32) (harg5 : arg5.IsWhole) (arg6 : Memref sig .tc .vmem S32x16x1 .f32) (harg6 : arg6.IsWhole)
    (arg7 : Memref sig .tc .vmem S1x8 .f32) (harg7 : arg7.IsWhole) (arg8 : Memref sig .tc .vmem S32x64x9x64 .f32) (harg8 : arg8.IsWhole)
    (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__windowed_kernel i arg1 harg1 arg2 harg2 arg3 harg3 arg4 harg4 arg5 harg5 arg6 harg6 arg7 harg7 arg8 harg8) K := by
  simp only [cc1__windowed_kernel_eq_skeleton]; unfold cc1__windowed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-- What the body is called with at point `t`: the invariant, what the core owes, and every window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the buffers of the three windows whose arrays are longer than their blocks tile stated
    on the part a transfer moves, the others whole. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare ((cfg1.win 2).fill (cfg1.grid.coords t) d ((cfg1.win 2).cut (cfg1.grid.coords t) ((dat1 V c).after 2 t))))
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t))))
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' buffers hold their blocks, so the kernel's triple applies; the
    invariant and what the core owes pass through unread; a buffer handed back on its moved part only is the
    whole buffer filled with its own moved part. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    (after1_in V c t).1, (after1_in V c t).2.1, (after1_in V c t).2.2.1, (after1_in V c t).2.2.2.1,
    (after1_in V c t).2.2.2.2.1, (after1_in V c t).2.2.2.2.2.1, (after1_in V c t).2.2.2.2.2.2, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (sblk1 V c 0 t) (sblk1 V c 1 t) (sblk1 V c 2 t) (sblk1 V c 3 t) (sblk1 V c 4 t) (sblk1 V c 5 t) (sblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists sblk1 V c 0 t; rw [Window.fill_cut]; iexact H0
  isplitl [H1]; · iexact H1
  isplitl [H2]
  · iexists sblk1 V c 2 t; rw [Window.fill_cut]; iexact H2
  isplitl [H3]; · iexact H3
  isplitl [H4]
  · iexists sblk1 V c 4 t; rw [Window.fill_cut]; iexact H4
  isplitl [H5]; · iexact H5
  isplitl [H6]; · iexact H6
  iexact H7

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

end Cert.KernelIdeal.Fr

end
-- ==== Proof.Fr.Share1.lean ====
/-
  Region 1's arrays and the core's unscoped buffers: three of its arrays are each read through two windows, which
  hold them at the two halves of the full share.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import proofs.«158136_j57621281243745_1_alg».proof.Proof.Fr.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The distinct buffers behind region 1's arrays -/

/-- Region 1's eight windows sit on five buffers. -/
private theorem arrImage1 : Finset.univ.image (Pipeline.arrRef spec1)
    = ([main_v5, main_v8, main_v10, main_v11, main_v12] : List (Ref sig .tc)).toFinset := by decide

private theorem arrList1_nodup : ([main_v5, main_v8, main_v10, main_v11, main_v12] : List (Ref sig .tc)).Nodup := by decide

/-- The five buffers, each whole at the full share, one by one. -/
private theorem arrBufs1_eq (c : Dev nD) (W : (b : Ref sig .tc) → Buf (Elt F) ((c : Thread nD τ).loc b)) :
    (Pipeline.arrBufs spec1 c W : sProp 𝕄)
      = iprop((((c : Thread nD τ).loc main_v5) ↦{fullShare} W main_v5) ∗ (((c : Thread nD τ).loc main_v8) ↦{fullShare} W main_v8)
        ∗ (((c : Thread nD τ).loc main_v10) ↦{fullShare} W main_v10) ∗ (((c : Thread nD τ).loc main_v11) ↦{fullShare} W main_v11)
        ∗ (((c : Thread nD τ).loc main_v12) ↦{fullShare} W main_v12)) := by
  unfold Pipeline.arrBufs
  rw [bigSep_eq_bigSepL_of_eq _ arrImage1 arrList1_nodup]
  rfl

/-! ## The share each window holds its array at -/

private theorem share1 (c : Dev nD) :
    (dat1 V c).share 0 = fullShare.left ∧ (dat1 V c).share 1 = fullShare.right
    ∧ (dat1 V c).share 2 = fullShare.left ∧ (dat1 V c).share 3 = fullShare.right
    ∧ (dat1 V c).share 4 = fullShare.left ∧ (dat1 V c).share 5 = fullShare.right
    ∧ (dat1 V c).share 6 = fullShare ∧ (dat1 V c).share 7 = fullShare := by
  refine ⟨?_, ?_, ?_, ?_, ?_, ?_, ?_, ?_⟩ <;> (unfold Dat.share; dsimp only [dat1]; rfl)

private theorem sepEq {M : Type} [URA M] {P P' Q Q' : sProp M} (h₁ : P = P') (h₂ : Q = Q') :
    iprop(P ∗ Q) = iprop(P' ∗ Q') := h₁ ▸ h₂ ▸ rfl

/-- One window's array, a whole buffer, at the share `q` the window holds it at. -/
private theorem win1_eq (c : Dev nD) (w : Fin cfg1.W) (q : PosShare TreeShare) (hq : (dat1 V c).share w = q)
    (f : Buf (Elt F) ((cfg1.win w).arr.view.loc (c : Thread nD τ))) :
    (((cfg1.win w).arr.view.loc (c : Thread nD τ)) ↦[(cfg1.win w).arr.view.set]{(dat1 V c).share w} f : sProp 𝕄)
      = (((c : Thread nD τ).loc (Pipeline.arrRef spec1 w)) ↦{q} f) := by
  rw [(arr_whole1 w).set_eq_univ, hq]

/-- Region 1's arrays at contents `Fw`, window by window. -/
private theorem arrays1_eq (c : Dev nD)
    (Fw : (w : Fin cfg1.W) → Buf (Elt F) ((cfg1.win w).arr.view.loc (c : Thread nD τ))) :
    ((dat1 V c).arrays Fw : sProp 𝕄)
      = iprop((((c : Thread nD τ).loc main_v5) ↦{fullShare.left} Fw 0) ∗ (((c : Thread nD τ).loc main_v5) ↦{fullShare.right} Fw 1)
        ∗ (((c : Thread nD τ).loc main_v8) ↦{fullShare.left} Fw 2) ∗ (((c : Thread nD τ).loc main_v8) ↦{fullShare.right} Fw 3)
        ∗ (((c : Thread nD τ).loc main_v10) ↦{fullShare.left} Fw 4) ∗ (((c : Thread nD τ).loc main_v10) ↦{fullShare.right} Fw 5)
        ∗ (((c : Thread nD τ).loc main_v11) ↦{fullShare} Fw 6) ∗ (((c : Thread nD τ).loc main_v12) ↦{fullShare} Fw 7)) := by
  obtain ⟨h0, h1, h2, h3, h4, h5, h6, h7⟩ := share1 V c
  unfold Dat.arrays
  rw [bigSep_W1]
  exact sepEq (win1_eq V c 0 _ h0 _) (sepEq (win1_eq V c 1 _ h1 _) (sepEq (win1_eq V c 2 _ h2 _) (sepEq (win1_eq V c 3 _ h3 _)
    (sepEq (win1_eq V c 4 _ h4 _) (sepEq (win1_eq V c 5 _ h5 _) (sepEq (win1_eq V c 6 _ h6 _) (win1_eq V c 7 _ h7 _)))))))

/-! ## Splitting the shared arrays and joining them again -/

/-- The five buffers whole are the eight windows' holdings: each shared buffer's full share is its two halves. -/
private theorem arrays_of_arrBufs1 (c : Dev nD) (W : (b : Ref sig .tc) → Buf (Elt F) ((c : Thread nD τ).loc b)) :
    (Pipeline.arrBufs spec1 c W : sProp 𝕄) ⊢ (dat1 V c).arrays (fun w => W (Pipeline.arrRef spec1 w)) := by
  rw [arrBufs1_eq, arrays1_eq]
  iintro ⟨H5, H8, H10, H11, H12⟩
  ihave H5 := (pointsTo_share (PosShare.mem_left_op_right fullShare)).1 $$ H5
  icases H5 with ⟨H0, H1⟩
  ihave H8 := (pointsTo_share (PosShare.mem_left_op_right fullShare)).1 $$ H8
  icases H8 with ⟨H2, H3⟩
  ihave H10 := (pointsTo_share (PosShare.mem_left_op_right fullShare)).1 $$ H10
  icases H10 with ⟨H4, H5⟩
  isplitl [H0]; · iexact H0
  isplitl [H1]; · iexact H1
  isplitl [H2]; · iexact H2
  isplitl [H3]; · iexact H3
  isplitl [H4]; · iexact H4
  isplitl [H5]; · iexact H5
  isplitl [H11]; · iexact H11
  iexact H12

/-- The converse: the two halves of each shared buffer join to its full share. -/
private theorem arrBufs_of_arrays1 (c : Dev nD) (W : (b : Ref sig .tc) → Buf (Elt F) ((c : Thread nD τ).loc b)) :
    (dat1 V c).arrays (fun w => W (Pipeline.arrRef spec1 w)) ⊢ (Pipeline.arrBufs spec1 c W : sProp 𝕄) := by
  rw [arrBufs1_eq, arrays1_eq]
  iintro ⟨H0, H1, H2, H3, H4, H5, H11, H12⟩
  ihave H5' := (pointsTo_share (PosShare.mem_left_op_right fullShare)).2 $$ [H0 H1]
  · isplitl [H0] <;> iassumption
  ihave H8' := (pointsTo_share (PosShare.mem_left_op_right fullShare)).2 $$ [H2 H3]
  · isplitl [H2] <;> iassumption
  ihave H10' := (pointsTo_share (PosShare.mem_left_op_right fullShare)).2 $$ [H4 H5]
  · isplitl [H4] <;> iassumption
  isplitl [H5']; · iexact H5'
  isplitl [H8']; · iexact H8'
  isplitl [H10']; · iexact H10'
  isplitl [H11]; · iexact H11
  iexact H12

/-- ENTRY: the core's unscoped buffers at contents `W` are region 1's arrays at `W`, the shared ones split
    into halves, and the buffers that are no array of its. -/
theorem entry_split1 (c : Dev nD) (W : (b : Ref sig .tc) → Buf (Elt F) ((c : Thread nD τ).loc b)) :
    (unscopedBufs c W : sProp 𝕄)
      ⊢ iprop((dat1 V c).arrays (fun w => W (Pipeline.arrRef spec1 w)) ∗ Pipeline.unscopedRest spec1 c W) := by
  rw [show (unscopedBufs c W : sProp 𝕄) = iprop((Pipeline.arrBufs spec1 c W : sProp 𝕄) ∗ Pipeline.unscopedRest spec1 c W)
    from Pipeline.unscopedBufs_split₀ cfgs 1 winFacts₀1.arr_unscoped c W]
  exact sep_mono (arrays_of_arrBufs1 V c W) .rfl

/-- EXIT: region 1's arrays at contents `Fw`, the halves joined again, and the other buffers as entered are the
    core's unscoped buffers at any `W'` that holds `Fw` at the arrays and agrees with `W` elsewhere. -/
theorem exit_join1 (c : Dev nD) (W W' : (b : Ref sig .tc) → Buf (Elt F) ((c : Thread nD τ).loc b))
    (Fw : (w : Fin cfg1.W) → Buf (Elt F) ((cfg1.win w).arr.view.loc (c : Thread nD τ)))
    (hF : ∀ w, Fw w = W' (Pipeline.arrRef spec1 w))
    (hrest : ∀ b, b ∉ Finset.univ.image (Pipeline.arrRef spec1) → W' b = W b) :
    iprop((dat1 V c).arrays Fw ∗ Pipeline.unscopedRest spec1 c W) ⊢ (unscopedBufs c W' : sProp 𝕄) := by
  obtain rfl : Fw = fun w => W' (Pipeline.arrRef spec1 w) := funext hF
  rw [show (unscopedBufs c W' : sProp 𝕄) = iprop((Pipeline.arrBufs spec1 c W' : sProp 𝕄) ∗ Pipeline.unscopedRest spec1 c W')
    from Pipeline.unscopedBufs_split₀ cfgs 1 winFacts₀1.arr_unscoped c W']
  refine sep_mono (arrBufs_of_arrays1 V c W') (Entails.of_eq ?_)
  unfold Pipeline.unscopedRest
  exact bigSep_congr fun b hb => by rw [hrest b (Finset.mem_sdiff.mp hb).2]

end Cert.KernelIdeal.Fr

end
-- ==== Proof.Fr.Run.lean ====
/-
  The kernel program's run. @main is eleven items: host stretches and the two kernel regions. Between two items
  the core holds every unscoped buffer whole at a named valuation (the launch memory pushed through the host
  operations so far, the two regions' output arrays at what their block write-backs leave), beside its generator
  register and the fact that it owes no other core anything. Region 0 takes its three arrays out of the buffers
  and puts them back with the product array rewritten; region 1 takes its five arrays out — three of them read
  through two windows each, held at half shares — and puts them back with its output array rewritten. The end
  state is read off the last valuation: the six arguments as launched, the result at the last host stretch's value.
-/
import proofs.«158136_j57621281243745_1_alg».proof.Proof.Gen.KernelIdeal.Launch
import proofs.«158136_j57621281243745_1_alg».proof.Proof.Gen.KernelIdeal.Skeleton
import proofs.«158136_j57621281243745_1_alg».proof.Proof.Gen.KernelIdeal.Points
import proofs.«158136_j57621281243745_1_alg».proof.Proof.Gen.KernelIdeal.Regions
import proofs.«158136_j57621281243745_1_alg».proof.Proof.Fr.Outs
import proofs.«158136_j57621281243745_1_alg».proof.Proof.Fr.Reg0
import proofs.«158136_j57621281243745_1_alg».proof.Proof.Fr.Reg1
import proofs.«158136_j57621281243745_1_alg».proof.Proof.Fr.Share1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0 -/

/-- At region 0's exit each of its arrays holds what the pipeline leaves: the inputs as entered, the product array
    the fold of the eight write-backs. -/
theorem hF0 (c : Dev nD) (w : Fin cfg0.W) :
    (dat0 (E0 m) c).arrAt w cfg0.N = V2 m (outs m) c (Pipeline.arrRef spec0 w) := by
  match w with
  | ⟨0, _⟩ => exact ((dat0 (E0 m) c).arrAt_in 0 rfl _).trans ((A_eq0 (E0 m) c 0).trans (V2_of m (outs m) c main_v2 (by decide)).symm)
  | ⟨1, _⟩ => exact ((dat0 (E0 m) c).arrAt_in 1 rfl _).trans ((A_eq0 (E0 m) c 1).trans (V2_of m (outs m) c main_v1 (by decide)).symm)
  | ⟨2, _⟩ =>
    show _ = Function.update (V1 m c) (Proc.devRef .tc main_v3) (outs m 2 main_v3 c) (Proc.devRef .tc main_v3)
    rw [Function.update_self, outs_v3]; rfl

/-- Every other buffer is as entered. -/
theorem hrest0 (c : Dev nD) : ∀ b : Ref sig .tc, b ∉ Finset.univ.image (Pipeline.arrRef spec0) → V2 m (outs m) c b = V1 m c b :=
  fun b hb => V2_of m (outs m) c b (by
    intro h; rcases List.mem_singleton.mp h with rfl
    exact hb (Finset.mem_image.mpr ⟨2, Finset.mem_univ _, rfl⟩))

set_option backward.isDefEq.respectTransparency.types false in
/-- Region 0 as a segment: its arrays split out of the unscoped buffers and put back at the exit contents; the
    generator register into the kernel's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the seven inputs as entered, the output
    array the fold of the thirty-two write-backs. -/
theorem hF1 (c : Dev nD) (w : Fin cfg1.W) :
    (dat1 (E1 m) c).arrAt w cfg1.N = V10 m (outs m) c (Pipeline.arrRef spec1 w) := by
  have hin : ∀ (w : Fin cfg1.W) (hw : (cfg1.win w).isOut = false) (r : Ref sig .tc) (hr : Pipeline.arrRef spec1 w = r)
      (hne : r ∉ ([main_v12] : List (Ref sig .tc))),
      (dat1 (E1 m) c).arrAt w cfg1.N = V10 m (outs m) c (Pipeline.arrRef spec1 w) := fun w hw r hr hne => by
    subst hr
    refine ((dat1 (E1 m) c).arrAt_in w hw _).trans ((A_eq1 (E1 m) c w).trans ?_)
    show V9 m (outs3 m) c _ = _
    rw [← V9_outs]; exact (V10_of m (outs m) c _ hne).symm
  match w with
  | ⟨0, _⟩ => exact hin 0 rfl main_v5 rfl (by decide)
  | ⟨1, _⟩ => exact hin 1 rfl main_v5 rfl (by decide)
  | ⟨2, _⟩ => exact hin 2 rfl main_v8 rfl (by decide)
  | ⟨3, _⟩ => exact hin 3 rfl main_v8 rfl (by decide)
  | ⟨4, _⟩ => exact hin 4 rfl main_v10 rfl (by decide)
  | ⟨5, _⟩ => exact hin 5 rfl main_v10 rfl (by decide)
  | ⟨6, _⟩ => exact hin 6 rfl main_v11 rfl (by decide)
  | ⟨7, _⟩ =>
    show _ = Function.update (V9 m (outs m) c) (Proc.devRef .tc main_v12) (outs m 10 main_v12 c) (Proc.devRef .tc main_v12)
    rw [Function.update_self, outs_v12]; rfl

/-- Every other buffer is as entered. -/
theorem hrest1 (c : Dev nD) : ∀ b : Ref sig .tc, b ∉ Finset.univ.image (Pipeline.arrRef spec1) → V10 m (outs m) c b = E1 m c b :=
  fun b hb => (V10_of m (outs m) c b (by
    intro h; rcases List.mem_singleton.mp h with rfl
    exact hb (Finset.mem_image.mpr ⟨7, Finset.mem_univ _, rfl⟩))).trans (by rw [V9_outs])

set_option backward.isDefEq.respectTransparency.types false in
/-- Region 1 as a segment: its five arrays out of the unscoped buffers — the three that two windows read each split
    into half shares — and back, joined again, at the exit contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := body_obligation1 (E1 m) c
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V9_outs]
    have hsplit := entry_split1 (E1 m) c (E1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_join1 (E1 m) c (E1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- At the compiled mesh, for any float values, from any memory with zero counters: every weakly fair execution of
    @main terminates, nothing faulting, and every final state holds every unscoped buffer at the last valuation:
    in particular the result at the last host stretch's value and the six arguments as launched. -/
theorem run_main : θ_run defs (onTc (τ := τ) (main (F := F))) ⟨m, fun _ => 0, ρ⟩ (fun r => ∀ c : Dev nD,
      r.2.mem ((c.tc : Thread nD τ).loc main_v18) = V11 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨Hh, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c =>
      ⟨h c _ (mem_uc main_v18 (by decide)),
       (h c _ (mem_uc main_arg0 (by decide))).trans (V11_main_arg0 m (outs m) c),
       (h c _ (mem_uc main_arg1 (by decide))).trans (V11_main_arg1 m (outs m) c),
       (h c _ (mem_uc main_arg2 (by decide))).trans (V11_main_arg2 m (outs m) c),
       (h c _ (mem_uc main_arg3 (by decide))).trans (V11_main_arg3 m (outs m) c),
       (h c _ (mem_uc main_arg4 (by decide))).trans (V11_main_arg4 m (outs m) c),
       (h c _ (mem_uc main_arg5 (by decide))).trans (V11_main_arg5 m (outs m) c)⟩)

end Cert.KernelIdeal.Fr

end
-- ==== Proof.FrK.Data.lean ====
/-
  The proof data of the two kernel regions, at a parameter `V`: the TensorCore's buffer contents when
  the region is entered.

  Region 0 multiplies an 8192-row block of the flattened features by the 64 x 128 matrix [Wᵀ | bias]:
  at grid point t it reads rows 8192·t … 8192·t + 8191 and writes the same rows of the product.

  Region 1 reads, at grid point t, rows 64·t … 64·t + 71 of the padded projected features (a 64-row
  block and the 8 rows after it, two windows on ONE array), rows 64·t … 64·t + 79 of the padded times and
  of the padded mask (a 64-row block and the 16 rows after it, again two windows on one array each) and the
  eight sample positions, and writes rows 64·t … 64·t + 63 of the (32, 2048, 9, 64) result: plane 0 of
  the third axis holds the window sum ending one step back, planes 1 … 8 the interpolated sums.
  Two windows on one array hold it at half shares.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S8192x64 := Rect.unit (s := S8192x64) ![0, 0] S8192x64.size inb_S8192x64_S8192x64_0_0
abbrev r0_w : Rect S64x128 := Rect.unit (s := S64x128) ![0, 0] S64x128.size inb_S64x128_S64x128_0_0
abbrev r0_o : Rect S8192x128 := Rect.unit (s := S8192x128) ![0, 0] S8192x128.size inb_S8192x128_S8192x128_0_0

/-- The product block the body stores, from the two input blocks. -/
def out0_2 (x0 : Vec F S8192x64 .f32) (x1 : Vec F S64x128 .f32) : Vec F S8192x128 .f32 :=
  View.canon [⟨r0_o, k0_pay1 (View.ld x0 r0_x) (View.ld x1 r0_w)⟩]

/-- Region 0's proof data: the inputs' buffers keep their blocks, the output's holds the product block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t`, its part inside the array (for every window and every point of this
    grid that is the whole block: no block of the grid overhangs its array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same as a whole staging buffer's contents: the block laid on the buffer (outside the part a
    transfer moves, which at this grid is empty, a word nothing reads). -/
def sblk1 (c : Dev nD) (w : Fin cfg1.W) (t : Fin cfg1.N) : (cfg1.win w).block.Idx → Elt F (cfg1.win w).elt :=
  (cfg1.win w).fill (cfg1.grid.coords t) (fun _ => Classical.arbitrary _) (iblk1 V c w t)

abbrev r1_f : Rect S32x64x128 := Rect.unit (s := S32x64x128) ![0, 0, 0] S32x64x128.size inb_S32x64x128_S32x64x128_0_0_0
abbrev r1_fn : Rect S32x8x128 := Rect.unit (s := S32x8x128) ![0, 0, 0] S32x8x128.size inb_S32x8x128_S32x8x128_0_0_0
abbrev r1_t : Rect S32x64x1 := Rect.unit (s := S32x64x1) ![0, 0, 0] S32x64x1.size inb_S32x64x1_S32x64x1_0_0_0
abbrev r1_tn : Rect S32x16x1 := Rect.unit (s := S32x16x1) ![0, 0, 0] S32x16x1.size inb_S32x16x1_S32x16x1_0_0_0
abbrev r1_u : Rect S1x8 := Rect.unit (s := S1x8) ![0, 0] S1x8.size inb_S1x8_S1x8_0_0
/-- Plane 0 of the output block's third axis, -/
abbrev r1_real : Rect S32x64x9x64 := Rect.unit (s := S32x64x9x64) ![0, 0, 0, 0] S32x64x1x64.size inb_S32x64x9x64_S32x64x1x64_0_0_0_0
/-- and planes 1 … 8. -/
abbrev r1_sim : Rect S32x64x9x64 := Rect.unit (s := S32x64x9x64) ![0, 0, 1, 0] S32x64x8x64.size inb_S32x64x9x64_S32x64x8x64_0_0_1_0

/-- What the body stores on plane 0, as one term of the six loaded blocks: the kernel's three printed
    parts composed. -/
def payReal (v0 : Vec F S32x64x128 .f32) (v2 : Vec F S32x8x128 .f32) (v5 : Vec F S32x64x1 .f32) (v7 : Vec F S32x16x1 .f32)
    (v10 : Vec F S32x64x1 .f32) (v12 : Vec F S32x16x1 .f32) : FVec F S32x64x1x64 .f32 :=
  let v4 := k1_pay4 v0 v2; let v9 := k1_pay5 v5 v7; let v14 := k1_pay6 v10 v12
  let v15 := k1_pay7 v5 v7; let v17 := k1_pay9 v10 v12
  let v19 : FVec F S32x64x64 .f32 := k1_pay11; let v21 : FVec F S32x64x64 .f32 := k1_pay12
  let v30 := k1_pay15 v0 v2 v10 v12; let v37 := k1_pay16 v0 v2 v5 v7 v10 v12
  let v90 := k1_pay29 v4 v9 v14 v15 v17 v19; let v91 := k1_pay30 v4 v9 v14 v15 v17 v37
  let v92 := k1_pay31 v4 v14 v17 v21 v30; let v93 := k1_pay32 v4; let v96 := k1_pay33 v14 v17; let v97 := k1_pay34 v9 v15
  let v144 := k1_pay45 v4 v9 v14 v15 v17 v90 v93 v96 v97
  let v152 := k1_pay50 v9 v14 v15 v17; let v155 := k1_pay51 v4 v14 v17; let v156 := k1_pay52 v4; let v157 := k1_pay53 v14 v17
  k1_pay3 v4 v9 v14 v15 v17 v144 v152 v155 v156 v157

/-- What the body stores on planes 1 … 8, likewise (it also reads the sample positions). -/
def paySim (v0 : Vec F S32x64x128 .f32) (v2 : Vec F S32x8x128 .f32) (v5 : Vec F S32x64x1 .f32) (v7 : Vec F S32x16x1 .f32)
    (v10 : Vec F S32x64x1 .f32) (v12 : Vec F S32x16x1 .f32) (v184 : Vec F S1x8 .f32) : FVec F S32x64x8x64 .f32 :=
  let v4 := k1_pay4 v0 v2; let v9 := k1_pay5 v5 v7; let v14 := k1_pay6 v10 v12
  let v15 := k1_pay7 v5 v7; let v16 := k1_pay8 v5 v7; let v17 := k1_pay9 v10 v12; let v18 := k1_pay10 v10 v12
  let v19 : FVec F S32x64x64 .f32 := k1_pay11; let v21 : FVec F S32x64x64 .f32 := k1_pay12
  let v30 := k1_pay15 v0 v2 v10 v12; let v37 := k1_pay16 v0 v2 v5 v7 v10 v12
  let v91 := k1_pay30 v4 v9 v14 v15 v17 v37
  let v92 := k1_pay31 v4 v14 v17 v21 v30; let v93 := k1_pay32 v4; let v96 := k1_pay33 v14 v17; let v97 := k1_pay34 v9 v15
  let v145 := k1_pay46 v4 v9 v14 v15 v17 v91 v93 v96 v97; let v146 := k1_pay47 v4 v14 v17 v92 v93 v96
  let v152 := k1_pay50 v9 v14 v15 v17; let v155 := k1_pay51 v4 v14 v17; let v156 := k1_pay52 v4; let v157 := k1_pay53 v14 v17
  k1_pay2 v15 v16 v17 v18 v145 v146 v152 v155 v156 v157 v184

/-- The output staging buffer after the body, from the seven input buffers' contents: its two stores as
    pieces, the later one first. -/
def out1_7 (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) : Vec F S32x64x9x64 .f32 :=
  View.canon [⟨r1_sim, paySim (View.ld x0 r1_f) (View.ld x1 r1_fn) (View.ld x2 r1_t) (View.ld x3 r1_tn) (View.ld x4 r1_t) (View.ld x5 r1_tn) (View.ld x6 r1_u)⟩,
    ⟨r1_real, payReal (View.ld x0 r1_f) (View.ld x1 r1_fn) (View.ld x2 r1_t) (View.ld x3 r1_tn) (View.ld x4 r1_t) (View.ld x5 r1_tn)⟩]

/-- Region 1's proof data. Windows 0 and 1 share the padded projected features, 2 and 3 the padded times, 4 and 5
    the padded mask: each pair holds its array at the two halves of the full share. -/
def dat1 (c : Dev nD) : Dat τ (Elt F) Unit ℕ (UR sig nD τ) ℕ cfg1 c where
  A w := V c (Pipeline.arrRef spec1 w)
  after w t := match w with
    | ⟨0, _⟩ => sblk1 V c 0 t
    | ⟨1, _⟩ => sblk1 V c 1 t
    | ⟨2, _⟩ => sblk1 V c 2 t
    | ⟨3, _⟩ => sblk1 V c 3 t
    | ⟨4, _⟩ => sblk1 V c 4 t
    | ⟨5, _⟩ => sblk1 V c 5 t
    | ⟨6, _⟩ => sblk1 V c 6 t
    | ⟨7, _⟩ => out1_7 (sblk1 V c 0 t) (sblk1 V c 1 t) (sblk1 V c 2 t) (sblk1 V c 3 t) (sblk1 V c 4 t) (sblk1 V c 5 t) (sblk1 V c 6 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_in (c : Dev nD) (t : Fin cfg1.N) :
    (dat1 V c).after 0 t = sblk1 V c 0 t ∧ (dat1 V c).after 1 t = sblk1 V c 1 t ∧ (dat1 V c).after 2 t = sblk1 V c 2 t
    ∧ (dat1 V c).after 3 t = sblk1 V c 3 t ∧ (dat1 V c).after 4 t = sblk1 V c 4 t ∧ (dat1 V c).after 5 t = sblk1 V c 5 t
    ∧ (dat1 V c).after 6 t = sblk1 V c 6 t := by
  refine ⟨?_, ?_, ?_, ?_, ?_, ?_, ?_⟩ <;> dsimp only [dat1]
theorem after1_7 (c : Dev nD) (t : Fin cfg1.N) : (dat1 V c).after 7 t
    = out1_7 (sblk1 V c 0 t) (sblk1 V c 1 t) (sblk1 V c 2 t) (sblk1 V c 3 t) (sblk1 V c 4 t) (sblk1 V c 5 t) (sblk1 V c 6 t) := by
  dsimp only [dat1]

end Cert.Kernel.Fr

end
-- ==== Proof.FrK.Outs.lean ====
/-
  What the two kernel regions leave in the arrays they write, as the run's unknowns: region 0's product array
  (the fold of its eight block write-backs) and region 1's (32, 2048, 9, 64) array (the fold of its thirty-two),
  each region entered at the buffer contents the host operations before it produce.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import proofs.«158136_j57621281243745_1_alg».proof.Proof.FrK.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The buffer contents region 0 is entered at: the launch memory after the first host stretch. -/
abbrev E0 (c : Dev nD) (b : Ref sig .tc) : Buf (Elt F) ((c : Thread nD τ).loc b) := V1 m c b

/-- What region 0 leaves in the product array. -/
def o3 (c : Dev nD) : Buf (Elt F) ((c : Thread nD τ).loc main_v3) := (dat0 (E0 m) c).arrAt 2 cfg0.N

/-- The unknowns with region 0's filled in. -/
def outs3 : Outs (F := F) := fun _ r c => if h : r = main_v3 then h ▸ o3 m c else m ((c : Thread nD τ).loc r)

/-- The buffer contents region 1 is entered at. -/
abbrev E1 (c : Dev nD) (b : Ref sig .tc) : Buf (Elt F) ((c : Thread nD τ).loc b) := V9 m (outs3 m) c b

/-- What region 1 leaves in its output array. -/
def o12 (c : Dev nD) : Buf (Elt F) ((c : Thread nD τ).loc main_v12) := (dat1 (E1 m) c).arrAt 7 cfg1.N

/-- Both regions' unknowns. -/
def outs : Outs (F := F) := fun J r c => if h : r = main_v12 then h ▸ o12 m c else outs3 m J r c

theorem outs3_v3 (J : ℕ) (c : Dev nD) : outs3 m J main_v3 c = o3 m c := by
  unfold outs3; rw [dif_pos rfl]
theorem outs_v3 (J : ℕ) (c : Dev nD) : outs m J main_v3 c = o3 m c := by
  unfold outs; rw [dif_neg (by decide)]; exact outs3_v3 m J c
theorem outs_v12 (J : ℕ) (c : Dev nD) : outs m J main_v12 c = o12 m c := by
  unfold outs; rw [dif_pos rfl]

/-- Region 1's entry contents do not depend on what region 1 leaves. -/
theorem V9_outs (c : Dev nD) : V9 m (outs m) c = V9 m (outs3 m) c := by
  simp only [V9, V8, V7, V6, V5, V4, V3, V2, outs_v3, outs3_v3]

end Cert.Kernel.Fr

end
-- ==== Proof.FrK.Reg0.lean ====
/-
  Region 0's body obligation: at every grid point the body, handed its two input blocks, leaves them in place
  and stores the product block.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import proofs.«158136_j57621281243745_1_alg».proof.Proof.FrK.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks

An input window's buffer holds, when the body runs at a point, the block of its array at that point's block
index: just fetched, it is the block; not fetched, the block index has not moved since the point before and
the body left the block in place. Both input windows are uncut and never idle. -/

/-- Window 0 (the feature block, fetched at every point), for any proof data on the region's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weight matrix, one block for the whole grid, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's one store covers the output block -/

/-- The store's rectangle is the whole 8192 x 128 block: every index lies in it. -/
theorem cover0_2 (p0 : Vec F S8192x128 .f32) (y : S8192x128.Idx) :
    ∃ pc ∈ ([⟨r0_o, p0⟩] : List (View.Piece (Elt F) S8192x128 .f32)), y ∈ pc.1.set :=
  View.cover_of_tiled [⟨r0_o, p0⟩] S8192x128.size (by rfl) y

/-! ## The body's triple -/

set_option maxHeartbeats 1000000 in
/-- The body on whole buffers, the two inputs' reading x0 and x1 and the output's holding anything: it loads both
    inputs whole, loads the output's old contents (a value nothing reads), and stores the product of the two loaded
    blocks over the whole output. The inputs are left as they were; the output reads the one store's payload at
    every index, since that store covers it. -/
theorem sound_kernel0 (c : Dev nD) (E : Set ℕ) (i : grid0.Coords)
    (arg1 : Memref sig .tc .vmem S8192x64 .f32) (harg1 : arg1.IsWhole) (arg2 : Memref sig .tc .vmem S64x128 .f32) (harg2 : arg2.IsWhole)
    (arg3 : Memref sig .tc .vmem S8192x128 .f32) (harg3 : arg3.IsWhole)
    (x0 : Vec F S8192x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is handed at point t: the invariant, what the core owes, and the three windows' current buffers,
    each at what it holds then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies at those two blocks;
    the invariant and the debt do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point: the windows conjoined one by one, it is the triple above. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.Reg1.lean ====
/-
  Region 1's body obligation: at every grid point the body, handed its seven input blocks, leaves them in place
  and stores plane 0 and planes 1 … 8 of the output block.

  In order: no block of the grid overhangs its array, so every input window's buffer holds its block laid on the
  whole buffer, fetched at the point or not; the two stores cover the output block; the body's triple on whole
  staging memrefs; the obligation at a point, the three windows whose arrays are longer than their blocks tile
  handed back on the part a transfer moves.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import proofs.«158136_j57621281243745_1_alg».proof.Proof.FrK.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- No block of this grid overhangs its array: the windows built to be cut are cut at no point. -/
theorem clip1_0 : ∀ (t : Fin cfg1.N) a, (cfg1.win 0).clip (cfg1.grid.coords t) a = none :=
  (by decide +kernel : ∀ (t : Fin grid1.N) a, win1_0.clip (grid1.coords t) a = none)
theorem clip1_2 : ∀ (t : Fin cfg1.N) a, (cfg1.win 2).clip (cfg1.grid.coords t) a = none :=
  (by decide +kernel : ∀ (t : Fin grid1.N) a, win1_2.clip (grid1.coords t) a = none)
theorem clip1_4 : ∀ (t : Fin cfg1.N) a, (cfg1.win 4).clip (cfg1.grid.coords t) a = none :=
  (by decide +kernel : ∀ (t : Fin grid1.N) a, win1_4.clip (grid1.coords t) a = none)

/-- An input window cut nowhere on the grid, whose block the body leaves in place, holds its block laid on the
    whole buffer at every point, fetched there or not. -/
theorem before1_in (c : Dev nD) (w : Fin cfg1.W) (hw : (cfg1.win w).isOut = false)
    (hc : ∀ (t : Fin cfg1.N) a, (cfg1.win w).clip (cfg1.grid.coords t) a = none)
    (hafter : ∀ t, (dat1 V c).after w t = sblk1 V c w t) (t : Fin cfg1.N) (d) :
    (dat1 V c).before w t d = sblk1 V c w t := by
  have hkeep : ∀ t, (cfg1.win w).cut (cfg1.grid.coords t) ((dat1 V c).after w t) = (dat1 V c).blockOf w t := fun t => by
    rw [hafter]; unfold sblk1; rw [Window.cut_fill]; unfold Dat.blockOf iblk1; rw [A_eq1]
  refine ((dat1 V c).before_in_eq_fetched w hw (fun _ => rfl)
    (fun t t' _ => funext fun a => (hc t a).trans (hc t' a).symm) hkeep t d).trans ?_
  refine ((dat1 V c).fetched_of_clip_none w t (hc t) d (fun _ => Classical.arbitrary _)).trans ?_
  unfold Dat.fetched sblk1 Dat.blockOf iblk1; rw [A_eq1]

theorem before1_0 (c : Dev nD) (t : Fin cfg1.N) (d) : (dat1 V c).before 0 t d = sblk1 V c 0 t :=
  before1_in V c 0 rfl clip1_0 (fun t => (after1_in V c t).1) t d
theorem before1_1 (c : Dev nD) (t : Fin cfg1.N) (d) : (dat1 V c).before 1 t d = sblk1 V c 1 t :=
  before1_in V c 1 rfl (fun _ _ => rfl) (fun t => (after1_in V c t).2.1) t d
theorem before1_2 (c : Dev nD) (t : Fin cfg1.N) (d) : (dat1 V c).before 2 t d = sblk1 V c 2 t :=
  before1_in V c 2 rfl clip1_2 (fun t => (after1_in V c t).2.2.1) t d
theorem before1_3 (c : Dev nD) (t : Fin cfg1.N) (d) : (dat1 V c).before 3 t d = sblk1 V c 3 t :=
  before1_in V c 3 rfl (fun _ _ => rfl) (fun t => (after1_in V c t).2.2.2.1) t d
theorem before1_4 (c : Dev nD) (t : Fin cfg1.N) (d) : (dat1 V c).before 4 t d = sblk1 V c 4 t :=
  before1_in V c 4 rfl clip1_4 (fun t => (after1_in V c t).2.2.2.2.1) t d
theorem before1_5 (c : Dev nD) (t : Fin cfg1.N) (d) : (dat1 V c).before 5 t d = sblk1 V c 5 t :=
  before1_in V c 5 rfl (fun _ _ => rfl) (fun t => (after1_in V c t).2.2.2.2.2.1) t d
theorem before1_6 (c : Dev nD) (t : Fin cfg1.N) (d) : (dat1 V c).before 6 t d = sblk1 V c 6 t :=
  before1_in V c 6 rfl (fun _ _ => rfl) (fun t => (after1_in V c t).2.2.2.2.2.2) t d

/-- The two stored pieces cover the output block: plane 0 and planes 1 … 8 of the third axis. -/
theorem cover1_7 (p0 : Vec F S32x64x8x64 .f32) (p1 : Vec F S32x64x1x64 .f32) (y : S32x64x9x64.Idx) :
    ∃ pc ∈ ([⟨r1_sim, p0⟩, ⟨r1_real, p1⟩] : List (View.Piece (Elt F) S32x64x9x64 .f32)), y ∈ pc.1.set :=
  View.cover_of_tiledBy [⟨r1_sim, p0⟩, ⟨r1_real, p1⟩] ![32, 64, 1, 64] (by sl_kernel_rfl) y

set_option maxHeartbeats 4000000 in
/-- The kernel body on whole staging memrefs, the seven inputs' at read contents `x0 … x6` and the output's at
    anything, runs to the continuation holding the inputs' as they were and the output's at `out1_7` of them:
    seven whole loads, the three parts' payloads, and the two stores, which cover the output's buffer. -/
theorem sound_kernel1 (c : Dev nD) (E : Set ℕ) (i : grid1.Coords)
    (arg1 : Memref sig .tc .vmem S32x64x128 .f32) (harg1 : arg1.IsWhole) (arg2 : Memref sig .tc .vmem S32x8x128 .f32) (harg2 : arg2.IsWhole)
    (arg3 : Memref sig .tc .vmem S32x64x1 .f32) (harg3 : arg3.IsWhole) (arg4 : Memref sig .tc .vmem S32x16x1 .f32) (harg4 : arg4.IsWhole)
    (arg5 : Memref sig .tc .vmem S32x64x1 .f32) (harg5 : arg5.IsWhole) (arg6 : Memref sig .tc .vmem S32x16x1 .f32) (harg6 : arg6.IsWhole)
    (arg7 : Memref sig .tc .vmem S1x8 .f32) (harg7 : arg7.IsWhole) (arg8 : Memref sig .tc .vmem S32x64x9x64 .f32) (harg8 : arg8.IsWhole)
    (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__windowed_kernel i arg1 harg1 arg2 harg2 arg3 harg3 arg4 harg4 arg5 harg5 arg6 harg6 arg7 harg7 arg8 harg8) K := by
  simp only [cc1__windowed_kernel_eq_skeleton]; unfold cc1__windowed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-- What the body is called with at point `t`: the invariant, what the core owes, and every window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the buffers of the three windows whose arrays are longer than their blocks tile stated
    on the part a transfer moves, the others whole. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare ((cfg1.win 2).fill (cfg1.grid.coords t) d ((cfg1.win 2).cut (cfg1.grid.coords t) ((dat1 V c).after 2 t))))
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t))))
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' buffers hold their blocks, so the kernel's triple applies; the
    invariant and what the core owes pass through unread; a buffer handed back on its moved part only is the
    whole buffer filled with its own moved part. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    (after1_in V c t).1, (after1_in V c t).2.1, (after1_in V c t).2.2.1, (after1_in V c t).2.2.2.1,
    (after1_in V c t).2.2.2.2.1, (after1_in V c t).2.2.2.2.2.1, (after1_in V c t).2.2.2.2.2.2, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (sblk1 V c 0 t) (sblk1 V c 1 t) (sblk1 V c 2 t) (sblk1 V c 3 t) (sblk1 V c 4 t) (sblk1 V c 5 t) (sblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists sblk1 V c 0 t; rw [Window.fill_cut]; iexact H0
  isplitl [H1]; · iexact H1
  isplitl [H2]
  · iexists sblk1 V c 2 t; rw [Window.fill_cut]; iexact H2
  isplitl [H3]; · iexact H3
  isplitl [H4]
  · iexists sblk1 V c 4 t; rw [Window.fill_cut]; iexact H4
  isplitl [H5]; · iexact H5
  isplitl [H6]; · iexact H6
  iexact H7

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

end Cert.Kernel.Fr

end
-- ==== Proof.FrK.Share1.lean ====
/-
  Region 1's arrays and the core's unscoped buffers: three of its arrays are each read through two windows, which
  hold them at the two halves of the full share.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import proofs.«158136_j57621281243745_1_alg».proof.Proof.FrK.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The distinct buffers behind region 1's arrays -/

/-- Region 1's eight windows sit on five buffers. -/
private theorem arrImage1 : Finset.univ.image (Pipeline.arrRef spec1)
    = ([main_v5, main_v8, main_v10, main_v11, main_v12] : List (Ref sig .tc)).toFinset := by decide

private theorem arrList1_nodup : ([main_v5, main_v8, main_v10, main_v11, main_v12] : List (Ref sig .tc)).Nodup := by decide

/-- The five buffers, each whole at the full share, one by one. -/
private theorem arrBufs1_eq (c : Dev nD) (W : (b : Ref sig .tc) → Buf (Elt F) ((c : Thread nD τ).loc b)) :
    (Pipeline.arrBufs spec1 c W : sProp 𝕄)
      = iprop((((c : Thread nD τ).loc main_v5) ↦{fullShare} W main_v5) ∗ (((c : Thread nD τ).loc main_v8) ↦{fullShare} W main_v8)
        ∗ (((c : Thread nD τ).loc main_v10) ↦{fullShare} W main_v10) ∗ (((c : Thread nD τ).loc main_v11) ↦{fullShare} W main_v11)
        ∗ (((c : Thread nD τ).loc main_v12) ↦{fullShare} W main_v12)) := by
  unfold Pipeline.arrBufs
  rw [bigSep_eq_bigSepL_of_eq _ arrImage1 arrList1_nodup]
  rfl

/-! ## The share each window holds its array at -/

private theorem share1 (c : Dev nD) :
    (dat1 V c).share 0 = fullShare.left ∧ (dat1 V c).share 1 = fullShare.right
    ∧ (dat1 V c).share 2 = fullShare.left ∧ (dat1 V c).share 3 = fullShare.right
    ∧ (dat1 V c).share 4 = fullShare.left ∧ (dat1 V c).share 5 = fullShare.right
    ∧ (dat1 V c).share 6 = fullShare ∧ (dat1 V c).share 7 = fullShare := by
  refine ⟨?_, ?_, ?_, ?_, ?_, ?_, ?_, ?_⟩ <;> (unfold Dat.share; dsimp only [dat1]; rfl)

private theorem sepEq {M : Type} [URA M] {P P' Q Q' : sProp M} (h₁ : P = P') (h₂ : Q = Q') :
    iprop(P ∗ Q) = iprop(P' ∗ Q') := h₁ ▸ h₂ ▸ rfl

/-- One window's array, a whole buffer, at the share `q` the window holds it at. -/
private theorem win1_eq (c : Dev nD) (w : Fin cfg1.W) (q : PosShare TreeShare) (hq : (dat1 V c).share w = q)
    (f : Buf (Elt F) ((cfg1.win w).arr.view.loc (c : Thread nD τ))) :
    (((cfg1.win w).arr.view.loc (c : Thread nD τ)) ↦[(cfg1.win w).arr.view.set]{(dat1 V c).share w} f : sProp 𝕄)
      = (((c : Thread nD τ).loc (Pipeline.arrRef spec1 w)) ↦{q} f) := by
  rw [(arr_whole1 w).set_eq_univ, hq]

/-- Region 1's arrays at contents `Fw`, window by window. -/
private theorem arrays1_eq (c : Dev nD)
    (Fw : (w : Fin cfg1.W) → Buf (Elt F) ((cfg1.win w).arr.view.loc (c : Thread nD τ))) :
    ((dat1 V c).arrays Fw : sProp 𝕄)
      = iprop((((c : Thread nD τ).loc main_v5) ↦{fullShare.left} Fw 0) ∗ (((c : Thread nD τ).loc main_v5) ↦{fullShare.right} Fw 1)
        ∗ (((c : Thread nD τ).loc main_v8) ↦{fullShare.left} Fw 2) ∗ (((c : Thread nD τ).loc main_v8) ↦{fullShare.right} Fw 3)
        ∗ (((c : Thread nD τ).loc main_v10) ↦{fullShare.left} Fw 4) ∗ (((c : Thread nD τ).loc main_v10) ↦{fullShare.right} Fw 5)
        ∗ (((c : Thread nD τ).loc main_v11) ↦{fullShare} Fw 6) ∗ (((c : Thread nD τ).loc main_v12) ↦{fullShare} Fw 7)) := by
  obtain ⟨h0, h1, h2, h3, h4, h5, h6, h7⟩ := share1 V c
  unfold Dat.arrays
  rw [bigSep_W1]
  exact sepEq (win1_eq V c 0 _ h0 _) (sepEq (win1_eq V c 1 _ h1 _) (sepEq (win1_eq V c 2 _ h2 _) (sepEq (win1_eq V c 3 _ h3 _)
    (sepEq (win1_eq V c 4 _ h4 _) (sepEq (win1_eq V c 5 _ h5 _) (sepEq (win1_eq V c 6 _ h6 _) (win1_eq V c 7 _ h7 _)))))))

/-! ## Splitting the shared arrays and joining them again -/

/-- The five buffers whole are the eight windows' holdings: each shared buffer's full share is its two halves. -/
private theorem arrays_of_arrBufs1 (c : Dev nD) (W : (b : Ref sig .tc) → Buf (Elt F) ((c : Thread nD τ).loc b)) :
    (Pipeline.arrBufs spec1 c W : sProp 𝕄) ⊢ (dat1 V c).arrays (fun w => W (Pipeline.arrRef spec1 w)) := by
  rw [arrBufs1_eq, arrays1_eq]
  iintro ⟨H5, H8, H10, H11, H12⟩
  ihave H5 := (pointsTo_share (PosShare.mem_left_op_right fullShare)).1 $$ H5
  icases H5 with ⟨H0, H1⟩
  ihave H8 := (pointsTo_share (PosShare.mem_left_op_right fullShare)).1 $$ H8
  icases H8 with ⟨H2, H3⟩
  ihave H10 := (pointsTo_share (PosShare.mem_left_op_right fullShare)).1 $$ H10
  icases H10 with ⟨H4, H5⟩
  isplitl [H0]; · iexact H0
  isplitl [H1]; · iexact H1
  isplitl [H2]; · iexact H2
  isplitl [H3]; · iexact H3
  isplitl [H4]; · iexact H4
  isplitl [H5]; · iexact H5
  isplitl [H11]; · iexact H11
  iexact H12

/-- The converse: the two halves of each shared buffer join to its full share. -/
private theorem arrBufs_of_arrays1 (c : Dev nD) (W : (b : Ref sig .tc) → Buf (Elt F) ((c : Thread nD τ).loc b)) :
    (dat1 V c).arrays (fun w => W (Pipeline.arrRef spec1 w)) ⊢ (Pipeline.arrBufs spec1 c W : sProp 𝕄) := by
  rw [arrBufs1_eq, arrays1_eq]
  iintro ⟨H0, H1, H2, H3, H4, H5, H11, H12⟩
  ihave H5' := (pointsTo_share (PosShare.mem_left_op_right fullShare)).2 $$ [H0 H1]
  · isplitl [H0] <;> iassumption
  ihave H8' := (pointsTo_share (PosShare.mem_left_op_right fullShare)).2 $$ [H2 H3]
  · isplitl [H2] <;> iassumption
  ihave H10' := (pointsTo_share (PosShare.mem_left_op_right fullShare)).2 $$ [H4 H5]
  · isplitl [H4] <;> iassumption
  isplitl [H5']; · iexact H5'
  isplitl [H8']; · iexact H8'
  isplitl [H10']; · iexact H10'
  isplitl [H11]; · iexact H11
  iexact H12

/-- ENTRY: the core's unscoped buffers at contents `W` are region 1's arrays at `W`, the shared ones split
    into halves, and the buffers that are no array of its. -/
theorem entry_split1 (c : Dev nD) (W : (b : Ref sig .tc) → Buf (Elt F) ((c : Thread nD τ).loc b)) :
    (unscopedBufs c W : sProp 𝕄)
      ⊢ iprop((dat1 V c).arrays (fun w => W (Pipeline.arrRef spec1 w)) ∗ Pipeline.unscopedRest spec1 c W) := by
  rw [show (unscopedBufs c W : sProp 𝕄) = iprop((Pipeline.arrBufs spec1 c W : sProp 𝕄) ∗ Pipeline.unscopedRest spec1 c W)
    from Pipeline.unscopedBufs_split₀ cfgs 1 winFacts₀1.arr_unscoped c W]
  exact sep_mono (arrays_of_arrBufs1 V c W) .rfl

/-- EXIT: region 1's arrays at contents `Fw`, the halves joined again, and the other buffers as entered are the
    core's unscoped buffers at any `W'` that holds `Fw` at the arrays and agrees with `W` elsewhere. -/
theorem exit_join1 (c : Dev nD) (W W' : (b : Ref sig .tc) → Buf (Elt F) ((c : Thread nD τ).loc b))
    (Fw : (w : Fin cfg1.W) → Buf (Elt F) ((cfg1.win w).arr.view.loc (c : Thread nD τ)))
    (hF : ∀ w, Fw w = W' (Pipeline.arrRef spec1 w))
    (hrest : ∀ b, b ∉ Finset.univ.image (Pipeline.arrRef spec1) → W' b = W b) :
    iprop((dat1 V c).arrays Fw ∗ Pipeline.unscopedRest spec1 c W) ⊢ (unscopedBufs c W' : sProp 𝕄) := by
  obtain rfl : Fw = fun w => W' (Pipeline.arrRef spec1 w) := funext hF
  rw [show (unscopedBufs c W' : sProp 𝕄) = iprop((Pipeline.arrBufs spec1 c W' : sProp 𝕄) ∗ Pipeline.unscopedRest spec1 c W')
    from Pipeline.unscopedBufs_split₀ cfgs 1 winFacts₀1.arr_unscoped c W']
  refine sep_mono (arrBufs_of_arrays1 V c W') (Entails.of_eq ?_)
  unfold Pipeline.unscopedRest
  exact bigSep_congr fun b hb => by rw [hrest b (Finset.mem_sdiff.mp hb).2]

end Cert.Kernel.Fr

end
-- ==== Proof.FrK.Run.lean ====
/-
  The kernel program's run. @main is eleven items: host stretches and the two kernel regions. Between two items
  the core holds every unscoped buffer whole at a named valuation (the launch memory pushed through the host
  operations so far, the two regions' output arrays at what their block write-backs leave), beside its generator
  register and the fact that it owes no other core anything. Region 0 takes its three arrays out of the buffers
  and puts them back with the product array rewritten; region 1 takes its five arrays out — three of them read
  through two windows each, held at half shares — and puts them back with its output array rewritten. The end
  state is read off the last valuation: the six arguments as launched, the result at the last host stretch's value.
-/
import proofs.«158136_j57621281243745_1_alg».proof.Proof.Gen.Kernel.Launch
import proofs.«158136_j57621281243745_1_alg».proof.Proof.Gen.Kernel.Skeleton
import proofs.«158136_j57621281243745_1_alg».proof.Proof.Gen.Kernel.Points
import proofs.«158136_j57621281243745_1_alg».proof.Proof.Gen.Kernel.Regions
import proofs.«158136_j57621281243745_1_alg».proof.Proof.FrK.Outs
import proofs.«158136_j57621281243745_1_alg».proof.Proof.FrK.Reg0
import proofs.«158136_j57621281243745_1_alg».proof.Proof.FrK.Reg1
import proofs.«158136_j57621281243745_1_alg».proof.Proof.FrK.Share1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0 -/

/-- At region 0's exit each of its arrays holds what the pipeline leaves: the inputs as entered, the product array
    the fold of the eight write-backs. -/
theorem hF0 (c : Dev nD) (w : Fin cfg0.W) :
    (dat0 (E0 m) c).arrAt w cfg0.N = V2 m (outs m) c (Pipeline.arrRef spec0 w) := by
  match w with
  | ⟨0, _⟩ => exact ((dat0 (E0 m) c).arrAt_in 0 rfl _).trans ((A_eq0 (E0 m) c 0).trans (V2_of m (outs m) c main_v2 (by decide)).symm)
  | ⟨1, _⟩ => exact ((dat0 (E0 m) c).arrAt_in 1 rfl _).trans ((A_eq0 (E0 m) c 1).trans (V2_of m (outs m) c main_v1 (by decide)).symm)
  | ⟨2, _⟩ =>
    show _ = Function.update (V1 m c) (Proc.devRef .tc main_v3) (outs m 2 main_v3 c) (Proc.devRef .tc main_v3)
    rw [Function.update_self, outs_v3]; rfl

/-- Every other buffer is as entered. -/
theorem hrest0 (c : Dev nD) : ∀ b : Ref sig .tc, b ∉ Finset.univ.image (Pipeline.arrRef spec0) → V2 m (outs m) c b = V1 m c b :=
  fun b hb => V2_of m (outs m) c b (by
    intro h; rcases List.mem_singleton.mp h with rfl
    exact hb (Finset.mem_image.mpr ⟨2, Finset.mem_univ _, rfl⟩))

set_option backward.isDefEq.respectTransparency.types false in
/-- Region 0 as a segment: its arrays split out of the unscoped buffers and put back at the exit contents; the
    generator register into the kernel's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the seven inputs as entered, the output
    array the fold of the thirty-two write-backs. -/
theorem hF1 (c : Dev nD) (w : Fin cfg1.W) :
    (dat1 (E1 m) c).arrAt w cfg1.N = V10 m (outs m) c (Pipeline.arrRef spec1 w) := by
  have hin : ∀ (w : Fin cfg1.W) (hw : (cfg1.win w).isOut = false) (r : Ref sig .tc) (hr : Pipeline.arrRef spec1 w = r)
      (hne : r ∉ ([main_v12] : List (Ref sig .tc))),
      (dat1 (E1 m) c).arrAt w cfg1.N = V10 m (outs m) c (Pipeline.arrRef spec1 w) := fun w hw r hr hne => by
    subst hr
    refine ((dat1 (E1 m) c).arrAt_in w hw _).trans ((A_eq1 (E1 m) c w).trans ?_)
    show V9 m (outs3 m) c _ = _
    rw [← V9_outs]; exact (V10_of m (outs m) c _ hne).symm
  match w with
  | ⟨0, _⟩ => exact hin 0 rfl main_v5 rfl (by decide)
  | ⟨1, _⟩ => exact hin 1 rfl main_v5 rfl (by decide)
  | ⟨2, _⟩ => exact hin 2 rfl main_v8 rfl (by decide)
  | ⟨3, _⟩ => exact hin 3 rfl main_v8 rfl (by decide)
  | ⟨4, _⟩ => exact hin 4 rfl main_v10 rfl (by decide)
  | ⟨5, _⟩ => exact hin 5 rfl main_v10 rfl (by decide)
  | ⟨6, _⟩ => exact hin 6 rfl main_v11 rfl (by decide)
  | ⟨7, _⟩ =>
    show _ = Function.update (V9 m (outs m) c) (Proc.devRef .tc main_v12) (outs m 10 main_v12 c) (Proc.devRef .tc main_v12)
    rw [Function.update_self, outs_v12]; rfl

/-- Every other buffer is as entered. -/
theorem hrest1 (c : Dev nD) : ∀ b : Ref sig .tc, b ∉ Finset.univ.image (Pipeline.arrRef spec1) → V10 m (outs m) c b = E1 m c b :=
  fun b hb => (V10_of m (outs m) c b (by
    intro h; rcases List.mem_singleton.mp h with rfl
    exact hb (Finset.mem_image.mpr ⟨7, Finset.mem_univ _, rfl⟩))).trans (by rw [V9_outs])

set_option backward.isDefEq.respectTransparency.types false in
/-- Region 1 as a segment: its five arrays out of the unscoped buffers — the three that two windows read each split
    into half shares — and back, joined again, at the exit contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := body_obligation1 (E1 m) c
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V9_outs]
    have hsplit := entry_split1 (E1 m) c (E1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_join1 (E1 m) c (E1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- At the compiled mesh, for any float values, from any memory with zero counters: every weakly fair execution of
    @main terminates, nothing faulting, and every final state holds every unscoped buffer at the last valuation:
    in particular the result at the last host stretch's value and the six arguments as launched. -/
theorem run_main : θ_run defs (onTc (τ := τ) (main (F := F))) ⟨m, fun _ => 0, ρ⟩ (fun r => ∀ c : Dev nD,
      r.2.mem ((c.tc : Thread nD τ).loc main_v18) = V11 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨Hh, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c =>
      ⟨h c _ (mem_uc main_v18 (by decide)),
       (h c _ (mem_uc main_arg0 (by decide))).trans (V11_main_arg0 m (outs m) c),
       (h c _ (mem_uc main_arg1 (by decide))).trans (V11_main_arg1 m (outs m) c),
       (h c _ (mem_uc main_arg2 (by decide))).trans (V11_main_arg2 m (outs m) c),
       (h c _ (mem_uc main_arg3 (by decide))).trans (V11_main_arg3 m (outs m) c),
       (h c _ (mem_uc main_arg4 (by decide))).trans (V11_main_arg4 m (outs m) c),
       (h c _ (mem_uc main_arg5 (by decide))).trans (V11_main_arg5 m (outs m) c)⟩)

end Cert.Kernel.Fr

end
-- ==== Proof.RefRunLaw.lean ====
/-
  Laws of a straight line of host operations in which the k-th operation writes exactly the reference of index n+k and reads
  only references of lower index: the contents after the whole line solve each operation's own equation.
-/
import proofs.«158136_j57621281243745_1_alg».proof.Proof.RefReadP
import Idealize.ShloMosaic.Lib.StableHlo.Run

noncomputable section

namespace Cert.ReferenceIdeal.HandRun

open Idealize.ShloMosaic Idealize.ShloMosaic.TcCoe Idealize.SL.Sem Idealize.ShloMosaic.StableHlo

variable {τ : Topo} {sig : RefSig} {Val : EltTy → Type}

/-- References of different index are different device buffers. -/
theorem devRef_ne_of_idx {r y : Ref sig .tc} (h : r.idx.val ≠ y.idx.val) :
    Proc.devRef (τ := τ) .tc r ≠ Proc.devRef .tc y :=
  devRef_ne_of_ne fun e => h (by rw [e])

/-- The operation writes the one reference of index `n`, touches TensorCore references only, determines its result, and its
    result is decided by the contents of the references of index below `n`. -/
def Step (n : Nat) (c : HloOp τ sig Val) : Prop :=
  c.bufs ⊆ tcRefs τ sig ∧ c.fresh = ∅ ∧
  ∃ y : Ref sig .tc, y.idx.val = n ∧ c.writes = {Proc.devRef .tc y} ∧
    ∀ F G : Valuation τ sig Val, (∀ r : Ref sig .tc, r.idx.val < n → F (Proc.devRef .tc r) = G (Proc.devRef .tc r)) →
      c.result F (Proc.devRef .tc y) = c.result G (Proc.devRef .tc y)

/-- The operations of the line write the references of index `n`, `n+1`, … in order, each a `Step`. -/
def Asc : Nat → List (HloOp τ sig Val) → Prop
  | _, [] => True
  | n, c :: cs => Step n c ∧ Asc (n + 1) cs

/-- The valuation solves the operation's equation: each written buffer holds the operation's value of the valuation. -/
def Sat (S : Valuation τ sig Val) (c : HloOp τ sig Val) : Prop := ∀ b ∈ c.writes, S b = c.result S b

/-- The valuation solves every equation of the line. -/
def AllSat (S : Valuation τ sig Val) : List (HloOp τ sig Val) → Prop
  | [] => True
  | c :: cs => Sat S c ∧ AllSat S cs

theorem AllSat.head {S : Valuation τ sig Val} {c : HloOp τ sig Val} {cs : List (HloOp τ sig Val)} (h : AllSat S (c :: cs)) : Sat S c := h.1
theorem AllSat.tail {S : Valuation τ sig Val} {c : HloOp τ sig Val} {cs : List (HloOp τ sig Val)} (h : AllSat S (c :: cs)) : AllSat S cs := h.2

theorem allSat_of_mem {S : Valuation τ sig Val} : ∀ {cs : List (HloOp τ sig Val)}, (∀ c ∈ cs, Sat S c) → AllSat S cs
  | [], _ => trivial
  | c :: cs, h => ⟨h c List.mem_cons_self, allSat_of_mem fun d hd => h d (List.mem_cons_of_mem _ hd)⟩

theorem Asc.append : ∀ {n m : Nat} {xs ys : List (HloOp τ sig Val)}, Asc n xs → n + xs.length = m → Asc m ys → Asc n (xs ++ ys)
  | n, m, [], ys, _, hm, hb => by
    have : n = m := by simpa using hm
    subst this; exact hb
  | n, m, a :: xs, ys, ha, hm, hb =>
    ⟨ha.1, Asc.append ha.2 (by simp only [List.length_cons] at hm; omega) hb⟩

theorem Asc.bufs_sub : ∀ {n : Nat} {cs : List (HloOp τ sig Val)}, Asc n cs → ∀ c ∈ cs, c.bufs ⊆ tcRefs τ sig
  | _, [], _, _, h => nomatch h
  | _, c :: cs, ha, d, hd => by
    rcases List.mem_cons.mp hd with rfl | hd
    · exact ha.1.1
    · exact Asc.bufs_sub ha.2 d hd

theorem Asc.fresh : ∀ {n : Nat} {cs : List (HloOp τ sig Val)}, Asc n cs → ∀ c ∈ cs, c.fresh = ∅
  | _, [], _, _, h => nomatch h
  | _, c :: cs, ha, d, hd => by
    rcases List.mem_cons.mp hd with rfl | hd
    · exact ha.1.2.1
    · exact Asc.fresh ha.2 d hd

/-- A reference of index below the line's first keeps its contents through the line. -/
theorem Asc.keep : ∀ {n : Nat} {cs : List (HloOp τ sig Val)}, Asc n cs → ∀ (W : Valuation τ sig Val) (r : Ref sig .tc),
    r.idx.val < n → after cs W (Proc.devRef .tc r) = W (Proc.devRef .tc r)
  | _, [], _, _, _, _ => rfl
  | n, c :: cs, ha, W, r, hr => by
    obtain ⟨-, -, y, hy, hw, -⟩ := ha.1
    rw [after_cons, Asc.keep ha.2 _ r (Nat.lt_succ_of_lt hr)]
    exact c.result_of_not_mem W (by rw [hw, Finset.mem_singleton]; exact devRef_ne_of_idx (by omega))

/-- The contents after the whole line solve every operation's equation. -/
theorem Asc.sat : ∀ {n : Nat} {cs : List (HloOp τ sig Val)}, Asc n cs → ∀ (V : Valuation τ sig Val), ∀ c ∈ cs, Sat (after cs V) c
  | _, [], _, _, _, h => nomatch h
  | n, c :: cs, ha, V, d, hd => by
    rcases List.mem_cons.mp hd with rfl | hd
    · obtain ⟨-, -, y, hy, hw, hR⟩ := ha.1
      intro b hb
      rw [hw, Finset.mem_singleton] at hb
      subst hb
      have kept : ∀ r : Ref sig .tc, r.idx.val < n → after cs (d.result V) (Proc.devRef .tc r) = V (Proc.devRef .tc r) := fun r hr => by
        rw [Asc.keep ha.2 _ r (Nat.lt_succ_of_lt hr)]
        exact d.result_of_not_mem V (by rw [hw, Finset.mem_singleton]; exact devRef_ne_of_idx (by omega))
      rw [after_cons, Asc.keep ha.2 _ y (by omega)]
      exact (hR _ _ kept).symm
    · exact Asc.sat ha.2 (c.result V) d hd

section Builders

variable {x a b c y : Ref sig .tc} {n : Nat}

/-! Each builder's operation is a `Step` at its result's index once its operands' indices are below it. -/

theorem step_nullary {v : y.ty.Contents Val} {hy} (h : y.idx.val = n) : Step n (nullary (τ := τ) y v hy) :=
  ⟨nullary_bufs_sub .., rfl, y, h, rfl, fun F G _ => by rw [nullary_result, nullary_result]⟩

theorem step_unary {f : x.ty.Contents Val → y.ty.Contents Val} {hx hy} (h : y.idx.val = n) (h1 : x.idx.val < n) :
    Step n (unary (τ := τ) x y f hx hy) :=
  ⟨unary_bufs_sub .., rfl, y, h, rfl, fun F G e => by rw [unary_result, unary_result, e x h1]⟩

theorem step_binary {f : a.ty.Contents Val → b.ty.Contents Val → y.ty.Contents Val} {ha hb hy} (h : y.idx.val = n)
    (h1 : a.idx.val < n) (h2 : b.idx.val < n) : Step n (binary (τ := τ) a b y f ha hb hy) :=
  ⟨binary_bufs_sub .., rfl, y, h, rfl, fun F G e => by rw [binary_result, binary_result, e a h1, e b h2]⟩

theorem step_ternary {f : c.ty.Contents Val → a.ty.Contents Val → b.ty.Contents Val → y.ty.Contents Val} {hc ha hb hy}
    (h : y.idx.val = n) (h0 : c.idx.val < n) (h1 : a.idx.val < n) (h2 : b.idx.val < n) :
    Step n (ternary (τ := τ) c a b y f hc ha hb hy) :=
  ⟨ternary_bufs_sub .., rfl, y, h, rfl, fun F G e => by rw [ternary_result, ternary_result, e c h0, e a h1, e b h2]⟩

theorem step_reshape {he hn hx hy} (h : y.idx.val = n) (h1 : x.idx.val < n) :
    Step n (reshape (τ := τ) (Val := Val) x y he hn hx hy) :=
  ⟨reshape_bufs_sub .., rfl, y, h, rfl, fun F G e => by rw [reshape_result, reshape_result, e x h1]⟩

theorem step_nary {k : Nat} {xs : Fin k → Ref sig .tc} {f : ((j : Fin k) → (xs j).ty.Contents Val) → y.ty.Contents Val} {hxs hy}
    (h : y.idx.val = n) (h1 : ∀ j, (xs j).idx.val < n) : Step n (nary (τ := τ) xs y f hxs hy) :=
  ⟨nary_bufs_sub .., rfl, y, h, rfl, fun F G e => by
    rw [nary_result, nary_result]
    exact congrArg f (funext fun j => e (xs j) (h1 j))⟩

/-! A solution's contents at each builder's result, from its contents at the operands. -/

variable {S : Valuation τ sig Val}

theorem Sat.nullary {v : y.ty.Contents Val} {hy} (e : Sat S (nullary (τ := τ) y v hy)) : S (Proc.devRef .tc y) = v :=
  (e _ (Finset.mem_singleton_self _)).trans (nullary_result y v hy S)

theorem Sat.unary {f : x.ty.Contents Val → y.ty.Contents Val} {hx hy} (e : Sat S (unary (τ := τ) x y f hx hy))
    {tx : x.ty.Contents Val} (h1 : S (Proc.devRef .tc x) = tx) : S (Proc.devRef .tc y) = f tx :=
  (e _ (Finset.mem_singleton_self _)).trans ((unary_result x y f hx hy S).trans (congrArg f h1))

theorem Sat.binary {f : a.ty.Contents Val → b.ty.Contents Val → y.ty.Contents Val} {ha hb hy}
    (e : Sat S (binary (τ := τ) a b y f ha hb hy)) {ta : a.ty.Contents Val} {tb : b.ty.Contents Val}
    (h1 : S (Proc.devRef .tc a) = ta) (h2 : S (Proc.devRef .tc b) = tb) : S (Proc.devRef .tc y) = f ta tb :=
  (e _ (Finset.mem_singleton_self _)).trans ((binary_result a b y f ha hb hy S).trans (congrArg₂ f h1 h2))

theorem Sat.ternary {f : c.ty.Contents Val → a.ty.Contents Val → b.ty.Contents Val → y.ty.Contents Val} {hc ha hb hy}
    (e : Sat S (ternary (τ := τ) c a b y f hc ha hb hy)) {tc : c.ty.Contents Val} {ta : a.ty.Contents Val} {tb : b.ty.Contents Val}
    (h0 : S (Proc.devRef .tc c) = tc) (h1 : S (Proc.devRef .tc a) = ta) (h2 : S (Proc.devRef .tc b) = tb) :
    S (Proc.devRef .tc y) = f tc ta tb :=
  (e _ (Finset.mem_singleton_self _)).trans ((ternary_result c a b y f hc ha hb hy S).trans (by rw [h0, h1, h2]))

theorem Sat.reshape {he hn hx hy} (e : Sat S (reshape (τ := τ) (Val := Val) x y he hn hx hy))
    {tx : x.ty.Contents Val} (h1 : S (Proc.devRef .tc x) = tx) :
    S (Proc.devRef .tc y) = fun i => he ▸ shapeCast y.ty.shape tx hn i :=
  (e _ (Finset.mem_singleton_self _)).trans ((reshape_result x y he hn hx hy S).trans (by rw [h1]))

theorem Sat.nary {k : Nat} {xs : Fin k → Ref sig .tc} {f : ((j : Fin k) → (xs j).ty.Contents Val) → y.ty.Contents Val} {hxs hy}
    (e : Sat S (nary (τ := τ) xs y f hxs hy)) : S (Proc.devRef .tc y) = f (fun j => S (Proc.devRef .tc (xs j))) :=
  (e _ (Finset.mem_singleton_self _)).trans (nary_result xs y f hxs hy S)

end Builders

end Cert.ReferenceIdeal.HandRun

end
-- ==== Proof.RefRunOps.lean ====
/- Inputs: scratch/Run.generated.lean.txt lines 26-156 (the operations), proof/Proof/RefReadP.lean (each val_'s parameters).
   A table: each list is the generated operation list cut at 33, 66, 99; each tuple names, per operation, its builder's Step law. -/
import proofs.«158136_j57621281243745_1_alg».proof.Proof.RefRunLaw

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- @main's operations 1 … 33 of 131, in order (a called function's operations stand in its call's place). -/
abbrev opsA : List (HloOp τ sig (Elt F)) :=
  [ binary main_arg1 main_arg4 main_v0 ((fun l r => Host.dotGeneral dot_S32x2048x64_S64x64_S32x2048x64_2_1_01_0_n_n none l r) : (⟨S32x2048x64, .f32⟩ : BufTy).Contents (Elt F) → (⟨S64x64, .f32⟩ : BufTy).Contents (Elt F) → (⟨S32x2048x64, .f32⟩ : BufTy).Contents (Elt F)),
    binary main_arg1 main_arg5 main_v1 ((fun l r => Host.dotGeneral dot_S32x2048x64_S64x64_S32x2048x64_2_0_01_1_n_n none l r) : (⟨S32x2048x64, .f32⟩ : BufTy).Contents (Elt F) → (⟨S64x64, .f32⟩ : BufTy).Contents (Elt F) → (⟨S32x2048x64, .f32⟩ : BufTy).Contents (Elt F)),
    binary main_v0 main_v1 main_v2 ((fun a b => concatenate S32x2048x128 2 [⟨S32x2048x64, a⟩, ⟨S32x2048x64, b⟩] concatenates_S32x2048x64_S32x2048x64_S32x2048x128_d2) : (⟨S32x2048x64, .f32⟩ : BufTy).Contents (Elt F) → (⟨S32x2048x64, .f32⟩ : BufTy).Contents (Elt F) → (⟨S32x2048x128, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S32x2048, .f32⟩) main_arg0) (TRef.of (T := ⟨S_, .f32⟩) main_call0_v0) (TRef.of (T := ⟨S32x2056, .f32⟩) main_v3) (fun x v => pad S32x2056 ![0, 8] ![0, 0] ![0, 0] x v pads_S32x2048_S32x2056_000_800 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S32x2048x128, .f32⟩) main_v2) (TRef.of (T := ⟨S_, .f32⟩) main_call1_v0) (TRef.of (T := ⟨S32x2056x128, .f32⟩) main_v4) (fun x v => pad S32x2056x128 ![0, 8, 0] ![0, 0, 0] ![0, 0, 0] x v pads_S32x2048x128_S32x2056x128_000_800_000 h_S_),
    nullary main_c_1 (constantI S_ 32 0#32),
    TRef.nullary (TRef.of (T := ⟨S_, .i32⟩) main_call2_c) (constantI S_ 32 0#32),
    TRef.unary (TRef.of (T := ⟨S_, .i32⟩) main_call2_c) (TRef.of (T := ⟨S_, .i32⟩) main_call2_v0) (broadcastInDim S_ ![] bcast_S_S_),
    TRef.binary (TRef.of (T := ⟨S_, .i32⟩) main_c_1) (TRef.of (T := ⟨S_, .i32⟩) main_call2_v0) (TRef.of (T := ⟨S_, .i1⟩) main_call2_v1) (cmpi .ne),
    TRef.unary (TRef.of (T := ⟨S_, .i1⟩) main_call2_v1) (TRef.of (T := ⟨S_, .i1⟩) main_call2_v2) id,
    TRef.binary (TRef.of (T := ⟨S32x2048, .i1⟩) main_arg2) (TRef.of (T := ⟨S_, .i1⟩) main_call2_v2) (TRef.of (T := ⟨S32x2056, .i1⟩) main_v5) (fun x v => pad S32x2056 ![0, 8] ![0, 0] ![0, 0] x v pads_S32x2048_S32x2056_000_800 h_S_),
    unary main_v3 main_v6 ((extractStridedSlice S32x2048 ![0, 0] · slices_S32x2056_S32x2048_0_0) : (⟨S32x2056, .f32⟩ : BufTy).Contents (Elt F) → (⟨S32x2048, .f32⟩ : BufTy).Contents (Elt F)),
    unary main_v3 main_v7 ((extractStridedSlice S32x2048 ![0, 1] · slices_S32x2056_S32x2048_0_1) : (⟨S32x2056, .f32⟩ : BufTy).Contents (Elt F) → (⟨S32x2048, .f32⟩ : BufTy).Contents (Elt F)),
    unary main_v3 main_v8 ((extractStridedSlice S32x2048 ![0, 2] · slices_S32x2056_S32x2048_0_2) : (⟨S32x2056, .f32⟩ : BufTy).Contents (Elt F) → (⟨S32x2048, .f32⟩ : BufTy).Contents (Elt F)),
    unary main_v3 main_v9 ((extractStridedSlice S32x2048 ![0, 3] · slices_S32x2056_S32x2048_0_3) : (⟨S32x2056, .f32⟩ : BufTy).Contents (Elt F) → (⟨S32x2048, .f32⟩ : BufTy).Contents (Elt F)),
    unary main_v3 main_v10 ((extractStridedSlice S32x2048 ![0, 4] · slices_S32x2056_S32x2048_0_4) : (⟨S32x2056, .f32⟩ : BufTy).Contents (Elt F) → (⟨S32x2048, .f32⟩ : BufTy).Contents (Elt F)),
    unary main_v3 main_v11 ((extractStridedSlice S32x2048 ![0, 5] · slices_S32x2056_S32x2048_0_5) : (⟨S32x2056, .f32⟩ : BufTy).Contents (Elt F) → (⟨S32x2048, .f32⟩ : BufTy).Contents (Elt F)),
    unary main_v3 main_v12 ((extractStridedSlice S32x2048 ![0, 6] · slices_S32x2056_S32x2048_0_6) : (⟨S32x2056, .f32⟩ : BufTy).Contents (Elt F) → (⟨S32x2048, .f32⟩ : BufTy).Contents (Elt F)),
    unary main_v3 main_v13 ((extractStridedSlice S32x2048 ![0, 7] · slices_S32x2056_S32x2048_0_7) : (⟨S32x2056, .f32⟩ : BufTy).Contents (Elt F) → (⟨S32x2048, .f32⟩ : BufTy).Contents (Elt F)),
    unary main_v3 main_v14 ((extractStridedSlice S32x2048 ![0, 8] · slices_S32x2056_S32x2048_0_8) : (⟨S32x2056, .f32⟩ : BufTy).Contents (Elt F) → (⟨S32x2048, .f32⟩ : BufTy).Contents (Elt F)),
    unary main_v6 main_v15 (broadcastInDim S32x1x2048 ![0, 2] bcast_S32x2048_S32x1x2048_0_2 : (⟨S32x2048, .f32⟩ : BufTy).Contents (Elt F) → (⟨S32x1x2048, .f32⟩ : BufTy).Contents (Elt F)),
    unary main_v7 main_v16 (broadcastInDim S32x1x2048 ![0, 2] bcast_S32x2048_S32x1x2048_0_2 : (⟨S32x2048, .f32⟩ : BufTy).Contents (Elt F) → (⟨S32x1x2048, .f32⟩ : BufTy).Contents (Elt F)),
    unary main_v8 main_v17 (broadcastInDim S32x1x2048 ![0, 2] bcast_S32x2048_S32x1x2048_0_2 : (⟨S32x2048, .f32⟩ : BufTy).Contents (Elt F) → (⟨S32x1x2048, .f32⟩ : BufTy).Contents (Elt F)),
    unary main_v9 main_v18 (broadcastInDim S32x1x2048 ![0, 2] bcast_S32x2048_S32x1x2048_0_2 : (⟨S32x2048, .f32⟩ : BufTy).Contents (Elt F) → (⟨S32x1x2048, .f32⟩ : BufTy).Contents (Elt F)),
    unary main_v10 main_v19 (broadcastInDim S32x1x2048 ![0, 2] bcast_S32x2048_S32x1x2048_0_2 : (⟨S32x2048, .f32⟩ : BufTy).Contents (Elt F) → (⟨S32x1x2048, .f32⟩ : BufTy).Contents (Elt F)),
    unary main_v11 main_v20 (broadcastInDim S32x1x2048 ![0, 2] bcast_S32x2048_S32x1x2048_0_2 : (⟨S32x2048, .f32⟩ : BufTy).Contents (Elt F) → (⟨S32x1x2048, .f32⟩ : BufTy).Contents (Elt F)),
    unary main_v12 main_v21 (broadcastInDim S32x1x2048 ![0, 2] bcast_S32x2048_S32x1x2048_0_2 : (⟨S32x2048, .f32⟩ : BufTy).Contents (Elt F) → (⟨S32x1x2048, .f32⟩ : BufTy).Contents (Elt F)),
    unary main_v13 main_v22 (broadcastInDim S32x1x2048 ![0, 2] bcast_S32x2048_S32x1x2048_0_2 : (⟨S32x2048, .f32⟩ : BufTy).Contents (Elt F) → (⟨S32x1x2048, .f32⟩ : BufTy).Contents (Elt F)),
    unary main_v14 main_v23 (broadcastInDim S32x1x2048 ![0, 2] bcast_S32x2048_S32x1x2048_0_2 : (⟨S32x2048, .f32⟩ : BufTy).Contents (Elt F) → (⟨S32x1x2048, .f32⟩ : BufTy).Contents (Elt F)) ]

set_option maxRecDepth 8192 in
/-- Operation k of this stretch writes the reference of index 6+k and reads lower ones. -/
theorem ascA : Asc 6 (opsA (F := F)) :=
  ⟨
    step_binary rfl (by decide) (by decide), step_binary rfl (by decide) (by decide), step_binary rfl (by decide) (by decide), step_nullary rfl,
    step_unary rfl (by decide), step_binary rfl (by decide) (by decide), step_nullary rfl, step_unary rfl (by decide),
    step_binary rfl (by decide) (by decide), step_nullary rfl, step_nullary rfl, step_unary rfl (by decide),
    step_binary rfl (by decide) (by decide), step_unary rfl (by decide), step_binary rfl (by decide) (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide),
    trivial⟩

/-- @main's operations 34 … 66 of 131, in order (a called function's operations stand in its call's place). -/
abbrev opsB : List (HloOp τ sig (Elt F)) :=
  [ nary ![main_v15, main_v16, main_v17, main_v18, main_v19, main_v20, main_v21, main_v22, main_v23] main_v24 (fun u => concatenate S32x9x2048 1 [⟨S32x1x2048, u 0⟩, ⟨S32x1x2048, u 1⟩, ⟨S32x1x2048, u 2⟩, ⟨S32x1x2048, u 3⟩, ⟨S32x1x2048, u 4⟩, ⟨S32x1x2048, u 5⟩, ⟨S32x1x2048, u 6⟩, ⟨S32x1x2048, u 7⟩, ⟨S32x1x2048, u 8⟩] concatenates_S32x1x2048_S32x1x2048_S32x1x2048_S32x1x2048_S32x1x2048_S32x1x2048_S32x1x2048_S32x1x2048_S32x1x2048_S32x9x2048_d1),
    unary main_v4 main_v25 ((extractStridedSlice S32x2048x128 ![0, 0, 0] · slices_S32x2056x128_S32x2048x128_0_0_0) : (⟨S32x2056x128, .f32⟩ : BufTy).Contents (Elt F) → (⟨S32x2048x128, .f32⟩ : BufTy).Contents (Elt F)),
    unary main_v4 main_v26 ((extractStridedSlice S32x2048x128 ![0, 1, 0] · slices_S32x2056x128_S32x2048x128_0_1_0) : (⟨S32x2056x128, .f32⟩ : BufTy).Contents (Elt F) → (⟨S32x2048x128, .f32⟩ : BufTy).Contents (Elt F)),
    unary main_v4 main_v27 ((extractStridedSlice S32x2048x128 ![0, 2, 0] · slices_S32x2056x128_S32x2048x128_0_2_0) : (⟨S32x2056x128, .f32⟩ : BufTy).Contents (Elt F) → (⟨S32x2048x128, .f32⟩ : BufTy).Contents (Elt F)),
    unary main_v4 main_v28 ((extractStridedSlice S32x2048x128 ![0, 3, 0] · slices_S32x2056x128_S32x2048x128_0_3_0) : (⟨S32x2056x128, .f32⟩ : BufTy).Contents (Elt F) → (⟨S32x2048x128, .f32⟩ : BufTy).Contents (Elt F)),
    unary main_v4 main_v29 ((extractStridedSlice S32x2048x128 ![0, 4, 0] · slices_S32x2056x128_S32x2048x128_0_4_0) : (⟨S32x2056x128, .f32⟩ : BufTy).Contents (Elt F) → (⟨S32x2048x128, .f32⟩ : BufTy).Contents (Elt F)),
    unary main_v4 main_v30 ((extractStridedSlice S32x2048x128 ![0, 5, 0] · slices_S32x2056x128_S32x2048x128_0_5_0) : (⟨S32x2056x128, .f32⟩ : BufTy).Contents (Elt F) → (⟨S32x2048x128, .f32⟩ : BufTy).Contents (Elt F)),
    unary main_v4 main_v31 ((extractStridedSlice S32x2048x128 ![0, 6, 0] · slices_S32x2056x128_S32x2048x128_0_6_0) : (⟨S32x2056x128, .f32⟩ : BufTy).Contents (Elt F) → (⟨S32x2048x128, .f32⟩ : BufTy).Contents (Elt F)),
    unary main_v4 main_v32 ((extractStridedSlice S32x2048x128 ![0, 7, 0] · slices_S32x2056x128_S32x2048x128_0_7_0) : (⟨S32x2056x128, .f32⟩ : BufTy).Contents (Elt F) → (⟨S32x2048x128, .f32⟩ : BufTy).Contents (Elt F)),
    unary main_v4 main_v33 ((extractStridedSlice S32x2048x128 ![0, 8, 0] · slices_S32x2056x128_S32x2048x128_0_8_0) : (⟨S32x2056x128, .f32⟩ : BufTy).Contents (Elt F) → (⟨S32x2048x128, .f32⟩ : BufTy).Contents (Elt F)),
    unary main_v25 main_v34 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v26 main_v35 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v27 main_v36 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v28 main_v37 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v29 main_v38 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v30 main_v39 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v31 main_v40 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v32 main_v41 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    unary main_v33 main_v42 (broadcastInDim S32x1x2048x128 ![0, 2, 3] bcast_S32x2048x128_S32x1x2048x128_0_2_3 : (⟨S32x2048x128, .f32⟩ : BufTy).Contents (Elt F) → (⟨S32x1x2048x128, .f32⟩ : BufTy).Contents (Elt F)),
    nary ![main_v34, main_v35, main_v36, main_v37, main_v38, main_v39, main_v40, main_v41, main_v42] main_v43 (fun u => concatenate S32x9x2048x128 1 [⟨S32x1x2048x128, u 0⟩, ⟨S32x1x2048x128, u 1⟩, ⟨S32x1x2048x128, u 2⟩, ⟨S32x1x2048x128, u 3⟩, ⟨S32x1x2048x128, u 4⟩, ⟨S32x1x2048x128, u 5⟩, ⟨S32x1x2048x128, u 6⟩, ⟨S32x1x2048x128, u 7⟩, ⟨S32x1x2048x128, u 8⟩] concatenates_S32x1x2048x128_S32x1x2048x128_S32x1x2048x128_S32x1x2048x128_S32x1x2048x128_S32x1x2048x128_S32x1x2048x128_S32x1x2048x128_S32x1x2048x128_S32x9x2048x128_d1),
    unary main_v5 main_v44 ((extractStridedSlice S32x2048 ![0, 0] · slices_S32x2056_S32x2048_0_0) : (⟨S32x2056, .i1⟩ : BufTy).Contents (Elt F) → (⟨S32x2048, .i1⟩ : BufTy).Contents (Elt F)),
    unary main_v5 main_v45 ((extractStridedSlice S32x2048 ![0, 1] · slices_S32x2056_S32x2048_0_1) : (⟨S32x2056, .i1⟩ : BufTy).Contents (Elt F) → (⟨S32x2048, .i1⟩ : BufTy).Contents (Elt F)),
    unary main_v5 main_v46 ((extractStridedSlice S32x2048 ![0, 2] · slices_S32x2056_S32x2048_0_2) : (⟨S32x2056, .i1⟩ : BufTy).Contents (Elt F) → (⟨S32x2048, .i1⟩ : BufTy).Contents (Elt F)),
    unary main_v5 main_v47 ((extractStridedSlice S32x2048 ![0, 3] · slices_S32x2056_S32x2048_0_3) : (⟨S32x2056, .i1⟩ : BufTy).Contents (Elt F) → (⟨S32x2048, .i1⟩ : BufTy).Contents (Elt F)),
    unary main_v5 main_v48 ((extractStridedSlice S32x2048 ![0, 4] · slices_S32x2056_S32x2048_0_4) : (⟨S32x2056, .i1⟩ : BufTy).Contents (Elt F) → (⟨S32x2048, .i1⟩ : BufTy).Contents (Elt F)),
    unary main_v5 main_v49 ((extractStridedSlice S32x2048 ![0, 5] · slices_S32x2056_S32x2048_0_5) : (⟨S32x2056, .i1⟩ : BufTy).Contents (Elt F) → (⟨S32x2048, .i1⟩ : BufTy).Contents (Elt F)),
    unary main_v5 main_v50 ((extractStridedSlice S32x2048 ![0, 6] · slices_S32x2056_S32x2048_0_6) : (⟨S32x2056, .i1⟩ : BufTy).Contents (Elt F) → (⟨S32x2048, .i1⟩ : BufTy).Contents (Elt F)),
    unary main_v5 main_v51 ((extractStridedSlice S32x2048 ![0, 7] · slices_S32x2056_S32x2048_0_7) : (⟨S32x2056, .i1⟩ : BufTy).Contents (Elt F) → (⟨S32x2048, .i1⟩ : BufTy).Contents (Elt F)),
    unary main_v5 main_v52 ((extractStridedSlice S32x2048 ![0, 8] · slices_S32x2056_S32x2048_0_8) : (⟨S32x2056, .i1⟩ : BufTy).Contents (Elt F) → (⟨S32x2048, .i1⟩ : BufTy).Contents (Elt F)),
    unary main_v44 main_v53 (broadcastInDim S32x1x2048 ![0, 2] bcast_S32x2048_S32x1x2048_0_2 : (⟨S32x2048, .i1⟩ : BufTy).Contents (Elt F) → (⟨S32x1x2048, .i1⟩ : BufTy).Contents (Elt F)),
    unary main_v45 main_v54 (broadcastInDim S32x1x2048 ![0, 2] bcast_S32x2048_S32x1x2048_0_2 : (⟨S32x2048, .i1⟩ : BufTy).Contents (Elt F) → (⟨S32x1x2048, .i1⟩ : BufTy).Contents (Elt F)),
    unary main_v46 main_v55 (broadcastInDim S32x1x2048 ![0, 2] bcast_S32x2048_S32x1x2048_0_2 : (⟨S32x2048, .i1⟩ : BufTy).Contents (Elt F) → (⟨S32x1x2048, .i1⟩ : BufTy).Contents (Elt F)),
    unary main_v47 main_v56 (broadcastInDim S32x1x2048 ![0, 2] bcast_S32x2048_S32x1x2048_0_2 : (⟨S32x2048, .i1⟩ : BufTy).Contents (Elt F) → (⟨S32x1x2048, .i1⟩ : BufTy).Contents (Elt F)) ]

set_option maxRecDepth 8192 in
/-- Operation k of this stretch writes the reference of index 39+k and reads lower ones. -/
theorem ascB : Asc 39 (opsB (F := F)) :=
  ⟨
    step_nary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_nary rfl (by decide),
    step_unary rfl (by decide), step_unary rfl (by decide), step_unary rfl (by decide), step_unary rfl (by decide),
    step_unary rfl (by decide), step_unary rfl (by decide), step_unary rfl (by decide), step_unary rfl (by decide),
    step_unary rfl (by decide), step_unary rfl (by decide), step_unary rfl (by decide), step_unary rfl (by decide),
    step_unary rfl (by decide),
    trivial⟩

/-- @main's operations 67 … 99 of 131, in order (a called function's operations stand in its call's place). -/
abbrev opsC : List (HloOp τ sig (Elt F)) :=
  [ unary main_v48 main_v57 (broadcastInDim S32x1x2048 ![0, 2] bcast_S32x2048_S32x1x2048_0_2 : (⟨S32x2048, .i1⟩ : BufTy).Contents (Elt F) → (⟨S32x1x2048, .i1⟩ : BufTy).Contents (Elt F)),
    unary main_v49 main_v58 (broadcastInDim S32x1x2048 ![0, 2] bcast_S32x2048_S32x1x2048_0_2 : (⟨S32x2048, .i1⟩ : BufTy).Contents (Elt F) → (⟨S32x1x2048, .i1⟩ : BufTy).Contents (Elt F)),
    unary main_v50 main_v59 (broadcastInDim S32x1x2048 ![0, 2] bcast_S32x2048_S32x1x2048_0_2 : (⟨S32x2048, .i1⟩ : BufTy).Contents (Elt F) → (⟨S32x1x2048, .i1⟩ : BufTy).Contents (Elt F)),
    unary main_v51 main_v60 (broadcastInDim S32x1x2048 ![0, 2] bcast_S32x2048_S32x1x2048_0_2 : (⟨S32x2048, .i1⟩ : BufTy).Contents (Elt F) → (⟨S32x1x2048, .i1⟩ : BufTy).Contents (Elt F)),
    unary main_v52 main_v61 (broadcastInDim S32x1x2048 ![0, 2] bcast_S32x2048_S32x1x2048_0_2 : (⟨S32x2048, .i1⟩ : BufTy).Contents (Elt F) → (⟨S32x1x2048, .i1⟩ : BufTy).Contents (Elt F)),
    nary ![main_v53, main_v54, main_v55, main_v56, main_v57, main_v58, main_v59, main_v60, main_v61] main_v62 (fun u => concatenate S32x9x2048 1 [⟨S32x1x2048, u 0⟩, ⟨S32x1x2048, u 1⟩, ⟨S32x1x2048, u 2⟩, ⟨S32x1x2048, u 3⟩, ⟨S32x1x2048, u 4⟩, ⟨S32x1x2048, u 5⟩, ⟨S32x1x2048, u 6⟩, ⟨S32x1x2048, u 7⟩, ⟨S32x1x2048, u 8⟩] concatenates_S32x1x2048_S32x1x2048_S32x1x2048_S32x1x2048_S32x1x2048_S32x1x2048_S32x1x2048_S32x1x2048_S32x1x2048_S32x9x2048_d1),
    unary main_arg2 main_v63 (broadcastInDim S32x1x2048 ![0, 2] bcast_S32x2048_S32x1x2048_0_2 : (⟨S32x2048, .i1⟩ : BufTy).Contents (Elt F) → (⟨S32x1x2048, .i1⟩ : BufTy).Contents (Elt F)),
    unary main_v63 main_v64 (broadcastInDim S32x9x2048 ![0, 1, 2] bcast_S32x1x2048_S32x9x2048_0_1_2 : (⟨S32x1x2048, .i1⟩ : BufTy).Contents (Elt F) → (⟨S32x9x2048, .i1⟩ : BufTy).Contents (Elt F)),
    binary main_v62 main_v64 main_v65 (andi : (⟨S32x9x2048, .i1⟩ : BufTy).Contents (Elt F) → (⟨S32x9x2048, .i1⟩ : BufTy).Contents (Elt F) → (⟨S32x9x2048, .i1⟩ : BufTy).Contents (Elt F)),
    unary main_arg0 main_v66 (broadcastInDim S32x1x2048 ![0, 2] bcast_S32x2048_S32x1x2048_0_2 : (⟨S32x2048, .f32⟩ : BufTy).Contents (Elt F) → (⟨S32x1x2048, .f32⟩ : BufTy).Contents (Elt F)),
    unary main_v66 main_v67 (broadcastInDim S32x9x2048 ![0, 1, 2] bcast_S32x1x2048_S32x9x2048_0_1_2 : (⟨S32x1x2048, .f32⟩ : BufTy).Contents (Elt F) → (⟨S32x9x2048, .f32⟩ : BufTy).Contents (Elt F)),
    binary main_v67 main_v24 main_v68 (subf : (⟨S32x9x2048, .f32⟩ : BufTy).Contents (Elt F) → (⟨S32x9x2048, .f32⟩ : BufTy).Contents (Elt F) → (⟨S32x9x2048, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S32x9x2048, .f32⟩) main_call3_v1) (broadcastInDim S32x9x2048 ![] bcast_S_S32x9x2048),
    TRef.ternary (TRef.of (T := ⟨S32x9x2048, .i1⟩) main_v65) (TRef.of (T := ⟨S32x9x2048, .f32⟩) main_v68) (TRef.of (T := ⟨S32x9x2048, .f32⟩) main_call3_v1) (TRef.of (T := ⟨S32x9x2048, .f32⟩) main_v69) select,
    unary main_v65 main_v70 (broadcastInDim S32x9x2048x1 ![0, 1, 2] bcast_S32x9x2048_S32x9x2048x1_0_1_2 : (⟨S32x9x2048, .i1⟩ : BufTy).Contents (Elt F) → (⟨S32x9x2048x1, .i1⟩ : BufTy).Contents (Elt F)),
    nullary main_cst_2 (constant S_ .f32 0x00000000#32),
    TRef.unary (TRef.of (T := ⟨S_, .f32⟩) main_cst_2) (TRef.of (T := ⟨S_, .f32⟩) main_call4_v0) id,
    TRef.unary (TRef.of (T := ⟨S32x9x2048x1, .i1⟩) main_v70) (TRef.of (T := ⟨S32x9x2048x128, .i1⟩) main_call4_v1) (broadcastInDim S32x9x2048x128 ![0, 1, 2, 3] bcast_S32x9x2048x1_S32x9x2048x128_0_1_2_3),
    TRef.unary (TRef.of (T := ⟨S_, .f32⟩) main_call4_v0) (TRef.of (T := ⟨S32x9x2048x128, .f32⟩) main_call4_v2) (broadcastInDim S32x9x2048x128 ![] bcast_S_S32x9x2048x128),
    TRef.ternary (TRef.of (T := ⟨S32x9x2048x128, .i1⟩) main_call4_v1) (TRef.of (T := ⟨S32x9x2048x128, .f32⟩) main_v43) (TRef.of (T := ⟨S32x9x2048x128, .f32⟩) main_call4_v2) (TRef.of (T := ⟨S32x9x2048x128, .f32⟩) main_v71) select,
    unary main_v71 main_v72 ((extractStridedSlice S32x9x2048x64 ![0, 0, 0, 0] · slices_S32x9x2048x128_S32x9x2048x64_0_0_0_0) : (⟨S32x9x2048x128, .f32⟩ : BufTy).Contents (Elt F) → (⟨S32x9x2048x64, .f32⟩ : BufTy).Contents (Elt F)),
    unary main_v71 main_v73 ((extractStridedSlice S32x9x2048x64 ![0, 0, 0, 64] · slices_S32x9x2048x128_S32x9x2048x64_0_0_0_64) : (⟨S32x9x2048x128, .f32⟩ : BufTy).Contents (Elt F) → (⟨S32x9x2048x64, .f32⟩ : BufTy).Contents (Elt F)),
    unary main_v69 main_v74 ((extractStridedSlice S32x1x2047 ![0, 7, 1] · slices_S32x9x2048_S32x1x2047_0_7_1) : (⟨S32x9x2048, .f32⟩ : BufTy).Contents (Elt F) → (⟨S32x1x2047, .f32⟩ : BufTy).Contents (Elt F)),
    reshape main_v74 main_v75 rfl shapeCasts_S32x1x2047_S32x2047,
    unary main_v69 main_v76 ((extractStridedSlice S32x8x2048 ![0, 0, 0] · slices_S32x9x2048_S32x8x2048_0_0_0) : (⟨S32x9x2048, .f32⟩ : BufTy).Contents (Elt F) → (⟨S32x8x2048, .f32⟩ : BufTy).Contents (Elt F)),
    unary main_v76 main_v77 (broadcastInDim S32x8x2048x1 ![0, 1, 2] bcast_S32x8x2048_S32x8x2048x1_0_1_2 : (⟨S32x8x2048, .f32⟩ : BufTy).Contents (Elt F) → (⟨S32x8x2048x1, .f32⟩ : BufTy).Contents (Elt F)),
    unary main_v72 main_v78 ((extractStridedSlice S32x8x2048x64 ![0, 0, 0, 0] · slices_S32x9x2048x64_S32x8x2048x64_0_0_0_0) : (⟨S32x9x2048x64, .f32⟩ : BufTy).Contents (Elt F) → (⟨S32x8x2048x64, .f32⟩ : BufTy).Contents (Elt F)),
    unary main_v77 main_v79 (broadcastInDim S32x8x2048x64 ![0, 1, 2, 3] bcast_S32x8x2048x1_S32x8x2048x64_0_1_2_3 : (⟨S32x8x2048x1, .f32⟩ : BufTy).Contents (Elt F) → (⟨S32x8x2048x64, .f32⟩ : BufTy).Contents (Elt F)),
    binary main_v79 main_v78 main_v80 (mulf : (⟨S32x8x2048x64, .f32⟩ : BufTy).Contents (Elt F) → (⟨S32x8x2048x64, .f32⟩ : BufTy).Contents (Elt F) → (⟨S32x8x2048x64, .f32⟩ : BufTy).Contents (Elt F)),
    unary main_v73 main_v81 ((extractStridedSlice S32x8x2048x64 ![0, 0, 0, 0] · slices_S32x9x2048x64_S32x8x2048x64_0_0_0_0) : (⟨S32x9x2048x64, .f32⟩ : BufTy).Contents (Elt F) → (⟨S32x8x2048x64, .f32⟩ : BufTy).Contents (Elt F)),
    binary main_v80 main_v81 main_v82 (addf : (⟨S32x8x2048x64, .f32⟩ : BufTy).Contents (Elt F) → (⟨S32x8x2048x64, .f32⟩ : BufTy).Contents (Elt F) → (⟨S32x8x2048x64, .f32⟩ : BufTy).Contents (Elt F)) ]

set_option maxRecDepth 8192 in
/-- Operation k of this stretch writes the reference of index 72+k and reads lower ones. -/
theorem ascC : Asc 72 (opsC (F := F)) :=
  ⟨
    step_unary rfl (by decide), step_unary rfl (by decide), step_unary rfl (by decide), step_unary rfl (by decide),
    step_unary rfl (by decide), step_nary rfl (by decide), step_unary rfl (by decide), step_unary rfl (by decide),
    step_binary rfl (by decide) (by decide), step_unary rfl (by decide), step_unary rfl (by decide), step_binary rfl (by decide) (by decide),
    step_nullary rfl, step_unary rfl (by decide), step_unary rfl (by decide), step_ternary rfl (by decide) (by decide) (by decide),
    step_unary rfl (by decide), step_nullary rfl, step_unary rfl (by decide), step_unary rfl (by decide),
    step_unary rfl (by decide), step_ternary rfl (by decide) (by decide) (by decide), step_unary rfl (by decide), step_unary rfl (by decide),
    step_unary rfl (by decide), step_reshape rfl (by decide), step_unary rfl (by decide), step_unary rfl (by decide),
    step_unary rfl (by decide), step_unary rfl (by decide), step_binary rfl (by decide) (by decide), step_unary rfl (by decide),
    step_binary rfl (by decide) (by decide),
    trivial⟩

/-- @main's operations 100 … 131 of 131, in order (a called function's operations stand in its call's place). -/
abbrev opsD : List (HloOp τ sig (Elt F)) :=
  [ nullary main_cst_3 (constant S_ .f32 0x00000000#32),
    binary main_v82 main_cst_3 main_v83 ((fun x v => Host.reduceAdd x v reducesTo_S32x8x2048x64_S32x2048x64_d1 h_S_) : (⟨S32x8x2048x64, .f32⟩ : BufTy).Contents (Elt F) → (⟨S_, .f32⟩ : BufTy).Contents (Elt F) → (⟨S32x2048x64, .f32⟩ : BufTy).Contents (Elt F)),
    unary main_v69 main_v84 ((extractStridedSlice S32x8x2047 ![0, 1, 0] · slices_S32x9x2048_S32x8x2047_0_1_0) : (⟨S32x9x2048, .f32⟩ : BufTy).Contents (Elt F) → (⟨S32x8x2047, .f32⟩ : BufTy).Contents (Elt F)),
    unary main_v84 main_v85 (broadcastInDim S32x8x2047x1 ![0, 1, 2] bcast_S32x8x2047_S32x8x2047x1_0_1_2 : (⟨S32x8x2047, .f32⟩ : BufTy).Contents (Elt F) → (⟨S32x8x2047x1, .f32⟩ : BufTy).Contents (Elt F)),
    unary main_v72 main_v86 ((extractStridedSlice S32x8x2047x64 ![0, 1, 0, 0] · slices_S32x9x2048x64_S32x8x2047x64_0_1_0_0) : (⟨S32x9x2048x64, .f32⟩ : BufTy).Contents (Elt F) → (⟨S32x8x2047x64, .f32⟩ : BufTy).Contents (Elt F)),
    unary main_v85 main_v87 (broadcastInDim S32x8x2047x64 ![0, 1, 2, 3] bcast_S32x8x2047x1_S32x8x2047x64_0_1_2_3 : (⟨S32x8x2047x1, .f32⟩ : BufTy).Contents (Elt F) → (⟨S32x8x2047x64, .f32⟩ : BufTy).Contents (Elt F)),
    binary main_v87 main_v86 main_v88 (mulf : (⟨S32x8x2047x64, .f32⟩ : BufTy).Contents (Elt F) → (⟨S32x8x2047x64, .f32⟩ : BufTy).Contents (Elt F) → (⟨S32x8x2047x64, .f32⟩ : BufTy).Contents (Elt F)),
    unary main_v73 main_v89 ((extractStridedSlice S32x8x2047x64 ![0, 1, 0, 0] · slices_S32x9x2048x64_S32x8x2047x64_0_1_0_0) : (⟨S32x9x2048x64, .f32⟩ : BufTy).Contents (Elt F) → (⟨S32x8x2047x64, .f32⟩ : BufTy).Contents (Elt F)),
    binary main_v88 main_v89 main_v90 (addf : (⟨S32x8x2047x64, .f32⟩ : BufTy).Contents (Elt F) → (⟨S32x8x2047x64, .f32⟩ : BufTy).Contents (Elt F) → (⟨S32x8x2047x64, .f32⟩ : BufTy).Contents (Elt F)),
    nullary main_cst_4 (constant S_ .f32 0x00000000#32),
    binary main_v90 main_cst_4 main_v91 ((fun x v => Host.reduceAdd x v reducesTo_S32x8x2047x64_S32x2047x64_d1 h_S_) : (⟨S32x8x2047x64, .f32⟩ : BufTy).Contents (Elt F) → (⟨S_, .f32⟩ : BufTy).Contents (Elt F) → (⟨S32x2047x64, .f32⟩ : BufTy).Contents (Elt F)),
    unary main_v72 main_v92 ((extractStridedSlice S32x8x2047x64 ![0, 1, 0, 0] · slices_S32x9x2048x64_S32x8x2047x64_0_1_0_0) : (⟨S32x9x2048x64, .f32⟩ : BufTy).Contents (Elt F) → (⟨S32x8x2047x64, .f32⟩ : BufTy).Contents (Elt F)),
    nullary main_cst_5 (constant S_ .f32 0x00000000#32),
    binary main_v92 main_cst_5 main_v93 ((fun x v => Host.reduceAdd x v reducesTo_S32x8x2047x64_S32x2047x64_d1 h_S_) : (⟨S32x8x2047x64, .f32⟩ : BufTy).Contents (Elt F) → (⟨S_, .f32⟩ : BufTy).Contents (Elt F) → (⟨S32x2047x64, .f32⟩ : BufTy).Contents (Elt F)),
    unary main_v91 main_v94 (broadcastInDim S32x2047x1x64 ![0, 1, 3] bcast_S32x2047x64_S32x2047x1x64_0_1_3 : (⟨S32x2047x64, .f32⟩ : BufTy).Contents (Elt F) → (⟨S32x2047x1x64, .f32⟩ : BufTy).Contents (Elt F)),
    unary main_v75 main_v95 (broadcastInDim S32x2047x1x1 ![0, 1] bcast_S32x2047_S32x2047x1x1_0_1 : (⟨S32x2047, .f32⟩ : BufTy).Contents (Elt F) → (⟨S32x2047x1x1, .f32⟩ : BufTy).Contents (Elt F)),
    unary main_arg3 main_v96 (broadcastInDim S1x1x8x1 ![2] bcast_S8_S1x1x8x1_2 : (⟨S8, .f32⟩ : BufTy).Contents (Elt F) → (⟨S1x1x8x1, .f32⟩ : BufTy).Contents (Elt F)),
    unary main_v95 main_v97 (broadcastInDim S32x2047x8x1 ![0, 1, 2, 3] bcast_S32x2047x1x1_S32x2047x8x1_0_1_2_3 : (⟨S32x2047x1x1, .f32⟩ : BufTy).Contents (Elt F) → (⟨S32x2047x8x1, .f32⟩ : BufTy).Contents (Elt F)),
    unary main_v96 main_v98 (broadcastInDim S32x2047x8x1 ![0, 1, 2, 3] bcast_S1x1x8x1_S32x2047x8x1_0_1_2_3 : (⟨S1x1x8x1, .f32⟩ : BufTy).Contents (Elt F) → (⟨S32x2047x8x1, .f32⟩ : BufTy).Contents (Elt F)),
    binary main_v97 main_v98 main_v99 (mulf : (⟨S32x2047x8x1, .f32⟩ : BufTy).Contents (Elt F) → (⟨S32x2047x8x1, .f32⟩ : BufTy).Contents (Elt F) → (⟨S32x2047x8x1, .f32⟩ : BufTy).Contents (Elt F)),
    unary main_v93 main_v100 (broadcastInDim S32x2047x1x64 ![0, 1, 3] bcast_S32x2047x64_S32x2047x1x64_0_1_3 : (⟨S32x2047x64, .f32⟩ : BufTy).Contents (Elt F) → (⟨S32x2047x1x64, .f32⟩ : BufTy).Contents (Elt F)),
    unary main_v99 main_v101 (broadcastInDim S32x2047x8x64 ![0, 1, 2, 3] bcast_S32x2047x8x1_S32x2047x8x64_0_1_2_3 : (⟨S32x2047x8x1, .f32⟩ : BufTy).Contents (Elt F) → (⟨S32x2047x8x64, .f32⟩ : BufTy).Contents (Elt F)),
    unary main_v100 main_v102 (broadcastInDim S32x2047x8x64 ![0, 1, 2, 3] bcast_S32x2047x1x64_S32x2047x8x64_0_1_2_3 : (⟨S32x2047x1x64, .f32⟩ : BufTy).Contents (Elt F) → (⟨S32x2047x8x64, .f32⟩ : BufTy).Contents (Elt F)),
    binary main_v101 main_v102 main_v103 (mulf : (⟨S32x2047x8x64, .f32⟩ : BufTy).Contents (Elt F) → (⟨S32x2047x8x64, .f32⟩ : BufTy).Contents (Elt F) → (⟨S32x2047x8x64, .f32⟩ : BufTy).Contents (Elt F)),
    unary main_v94 main_v104 (broadcastInDim S32x2047x8x64 ![0, 1, 2, 3] bcast_S32x2047x1x64_S32x2047x8x64_0_1_2_3 : (⟨S32x2047x1x64, .f32⟩ : BufTy).Contents (Elt F) → (⟨S32x2047x8x64, .f32⟩ : BufTy).Contents (Elt F)),
    binary main_v104 main_v103 main_v105 (addf : (⟨S32x2047x8x64, .f32⟩ : BufTy).Contents (Elt F) → (⟨S32x2047x8x64, .f32⟩ : BufTy).Contents (Elt F) → (⟨S32x2047x8x64, .f32⟩ : BufTy).Contents (Elt F)),
    unary main_v83 main_v106 ((extractStridedSlice S32x2047x64 ![0, 0, 0] · slices_S32x2048x64_S32x2047x64_0_0_0) : (⟨S32x2048x64, .f32⟩ : BufTy).Contents (Elt F) → (⟨S32x2047x64, .f32⟩ : BufTy).Contents (Elt F)),
    unary main_v106 main_v107 (broadcastInDim S32x2047x1x64 ![0, 1, 3] bcast_S32x2047x64_S32x2047x1x64_0_1_3 : (⟨S32x2047x64, .f32⟩ : BufTy).Contents (Elt F) → (⟨S32x2047x1x64, .f32⟩ : BufTy).Contents (Elt F)),
    unary main_v83 main_v108 ((extractStridedSlice S32x1x64 ![0, 2047, 0] · slices_S32x2048x64_S32x1x64_0_2047_0) : (⟨S32x2048x64, .f32⟩ : BufTy).Contents (Elt F) → (⟨S32x1x64, .f32⟩ : BufTy).Contents (Elt F)),
    binary main_v107 main_v105 main_v109 ((fun a b => concatenate S32x2047x9x64 2 [⟨S32x2047x1x64, a⟩, ⟨S32x2047x8x64, b⟩] concatenates_S32x2047x1x64_S32x2047x8x64_S32x2047x9x64_d2) : (⟨S32x2047x1x64, .f32⟩ : BufTy).Contents (Elt F) → (⟨S32x2047x8x64, .f32⟩ : BufTy).Contents (Elt F) → (⟨S32x2047x9x64, .f32⟩ : BufTy).Contents (Elt F)),
    reshape main_v109 main_v110 rfl shapeCasts_S32x2047x9x64_S32x18423x64,
    binary main_v110 main_v108 main_v111 ((fun a b => concatenate S32x18424x64 1 [⟨S32x18423x64, a⟩, ⟨S32x1x64, b⟩] concatenates_S32x18423x64_S32x1x64_S32x18424x64_d1) : (⟨S32x18423x64, .f32⟩ : BufTy).Contents (Elt F) → (⟨S32x1x64, .f32⟩ : BufTy).Contents (Elt F) → (⟨S32x18424x64, .f32⟩ : BufTy).Contents (Elt F)) ]

set_option maxRecDepth 8192 in
/-- Operation k of this stretch writes the reference of index 105+k and reads lower ones. -/
theorem ascD : Asc 105 (opsD (F := F)) :=
  ⟨
    step_nullary rfl, step_binary rfl (by decide) (by decide), step_unary rfl (by decide), step_unary rfl (by decide),
    step_unary rfl (by decide), step_unary rfl (by decide), step_binary rfl (by decide) (by decide), step_unary rfl (by decide),
    step_binary rfl (by decide) (by decide), step_nullary rfl, step_binary rfl (by decide) (by decide), step_unary rfl (by decide),
    step_nullary rfl, step_binary rfl (by decide) (by decide), step_unary rfl (by decide), step_unary rfl (by decide),
    step_unary rfl (by decide), step_unary rfl (by decide), step_unary rfl (by decide), step_binary rfl (by decide) (by decide),
    step_unary rfl (by decide), step_unary rfl (by decide), step_unary rfl (by decide), step_binary rfl (by decide) (by decide),
    step_unary rfl (by decide), step_binary rfl (by decide) (by decide), step_unary rfl (by decide), step_unary rfl (by decide),
    step_unary rfl (by decide), step_binary rfl (by decide) (by decide), step_reshape rfl (by decide), step_binary rfl (by decide) (by decide),
    trivial⟩

end Cert.ReferenceIdeal.HandRun

end
-- ==== Proof.RefRunMain.lean ====
/-
  @main as one straight line. Its three printed windows are the lines of the four stretches, so @main is `seq` of their
  concatenation; the line is ascending from index 6 (the six arguments hold the indices 0 … 5), so the contents after it solve
  every operation's equation (RefRunLaw.lean).
-/
import proofs.«158136_j57621281243745_1_alg».proof.Proof.RefRunOps

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- @main's 131 operations, in order: the four stretches. -/
abbrev ops : List (HloOp τ sig (Elt F)) := (opsA ++ opsB) ++ (opsC ++ opsD)

set_option maxRecDepth 8192 in
set_option maxHeartbeats 4000000 in
/-- The first printed window is the line of the first two stretches: the called functions' bodies unfold at their calls and
    sequencing computes. -/
theorem main_part0_eq (c : Dev nD) : main_part0 (F := F) c = seq (opsA ++ opsB) := rfl

set_option maxRecDepth 8192 in
set_option maxHeartbeats 4000000 in
/-- The second printed window is the line of the last two stretches. -/
theorem main_part1_eq (c : Dev nD) : main_part1 (F := F) c = seq (opsC ++ opsD) := rfl

/-- The third printed window only returns. -/
theorem main_part2_eq (c : Dev nD) : main_part2 (F := F) c = seq [] := rfl

/-- @main is the straight line of its operations: its windows in order, two lines run one after the other being their
    concatenation run as one. -/
theorem main_eq (c : Dev nD) : main (F := F) c = seq ops := by
  have e : main (F := F) c = (main_part0 c >>= fun _ => main_part1 c >>= fun _ => main_part2 c) := rfl
  rw [e, main_part0_eq, main_part1_eq, main_part2_eq, ← seq_append, ← seq_append, List.append_nil]

theorem scopedRefs_eq : (Finset.univ.filter fun b : Ref sig .tc => b.isScoped) = ∅ := by decide
theorem scopedSems_eq : (Finset.univ.filter fun sm : SemLoc sig => sm.isScoped .tc) = ∅ := by decide

/-- The whole line is ascending from index 6: the six arguments hold the indices below. -/
theorem asc : Asc 6 (ops (F := F)) :=
  Asc.append (Asc.append ascA rfl ascB) rfl (Asc.append ascC rfl ascD)

/-- A valuation that solves every operation's equation, stretch by stretch. -/
structure Sol (S : Valuation τ sig (Elt F)) : Prop where
  a : AllSat S (opsA (F := F))
  b : AllSat S (opsB (F := F))
  c : AllSat S (opsC (F := F))
  d : AllSat S (opsD (F := F))

/-- The contents after the whole line are a solution. -/
theorem sol_after (V : Valuation τ sig (Elt F)) : Sol (after (ops (F := F)) V) :=
  have hs := (asc (F := F)).sat V
  ⟨allSat_of_mem fun d hd => hs d (List.mem_append_left _ (List.mem_append_left _ hd)),
   allSat_of_mem fun d hd => hs d (List.mem_append_left _ (List.mem_append_right _ hd)),
   allSat_of_mem fun d hd => hs d (List.mem_append_right _ (List.mem_append_left _ hd)),
   allSat_of_mem fun d hd => hs d (List.mem_append_right _ (List.mem_append_right _ hd))⟩

end Cert.ReferenceIdeal.HandRun

end
-- ==== Proof.RefRunVal1.lean ====
/- Inputs: scratch/Run.generated.lean.txt lines 26-156 (the operations), proof/Proof/RefReadP.lean (each val_'s parameters).
   A table: each row cites its builder's read-off law at the operation's equation and the rows of its operands. -/
import proofs.«158136_j57621281243745_1_alg».proof.Proof.RefRunMain

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

theorem s_v0 {S : Valuation τ sig (Elt F)} (h : Sol S) :
    S (Proc.devRef .tc main_v0) = val_main_v0 (F := F) (S (Proc.devRef .tc main_arg1)) (S (Proc.devRef .tc main_arg4)) :=
  (h.a.head).binary rfl rfl

theorem s_v1 {S : Valuation τ sig (Elt F)} (h : Sol S) :
    S (Proc.devRef .tc main_v1) = val_main_v1 (F := F) (S (Proc.devRef .tc main_arg1)) (S (Proc.devRef .tc main_arg5)) :=
  (h.a.tail.head).binary rfl rfl

theorem s_v2 {S : Valuation τ sig (Elt F)} (h : Sol S) :
    S (Proc.devRef .tc main_v2) = val_main_v2 (F := F) (S (Proc.devRef .tc main_arg1)) (S (Proc.devRef .tc main_arg4)) (S (Proc.devRef .tc main_arg5)) :=
  (h.a.tail.tail.head).binary (s_v0 h) (s_v1 h)

theorem s_c {S : Valuation τ sig (Elt F)} (h : Sol S) :
    S (Proc.devRef .tc main_c) = val_main_c (F := F) :=
  (h.a.tail.tail.tail.head).nullary

theorem s_call0_v0 {S : Valuation τ sig (Elt F)} (h : Sol S) :
    S (Proc.devRef .tc main_call0_v0) = val_main_call0_v0 (F := F) :=
  (h.a.tail.tail.tail.tail.head).unary (s_c h)

theorem s_v3 {S : Valuation τ sig (Elt F)} (h : Sol S) :
    S (Proc.devRef .tc main_v3) = val_main_v3 (F := F) (S (Proc.devRef .tc main_arg0)) :=
  (h.a.tail.tail.tail.tail.tail.head).binary rfl (s_call0_v0 h)

theorem s_c_0 {S : Valuation τ sig (Elt F)} (h : Sol S) :
    S (Proc.devRef .tc main_c_0) = val_main_c_0 (F := F) :=
  (h.a.tail.tail.tail.tail.tail.tail.head).nullary

theorem s_call1_v0 {S : Valuation τ sig (Elt F)} (h : Sol S) :
    S (Proc.devRef .tc main_call1_v0) = val_main_call1_v0 (F := F) :=
  (h.a.tail.tail.tail.tail.tail.tail.tail.head).unary (s_c_0 h)

theorem s_v4 {S : Valuation τ sig (Elt F)} (h : Sol S) :
    S (Proc.devRef .tc main_v4) = val_main_v4 (F := F) (S (Proc.devRef .tc main_arg1)) (S (Proc.devRef .tc main_arg4)) (S (Proc.devRef .tc main_arg5)) :=
  (h.a.tail.tail.tail.tail.tail.tail.tail.tail.head).binary (s_v2 h) (s_call1_v0 h)

theorem s_c_1 {S : Valuation τ sig (Elt F)} (h : Sol S) :
    S (Proc.devRef .tc main_c_1) = val_main_c_1 (F := F) :=
  (h.a.tail.tail.tail.tail.tail.tail.tail.tail.tail.head).nullary

theorem s_call2_c {S : Valuation τ sig (Elt F)} (h : Sol S) :
    S (Proc.devRef .tc main_call2_c) = val_main_call2_c (F := F) :=
  (h.a.tail.tail.tail.tail.tail.tail.tail.tail.tail.tail.head).nullary

theorem s_call2_v0 {S : Valuation τ sig (Elt F)} (h : Sol S) :
    S (Proc.devRef .tc main_call2_v0) = val_main_call2_v0 (F := F) :=
  (h.a.tail.tail.tail.tail.tail.tail.tail.tail.tail.tail.tail.head).unary (s_call2_c h)

theorem s_call2_v1 {S : Valuation τ sig (Elt F)} (h : Sol S) :
    S (Proc.devRef .tc main_call2_v1) = val_main_call2_v1 (F := F) :=
  (h.a.tail.tail.tail.tail.tail.tail.tail.tail.tail.tail.tail.tail.head).binary (s_c_1 h) (s_call2_v0 h)

theorem s_call2_v2 {S : Valuation τ sig (Elt F)} (h : Sol S) :
    S (Proc.devRef .tc main_call2_v2) = val_main_call2_v2 (F := F) :=
  (h.a.tail.tail.tail.tail.tail.tail.tail.tail.tail.tail.tail.tail.tail.head).unary (s_call2_v1 h)

theorem s_v5 {S : Valuation τ sig (Elt F)} (h : Sol S) :
    S (Proc.devRef .tc main_v5) = val_main_v5 (F := F) (S (Proc.devRef .tc main_arg2)) :=
  (h.a.tail.tail.tail.tail.tail.tail.tail.tail.tail.tail.tail.tail.tail.tail.head).binary rfl (s_call2_v2 h)

theorem s_v6 {S : Valuation τ sig (Elt F)} (h : Sol S) :
    S (Proc.devRef .tc main_v6) = val_main_v6 (F := F) (S (Proc.devRef .tc main_arg0)) :=
  (h.a.tail.tail.tail.tail.tail.tail.tail.tail.tail.tail.tail.tail.tail.tail.tail.head).unary (s_v3 h)

theorem s_v7 {S : Valuation τ sig (Elt F)} (h : Sol S) :
    S (Proc.devRef .tc main_v7) = val_main_v7 (F := F) (S (Proc.devRef .tc main_arg0)) :=
  (h.a.tail.tail.tail.tail.tail.tail.tail.tail.tail.tail.tail.tail.tail.tail.tail.tail.head).unary (s_v3 h)

theorem s_v8 {S : Valuation τ sig (Elt F)} (h : Sol S) :
    S (Proc.devRef .tc main_v8) = val_main_v8 (F := F) (S (Proc.devRef .tc main_arg0)) :=
  (h.a.tail.tail.tail.tail.tail.tail.tail.tail.tail.tail.tail.tail.tail.tail.tail.tail.tail.head).unary (s_v3 h)

theorem s_v9 {S : Valuation τ sig (Elt F)} (h : Sol S) :
    S (Proc.devRef .tc main_v9) = val_main_v9 (F := F) (S (Proc.devRef .tc main_arg0)) :=
  (h.a.tail.tail.tail.tail.tail.tail.tail.tail.tail.tail.tail.tail.tail.tail.tail.tail.tail.tail.head).unary (s_v3 h)

theorem s_v10 {S : Valuation τ sig (Elt F)} (h : Sol S) :
    S (Proc.devRef .tc main_v10) = val_main_v10 (F := F) (S (Proc.devRef .tc main_arg0)) :=
  (h.a.tail.tail.tail.tail.tail.tail.tail.tail.tail.tail.tail.tail.tail.tail.tail.tail.tail.tail.tail.head).unary (s_v3 h)

theorem s_v11 {S : Valuation τ sig (Elt F)} (h : Sol S) :
    S (Proc.devRef .tc main_v11) = val_main_v11 (F := F) (S (Proc.devRef .tc main_arg0)) :=
  (h.a.tail.tail.tail.tail.tail.tail.tail.tail.tail.tail.tail.tail.tail.tail.tail.tail.tail.tail.tail.tail.head).unary (s_v3 h)

theorem s_v12 {S : Valuation τ sig (Elt F)} (h : Sol S) :
    S (Proc.devRef .tc main_v12) = val_main_v12 (F := F) (S (Proc.devRef .tc main_arg0)) :=
  (h.a.tail.tail.tail.tail.tail.tail.tail.tail.tail.tail.tail.tail.tail.tail.tail.tail.tail.tail.tail.tail.tail.head).unary (s_v3 h)

theorem s_v13 {S : Valuation τ sig (Elt F)} (h : Sol S) :
    S (Proc.devRef .tc main_v13) = val_main_v13 (F := F) (S (Proc.devRef .tc main_arg0)) :=
  (h.a.tail.tail.tail.tail.tail.tail.tail.tail.tail.tail.tail.tail.tail.tail.tail.tail.tail.tail.tail.tail.tail.tail.head).unary (s_v3 h)

theorem s_v14 {S : Valuation τ sig (Elt F)} (h : Sol S) :
    S (Proc.devRef .tc main_v14) = val_main_v14 (F := F) (S (Proc.devRef .tc main_arg0)) :=
  (h.a.tail.tail.tail.tail.tail.tail.tail.tail.tail.tail.tail.tail.tail.tail.tail.tail.tail.tail.tail.tail.tail.tail.tail.head).unary (s_v3 h)

theorem s_v15 {S : Valuation τ sig (Elt F)} (h : Sol S) :
    S (Proc.devRef .tc main_v15) = val_main_v15 (F := F) (S (Proc.devRef .tc main_arg0)) :=
  (h.a.tail.tail.tail.tail.tail.tail.tail.tail.tail.tail.tail.tail.tail.tail.tail.tail.tail.tail.tail.tail.tail.tail.tail.tail.head).unary (s_v6 h)

theorem s_v16 {S : Valuation τ sig (Elt F)} (h : Sol S) :
    S (Proc.devRef .tc main_v16) = val_main_v16 (F := F) (S (Proc.devRef .tc main_arg0)) :=
  (h.a.tail.tail.tail.tail.tail.tail.tail.tail.tail.tail.tail.tail.tail.tail.tail.tail.tail.tail.tail.tail.tail.tail.tail.tail.tail.head).unary (s_v7 h)

theorem s_v17 {S : Valuation τ sig (Elt F)} (h : Sol S) :
    S (Proc.devRef .tc main_v17) = val_main_v17 (F := F) (S (Proc.devRef .tc main_arg0)) :=
  (h.a.tail.tail.tail.tail.tail.tail.tail.tail.tail.tail.tail.tail.tail.tail.tail.tail.tail.tail.tail.tail.tail.tail.tail.tail.tail.tail.head).unary (s_v8 h)

theorem s_v18 {S : Valuation τ sig (Elt F)} (h : Sol S) :
    S (Proc.devRef .tc main_v18) = val_main_v18 (F := F) (S (Proc.devRef .tc main_arg0)) :=
  (h.a.tail.tail.tail.tail.tail.tail.tail.tail.tail.tail.tail.tail.tail.tail.tail.tail.tail.tail.tail.tail.tail.tail.tail.tail.tail.tail.tail.head).unary (s_v9 h)

theorem s_v19 {S : Valuation τ sig (Elt F)} (h : Sol S) :
    S (Proc.devRef .tc main_v19) = val_main_v19 (F := F) (S (Proc.devRef .tc main_arg0)) :=
  (h.a.tail.tail.tail.tail.tail.tail.tail.tail.tail.tail.tail.tail.tail.tail.tail.tail.tail.tail.tail.tail.tail.tail.tail.tail.tail.tail.tail.tail.head).unary (s_v10 h)

theorem s_v20 {S : Valuation τ sig (Elt F)} (h : Sol S) :
    S (Proc.devRef .tc main_v20) = val_main_v20 (F := F) (S (Proc.devRef .tc main_arg0)) :=
  (h.a.tail.tail.tail.tail.tail.tail.tail.tail.tail.tail.tail.tail.tail.tail.tail.tail.tail.tail.tail.tail.tail.tail.tail.tail.tail.tail.tail.tail.tail.head).unary (s_v11 h)

theorem s_v21 {S : Valuation τ sig (Elt F)} (h : Sol S) :
    S (Proc.devRef .tc main_v21) = val_main_v21 (F := F) (S (Proc.devRef .tc main_arg0)) :=
  (h.a.tail.tail.tail.tail.tail.tail.tail.tail.tail.tail.tail.tail.tail.tail.tail.tail.tail.tail.tail.tail.tail.tail.tail.tail.tail.tail.tail.tail.tail.tail.head).unary (s_v12 h)

theorem s_v22 {S : Valuation τ sig (Elt F)} (h : Sol S) :
    S (Proc.devRef .tc main_v22) = val_main_v22 (F := F) (S (Proc.devRef .tc main_arg0)) :=
  (h.a.tail.tail.tail.tail.tail.tail.tail.tail.tail.tail.tail.tail.tail.tail.tail.tail.tail.tail.tail.tail.tail.tail.tail.tail.tail.tail.tail.tail.tail.tail.tail.head).unary (s_v13 h)

theorem s_v23 {S : Valuation τ sig (Elt F)} (h : Sol S) :
    S (Proc.devRef .tc main_v23) = val_main_v23 (F := F) (S (Proc.devRef .tc main_arg0)) :=
  (h.a.tail.tail.tail.tail.tail.tail.tail.tail.tail.tail.tail.tail.tail.tail.tail.tail.tail.tail.tail.tail.tail.tail.tail.tail.tail.tail.tail.tail.tail.tail.tail.tail.head).unary (s_v14 h)

end Cert.ReferenceIdeal.HandRun

end
-- ==== Proof.RefRunVal2.lean ====
/- Inputs: scratch/Run.generated.lean.txt lines 26-156 (the operations), proof/Proof/RefReadP.lean (each val_'s parameters).
   A table: each row cites its builder's read-off law at the operation's equation and the rows of its operands. -/
import proofs.«158136_j57621281243745_1_alg».proof.Proof.RefRunVal1

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

theorem s_v25 {S : Valuation τ sig (Elt F)} (h : Sol S) :
    S (Proc.devRef .tc main_v25) = val_main_v25 (F := F) (S (Proc.devRef .tc main_arg1)) (S (Proc.devRef .tc main_arg4)) (S (Proc.devRef .tc main_arg5)) :=
  (h.b.tail.head).unary (s_v4 h)

theorem s_v26 {S : Valuation τ sig (Elt F)} (h : Sol S) :
    S (Proc.devRef .tc main_v26) = val_main_v26 (F := F) (S (Proc.devRef .tc main_arg1)) (S (Proc.devRef .tc main_arg4)) (S (Proc.devRef .tc main_arg5)) :=
  (h.b.tail.tail.head).unary (s_v4 h)

theorem s_v27 {S : Valuation τ sig (Elt F)} (h : Sol S) :
    S (Proc.devRef .tc main_v27) = val_main_v27 (F := F) (S (Proc.devRef .tc main_arg1)) (S (Proc.devRef .tc main_arg4)) (S (Proc.devRef .tc main_arg5)) :=
  (h.b.tail.tail.tail.head).unary (s_v4 h)

theorem s_v28 {S : Valuation τ sig (Elt F)} (h : Sol S) :
    S (Proc.devRef .tc main_v28) = val_main_v28 (F := F) (S (Proc.devRef .tc main_arg1)) (S (Proc.devRef .tc main_arg4)) (S (Proc.devRef .tc main_arg5)) :=
  (h.b.tail.tail.tail.tail.head).unary (s_v4 h)

theorem s_v29 {S : Valuation τ sig (Elt F)} (h : Sol S) :
    S (Proc.devRef .tc main_v29) = val_main_v29 (F := F) (S (Proc.devRef .tc main_arg1)) (S (Proc.devRef .tc main_arg4)) (S (Proc.devRef .tc main_arg5)) :=
  (h.b.tail.tail.tail.tail.tail.head).unary (s_v4 h)

theorem s_v30 {S : Valuation τ sig (Elt F)} (h : Sol S) :
    S (Proc.devRef .tc main_v30) = val_main_v30 (F := F) (S (Proc.devRef .tc main_arg1)) (S (Proc.devRef .tc main_arg4)) (S (Proc.devRef .tc main_arg5)) :=
  (h.b.tail.tail.tail.tail.tail.tail.head).unary (s_v4 h)

theorem s_v31 {S : Valuation τ sig (Elt F)} (h : Sol S) :
    S (Proc.devRef .tc main_v31) = val_main_v31 (F := F) (S (Proc.devRef .tc main_arg1)) (S (Proc.devRef .tc main_arg4)) (S (Proc.devRef .tc main_arg5)) :=
  (h.b.tail.tail.tail.tail.tail.tail.tail.head).unary (s_v4 h)

theorem s_v32 {S : Valuation τ sig (Elt F)} (h : Sol S) :
    S (Proc.devRef .tc main_v32) = val_main_v32 (F := F) (S (Proc.devRef .tc main_arg1)) (S (Proc.devRef .tc main_arg4)) (S (Proc.devRef .tc main_arg5)) :=
  (h.b.tail.tail.tail.tail.tail.tail.tail.tail.head).unary (s_v4 h)

theorem s_v33 {S : Valuation τ sig (Elt F)} (h : Sol S) :
    S (Proc.devRef .tc main_v33) = val_main_v33 (F := F) (S (Proc.devRef .tc main_arg1)) (S (Proc.devRef .tc main_arg4)) (S (Proc.devRef .tc main_arg5)) :=
  (h.b.tail.tail.tail.tail.tail.tail.tail.tail.tail.head).unary (s_v4 h)

theorem s_v34 {S : Valuation τ sig (Elt F)} (h : Sol S) :
    S (Proc.devRef .tc main_v34) = val_main_v34 (F := F) (S (Proc.devRef .tc main_arg1)) (S (Proc.devRef .tc main_arg4)) (S (Proc.devRef .tc main_arg5)) :=
  (h.b.tail.tail.tail.tail.tail.tail.tail.tail.tail.tail.head).unary (s_v25 h)

theorem s_v35 {S : Valuation τ sig (Elt F)} (h : Sol S) :
    S (Proc.devRef .tc main_v35) = val_main_v35 (F := F) (S (Proc.devRef .tc main_arg1)) (S (Proc.devRef .tc main_arg4)) (S (Proc.devRef .tc main_arg5)) :=
  (h.b.tail.tail.tail.tail.tail.tail.tail.tail.tail.tail.tail.head).unary (s_v26 h)

theorem s_v36 {S : Valuation τ sig (Elt F)} (h : Sol S) :
    S (Proc.devRef .tc main_v36) = val_main_v36 (F := F) (S (Proc.devRef .tc main_arg1)) (S (Proc.devRef .tc main_arg4)) (S (Proc.devRef .tc main_arg5)) :=
  (h.b.tail.tail.tail.tail.tail.tail.tail.tail.tail.tail.tail.tail.head).unary (s_v27 h)

theorem s_v37 {S : Valuation τ sig (Elt F)} (h : Sol S) :
    S (Proc.devRef .tc main_v37) = val_main_v37 (F := F) (S (Proc.devRef .tc main_arg1)) (S (Proc.devRef .tc main_arg4)) (S (Proc.devRef .tc main_arg5)) :=
  (h.b.tail.tail.tail.tail.tail.tail.tail.tail.tail.tail.tail.tail.tail.head).unary (s_v28 h)

theorem s_v38 {S : Valuation τ sig (Elt F)} (h : Sol S) :
    S (Proc.devRef .tc main_v38) = val_main_v38 (F := F) (S (Proc.devRef .tc main_arg1)) (S (Proc.devRef .tc main_arg4)) (S (Proc.devRef .tc main_arg5)) :=
  (h.b.tail.tail.tail.tail.tail.tail.tail.tail.tail.tail.tail.tail.tail.tail.head).unary (s_v29 h)

theorem s_v39 {S : Valuation τ sig (Elt F)} (h : Sol S) :
    S (Proc.devRef .tc main_v39) = val_main_v39 (F := F) (S (Proc.devRef .tc main_arg1)) (S (Proc.devRef .tc main_arg4)) (S (Proc.devRef .tc main_arg5)) :=
  (h.b.tail.tail.tail.tail.tail.tail.tail.tail.tail.tail.tail.tail.tail.tail.tail.head).unary (s_v30 h)

theorem s_v40 {S : Valuation τ sig (Elt F)} (h : Sol S) :
    S (Proc.devRef .tc main_v40) = val_main_v40 (F := F) (S (Proc.devRef .tc main_arg1)) (S (Proc.devRef .tc main_arg4)) (S (Proc.devRef .tc main_arg5)) :=
  (h.b.tail.tail.tail.tail.tail.tail.tail.tail.tail.tail.tail.tail.tail.tail.tail.tail.head).unary (s_v31 h)

theorem s_v41 {S : Valuation τ sig (Elt F)} (h : Sol S) :
    S (Proc.devRef .tc main_v41) = val_main_v41 (F := F) (S (Proc.devRef .tc main_arg1)) (S (Proc.devRef .tc main_arg4)) (S (Proc.devRef .tc main_arg5)) :=
  (h.b.tail.tail.tail.tail.tail.tail.tail.tail.tail.tail.tail.tail.tail.tail.tail.tail.tail.head).unary (s_v32 h)

theorem s_v42 {S : Valuation τ sig (Elt F)} (h : Sol S) :
    S (Proc.devRef .tc main_v42) = val_main_v42 (F := F) (S (Proc.devRef .tc main_arg1)) (S (Proc.devRef .tc main_arg4)) (S (Proc.devRef .tc main_arg5)) :=
  (h.b.tail.tail.tail.tail.tail.tail.tail.tail.tail.tail.tail.tail.tail.tail.tail.tail.tail.tail.head).unary (s_v33 h)

theorem s_v44 {S : Valuation τ sig (Elt F)} (h : Sol S) :
    S (Proc.devRef .tc main_v44) = val_main_v44 (F := F) (S (Proc.devRef .tc main_arg2)) :=
  (h.b.tail.tail.tail.tail.tail.tail.tail.tail.tail.tail.tail.tail.tail.tail.tail.tail.tail.tail.tail.tail.head).unary (s_v5 h)

theorem s_v45 {S : Valuation τ sig (Elt F)} (h : Sol S) :
    S (Proc.devRef .tc main_v45) = val_main_v45 (F := F) (S (Proc.devRef .tc main_arg2)) :=
  (h.b.tail.tail.tail.tail.tail.tail.tail.tail.tail.tail.tail.tail.tail.tail.tail.tail.tail.tail.tail.tail.tail.head).unary (s_v5 h)

theorem s_v46 {S : Valuation τ sig (Elt F)} (h : Sol S) :
    S (Proc.devRef .tc main_v46) = val_main_v46 (F := F) (S (Proc.devRef .tc main_arg2)) :=
  (h.b.tail.tail.tail.tail.tail.tail.tail.tail.tail.tail.tail.tail.tail.tail.tail.tail.tail.tail.tail.tail.tail.tail.head).unary (s_v5 h)

theorem s_v47 {S : Valuation τ sig (Elt F)} (h : Sol S) :
    S (Proc.devRef .tc main_v47) = val_main_v47 (F := F) (S (Proc.devRef .tc main_arg2)) :=
  (h.b.tail.tail.tail.tail.tail.tail.tail.tail.tail.tail.tail.tail.tail.tail.tail.tail.tail.tail.tail.tail.tail.tail.tail.head).unary (s_v5 h)

theorem s_v48 {S : Valuation τ sig (Elt F)} (h : Sol S) :
    S (Proc.devRef .tc main_v48) = val_main_v48 (F := F) (S (Proc.devRef .tc main_arg2)) :=
  (h.b.tail.tail.tail.tail.tail.tail.tail.tail.tail.tail.tail.tail.tail.tail.tail.tail.tail.tail.tail.tail.tail.tail.tail.tail.head).unary (s_v5 h)

theorem s_v49 {S : Valuation τ sig (Elt F)} (h : Sol S) :
    S (Proc.devRef .tc main_v49) = val_main_v49 (F := F) (S (Proc.devRef .tc main_arg2)) :=
  (h.b.tail.tail.tail.tail.tail.tail.tail.tail.tail.tail.tail.tail.tail.tail.tail.tail.tail.tail.tail.tail.tail.tail.tail.tail.tail.head).unary (s_v5 h)

theorem s_v50 {S : Valuation τ sig (Elt F)} (h : Sol S) :
    S (Proc.devRef .tc main_v50) = val_main_v50 (F := F) (S (Proc.devRef .tc main_arg2)) :=
  (h.b.tail.tail.tail.tail.tail.tail.tail.tail.tail.tail.tail.tail.tail.tail.tail.tail.tail.tail.tail.tail.tail.tail.tail.tail.tail.tail.head).unary (s_v5 h)

theorem s_v51 {S : Valuation τ sig (Elt F)} (h : Sol S) :
    S (Proc.devRef .tc main_v51) = val_main_v51 (F := F) (S (Proc.devRef .tc main_arg2)) :=
  (h.b.tail.tail.tail.tail.tail.tail.tail.tail.tail.tail.tail.tail.tail.tail.tail.tail.tail.tail.tail.tail.tail.tail.tail.tail.tail.tail.tail.head).unary (s_v5 h)

theorem s_v52 {S : Valuation τ sig (Elt F)} (h : Sol S) :
    S (Proc.devRef .tc main_v52) = val_main_v52 (F := F) (S (Proc.devRef .tc main_arg2)) :=
  (h.b.tail.tail.tail.tail.tail.tail.tail.tail.tail.tail.tail.tail.tail.tail.tail.tail.tail.tail.tail.tail.tail.tail.tail.tail.tail.tail.tail.tail.head).unary (s_v5 h)

theorem s_v53 {S : Valuation τ sig (Elt F)} (h : Sol S) :
    S (Proc.devRef .tc main_v53) = val_main_v53 (F := F) (S (Proc.devRef .tc main_arg2)) :=
  (h.b.tail.tail.tail.tail.tail.tail.tail.tail.tail.tail.tail.tail.tail.tail.tail.tail.tail.tail.tail.tail.tail.tail.tail.tail.tail.tail.tail.tail.tail.head).unary (s_v44 h)

theorem s_v54 {S : Valuation τ sig (Elt F)} (h : Sol S) :
    S (Proc.devRef .tc main_v54) = val_main_v54 (F := F) (S (Proc.devRef .tc main_arg2)) :=
  (h.b.tail.tail.tail.tail.tail.tail.tail.tail.tail.tail.tail.tail.tail.tail.tail.tail.tail.tail.tail.tail.tail.tail.tail.tail.tail.tail.tail.tail.tail.tail.head).unary (s_v45 h)

theorem s_v55 {S : Valuation τ sig (Elt F)} (h : Sol S) :
    S (Proc.devRef .tc main_v55) = val_main_v55 (F := F) (S (Proc.devRef .tc main_arg2)) :=
  (h.b.tail.tail.tail.tail.tail.tail.tail.tail.tail.tail.tail.tail.tail.tail.tail.tail.tail.tail.tail.tail.tail.tail.tail.tail.tail.tail.tail.tail.tail.tail.tail.head).unary (s_v46 h)

theorem s_v56 {S : Valuation τ sig (Elt F)} (h : Sol S) :
    S (Proc.devRef .tc main_v56) = val_main_v56 (F := F) (S (Proc.devRef .tc main_arg2)) :=
  (h.b.tail.tail.tail.tail.tail.tail.tail.tail.tail.tail.tail.tail.tail.tail.tail.tail.tail.tail.tail.tail.tail.tail.tail.tail.tail.tail.tail.tail.tail.tail.tail.tail.head).unary (s_v47 h)

theorem s_v57 {S : Valuation τ sig (Elt F)} (h : Sol S) :
    S (Proc.devRef .tc main_v57) = val_main_v57 (F := F) (S (Proc.devRef .tc main_arg2)) :=
  (h.c.head).unary (s_v48 h)

theorem s_v58 {S : Valuation τ sig (Elt F)} (h : Sol S) :
    S (Proc.devRef .tc main_v58) = val_main_v58 (F := F) (S (Proc.devRef .tc main_arg2)) :=
  (h.c.tail.head).unary (s_v49 h)

theorem s_v59 {S : Valuation τ sig (Elt F)} (h : Sol S) :
    S (Proc.devRef .tc main_v59) = val_main_v59 (F := F) (S (Proc.devRef .tc main_arg2)) :=
  (h.c.tail.tail.head).unary (s_v50 h)

theorem s_v60 {S : Valuation τ sig (Elt F)} (h : Sol S) :
    S (Proc.devRef .tc main_v60) = val_main_v60 (F := F) (S (Proc.devRef .tc main_arg2)) :=
  (h.c.tail.tail.tail.head).unary (s_v51 h)

theorem s_v61 {S : Valuation τ sig (Elt F)} (h : Sol S) :
    S (Proc.devRef .tc main_v61) = val_main_v61 (F := F) (S (Proc.devRef .tc main_arg2)) :=
  (h.c.tail.tail.tail.tail.head).unary (s_v52 h)

end Cert.ReferenceIdeal.HandRun

end
-- ==== Proof.RefRunCat.lean ====
/-
  A solution's contents at the three nine-operand concatenates (main_v24, main_v43, main_v62).
-/
import proofs.«158136_j57621281243745_1_alg».proof.Proof.RefRunVal2

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! The three concatenates of nine operands. The builder's law gives the result as the concatenate of the family
`j ↦ S (operand j)`; each operand's contents is its `val_` by its row; and the family at the literal `j` is the contents at the
j-th reference by computation. -/

theorem s_v24 {S : Valuation τ sig (Elt F)} (h : Sol S) :
    S (Proc.devRef .tc main_v24) = val_main_v24 (F := F) (S (Proc.devRef .tc main_arg0)) :=
  (h.b.head).nary.trans (by
    unfold val_main_v24
    rw [← s_v15 h, ← s_v16 h, ← s_v17 h, ← s_v18 h, ← s_v19 h, ← s_v20 h, ← s_v21 h, ← s_v22 h, ← s_v23 h]
    rfl)

theorem s_v43 {S : Valuation τ sig (Elt F)} (h : Sol S) :
    S (Proc.devRef .tc main_v43) = val_main_v43 (F := F) (S (Proc.devRef .tc main_arg1)) (S (Proc.devRef .tc main_arg4)) (S (Proc.devRef .tc main_arg5)) :=
  (h.b.tail.tail.tail.tail.tail.tail.tail.tail.tail.tail.tail.tail.tail.tail.tail.tail.tail.tail.tail.head).nary.trans (by
    unfold val_main_v43
    rw [← s_v34 h, ← s_v35 h, ← s_v36 h, ← s_v37 h, ← s_v38 h, ← s_v39 h, ← s_v40 h, ← s_v41 h, ← s_v42 h]
    rfl)

theorem s_v62 {S : Valuation τ sig (Elt F)} (h : Sol S) :
    S (Proc.devRef .tc main_v62) = val_main_v62 (F := F) (S (Proc.devRef .tc main_arg2)) :=
  (h.c.tail.tail.tail.tail.tail.head).nary.trans (by
    unfold val_main_v62
    rw [← s_v53 h, ← s_v54 h, ← s_v55 h, ← s_v56 h, ← s_v57 h, ← s_v58 h, ← s_v59 h, ← s_v60 h, ← s_v61 h]
    rfl)

end Cert.ReferenceIdeal.HandRun

end
-- ==== Proof.RefRunVal3.lean ====
/- Inputs: scratch/Run.generated.lean.txt lines 26-156 (the operations), proof/Proof/RefReadP.lean (each val_'s parameters).
   A table: each row cites its builder's read-off law at the operation's equation and the rows of its operands. -/
import proofs.«158136_j57621281243745_1_alg».proof.Proof.RefRunCat

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

theorem s_v63 {S : Valuation τ sig (Elt F)} (h : Sol S) :
    S (Proc.devRef .tc main_v63) = val_main_v63 (F := F) (S (Proc.devRef .tc main_arg2)) :=
  (h.c.tail.tail.tail.tail.tail.tail.head).unary rfl

theorem s_v64 {S : Valuation τ sig (Elt F)} (h : Sol S) :
    S (Proc.devRef .tc main_v64) = val_main_v64 (F := F) (S (Proc.devRef .tc main_arg2)) :=
  (h.c.tail.tail.tail.tail.tail.tail.tail.head).unary (s_v63 h)

theorem s_v65 {S : Valuation τ sig (Elt F)} (h : Sol S) :
    S (Proc.devRef .tc main_v65) = val_main_v65 (F := F) (S (Proc.devRef .tc main_arg2)) :=
  (h.c.tail.tail.tail.tail.tail.tail.tail.tail.head).binary (s_v62 h) (s_v64 h)

theorem s_v66 {S : Valuation τ sig (Elt F)} (h : Sol S) :
    S (Proc.devRef .tc main_v66) = val_main_v66 (F := F) (S (Proc.devRef .tc main_arg0)) :=
  (h.c.tail.tail.tail.tail.tail.tail.tail.tail.tail.head).unary rfl

theorem s_v67 {S : Valuation τ sig (Elt F)} (h : Sol S) :
    S (Proc.devRef .tc main_v67) = val_main_v67 (F := F) (S (Proc.devRef .tc main_arg0)) :=
  (h.c.tail.tail.tail.tail.tail.tail.tail.tail.tail.tail.head).unary (s_v66 h)

theorem s_v68 {S : Valuation τ sig (Elt F)} (h : Sol S) :
    S (Proc.devRef .tc main_v68) = val_main_v68 (F := F) (S (Proc.devRef .tc main_arg0)) :=
  (h.c.tail.tail.tail.tail.tail.tail.tail.tail.tail.tail.tail.head).binary (s_v67 h) (s_v24 h)

theorem s_cst {S : Valuation τ sig (Elt F)} (h : Sol S) :
    S (Proc.devRef .tc main_cst) = val_main_cst (F := F) :=
  (h.c.tail.tail.tail.tail.tail.tail.tail.tail.tail.tail.tail.tail.head).nullary

theorem s_call3_v0 {S : Valuation τ sig (Elt F)} (h : Sol S) :
    S (Proc.devRef .tc main_call3_v0) = val_main_call3_v0 (F := F) :=
  (h.c.tail.tail.tail.tail.tail.tail.tail.tail.tail.tail.tail.tail.tail.head).unary (s_cst h)

theorem s_call3_v1 {S : Valuation τ sig (Elt F)} (h : Sol S) :
    S (Proc.devRef .tc main_call3_v1) = val_main_call3_v1 (F := F) :=
  (h.c.tail.tail.tail.tail.tail.tail.tail.tail.tail.tail.tail.tail.tail.tail.head).unary (s_call3_v0 h)

theorem s_v69 {S : Valuation τ sig (Elt F)} (h : Sol S) :
    S (Proc.devRef .tc main_v69) = val_main_v69 (F := F) (S (Proc.devRef .tc main_arg0)) (S (Proc.devRef .tc main_arg2)) :=
  (h.c.tail.tail.tail.tail.tail.tail.tail.tail.tail.tail.tail.tail.tail.tail.tail.head).ternary (s_v65 h) (s_v68 h) (s_call3_v1 h)

theorem s_v70 {S : Valuation τ sig (Elt F)} (h : Sol S) :
    S (Proc.devRef .tc main_v70) = val_main_v70 (F := F) (S (Proc.devRef .tc main_arg2)) :=
  (h.c.tail.tail.tail.tail.tail.tail.tail.tail.tail.tail.tail.tail.tail.tail.tail.tail.head).unary (s_v65 h)

theorem s_cst_2 {S : Valuation τ sig (Elt F)} (h : Sol S) :
    S (Proc.devRef .tc main_cst_2) = val_main_cst_2 (F := F) :=
  (h.c.tail.tail.tail.tail.tail.tail.tail.tail.tail.tail.tail.tail.tail.tail.tail.tail.tail.head).nullary

theorem s_call4_v0 {S : Valuation τ sig (Elt F)} (h : Sol S) :
    S (Proc.devRef .tc main_call4_v0) = val_main_call4_v0 (F := F) :=
  (h.c.tail.tail.tail.tail.tail.tail.tail.tail.tail.tail.tail.tail.tail.tail.tail.tail.tail.tail.head).unary (s_cst_2 h)

theorem s_call4_v1 {S : Valuation τ sig (Elt F)} (h : Sol S) :
    S (Proc.devRef .tc main_call4_v1) = val_main_call4_v1 (F := F) (S (Proc.devRef .tc main_arg2)) :=
  (h.c.tail.tail.tail.tail.tail.tail.tail.tail.tail.tail.tail.tail.tail.tail.tail.tail.tail.tail.tail.head).unary (s_v70 h)

theorem s_call4_v2 {S : Valuation τ sig (Elt F)} (h : Sol S) :
    S (Proc.devRef .tc main_call4_v2) = val_main_call4_v2 (F := F) :=
  (h.c.tail.tail.tail.tail.tail.tail.tail.tail.tail.tail.tail.tail.tail.tail.tail.tail.tail.tail.tail.tail.head).unary (s_call4_v0 h)

theorem s_v71 {S : Valuation τ sig (Elt F)} (h : Sol S) :
    S (Proc.devRef .tc main_v71) = val_main_v71 (F := F) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.head).ternary (s_call4_v1 h) (s_v43 h) (s_call4_v2 h)

theorem s_v72 {S : Valuation τ sig (Elt F)} (h : Sol S) :
    S (Proc.devRef .tc main_v72) = val_main_v72 (F := F) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.head).unary (s_v71 h)

theorem s_v73 {S : Valuation τ sig (Elt F)} (h : Sol S) :
    S (Proc.devRef .tc main_v73) = val_main_v73 (F := F) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.tail.head).unary (s_v71 h)

theorem s_v74 {S : Valuation τ sig (Elt F)} (h : Sol S) :
    S (Proc.devRef .tc main_v74) = val_main_v74 (F := F) (S (Proc.devRef .tc main_arg0)) (S (Proc.devRef .tc main_arg2)) :=
  (h.c.tail.tail.tail.tail.tail.tail.tail.tail.tail.tail.tail.tail.tail.tail.tail.tail.tail.tail.tail.tail.tail.tail.tail.tail.head).unary (s_v69 h)

theorem s_v75 {S : Valuation τ sig (Elt F)} (h : Sol S) :
    S (Proc.devRef .tc main_v75) = val_main_v75 (F := F) (S (Proc.devRef .tc main_arg0)) (S (Proc.devRef .tc main_arg2)) :=
  (h.c.tail.tail.tail.tail.tail.tail.tail.tail.tail.tail.tail.tail.tail.tail.tail.tail.tail.tail.tail.tail.tail.tail.tail.tail.tail.head).reshape (s_v74 h)

theorem s_v76 {S : Valuation τ sig (Elt F)} (h : Sol S) :
    S (Proc.devRef .tc main_v76) = val_main_v76 (F := F) (S (Proc.devRef .tc main_arg0)) (S (Proc.devRef .tc main_arg2)) :=
  (h.c.tail.tail.tail.tail.tail.tail.tail.tail.tail.tail.tail.tail.tail.tail.tail.tail.tail.tail.tail.tail.tail.tail.tail.tail.tail.tail.head).unary (s_v69 h)

theorem s_v77 {S : Valuation τ sig (Elt F)} (h : Sol S) :
    S (Proc.devRef .tc main_v77) = val_main_v77 (F := F) (S (Proc.devRef .tc main_arg0)) (S (Proc.devRef .tc main_arg2)) :=
  (h.c.tail.tail.tail.tail.tail.tail.tail.tail.tail.tail.tail.tail.tail.tail.tail.tail.tail.tail.tail.tail.tail.tail.tail.tail.tail.tail.tail.head).unary (s_v76 h)

theorem s_v78 {S : Valuation τ sig (Elt F)} (h : Sol S) :
    S (Proc.devRef .tc main_v78) = val_main_v78 (F := F) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.tail.tail.tail.tail.tail.tail.head).unary (s_v72 h)

theorem s_v79 {S : Valuation τ sig (Elt F)} (h : Sol S) :
    S (Proc.devRef .tc main_v79) = val_main_v79 (F := F) (S (Proc.devRef .tc main_arg0)) (S (Proc.devRef .tc main_arg2)) :=
  (h.c.tail.tail.tail.tail.tail.tail.tail.tail.tail.tail.tail.tail.tail.tail.tail.tail.tail.tail.tail.tail.tail.tail.tail.tail.tail.tail.tail.tail.tail.head).unary (s_v77 h)

theorem s_v80 {S : Valuation τ sig (Elt F)} (h : Sol S) :
    S (Proc.devRef .tc main_v80) = val_main_v80 (F := F) (S (Proc.devRef .tc main_arg0)) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.tail.tail.tail.tail.tail.tail.tail.tail.head).binary (s_v79 h) (s_v78 h)

theorem s_v81 {S : Valuation τ sig (Elt F)} (h : Sol S) :
    S (Proc.devRef .tc main_v81) = val_main_v81 (F := F) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.tail.tail.tail.tail.tail.tail.tail.tail.tail.head).unary (s_v73 h)

theorem s_v82 {S : Valuation τ sig (Elt F)} (h : Sol S) :
    S (Proc.devRef .tc main_v82) = val_main_v82 (F := F) (S (Proc.devRef .tc main_arg0)) (S (Proc.devRef .tc main_arg1)) (S (Proc.devRef .tc main_arg2)) (S (Proc.devRef .tc main_arg4)) (S (Proc.devRef .tc main_arg5)) :=
  (h.c.tail.tail.tail.tail.tail.tail.tail.tail.tail.tail.tail.tail.tail.tail.tail.tail.tail.tail.tail.tail.tail.tail.tail.tail.tail.tail.tail.tail.tail.tail.tail.tail.head).binary (s_v80 h) (s_v81 h)

end Cert.ReferenceIdeal.HandRun

end
-- ==== Proof.RefRunVal4.lean ====
/- Inputs: scratch/Run.generated.lean.txt lines 26-156 (the operations), proof/Proof/RefReadP.lean (each val_'s parameters).
   A table: each row cites its builder's read-off law at the operation's equation and the rows of its operands. -/
import proofs.«158136_j57621281243745_1_alg».proof.Proof.RefRunVal3

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

theorem s_cst_3 {S : Valuation τ sig (Elt F)} (h : Sol S) :
    S (Proc.devRef .tc main_cst_3) = val_main_cst_3 (F := F) :=
  (h.d.head).nullary

theorem s_v83 {S : Valuation τ sig (Elt F)} (h : Sol S) :
    S (Proc.devRef .tc main_v83) = val_main_v83 (F := F) (S (Proc.devRef .tc main_arg0)) (S (Proc.devRef .tc main_arg1)) (S (Proc.devRef .tc main_arg2)) (S (Proc.devRef .tc main_arg4)) (S (Proc.devRef .tc main_arg5)) :=
  (h.d.tail.head).binary (s_v82 h) (s_cst_3 h)

theorem s_v84 {S : Valuation τ sig (Elt F)} (h : Sol S) :
    S (Proc.devRef .tc main_v84) = val_main_v84 (F := F) (S (Proc.devRef .tc main_arg0)) (S (Proc.devRef .tc main_arg2)) :=
  (h.d.tail.tail.head).unary (s_v69 h)

theorem s_v85 {S : Valuation τ sig (Elt F)} (h : Sol S) :
    S (Proc.devRef .tc main_v85) = val_main_v85 (F := F) (S (Proc.devRef .tc main_arg0)) (S (Proc.devRef .tc main_arg2)) :=
  (h.d.tail.tail.tail.head).unary (s_v84 h)

theorem s_v86 {S : Valuation τ sig (Elt F)} (h : Sol S) :
    S (Proc.devRef .tc main_v86) = val_main_v86 (F := F) (S (Proc.devRef .tc main_arg1)) (S (Proc.devRef .tc main_arg2)) (S (Proc.devRef .tc main_arg4)) (S (Proc.devRef .tc main_arg5)) :=
  (h.d.tail.tail.tail.tail.head).unary (s_v72 h)

theorem s_v87 {S : Valuation τ sig (Elt F)} (h : Sol S) :
    S (Proc.devRef .tc main_v87) = val_main_v87 (F := F) (S (Proc.devRef .tc main_arg0)) (S (Proc.devRef .tc main_arg2)) :=
  (h.d.tail.tail.tail.tail.tail.head).unary (s_v85 h)

theorem s_v88 {S : Valuation τ sig (Elt F)} (h : Sol S) :
    S (Proc.devRef .tc main_v88) = val_main_v88 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.head).binary (s_v87 h) (s_v86 h)

theorem s_v89 {S : Valuation τ sig (Elt F)} (h : Sol S) :
    S (Proc.devRef .tc main_v89) = val_main_v89 (F := F) (S (Proc.devRef .tc main_arg1)) (S (Proc.devRef .tc main_arg2)) (S (Proc.devRef .tc main_arg4)) (S (Proc.devRef .tc main_arg5)) :=
  (h.d.tail.tail.tail.tail.tail.tail.tail.head).unary (s_v73 h)

theorem s_v90 {S : Valuation τ sig (Elt F)} (h : Sol S) :
    S (Proc.devRef .tc main_v90) = val_main_v90 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.head).binary (s_v88 h) (s_v89 h)

theorem s_cst_4 {S : Valuation τ sig (Elt F)} (h : Sol S) :
    S (Proc.devRef .tc main_cst_4) = val_main_cst_4 (F := F) :=
  (h.d.tail.tail.tail.tail.tail.tail.tail.tail.tail.head).nullary

theorem s_v91 {S : Valuation τ sig (Elt F)} (h : Sol S) :
    S (Proc.devRef .tc main_v91) = val_main_v91 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.head).binary (s_v90 h) (s_cst_4 h)

theorem s_v92 {S : Valuation τ sig (Elt F)} (h : Sol S) :
    S (Proc.devRef .tc main_v92) = val_main_v92 (F := F) (S (Proc.devRef .tc main_arg1)) (S (Proc.devRef .tc main_arg2)) (S (Proc.devRef .tc main_arg4)) (S (Proc.devRef .tc main_arg5)) :=
  (h.d.tail.tail.tail.tail.tail.tail.tail.tail.tail.tail.tail.head).unary (s_v72 h)

theorem s_cst_5 {S : Valuation τ sig (Elt F)} (h : Sol S) :
    S (Proc.devRef .tc main_cst_5) = val_main_cst_5 (F := F) :=
  (h.d.tail.tail.tail.tail.tail.tail.tail.tail.tail.tail.tail.tail.head).nullary

theorem s_v93 {S : Valuation τ sig (Elt F)} (h : Sol S) :
    S (Proc.devRef .tc main_v93) = val_main_v93 (F := F) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.head).binary (s_v92 h) (s_cst_5 h)

theorem s_v94 {S : Valuation τ sig (Elt F)} (h : Sol S) :
    S (Proc.devRef .tc main_v94) = val_main_v94 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.head).unary (s_v91 h)

theorem s_v95 {S : Valuation τ sig (Elt F)} (h : Sol S) :
    S (Proc.devRef .tc main_v95) = val_main_v95 (F := F) (S (Proc.devRef .tc main_arg0)) (S (Proc.devRef .tc main_arg2)) :=
  (h.d.tail.tail.tail.tail.tail.tail.tail.tail.tail.tail.tail.tail.tail.tail.tail.head).unary (s_v75 h)

theorem s_v96 {S : Valuation τ sig (Elt F)} (h : Sol S) :
    S (Proc.devRef .tc main_v96) = val_main_v96 (F := F) (S (Proc.devRef .tc main_arg3)) :=
  (h.d.tail.tail.tail.tail.tail.tail.tail.tail.tail.tail.tail.tail.tail.tail.tail.tail.head).unary rfl

theorem s_v97 {S : Valuation τ sig (Elt F)} (h : Sol S) :
    S (Proc.devRef .tc main_v97) = val_main_v97 (F := F) (S (Proc.devRef .tc main_arg0)) (S (Proc.devRef .tc main_arg2)) :=
  (h.d.tail.tail.tail.tail.tail.tail.tail.tail.tail.tail.tail.tail.tail.tail.tail.tail.tail.head).unary (s_v95 h)

theorem s_v98 {S : Valuation τ sig (Elt F)} (h : Sol S) :
    S (Proc.devRef .tc main_v98) = val_main_v98 (F := F) (S (Proc.devRef .tc main_arg3)) :=
  (h.d.tail.tail.tail.tail.tail.tail.tail.tail.tail.tail.tail.tail.tail.tail.tail.tail.tail.tail.head).unary (s_v96 h)

theorem s_v99 {S : Valuation τ sig (Elt F)} (h : Sol S) :
    S (Proc.devRef .tc main_v99) = val_main_v99 (F := F) (S (Proc.devRef .tc main_arg0)) (S (Proc.devRef .tc main_arg2)) (S (Proc.devRef .tc main_arg3)) :=
  (h.d.tail.tail.tail.tail.tail.tail.tail.tail.tail.tail.tail.tail.tail.tail.tail.tail.tail.tail.tail.head).binary (s_v97 h) (s_v98 h)

theorem s_v100 {S : Valuation τ sig (Elt F)} (h : Sol S) :
    S (Proc.devRef .tc main_v100) = val_main_v100 (F := F) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.head).unary (s_v93 h)

theorem s_v101 {S : Valuation τ sig (Elt F)} (h : Sol S) :
    S (Proc.devRef .tc main_v101) = val_main_v101 (F := F) (S (Proc.devRef .tc main_arg0)) (S (Proc.devRef .tc main_arg2)) (S (Proc.devRef .tc main_arg3)) :=
  (h.d.tail.tail.tail.tail.tail.tail.tail.tail.tail.tail.tail.tail.tail.tail.tail.tail.tail.tail.tail.tail.tail.head).unary (s_v99 h)

theorem s_v102 {S : Valuation τ sig (Elt F)} (h : Sol S) :
    S (Proc.devRef .tc main_v102) = val_main_v102 (F := F) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.tail.tail.head).unary (s_v100 h)

theorem s_v103 {S : Valuation τ sig (Elt F)} (h : Sol S) :
    S (Proc.devRef .tc main_v103) = val_main_v103 (F := F) (S (Proc.devRef .tc main_arg0)) (S (Proc.devRef .tc main_arg1)) (S (Proc.devRef .tc main_arg2)) (S (Proc.devRef .tc main_arg3)) (S (Proc.devRef .tc main_arg4)) (S (Proc.devRef .tc main_arg5)) :=
  (h.d.tail.tail.tail.tail.tail.tail.tail.tail.tail.tail.tail.tail.tail.tail.tail.tail.tail.tail.tail.tail.tail.tail.tail.head).binary (s_v101 h) (s_v102 h)

theorem s_v104 {S : Valuation τ sig (Elt F)} (h : Sol S) :
    S (Proc.devRef .tc main_v104) = val_main_v104 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.tail.tail.tail.tail.head).unary (s_v94 h)

theorem s_v105 {S : Valuation τ sig (Elt F)} (h : Sol S) :
    S (Proc.devRef .tc main_v105) = val_main_v105 (F := F) (S (Proc.devRef .tc main_arg0)) (S (Proc.devRef .tc main_arg1)) (S (Proc.devRef .tc main_arg2)) (S (Proc.devRef .tc main_arg3)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.head).binary (s_v104 h) (s_v103 h)

theorem s_v106 {S : Valuation τ sig (Elt F)} (h : Sol S) :
    S (Proc.devRef .tc main_v106) = val_main_v106 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.head).unary (s_v83 h)

theorem s_v107 {S : Valuation τ sig (Elt F)} (h : Sol S) :
    S (Proc.devRef .tc main_v107) = val_main_v107 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.tail.head).unary (s_v106 h)

theorem s_v108 {S : Valuation τ sig (Elt F)} (h : Sol S) :
    S (Proc.devRef .tc main_v108) = val_main_v108 (F := F) (S (Proc.devRef .tc main_arg0)) (S (Proc.devRef .tc main_arg1)) (S (Proc.devRef .tc main_arg2)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.tail.tail.head).unary (s_v83 h)

theorem s_v109 {S : Valuation τ sig (Elt F)} (h : Sol S) :
    S (Proc.devRef .tc main_v109) = val_main_v109 (F := F) (S (Proc.devRef .tc main_arg0)) (S (Proc.devRef .tc main_arg1)) (S (Proc.devRef .tc main_arg2)) (S (Proc.devRef .tc main_arg3)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.tail.tail.tail.head).binary (s_v107 h) (s_v105 h)

theorem s_v110 {S : Valuation τ sig (Elt F)} (h : Sol S) :
    S (Proc.devRef .tc main_v110) = val_main_v110 (F := F) (S (Proc.devRef .tc main_arg0)) (S (Proc.devRef .tc main_arg1)) (S (Proc.devRef .tc main_arg2)) (S (Proc.devRef .tc main_arg3)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.tail.tail.tail.tail.head).reshape (s_v109 h)

theorem s_v111 {S : Valuation τ sig (Elt F)} (h : Sol S) :
    S (Proc.devRef .tc main_v111) = val_main_v111 (F := F) (S (Proc.devRef .tc main_arg0)) (S (Proc.devRef .tc main_arg1)) (S (Proc.devRef .tc main_arg2)) (S (Proc.devRef .tc main_arg3)) (S (Proc.devRef .tc main_arg4)) (S (Proc.devRef .tc main_arg5)) :=
  (h.d.tail.tail.tail.tail.tail.tail.tail.tail.tail.tail.tail.tail.tail.tail.tail.tail.tail.tail.tail.tail.tail.tail.tail.tail.tail.tail.tail.tail.tail.tail.tail.head).binary (s_v110 h) (s_v108 h)

end Cert.ReferenceIdeal.HandRun

end
-- ==== Proof.RefRun.lean ====
/-
  The reference program's run: every weakly fair execution of its @main terminates, faults nowhere, leaves the six
  arguments as launched and the result buffer at the last operation's value of the arguments. @main is the straight line of
  its 131 host operations (RefRunMain.lean); operation k writes the reference of index 6+k and reads lower ones, so the
  contents after the line solve every operation's equation and keep the arguments (RefRunLaw.lean); and a solution holds, at
  each operation's result, that operation's `val_` of its contents at the arguments (RefRunVal1 … RefRunVal4, RefRunCat).
-/
import proofs.«158136_j57621281243745_1_alg».proof.Proof.RefRunMain
import proofs.«158136_j57621281243745_1_alg».proof.Proof.RefRunVal4
import Idealize.ShloMosaic.Lib.StableHlo.Run

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111)
        = val_main_v111 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      -- the arguments hold the indices below the line's first: they keep their launch contents through it
      have k : ∀ r : Ref sig .tc, r.idx.val < 6 →
          after (ops (F := F)) (launchContents m c) (Proc.devRef .tc r) = m ((c.tc : Thread nD τ).loc r) :=
        fun r hr => (asc (F := F)).keep (launchContents m c) r hr
      -- the contents after the line are a solution, so the last result is its val_ of the solution at the arguments
      ⟨(h c main_v111).trans ((s_v111 (sol_after (launchContents m c))).trans (by
          rw [k main_arg0 (by decide), k main_arg1 (by decide), k main_arg2 (by decide), k main_arg3 (by decide), k main_arg4 (by decide), k main_arg5 (by decide)])),
       (h c main_arg0).trans (k main_arg0 (by decide)),
       (h c main_arg1).trans (k main_arg1 (by decide)),
       (h c main_arg2).trans (k main_arg2 (by decide)),
       (h c main_arg3).trans (k main_arg3 (by decide)),
       (h c main_arg4).trans (k main_arg4 (by decide)),
       (h c main_arg5).trans (k main_arg5 (by decide))⟩)
    (run_seq scopedRefs_eq scopedSems_eq defs main (fun _ => ops) main_eq
      (fun _ => List.forall_iff_forall_mem.mpr (asc (F := F)).bufs_sub) m ρ (fun _ => (asc (F := F)).fresh))

end Cert.ReferenceIdeal.HandRun

end
-- ==== Proof.Val.Spec.lean ====
/-
  The result of both programs as plain functions of the six inputs, over the extended reals.

  Inputs: times `t b l`, projected features `Pj b l j` (columns 0 … 63 the linear part, 64 … 127 the bias
  part; `proj` below says how they come from the features and the two weight matrices), the padding mask
  `mk b l` (one bit), the eight sample positions `u s`.

  At every event (b, l) and output channel o the programs form, for a shift s = 0 … 8 back in time,

      valid s = mask(l - s) and mask(l)          (false before the sequence's start)
      delta s = t(l) - t(l - s)   where valid, else 0
      lin s   = Pj(l - s, o)      where valid, else 0
      bia s   = Pj(l - s, o + 64) where valid, else 0

  and from them  real = Σ_{s = 1 … 8} (delta s · lin s + bia s),  sim₀ = Σ_{s = 0 … 7} (delta s · lin s + bia s),
  sumlin = Σ_{s = 0 … 7} lin s,  and  sim s' = sim₀ + (udt · u s') · sumlin  with udt = t(l + 1) - t(l) where
  both l and l + 1 are unmasked, else 0.  The result row 9·l + p holds real at p = 0 and sim (p - 1) at p = 1 … 8,
  for l < 2047; the last row, 18423, holds real at l = 2047.

  The kernel takes "where valid, else 0" as a product with the mask read as the number 0 or 1 (`outK`); the
  reference as a selection, and indexes the shifts by k = 8 - s (`outR`). `outK_eq_outR`: they are one function.
-/
import Idealize.ShloMosaic.PureOps.Ideal
import Idealize.ShloMosaic.Lib.ValueIdx

noncomputable section

namespace Cert.Spec

open Idealize.ShloMosaic

/-- The projection: the features times [Wᵀ | bias], `Wm o c` the linear layer's weight, `Bm c o` the bias
    parameter. -/
def proj (f : Fin 32 → Fin 2048 → Fin 64 → EReal) (Wm Bm : Fin 64 → Fin 64 → EReal)
    (b : Fin 32) (l : Fin 2048) (j : Fin 128) : EReal :=
  if h : j.val < 64 then ∑ c : Fin 64, f b l c * Wm ⟨j.val, h⟩ c
  else ∑ c : Fin 64, f b l c * Bm c ⟨j.val - 64, by have := j.isLt; omega⟩

/-- The first kernel's product array: rows of the flattened features against the stacked weights. -/
def matmulSpec (x : (⟨2, ![65536, 64]⟩ : Shape).Idx → EReal) (w : (⟨2, ![64, 128]⟩ : Shape).Idx → EReal) :
    (⟨2, ![65536, 128]⟩ : Shape).Idx → EReal :=
  fun i => ∑ k : Fin 64, x (ValueIdx.ix2 (i 0) k) * w (ValueIdx.ix2 k (i 1))

variable (t : Fin 32 → Fin 2048 → EReal) (Pj : Fin 32 → Fin 2048 → Fin 128 → EReal)
  (mk : Fin 32 → Fin 2048 → BitVec 1) (u : Fin 8 → EReal)

/-- Channel `o` of the linear part and of the bias part. -/
abbrev lo (o : Fin 64) : Fin 128 := ⟨o.val, by have := o.isLt; omega⟩
abbrev hi (o : Fin 64) : Fin 128 := ⟨o.val + 64, by have := o.isLt; omega⟩

/-! ## The kernel's form: masks as numbers -/

/-- The mask bit as the number 0 or 1. -/
def mf (b : Fin 32) (l : Fin 2048) : EReal := (((mk b l).toNat : ℝ) : EReal)

/-- Reads `s` steps back, zero before the start. -/
def tB (b : Fin 32) (l : Fin 2048) (s : ℕ) : EReal :=
  if h : s ≤ l.val then t b ⟨l.val - s, by have := l.isLt; omega⟩ else 0
def pB (b : Fin 32) (l : Fin 2048) (s : ℕ) (j : Fin 128) : EReal :=
  if h : s ≤ l.val then Pj b ⟨l.val - s, by have := l.isLt; omega⟩ j else 0
def mB (b : Fin 32) (l : Fin 2048) (s : ℕ) : EReal :=
  if h : s ≤ l.val then mf mk b ⟨l.val - s, by have := l.isLt; omega⟩ else 0
/-- Reads one step ahead, zero past the end. -/
def tN (b : Fin 32) (l : Fin 2048) : EReal := if h : l.val + 1 < 2048 then t b ⟨l.val + 1, h⟩ else 0
def mN (b : Fin 32) (l : Fin 2048) : EReal := if h : l.val + 1 < 2048 then mf mk b ⟨l.val + 1, h⟩ else 0

def validK (b : Fin 32) (l : Fin 2048) (s : ℕ) : EReal := mB mk b l s * mf mk b l
def linK (b : Fin 32) (l : Fin 2048) (o : Fin 64) (s : ℕ) : EReal := pB Pj b l s (lo o) * validK mk b l s
def termK (b : Fin 32) (l : Fin 2048) (o : Fin 64) (s : ℕ) : EReal :=
  (validK mk b l s * (t b l - tB t b l s)) * linK Pj mk b l o s + pB Pj b l s (hi o) * validK mk b l s
def realK (b : Fin 32) (l : Fin 2048) (o : Fin 64) : EReal := ∑ i : Fin 8, termK t Pj mk b l o (i.val + 1)
def sim0K (b : Fin 32) (l : Fin 2048) (o : Fin 64) : EReal := ∑ i : Fin 8, termK t Pj mk b l o i.val
def sumlinK (b : Fin 32) (l : Fin 2048) (o : Fin 64) : EReal := ∑ i : Fin 8, linK Pj mk b l o i.val
def udtK (b : Fin 32) (l : Fin 2048) : EReal := (mf mk b l * mN mk b l) * (tN t b l - t b l)
def simK (b : Fin 32) (l : Fin 2048) (s' : Fin 8) (o : Fin 64) : EReal :=
  sim0K t Pj mk b l o + (udtK t mk b l * u s') * sumlinK Pj mk b l o
/-- One cell of the (32, 2048, 9, 64) array the second kernel writes. -/
def cellK (b : Fin 32) (l : Fin 2048) (p : Fin 9) (o : Fin 64) : EReal :=
  if h : p.val = 0 then realK t Pj mk b l o else simK t Pj mk u b l ⟨p.val - 1, by have := p.isLt; omega⟩ o
/-- The (32, 18424, 64) result. -/
def outK (b : Fin 32) (n : Fin 18424) (o : Fin 64) : EReal :=
  if h : n.val < 18423 then cellK t Pj mk u b ⟨n.val / 9, by omega⟩ ⟨n.val % 9, Nat.mod_lt _ (by decide)⟩ o
  else cellK t Pj mk u b ⟨2047, by decide⟩ ⟨0, by decide⟩ o

/-! ## The reference's form: masks as selections, the shifts indexed by k = 8 - s -/

/-- Reads at position l + k - 8 of the front-padded sequences (k = 0 … 8): the pad's value before the start. -/
def tR (b : Fin 32) (l : Fin 2048) (k : ℕ) : EReal :=
  if h : 8 ≤ k + l.val ∧ k ≤ 8 then t b ⟨k + l.val - 8, by have := l.isLt; omega⟩ else 0
def pR (b : Fin 32) (l : Fin 2048) (k : ℕ) (j : Fin 128) : EReal :=
  if h : 8 ≤ k + l.val ∧ k ≤ 8 then Pj b ⟨k + l.val - 8, by have := l.isLt; omega⟩ j else 0
def mR (b : Fin 32) (l : Fin 2048) (k : ℕ) : BitVec 1 :=
  if h : 8 ≤ k + l.val ∧ k ≤ 8 then mk b ⟨k + l.val - 8, by have := l.isLt; omega⟩ else 0#1
/-- The window's validity bit. -/
def dtm (b : Fin 32) (l : Fin 2048) (k : ℕ) : BitVec 1 := mR mk b l k &&& mk b l
def deltaR (b : Fin 32) (l : Fin 2048) (k : ℕ) : EReal := if dtm mk b l k = 1#1 then t b l - tR t b l k else 0
def preR (b : Fin 32) (l : Fin 2048) (k : ℕ) (j : Fin 128) : EReal := if dtm mk b l k = 1#1 then pR Pj b l k j else 0
def termR (b : Fin 32) (l : Fin 2048) (o : Fin 64) (k : ℕ) : EReal :=
  deltaR t mk b l k * preR Pj mk b l k (lo o) + preR Pj mk b l k (hi o)
def realR (b : Fin 32) (l : Fin 2048) (o : Fin 64) : EReal := 0 + ∑ k : Fin 8, termR t Pj mk b l o k.val
def sim0R (b : Fin 32) (l : Fin 2048) (o : Fin 64) : EReal := 0 + ∑ k : Fin 8, termR t Pj mk b l o (k.val + 1)
def sumlinR (b : Fin 32) (l : Fin 2048) (o : Fin 64) : EReal := 0 + ∑ k : Fin 8, preR Pj mk b l (k.val + 1) (lo o)
/-- The step to the next event: the reference reads it at the NEXT position, shift k = 7. -/
def udtR (b : Fin 32) (l : Fin 2048) : EReal := if h : l.val + 1 < 2048 then deltaR t mk b ⟨l.val + 1, h⟩ 7 else 0
def simR (b : Fin 32) (l : Fin 2048) (s' : Fin 8) (o : Fin 64) : EReal :=
  sim0R t Pj mk b l o + (udtR t mk b l * u s') * sumlinR Pj mk b l o
def cellR (b : Fin 32) (l : Fin 2048) (p : Fin 9) (o : Fin 64) : EReal :=
  if h : p.val = 0 then realR t Pj mk b l o else simR t Pj mk u b l ⟨p.val - 1, by have := p.isLt; omega⟩ o
def outR (b : Fin 32) (n : Fin 18424) (o : Fin 64) : EReal :=
  if h : n.val < 18423 then cellR t Pj mk u b ⟨n.val / 9, by omega⟩ ⟨n.val % 9, Nat.mod_lt _ (by decide)⟩ o
  else cellR t Pj mk u b ⟨2047, by decide⟩ ⟨0, by decide⟩ o

/-! ## One cell, from the rows it reads

A cell of the second kernel's output at an event depends on nine rows of projected features (`fr d`, d = 0 … 8: the
event's own row is d = 8, the row s events back is d = 8 - s) and ten of the times and of the mask read as numbers
(`tr d`, `mr d`, d = 0 … 9: d = 9 is the next event), and on the sample positions `us`. -/

section Generic

variable (fr : ℕ → Fin 128 → EReal) (tr mr : ℕ → EReal) (us : Fin 8 → EReal)

def validG (s : ℕ) : EReal := mr (8 - s) * mr 8
def linG (o : Fin 64) (s : ℕ) : EReal := fr (8 - s) (lo o) * validG mr s
def termG (o : Fin 64) (s : ℕ) : EReal :=
  (validG mr s * (tr 8 - tr (8 - s))) * linG fr mr o s + fr (8 - s) (hi o) * validG mr s
def realG (o : Fin 64) : EReal := ∑ i : Fin 8, termG fr tr mr o (i.val + 1)
def sim0G (o : Fin 64) : EReal := ∑ i : Fin 8, termG fr tr mr o i.val
def sumlinG (o : Fin 64) : EReal := ∑ i : Fin 8, linG fr mr o i.val
def udtG : EReal := (mr 8 * mr 9) * (tr 9 - tr 8)
def simG (s' : Fin 8) (o : Fin 64) : EReal := sim0G fr tr mr o + (udtG tr mr * us s') * sumlinG fr mr o
def cellG (p : Fin 9) (o : Fin 64) : EReal :=
  if h : p.val = 0 then realG fr tr mr o else simG fr tr mr us ⟨p.val - 1, by have := p.isLt; omega⟩ o

end Generic

open ValueIdx

/-- Row `row` of a 64-row block followed by the `K` rows after it (two staging buffers side by side), at
    sequence `b` and column `j`; zero past the two. -/
def win3 {K C : ℕ} (xa : (⟨3, ![32, 64, C]⟩ : Shape).Idx → EReal) (xb : (⟨3, ![32, K, C]⟩ : Shape).Idx → EReal)
    (b : Fin 32) (row : ℕ) (j : Fin C) : EReal :=
  if h : row < 64 then xa (ix3 b ⟨row, h⟩ j)
  else if h' : row - 64 < K then xb (ix3 b ⟨row - 64, h'⟩ j) else 0

/-! ## One cell from the PADDED arrays the second kernel is handed

The second kernel reads the projected features padded by 8 zero rows in front (`fp`, 2056 rows), the times and the
mask (as numbers) padded by 8 zero rows in front and 8 behind (`tp`, `mp`, 2064 rows, one column) and the sample
positions as a 1 x 8 array (`u2`). Event l's row d sits at padded row l + d. -/

section Padded

variable (fp : (⟨3, ![32, 2056, 128]⟩ : Shape).Idx → EReal) (tp mp : (⟨3, ![32, 2064, 1]⟩ : Shape).Idx → EReal)
  (u2 : (⟨2, ![1, 8]⟩ : Shape).Idx → EReal)

/-- Padded row l + d of the times, of the mask, of the projected features (d ≤ 9, resp. d ≤ 8; zero otherwise). -/
def tP (b : Fin 32) (l : Fin 2048) (d : ℕ) : EReal :=
  if h : d ≤ 9 then tp (ix3 b ⟨l.val + d, by have := l.isLt; omega⟩ 0) else 0
def mP (b : Fin 32) (l : Fin 2048) (d : ℕ) : EReal :=
  if h : d ≤ 9 then mp (ix3 b ⟨l.val + d, by have := l.isLt; omega⟩ 0) else 0
def fP (b : Fin 32) (l : Fin 2048) (d : ℕ) (j : Fin 128) : EReal :=
  if h : d ≤ 8 then fp (ix3 b ⟨l.val + d, by have := l.isLt; omega⟩ j) else 0

def cellP (b : Fin 32) (l : Fin 2048) (p : Fin 9) (o : Fin 64) : EReal :=
  cellG (fP fp b l) (tP tp b l) (mP mp b l) (fun s => u2 (ix2 0 s)) p o

end Padded

/-! ## The two results as functions of the six argument arrays -/

section Results

open ValueIdx

variable (a0 : (⟨2, ![32, 2048]⟩ : Shape).Idx → EReal) (a1 : (⟨3, ![32, 2048, 64]⟩ : Shape).Idx → EReal)
  (a2 : (⟨2, ![32, 2048]⟩ : Shape).Idx → BitVec 1) (a3 : (⟨1, ![8]⟩ : Shape).Idx → EReal)
  (a4 a5 : (⟨2, ![64, 64]⟩ : Shape).Idx → EReal)

/-- The arguments by coordinates: times, features, mask, sample positions, the linear weight (o, c), the bias
    parameter (c, o). -/
def tOf (b : Fin 32) (l : Fin 2048) : EReal := a0 (ix2 b l)
def fOf (b : Fin 32) (l : Fin 2048) (c : Fin 64) : EReal := a1 (ix3 b l c)
def mkOf (b : Fin 32) (l : Fin 2048) : BitVec 1 := a2 (ix2 b l)
def uOf (s : Fin 8) : EReal := a3 (ix1 s)
def WOf (o c : Fin 64) : EReal := a4 (ix2 o c)
def BOf (c o : Fin 64) : EReal := a5 (ix2 c o)

/-- The kernel's result array, -/
def resultK : (⟨3, ![32, 18424, 64]⟩ : Shape).Idx → EReal := fun i =>
  outK (tOf a0) (proj (fOf a1) (WOf a4) (BOf a5)) (mkOf a2) (uOf a3) (i 0) (i 1) (i 2)
/-- and the reference's. -/
def resultR : (⟨3, ![32, 18424, 64]⟩ : Shape).Idx → EReal := fun i =>
  outR (tOf a0) (proj (fOf a1) (WOf a4) (BOf a5)) (mkOf a2) (uOf a3) (i 0) (i 1) (i 2)

end Results

end Cert.Spec

end
-- ==== Proof.Val.K0.lean ====
/-
  What region 0 leaves in the product array, at the exact reals: row r, column j holds the sum over c of
  features-row r at c times the stacked weights at (c, j). (A change of float format is the identity there, so the
  bf16 casts in front of the matrix unit disappear.)

  The stored block at an index is the 64-term sum of products of the two input blocks (the matrix unit into a zero
  accumulator); at grid point t the features' block and the product's block sit at row offset 8192·t and the weights'
  block is the whole matrix, so what point t writes back is block t of ONE function of the two arrays; the eight
  blocks cover the 65536 rows (row r lies in block r / 8192), so the array ends holding that function.
-/
import proofs.«158136_j57621281243745_1_alg».proof.Proof.Fr.Data
import proofs.«158136_j57621281243745_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-! ## The matrix unit's product at an index -/

/-- The dimension numbers of the block product: contract the left operand's columns with the right operand's rows. -/
private abbrev D0 : DotDims S8192x64 S64x128 S8192x128 := dot_S8192x64_S64x128_S8192x128_1_0_0_1_n_n

/-- The left operand is read at the result's row … -/
private theorem lhs0_0 (j : S8192x128.Idx) (q : D0.contr.Idx) : (D0.lhsIdx j q 0).val = (j 0).val := by
  unfold DotDims.lhsIdx
  rw [dif_neg (show ¬(0 : Fin S8192x64.rank) ∈ D0.lhsBatch by decide), dif_pos (show (0 : Fin S8192x64.rank) ∈ D0.lhsNonContracting by decide)]
  rfl
/-- … and the contraction position; -/
private theorem lhs0_1 (j : S8192x128.Idx) (q : D0.contr.Idx) : (D0.lhsIdx j q 1).val = (q ⟨0, by decide⟩).val :=
  D0.lhsIdx_val_of_single rfl j q
/-- the right operand at the contraction position … -/
private theorem rhs0_0 (j : S8192x128.Idx) (q : D0.contr.Idx) : (D0.rhsIdx j q 0).val = (q ⟨0, by decide⟩).val :=
  D0.rhsIdx_val_of_single rfl j q
/-- … and the result's column. -/
private theorem rhs0_1 (j : S8192x128.Idx) (q : D0.contr.Idx) : (D0.rhsIdx j q 1).val = (j 1).val := by
  unfold DotDims.rhsIdx
  rw [dif_neg (show ¬(1 : Fin S64x128.rank) ∈ D0.rhsBatch by decide), dif_pos (show (1 : Fin S64x128.rank) ∈ D0.rhsNonContracting by decide)]
  rfl

/-- What the body stores, at an index of the block: the same-shape casts are the identity, the narrowing to bf16 is the
    identity on extended reals, and the product into the zero accumulator is the sum over the 64 contraction positions. -/
private theorem pay0_apply (x0 : Vec Ideal S8192x64 .f32) (x1 : Vec Ideal S64x128 .f32) (j : S8192x128.Idx) :
    k0_pay1 (F := Ideal) x0 x1 j = ∑ k : Fin 64, x0 (ix2 (j 0) k) * x1 (ix2 k (j 1)) := by
  unfold k0_pay1
  rw [shapeCast_self, shapeCast_self]
  refine (Ideal.matmul_constant_zero_apply D0 none _ _ j).trans ?_
  rw [← Equiv.sum_comp (contrEquiv1 D0 64 rfl rfl).symm]
  refine Finset.sum_congr rfl fun k _ => ?_
  have hk := contrEquiv1_symm_val D0 64 rfl rfl k
  have el : D0.lhsIdx j ((contrEquiv1 D0 64 rfl rfl).symm k) = ix2 (j 0) k := funext fun a => Fin.ext (by
    match a with
    | ⟨0, _⟩ => exact lhs0_0 _ _
    | ⟨1, _⟩ => exact (lhs0_1 _ _).trans hk)
  have er : D0.rhsIdx j ((contrEquiv1 D0 64 rfl rfl).symm k) = ix2 k (j 1) := funext fun a => Fin.ext (by
    match a with
    | ⟨0, _⟩ => exact (rhs0_0 _ _).trans hk
    | ⟨1, _⟩ => exact rhs0_1 _ _)
  rw [el, er]
  rfl

/-! ## The index maps over the grid -/

private theorem hz0 : (![0, 0] : Fin 2 → Nat) = fun _ => 0 := funext fun a => by fin_cases a <;> rfl

/-- The printed index maps, decided over the eight points: the features' block and the product's block are the
    point's own on the row axis and block 0 on the column axis; the weights' block is (0, 0) at every point. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## One point's block is a block of the whole product -/

/-- From input blocks that are the arrays `X`, `W` read through `e0`, `e1`, the stored block is the product of `X` and
    `W` read through `e2`, as soon as `e0` keeps the column and follows `e2` on the row, and `e1` keeps the row and
    follows `e2` on the column. -/
private theorem blk0_eq (X : S65536x64.Idx → EReal) (W : S64x128.Idx → EReal)
    (x0 : Vec Ideal S8192x64 .f32) (x1 : Vec Ideal S64x128 .f32)
    (e0 : S8192x64.Idx → S65536x64.Idx) (e1 : S64x128.Idx → S64x128.Idx) (e2 : S8192x128.Idx → S65536x128.Idx)
    (h0 : ∀ y, x0 y = X (e0 y)) (h1 : ∀ y, x1 y = W (e1 y))
    (he0 : ∀ (j : S8192x128.Idx) (k : Fin 64), e0 (ix2 (j 0) k) = ix2 (e2 j 0) k)
    (he1 : ∀ (j : S8192x128.Idx) (k : Fin 64), e1 (ix2 k (j 1)) = ix2 k (e2 j 1))
    (j : S8192x128.Idx) :
    k0_pay1 (F := Ideal) x0 x1 j = Cert.Spec.matmulSpec X W (e2 j) := by
  rw [pay0_apply]
  unfold Cert.Spec.matmulSpec
  refine Finset.sum_congr rfl fun k _ => ?_
  exact congrArg₂ (· * ·) ((h0 _).trans (congrArg X (he0 j k))) ((h1 _).trans (congrArg W (he1 j k)))

variable (V : (c : Dev nD) → (b : Ref sig .tc) → Buf (Elt Ideal) ((c : Thread nD τ).loc b))

/-- What point `t` writes back is block `t` of the product of the two argument arrays as the region finds them. -/
private theorem flushed0_eq (c : Dev nD) (t : Fin cfg0.N) :
    (dat0 (F := Ideal) V c).flushed 2 t
      = ((cfg0.win 2).blk t).view.read (Elt Ideal) (Cert.Spec.matmulSpec (V c main_v2) (V c main_v1)) := by
  show (cfg0.win 2).cut (grid0.coords t) ((dat0 V c).after 2 t) = _
  rw [after0_2]
  unfold out0_2
  rw [View.canon_unit_zero hz0]
  simp only [View.ld_unit_zero (S := S8192x64) hz0, View.ld_unit_zero (S := S64x128) hz0]
  obtain ⟨a0, a1, b0, b1, c0, c1⟩ := idx_facts0 t
  funext j
  show k0_pay1 (iblk0 V c 0 t) (iblk0 V c 1 t) j
    = Cert.Spec.matmulSpec (V c main_v2) (V c main_v1) (((cfg0.win 2).blk t).view.emb j)
  refine blk0_eq (V c main_v2) (V c main_v1) _ _ (fun y => ((cfg0.win 0).blk t).view.emb y)
    (fun y => ((cfg0.win 1).blk t).view.emb y) (fun y => ((cfg0.win 2).blk t).view.emb y)
    (fun y => rfl) (fun y => rfl) ?_ ?_ j
  · intro j k
    funext a; apply Fin.ext
    match a with
    | ⟨0, _⟩ =>
      show win0_0.index t (0 : Fin 2) * 8192 + 1 * (j 0).val = win0_2.index t (0 : Fin 2) * 8192 + 1 * (j 0).val
      omega
    | ⟨1, _⟩ =>
      show win0_0.index t (1 : Fin 2) * 64 + 1 * k.val = k.val
      omega
  · intro j k
    funext a; apply Fin.ext
    match a with
    | ⟨0, _⟩ =>
      show win0_1.index t (0 : Fin 2) * 64 + 1 * k.val = k.val
      omega
    | ⟨1, _⟩ =>
      show win0_1.index t (1 : Fin 2) * 128 + 1 * (j 1).val = win0_2.index t (1 : Fin 2) * 128 + 1 * (j 1).val
      omega

/-! ## The eight blocks cover the array -/

/-- An index of the array is in point `t`'s block iff each coordinate is in the block's range on its axis. -/
private theorem mem_blk0 (t : Fin cfg0.N) (i : S65536x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v3).slice (win0_2.rect t)).set ↔ _
  rw [View.set_slice_whole, Rect.mem_set_unit]
  exact Iff.rfl

/-- Row `r` is in the block of point `r / 8192`. -/
private theorem cover0 (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 8 := N_0
  obtain ⟨t, ht⟩ : ∃ t : Fin cfg0.N, t.val = (i 0).val / 8192 := ⟨⟨(i 0).val / 8192, by rw [hN]; omega⟩, rfl⟩
  obtain ⟨a0, a1, b0, b1, c0, c1⟩ := idx_facts0 t
  refine ⟨t, flush0_2 t, ?_⟩
  rw [mem_blk0]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-! ## The array after the region -/

theorem arrAt0 (c : Dev nD) :
    (dat0 (F := Ideal) V c).arrAt 2 cfg0.N = Cert.Spec.matmulSpec (V c main_v2) (V c main_v1) :=
  (dat0 (F := Ideal) V c).arrAt_eq_of_cover 2 (Cert.Spec.matmulSpec (V c main_v2) (V c main_v1))
    (fun t _ => flushed0_eq V c t) cover0

end Cert.KernelIdeal.Val

end
-- ==== Proof.Val.K1aLeaf.lean ====
/-
  The second kernel's payloads read at an index, at the exact reals: layout laws at its shapes, the three
  block-and-lookahead pairs as `Spec.win3`, and one shift's contribution — validity, time step, linear part, term —
  as vectors and, read at (b, r, o), as `Spec.linG` / `Spec.termG` of the rows r … r + 9.
-/
import proofs.«158136_j57621281243745_1_alg».proof.Proof.Fr.Data
import proofs.«158136_j57621281243745_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-! ## Congruence of the extended reals' operations -/

theorem mul_congr {a a' b b' : EReal} (ha : a = a') (hb : b = b') : a * b = a' * b' := by rw [ha, hb]
theorem add_congr {a a' b b' : EReal} (ha : a = a') (hb : b = b') : a + b = a' + b' := by rw [ha, hb]
theorem sub_congr {a a' b b' : EReal} (ha : a = a') (hb : b = b') : a - b = a' - b' := by rw [ha, hb]

/-! ## Layout laws at the kernel's shapes -/

/-- Two blocks of rows side by side along axis 1 read at a row: the first block below 64, the second past it. -/
theorem cat_apply {K C T : ℕ} (xa : (⟨3, ![32, 64, C]⟩ : Shape).Idx → EReal) (xb : (⟨3, ![32, K, C]⟩ : Shape).Idx → EReal)
    (h : Shape.Concatenates [(⟨3, ![32, 64, C]⟩ : Shape), ⟨3, ![32, K, C]⟩] ⟨3, ![32, T, C]⟩ 1) (hT : T = 64 + K)
    (b : Fin 32) (row : Fin T) (j : Fin C) :
    concatenate (⟨3, ![32, T, C]⟩ : Shape) 1 [⟨(⟨3, ![32, 64, C]⟩ : Shape), xa⟩, ⟨(⟨3, ![32, K, C]⟩ : Shape), xb⟩] h (ix3 b row j)
      = Cert.Spec.win3 xa xb b row.val j := by
  unfold Cert.Spec.win3
  by_cases hr : row.val < 64
  · rw [dif_pos hr]
    exact concatenate_pair_apply_left 1 xa xb h (ix3 b row j) rfl (ix3 b ⟨row.val, hr⟩ j)
      (fun ax => match ax with | ⟨0, _⟩ => rfl | ⟨1, _⟩ => rfl | ⟨2, _⟩ => rfl)
  · have hk : row.val - 64 < K := by have := row.isLt; omega
    rw [dif_neg hr, dif_pos hk]
    exact concatenate_pair_apply_right 1 xa xb h (ix3 b row j) rfl rfl (ix3 b ⟨row.val - 64, hk⟩ j)
      (fun ax hne => match ax, hne with
        | ⟨0, _⟩, _ => rfl
        | ⟨1, _⟩, hne => absurd rfl hne
        | ⟨2, _⟩, _ => rfl)
      (by show (row.val - 64) + 64 = row.val; omega)

/-- The lanes 0 … 63 of a 128-lane block. -/
theorem lane_lo_apply (f : FVec Ideal S32x64x128 .f32) (h : S32x64x128.Slices ![0, 0, 0] S32x64x64) (b : Fin 32) (r : Fin 64) (o : Fin 64) :
    extractStridedSlice S32x64x64 ![0, 0, 0] f h (ix3 b r o) = f (ix3 b r (Cert.Spec.lo o)) :=
  extractStridedSlice_apply _ f h _ _ (fun ax => match ax with
    | ⟨0, _⟩ => (Nat.zero_add _).symm
    | ⟨1, _⟩ => (Nat.zero_add _).symm
    | ⟨2, _⟩ => (Nat.zero_add _).symm)

/-- The lanes 64 … 127 of a 128-lane block. -/
theorem lane_hi_apply (f : FVec Ideal S32x64x128 .f32) (h : S32x64x128.Slices ![0, 0, 64] S32x64x64) (b : Fin 32) (r : Fin 64) (o : Fin 64) :
    extractStridedSlice S32x64x64 ![0, 0, 64] f h (ix3 b r o) = f (ix3 b r (Cert.Spec.hi o)) :=
  extractStridedSlice_apply _ f h _ _ (fun ax => match ax with
    | ⟨0, _⟩ => (Nat.zero_add _).symm
    | ⟨1, _⟩ => (Nat.zero_add _).symm
    | ⟨2, _⟩ => Nat.add_comm _ _)

/-- A one-lane column spread over `n` lanes reads the column. -/
theorem bcast_col_apply {n : ℕ} (v : (⟨3, ![32, 64, 1]⟩ : Shape).Idx → EReal)
    (h : (⟨3, ![32, 64, 1]⟩ : Shape).Broadcasts ⟨3, ![32, 64, n]⟩) (b : Fin 32) (r : Fin 64) (o : Fin n) :
    broadcastTo (⟨3, ![32, 64, n]⟩ : Shape) v h (ix3 b r o) = v (ix3 b r 0) :=
  broadcastTo_apply v h (ix3 b r o) (ix3 b r 0) (fun ax => match ax with
    | ⟨0, _⟩ => rfl
    | ⟨1, _⟩ => rfl
    | ⟨2, _⟩ => rfl)

/-- A (32, 64, 64) block given a unit third axis reads the block. -/
theorem cast_row_apply (v : FVec Ideal S32x64x64 .f32) (h : S32x64x64.ShapeCasts S32x64x1x64) (b : Fin 32) (r : Fin 64) (z : Fin 1) (o : Fin 64) :
    shapeCast S32x64x1x64 v h (ix4 b r z o) = v (ix3 b r o) :=
  shapeCast_apply v h _ _ (by
    have hz : z.val = 0 := by omega
    rw [Shape.rowMajor_val_three, Shape.rowMajor_val_four]
    show (b.val * 64 + r.val) * 64 + o.val = ((b.val * 64 + r.val) * 1 + z.val) * 64 + o.val
    rw [hz, Nat.mul_one, Nat.add_zero])

/-! ## The three block-and-lookahead pairs -/

section Inputs

variable (x0 : Vec Ideal S32x64x128 .f32) (x1 : Vec Ideal S32x8x128 .f32) (x2 : Vec Ideal S32x64x1 .f32)
  (x3 : Vec Ideal S32x16x1 .f32) (x4 : Vec Ideal S32x64x1 .f32) (x5 : Vec Ideal S32x16x1 .f32)

/-- The projected features' 72 rows. -/
theorem pay4_apply (b : Fin 32) (row : Fin 72) (j : Fin 128) :
    k1_pay4 (F := Ideal) x0 x1 (ix3 b row j) = Cert.Spec.win3 x0 x1 b row.val j := by
  unfold k1_pay4
  rw [shapeCast_self, shapeCast_self]
  exact cat_apply x0 x1 _ rfl b row j

/-- The times' 80 rows. -/
theorem pay5_apply (b : Fin 32) (row : Fin 80) (j : Fin 1) :
    k1_pay5 (F := Ideal) x2 x3 (ix3 b row j) = Cert.Spec.win3 x2 x3 b row.val j := by
  unfold k1_pay5
  rw [shapeCast_self, shapeCast_self]
  exact cat_apply x2 x3 _ rfl b row j

/-- The mask's 80 rows. -/
theorem pay6_apply (b : Fin 32) (row : Fin 80) (j : Fin 1) :
    k1_pay6 (F := Ideal) x4 x5 (ix3 b row j) = Cert.Spec.win3 x4 x5 b row.val j := by
  unfold k1_pay6
  rw [shapeCast_self, shapeCast_self]
  exact cat_apply x4 x5 _ rfl b row j

/-- The 64 rows from row offset `d` of the projected features: row `r` is row `r + d` of the 72. -/
theorem sl4_apply (d : ℕ) (hs : S32x72x128.Slices ![0, d, 0] S32x64x128) (b : Fin 32) (r : Fin 64) (j : Fin 128) :
    extractStridedSlice S32x64x128 ![0, d, 0] (k1_pay4 (F := Ideal) x0 x1) hs (ix3 b r j) = Cert.Spec.win3 x0 x1 b (r.val + d) j := by
  have h1 : d + 64 ≤ 72 := hs.2 1
  have hlt : r.val + d < 72 := by have := r.isLt; omega
  exact (slice3_axis1_apply d _ hs b r j ⟨r.val + d, hlt⟩ (Nat.add_comm _ _)).trans (pay4_apply x0 x1 b ⟨r.val + d, hlt⟩ j)

/-- The same of the times, -/
theorem sl5_apply (d : ℕ) (hs : S32x80x1.Slices ![0, d, 0] S32x64x1) (b : Fin 32) (r : Fin 64) (j : Fin 1) :
    extractStridedSlice S32x64x1 ![0, d, 0] (k1_pay5 (F := Ideal) x2 x3) hs (ix3 b r j) = Cert.Spec.win3 x2 x3 b (r.val + d) j := by
  have h1 : d + 64 ≤ 80 := hs.2 1
  have hlt : r.val + d < 80 := by have := r.isLt; omega
  exact (slice3_axis1_apply d _ hs b r j ⟨r.val + d, hlt⟩ (Nat.add_comm _ _)).trans (pay5_apply x2 x3 b ⟨r.val + d, hlt⟩ j)

/-- and of the mask. -/
theorem sl6_apply (d : ℕ) (hs : S32x80x1.Slices ![0, d, 0] S32x64x1) (b : Fin 32) (r : Fin 64) (j : Fin 1) :
    extractStridedSlice S32x64x1 ![0, d, 0] (k1_pay6 (F := Ideal) x4 x5) hs (ix3 b r j) = Cert.Spec.win3 x4 x5 b (r.val + d) j := by
  have h1 : d + 64 ≤ 80 := hs.2 1
  have hlt : r.val + d < 80 := by have := r.isLt; omega
  exact (slice3_axis1_apply d _ hs b r j ⟨r.val + d, hlt⟩ (Nat.add_comm _ _)).trans (pay6_apply x4 x5 b ⟨r.val + d, hlt⟩ j)

/-- The event's own time, the next event's, the event's own mask, the next event's. -/
theorem pay7_apply (b : Fin 32) (r : Fin 64) (j : Fin 1) :
    k1_pay7 (F := Ideal) x2 x3 (ix3 b r j) = Cert.Spec.win3 x2 x3 b (r.val + 8) j := by
  unfold k1_pay7; exact sl5_apply x2 x3 8 _ b r j
theorem pay8_apply (b : Fin 32) (r : Fin 64) (j : Fin 1) :
    k1_pay8 (F := Ideal) x2 x3 (ix3 b r j) = Cert.Spec.win3 x2 x3 b (r.val + 9) j := by
  unfold k1_pay8; exact sl5_apply x2 x3 9 _ b r j
theorem pay9_apply (b : Fin 32) (r : Fin 64) (j : Fin 1) :
    k1_pay9 (F := Ideal) x4 x5 (ix3 b r j) = Cert.Spec.win3 x4 x5 b (r.val + 8) j := by
  unfold k1_pay9; exact sl6_apply x4 x5 8 _ b r j
theorem pay10_apply (b : Fin 32) (r : Fin 64) (j : Fin 1) :
    k1_pay10 (F := Ideal) x4 x5 (ix3 b r j) = Cert.Spec.win3 x4 x5 b (r.val + 9) j := by
  unfold k1_pay10; exact sl6_apply x4 x5 9 _ b r j

end Inputs

/-! ## One shift's contribution, as vectors

At row offset `d` (the row `8 - d` events back) the kernel forms the validity column (mask `d` rows in times the
event's mask), the time-step column, the 128-lane row block, from them the linear part (lanes 0 … 63 times validity)
and the term ((validity · step) · linear part + lanes 64 … 127 times validity). Each printed payload of a shift is
one of these by unfolding. -/

/-- Validity at row offset `d`. -/
def VAL (d : ℕ) (hs : S32x80x1.Slices ![0, d, 0] S32x64x1) (v14 : FVec Ideal S32x80x1 .f32) (v17 : FVec Ideal S32x64x1 .f32) :
    FVec Ideal S32x64x1 .f32 := mulf (extractStridedSlice S32x64x1 ![0, d, 0] v14 hs) v17
/-- The time step back to row offset `d`. -/
def DLT (d : ℕ) (hs : S32x80x1.Slices ![0, d, 0] S32x64x1) (v9 : FVec Ideal S32x80x1 .f32) (v15 : FVec Ideal S32x64x1 .f32) :
    FVec Ideal S32x64x1 .f32 := subf v15 (extractStridedSlice S32x64x1 ![0, d, 0] v9 hs)
/-- The projected features at row offset `d`. -/
def FRW (d : ℕ) (hs : S32x72x128.Slices ![0, d, 0] S32x64x128) (v4 : FVec Ideal S32x72x128 .f32) :
    FVec Ideal S32x64x128 .f32 := extractStridedSlice S32x64x128 ![0, d, 0] v4 hs
/-- The linear part. -/
def LIN (f : FVec Ideal S32x64x128 .f32) (val : FVec Ideal S32x64x1 .f32) : FVec Ideal S32x64x64 .f32 :=
  mulf (extractStridedSlice S32x64x64 ![0, 0, 0] f slices_S32x64x128_o0_0_0_S32x64x64)
    (broadcastTo S32x64x64 val broadcasts_S32x64x1_S32x64x64)
/-- The term. -/
def TERM (f : FVec Ideal S32x64x128 .f32) (val dlt : FVec Ideal S32x64x1 .f32) : FVec Ideal S32x64x64 .f32 :=
  addf (mulf (broadcastTo S32x64x64 (mulf val dlt) broadcasts_S32x64x1_S32x64x64) (LIN f val))
    (mulf (extractStridedSlice S32x64x64 ![0, 0, 64] f slices_S32x64x128_o0_0_64_S32x64x64)
      (broadcastTo S32x64x64 val broadcasts_S32x64x1_S32x64x64))

/-- The linear part at an index. -/
theorem LIN_apply (f : FVec Ideal S32x64x128 .f32) (val : FVec Ideal S32x64x1 .f32) (b : Fin 32) (r : Fin 64) (o : Fin 64) :
    LIN f val (ix3 b r o) = f (ix3 b r (Cert.Spec.lo o)) * val (ix3 b r 0) := by
  unfold LIN
  refine (mulf_apply _ _ _).trans ?_
  exact mul_congr (lane_lo_apply f _ b r o) (bcast_col_apply val _ b r o)

/-- The term at an index. -/
theorem TERM_apply (f : FVec Ideal S32x64x128 .f32) (val dlt : FVec Ideal S32x64x1 .f32) (b : Fin 32) (r : Fin 64) (o : Fin 64) :
    TERM f val dlt (ix3 b r o)
      = (val (ix3 b r 0) * dlt (ix3 b r 0)) * (f (ix3 b r (Cert.Spec.lo o)) * val (ix3 b r 0))
        + f (ix3 b r (Cert.Spec.hi o)) * val (ix3 b r 0) := by
  unfold TERM
  refine (addf_apply _ _ _).trans ?_
  refine add_congr ((mulf_apply _ _ _).trans ?_) ((mulf_apply _ _ _).trans ?_)
  · exact mul_congr ((bcast_col_apply (mulf val dlt) _ b r o).trans (mulf_apply _ _ _)) (LIN_apply f val b r o)
  · exact mul_congr (lane_hi_apply f _ b r o) (bcast_col_apply val _ b r o)

/-! ## One shift's contribution, from the rows it reads -/

section Generic

variable (fr : ℕ → Fin 128 → EReal) (tr mr : ℕ → EReal)

/-- `Spec.linG` and `Spec.termG` by the row offset `d = 8 - s`. -/
def lnD (o : Fin 64) (d : ℕ) : EReal := fr d (Cert.Spec.lo o) * (mr d * mr 8)
def tmD (o : Fin 64) (d : ℕ) : EReal :=
  ((mr d * mr 8) * (tr 8 - tr d)) * (fr d (Cert.Spec.lo o) * (mr d * mr 8)) + fr d (Cert.Spec.hi o) * (mr d * mr 8)

theorem linG_eq (o : Fin 64) (s : ℕ) : Cert.Spec.linG fr mr o s = lnD fr mr o (8 - s) := rfl
theorem termG_eq (o : Fin 64) (s : ℕ) : Cert.Spec.termG fr tr mr o s = tmD fr tr mr o (8 - s) := rfl

end Generic

section Shift

variable (x0 : Vec Ideal S32x64x128 .f32) (x1 : Vec Ideal S32x8x128 .f32) (x2 : Vec Ideal S32x64x1 .f32)
  (x3 : Vec Ideal S32x16x1 .f32) (x4 : Vec Ideal S32x64x1 .f32) (x5 : Vec Ideal S32x16x1 .f32)

/-- Validity at row offset `d` of the mask pair. -/
theorem VAL_apply (d : ℕ) (hs : S32x80x1.Slices ![0, d, 0] S32x64x1) (b : Fin 32) (r : Fin 64) :
    VAL d hs (k1_pay6 (F := Ideal) x4 x5) (k1_pay9 (F := Ideal) x4 x5) (ix3 b r 0)
      = Cert.Spec.win3 x4 x5 b (r.val + d) 0 * Cert.Spec.win3 x4 x5 b (r.val + 8) 0 := by
  unfold VAL
  refine (mulf_apply _ _ _).trans ?_
  exact mul_congr (sl6_apply x4 x5 d hs b r 0) (pay9_apply x4 x5 b r 0)

/-- The time step back to row offset `d` of the times pair. -/
theorem DLT_apply (d : ℕ) (hs : S32x80x1.Slices ![0, d, 0] S32x64x1) (b : Fin 32) (r : Fin 64) :
    DLT d hs (k1_pay5 (F := Ideal) x2 x3) (k1_pay7 (F := Ideal) x2 x3) (ix3 b r 0)
      = Cert.Spec.win3 x2 x3 b (r.val + 8) 0 - Cert.Spec.win3 x2 x3 b (r.val + d) 0 := by
  unfold DLT
  refine (subf_apply _ _ _).trans ?_
  exact sub_congr (pay7_apply x2 x3 b r 0) (sl5_apply x2 x3 d hs b r 0)

/-- The linear part at row offset `d` of the three pairs is `Spec`'s. -/
theorem linD_apply (d : ℕ) (hs4 : S32x72x128.Slices ![0, d, 0] S32x64x128) (hs1 : S32x80x1.Slices ![0, d, 0] S32x64x1)
    (b : Fin 32) (r : Fin 64) (o : Fin 64) :
    LIN (FRW d hs4 (k1_pay4 (F := Ideal) x0 x1)) (VAL d hs1 (k1_pay6 (F := Ideal) x4 x5) (k1_pay9 (F := Ideal) x4 x5)) (ix3 b r o)
      = lnD (fun d j => Cert.Spec.win3 x0 x1 b (r.val + d) j) (fun d => Cert.Spec.win3 x4 x5 b (r.val + d) 0) o d := by
  refine (LIN_apply _ _ b r o).trans ?_
  exact mul_congr (sl4_apply x0 x1 d hs4 b r _) (VAL_apply x4 x5 d hs1 b r)

/-- The term at row offset `d` of the three pairs is `Spec`'s. -/
theorem termD_apply (d : ℕ) (hs4 : S32x72x128.Slices ![0, d, 0] S32x64x128) (hs1 : S32x80x1.Slices ![0, d, 0] S32x64x1)
    (b : Fin 32) (r : Fin 64) (o : Fin 64) :
    TERM (FRW d hs4 (k1_pay4 (F := Ideal) x0 x1)) (VAL d hs1 (k1_pay6 (F := Ideal) x4 x5) (k1_pay9 (F := Ideal) x4 x5))
        (DLT d hs1 (k1_pay5 (F := Ideal) x2 x3) (k1_pay7 (F := Ideal) x2 x3)) (ix3 b r o)
      = tmD (fun d j => Cert.Spec.win3 x0 x1 b (r.val + d) j) (fun d => Cert.Spec.win3 x2 x3 b (r.val + d) 0)
          (fun d => Cert.Spec.win3 x4 x5 b (r.val + d) 0) o d := by
  refine (TERM_apply _ _ _ b r o).trans ?_
  exact add_congr
    (mul_congr (mul_congr (VAL_apply x4 x5 d hs1 b r) (DLT_apply x2 x3 d hs1 b r))
      (mul_congr (sl4_apply x0 x1 d hs4 b r _) (VAL_apply x4 x5 d hs1 b r)))
    (mul_congr (sl4_apply x0 x1 d hs4 b r _) (VAL_apply x4 x5 d hs1 b r))

end Shift

end Cert.KernelIdeal.Val

end
-- ==== Proof.Val.K1aReal.lean ====
/-
  Plane 0 of the output block the second kernel's body stores, read at an index, at the exact reals: entry (b, r, 0, o)
  is the window sum ending one step back, formed from rows r … r + 8 of the block-and-lookahead pairs of staging
  buffers.

  The body accumulates, from the zero block, the terms of the shifts s = 1, 2, …, 8 in turn; shift s reads row offset
  d = 8 - s of the concatenated pairs (the event itself is d = 8), and its term is
  (valid · (t_cur - t_d)) · (lo_d · valid) + hi_d · valid with valid = m_d · m_cur. The sum over the eight shifts in
  that order is the left-nested one, so it is `Spec.realG` once the leading zero is dropped.
-/
import proofs.«158136_j57621281243745_1_alg».proof.Proof.Fr.Data
import proofs.«158136_j57621281243745_1_alg».proof.Proof.Val.Spec
import proofs.«158136_j57621281243745_1_alg».proof.Proof.Val.K1aLeaf
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

variable (v0 : Vec Ideal S32x64x128 .f32) (v2 : Vec Ideal S32x8x128 .f32) (v5 : Vec Ideal S32x64x1 .f32)
  (v7 : Vec Ideal S32x16x1 .f32) (v10 : Vec Ideal S32x64x1 .f32) (v12 : Vec Ideal S32x16x1 .f32)

/-- The term at row offset `d` (shift s = 8 - d) as the kernel forms it from the three concatenated pairs: features,
    times, mask. -/
private abbrev TD (d : ℕ) (hs4 : S32x72x128.Slices ![0, d, 0] S32x64x128) (hs1 : S32x80x1.Slices ![0, d, 0] S32x64x1) :
    FVec Ideal S32x64x64 .f32 :=
  TERM (FRW d hs4 (k1_pay4 (F := Ideal) v0 v2)) (VAL d hs1 (k1_pay6 (F := Ideal) v10 v12) (k1_pay9 (F := Ideal) v10 v12))
    (DLT d hs1 (k1_pay5 (F := Ideal) v5 v7) (k1_pay7 (F := Ideal) v5 v7))

/-- The accumulator as vectors: the zero block, then the terms at row offsets 7, 6, …, 0 (shifts 1, 2, …, 8) added in
    turn; what the body stores is that sum given a unit third axis. By unfolding the printed payloads. -/
private theorem payReal_vec : payReal (F := Ideal) v0 v2 v5 v7 v10 v12
    = shapeCast S32x64x1x64
        (addf (addf (addf (addf (addf (addf (addf (addf (k1_pay11 (F := Ideal))
          (TD v0 v2 v5 v7 v10 v12 7 slices_S32x72x128_o0_7_0_S32x64x128 slices_S32x80x1_o0_7_0_S32x64x1))
          (TD v0 v2 v5 v7 v10 v12 6 slices_S32x72x128_o0_6_0_S32x64x128 slices_S32x80x1_o0_6_0_S32x64x1))
          (TD v0 v2 v5 v7 v10 v12 5 slices_S32x72x128_o0_5_0_S32x64x128 slices_S32x80x1_o0_5_0_S32x64x1))
          (TD v0 v2 v5 v7 v10 v12 4 slices_S32x72x128_o0_4_0_S32x64x128 slices_S32x80x1_o0_4_0_S32x64x1))
          (TD v0 v2 v5 v7 v10 v12 3 slices_S32x72x128_o0_3_0_S32x64x128 slices_S32x80x1_o0_3_0_S32x64x1))
          (TD v0 v2 v5 v7 v10 v12 2 slices_S32x72x128_o0_2_0_S32x64x128 slices_S32x80x1_o0_2_0_S32x64x1))
          (TD v0 v2 v5 v7 v10 v12 1 slices_S32x72x128_o0_1_0_S32x64x128 slices_S32x80x1_o0_1_0_S32x64x1))
          (TD v0 v2 v5 v7 v10 v12 0 slices_S32x72x128_o0_0_0_S32x64x128 slices_S32x80x1_o0_0_0_S32x64x1))
        shapeCasts_S32x64x64_S32x64x1x64 := rfl

/-- Plane 0 of the output block at (b, r, o): the window sum ending one step back, over rows r … r + 8 of the pairs. -/
theorem payReal_apply (b : Fin 32) (r : Fin 64) (o : Fin 64) :
    payReal (F := Ideal) v0 v2 v5 v7 v10 v12 (ix4 b r 0 o)
      = Cert.Spec.realG (fun d j => Cert.Spec.win3 v0 v2 b (r.val + d) j) (fun d => Cert.Spec.win3 v5 v7 b (r.val + d) 0)
          (fun d => Cert.Spec.win3 v10 v12 b (r.val + d) 0) o := by
  refine (congrFun (payReal_vec v0 v2 v5 v7 v10 v12) _).trans ?_
  refine (cast_row_apply _ _ b r 0 o).trans ?_
  have h0 : k1_pay11 (F := Ideal) (ix3 b r o) = 0 := Ideal.ofBits_zero_f32
  have hT : ∀ (d : ℕ) (hs4 : S32x72x128.Slices ![0, d, 0] S32x64x128) (hs1 : S32x80x1.Slices ![0, d, 0] S32x64x1),
      TD v0 v2 v5 v7 v10 v12 d hs4 hs1 (ix3 b r o)
        = tmD (fun d j => Cert.Spec.win3 v0 v2 b (r.val + d) j) (fun d => Cert.Spec.win3 v5 v7 b (r.val + d) 0)
            (fun d => Cert.Spec.win3 v10 v12 b (r.val + d) 0) o d :=
    fun d hs4 hs1 => termD_apply v0 v2 v5 v7 v10 v12 d hs4 hs1 b r o
  simp only [addf_apply]
  rw [h0, hT, hT, hT, hT, hT, hT, hT, hT, zero_add]
  unfold Cert.Spec.realG
  rw [Fin.sum_univ_eight]
  rfl

end Cert.KernelIdeal.Val

end
-- ==== Proof.Val.K1aSim.lean ====
/-
  Planes 1 … 8 of the block the second kernel's body stores, read at an index, at the exact reals: entry
  (b, r, s', o) is the interpolated sum `Spec.simG` of rows r … r + 9 of the three block-and-lookahead pairs and the
  sample positions.

  The stored vector is  bcast(sim₀) + bcast(udt · u) · bcast(sumlin):  sim₀ the eight terms of row offsets 8 … 1 added
  onto zero in that order, sumlin the eight linear parts likewise, udt the step to the next event where both events
  are unmasked. Each broadcast and unit-axis cast read at an index is its operand at the index with that axis at 0.
-/
import proofs.«158136_j57621281243745_1_alg».proof.Proof.Fr.Data
import proofs.«158136_j57621281243745_1_alg».proof.Proof.Val.Spec
import proofs.«158136_j57621281243745_1_alg».proof.Proof.Val.K1aLeaf
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-! ## The layout laws of the store's last lines -/

/-- A (32, 64, 1, 64) block spread over eight planes of the third axis reads its one plane. -/
private theorem bcast4_row_apply (v : FVec Ideal S32x64x1x64 .f32) (h : S32x64x1x64.Broadcasts S32x64x8x64)
    (b : Fin 32) (r : Fin 64) (s' : Fin 8) (o : Fin 64) :
    broadcastTo S32x64x8x64 v h (ix4 b r s' o) = v (ix4 b r (0 : Fin 1) o) :=
  broadcastTo_apply v h (ix4 b r s' o) (ix4 b r (0 : Fin 1) o) (fun ax => match ax with
    | ⟨0, _⟩ => rfl
    | ⟨1, _⟩ => rfl
    | ⟨2, _⟩ => rfl
    | ⟨3, _⟩ => rfl)

/-- A (32, 64, 8, 1) block spread over 64 lanes reads its one lane. -/
private theorem bcast4_col_apply (v : FVec Ideal S32x64x8x1 .f32) (h : S32x64x8x1.Broadcasts S32x64x8x64)
    (b : Fin 32) (r : Fin 64) (s' : Fin 8) (o : Fin 64) :
    broadcastTo S32x64x8x64 v h (ix4 b r s' o) = v (ix4 b r s' (0 : Fin 1)) :=
  broadcastTo_apply v h (ix4 b r s' o) (ix4 b r s' (0 : Fin 1)) (fun ax => match ax with
    | ⟨0, _⟩ => rfl
    | ⟨1, _⟩ => rfl
    | ⟨2, _⟩ => rfl
    | ⟨3, _⟩ => rfl)

/-- A (32, 64, 8) block given a unit last axis reads the block. -/
private theorem cast_col_apply (v : FVec Ideal S32x64x8 .f32) (h : S32x64x8.ShapeCasts S32x64x8x1)
    (b : Fin 32) (r : Fin 64) (s' : Fin 8) (z : Fin 1) :
    shapeCast S32x64x8x1 v h (ix4 b r s' z) = v (ix3 b r s') :=
  shapeCast_apply v h _ _ (by
    have hz : z.val = 0 := by omega
    rw [Shape.rowMajor_val_three, Shape.rowMajor_val_four]
    show (b.val * 64 + r.val) * 8 + s'.val = ((b.val * 64 + r.val) * 8 + s'.val) * 1 + z.val
    rw [hz, Nat.mul_one, Nat.add_zero])

/-- The eight sample positions spread over every event read the position. -/
private theorem bcast_u_apply (v : FVec Ideal S1x1x8 .f32) (h : S1x1x8.Broadcasts S32x64x8)
    (b : Fin 32) (r : Fin 64) (s' : Fin 8) :
    broadcastTo S32x64x8 v h (ix3 b r s') = v (ix3 (0 : Fin 1) (0 : Fin 1) s') :=
  broadcastTo_apply v h (ix3 b r s') (ix3 (0 : Fin 1) (0 : Fin 1) s') (fun ax => match ax with
    | ⟨0, _⟩ => rfl
    | ⟨1, _⟩ => rfl
    | ⟨2, _⟩ => rfl)

/-- Sum and product of two vectors at an index, from their values there. -/
private theorem addf_eq {s : Shape} (a c : FVec Ideal s .f32) (i : s.Idx) {x y : EReal} (ha : a i = x) (hc : c i = y) :
    addf a c i = x + y := (addf_apply a c i).trans (add_congr ha hc)
private theorem mulf_eq {s : Shape} (a c : FVec Ideal s .f32) (i : s.Idx) {x y : EReal} (ha : a i = x) (hc : c i = y) :
    mulf a c i = x * y := (mulf_apply a c i).trans (mul_congr ha hc)
private theorem subf_eq {s : Shape} (a c : FVec Ideal s .f32) (i : s.Idx) {x y : EReal} (ha : a i = x) (hc : c i = y) :
    subf a c i = x - y := (subf_apply a c i).trans (sub_congr ha hc)

/-- The stored vector at an index, from the vectors it is formed of. -/
private theorem pay2_apply (v15 v16 v17 v18 : FVec Ideal S32x64x1 .f32) (v145 v146 : FVec Ideal S32x64x64 .f32)
    (v152 : FVec Ideal S32x64x1 .f32) (v155 v156 v157 : FVec Ideal S32x64x64 .f32) (v184 : Vec Ideal S1x8 .f32)
    (b : Fin 32) (r : Fin 64) (s' : Fin 8) (o : Fin 64) :
    k1_pay2 (F := Ideal) v15 v16 v17 v18 v145 v146 v152 v155 v156 v157 v184 (ix4 b r s' o)
      = (v145 (ix3 b r o) + k1_pay1 (F := Ideal) v152 v155 v156 v157 (ix3 b r o))
        + (((v17 (ix3 b r 0) * v18 (ix3 b r 0)) * (v16 (ix3 b r 0) - v15 (ix3 b r 0))) * v184 (ix2 0 s'))
          * (v146 (ix3 b r o) + v155 (ix3 b r o)) := by
  unfold k1_pay2
  refine addf_eq _ _ _ ?_ (mulf_eq _ _ _ ?_ ?_)
  · refine (bcast4_row_apply _ _ b r s' o).trans ?_
    refine (cast_row_apply _ _ b r 0 o).trans ?_
    exact addf_apply _ _ _
  · refine (bcast4_col_apply _ _ b r s' o).trans ?_
    refine (cast_col_apply _ _ b r s' 0).trans ?_
    refine mulf_eq _ _ _ ?_ ?_
    · refine (bcast_col_apply _ _ b r s').trans ?_
      rfl
    · refine (bcast_u_apply _ _ b r s').trans ?_
      refine (shapeCast_ab_1ab_apply _ _ 0 0 s').trans ?_
      exact congrFun (shapeCast_self v184 _) _
  · refine (bcast4_row_apply _ _ b r s' o).trans ?_
    refine (cast_row_apply _ _ b r 0 o).trans ?_
    exact addf_apply _ _ _

/-! ## The accumulated sums, from the rows they read -/

section Sums

variable (v0 : Vec Ideal S32x64x128 .f32) (v2 : Vec Ideal S32x8x128 .f32) (v5 : Vec Ideal S32x64x1 .f32)
  (v7 : Vec Ideal S32x16x1 .f32) (v10 : Vec Ideal S32x64x1 .f32) (v12 : Vec Ideal S32x16x1 .f32)
  (b : Fin 32) (r : Fin 64) (o : Fin 64)

local notation "w4" => k1_pay4 (F := Ideal) v0 v2
local notation "w9" => k1_pay5 (F := Ideal) v5 v7
local notation "w14" => k1_pay6 (F := Ideal) v10 v12
local notation "w15" => k1_pay7 (F := Ideal) v5 v7
local notation "w16" => k1_pay8 (F := Ideal) v5 v7
local notation "w17" => k1_pay9 (F := Ideal) v10 v12
local notation "w18" => k1_pay10 (F := Ideal) v10 v12
local notation "FR" => (fun (d : ℕ) (j : Fin 128) => Cert.Spec.win3 v0 v2 b (r.val + d) j)
local notation "TR" => (fun (d : ℕ) => Cert.Spec.win3 v5 v7 b (r.val + d) 0)
local notation "MR" => (fun (d : ℕ) => Cert.Spec.win3 v10 v12 b (r.val + d) 0)

/-- One shift's term and linear part, at any row offset. -/
private theorem T_at (d : ℕ) (hs4 : S32x72x128.Slices ![0, d, 0] S32x64x128) (hs1 : S32x80x1.Slices ![0, d, 0] S32x64x1) :
    TERM (FRW d hs4 w4) (VAL d hs1 w14 w17) (DLT d hs1 w9 w15) (ix3 b r o) = tmD FR TR MR o d :=
  termD_apply v0 v2 v5 v7 v10 v12 d hs4 hs1 b r o
private theorem L_at (d : ℕ) (hs4 : S32x72x128.Slices ![0, d, 0] S32x64x128) (hs1 : S32x80x1.Slices ![0, d, 0] S32x64x1) :
    LIN (FRW d hs4 w4) (VAL d hs1 w14 w17) (ix3 b r o) = lnD FR MR o d :=
  linD_apply v0 v2 v10 v12 d hs4 hs1 b r o

/-- The eight terms of row offsets 8 … 1, added onto zero in that order, are `Spec.sim0G`. -/
private theorem sim0_apply :
    k1_pay46 (F := Ideal) w4 w9 w14 w15 w17 (k1_pay30 (F := Ideal) w4 w9 w14 w15 w17 (k1_pay16 (F := Ideal) v0 v2 v5 v7 v10 v12))
        (k1_pay32 (F := Ideal) w4) (k1_pay33 (F := Ideal) w14 w17) (k1_pay34 (F := Ideal) w9 w15) (ix3 b r o)
      + k1_pay1 (F := Ideal) (k1_pay50 (F := Ideal) w9 w14 w15 w17) (k1_pay51 (F := Ideal) w4 w14 w17) (k1_pay52 (F := Ideal) w4)
          (k1_pay53 (F := Ideal) w14 w17) (ix3 b r o)
      = Cert.Spec.sim0G FR TR MR o := by
  have e16 : k1_pay16 (F := Ideal) v0 v2 v5 v7 v10 v12 (ix3 b r o) = 0 + tmD FR TR MR o 8 := by
    show addf (broadcast S32x64x64 (Scalar.ofBits .f32 0x00000000#32)) (TERM (FRW 8 _ w4) (VAL 8 _ w14 w17) (DLT 8 _ w9 w15)) (ix3 b r o) = _
    exact addf_eq _ _ _ Ideal.ofBits_zero_f32 (T_at v0 v2 v5 v7 v10 v12 b r o 8 _ _)
  have e30 : k1_pay30 (F := Ideal) w4 w9 w14 w15 w17 (k1_pay16 (F := Ideal) v0 v2 v5 v7 v10 v12) (ix3 b r o)
      = 0 + tmD FR TR MR o 8 + tmD FR TR MR o 7 + tmD FR TR MR o 6 + tmD FR TR MR o 5 := by
    show addf (addf (addf (k1_pay16 (F := Ideal) v0 v2 v5 v7 v10 v12) (TERM (FRW 7 _ w4) (VAL 7 _ w14 w17) (DLT 7 _ w9 w15)))
      (TERM (FRW 6 _ w4) (VAL 6 _ w14 w17) (DLT 6 _ w9 w15))) (TERM (FRW 5 _ w4) (VAL 5 _ w14 w17) (DLT 5 _ w9 w15)) (ix3 b r o) = _
    exact addf_eq _ _ _ (addf_eq _ _ _ (addf_eq _ _ _ e16 (T_at v0 v2 v5 v7 v10 v12 b r o 7 _ _))
      (T_at v0 v2 v5 v7 v10 v12 b r o 6 _ _)) (T_at v0 v2 v5 v7 v10 v12 b r o 5 _ _)
  have e46 : k1_pay46 (F := Ideal) w4 w9 w14 w15 w17 (k1_pay30 (F := Ideal) w4 w9 w14 w15 w17 (k1_pay16 (F := Ideal) v0 v2 v5 v7 v10 v12))
        (k1_pay32 (F := Ideal) w4) (k1_pay33 (F := Ideal) w14 w17) (k1_pay34 (F := Ideal) w9 w15) (ix3 b r o)
      = 0 + tmD FR TR MR o 8 + tmD FR TR MR o 7 + tmD FR TR MR o 6 + tmD FR TR MR o 5 + tmD FR TR MR o 4 + tmD FR TR MR o 3
          + tmD FR TR MR o 2 := by
    show addf (addf (addf (k1_pay30 (F := Ideal) w4 w9 w14 w15 w17 (k1_pay16 (F := Ideal) v0 v2 v5 v7 v10 v12))
        (TERM (FRW 4 _ w4) (VAL 4 _ w14 w17) (DLT 4 _ w9 w15)))
      (TERM (FRW 3 _ w4) (VAL 3 _ w14 w17) (DLT 3 _ w9 w15))) (TERM (FRW 2 _ w4) (VAL 2 _ w14 w17) (DLT 2 _ w9 w15)) (ix3 b r o) = _
    exact addf_eq _ _ _ (addf_eq _ _ _ (addf_eq _ _ _ e30 (T_at v0 v2 v5 v7 v10 v12 b r o 4 _ _))
      (T_at v0 v2 v5 v7 v10 v12 b r o 3 _ _)) (T_at v0 v2 v5 v7 v10 v12 b r o 2 _ _)
  have e1 : k1_pay1 (F := Ideal) (k1_pay50 (F := Ideal) w9 w14 w15 w17) (k1_pay51 (F := Ideal) w4 w14 w17) (k1_pay52 (F := Ideal) w4)
      (k1_pay53 (F := Ideal) w14 w17) (ix3 b r o) = tmD FR TR MR o 1 :=
    T_at v0 v2 v5 v7 v10 v12 b r o 1 _ _
  rw [e46, e1, zero_add]
  unfold Cert.Spec.sim0G
  rw [Fin.sum_univ_eight]
  rfl

/-- The eight linear parts of row offsets 8 … 1, added onto zero in that order, are `Spec.sumlinG`. -/
private theorem sumlin_apply :
    k1_pay47 (F := Ideal) w4 w14 w17 (k1_pay31 (F := Ideal) w4 w14 w17 (k1_pay12 (F := Ideal)) (k1_pay15 (F := Ideal) v0 v2 v10 v12))
        (k1_pay32 (F := Ideal) w4) (k1_pay33 (F := Ideal) w14 w17) (ix3 b r o)
      + k1_pay51 (F := Ideal) w4 w14 w17 (ix3 b r o)
      = Cert.Spec.sumlinG FR MR o := by
  have e31 : k1_pay31 (F := Ideal) w4 w14 w17 (k1_pay12 (F := Ideal)) (k1_pay15 (F := Ideal) v0 v2 v10 v12) (ix3 b r o)
      = 0 + lnD FR MR o 8 + lnD FR MR o 7 + lnD FR MR o 6 + lnD FR MR o 5 := by
    show addf (addf (addf (addf (broadcast S32x64x64 (Scalar.ofBits .f32 0x00000000#32)) (LIN (FRW 8 _ w4) (VAL 8 _ w14 w17)))
        (LIN (FRW 7 _ w4) (VAL 7 _ w14 w17))) (LIN (FRW 6 _ w4) (VAL 6 _ w14 w17))) (LIN (FRW 5 _ w4) (VAL 5 _ w14 w17)) (ix3 b r o) = _
    exact addf_eq _ _ _ (addf_eq _ _ _ (addf_eq _ _ _ (addf_eq _ _ _ Ideal.ofBits_zero_f32 (L_at v0 v2 v10 v12 b r o 8 _ _))
      (L_at v0 v2 v10 v12 b r o 7 _ _)) (L_at v0 v2 v10 v12 b r o 6 _ _)) (L_at v0 v2 v10 v12 b r o 5 _ _)
  have e47 : k1_pay47 (F := Ideal) w4 w14 w17 (k1_pay31 (F := Ideal) w4 w14 w17 (k1_pay12 (F := Ideal)) (k1_pay15 (F := Ideal) v0 v2 v10 v12))
        (k1_pay32 (F := Ideal) w4) (k1_pay33 (F := Ideal) w14 w17) (ix3 b r o)
      = 0 + lnD FR MR o 8 + lnD FR MR o 7 + lnD FR MR o 6 + lnD FR MR o 5 + lnD FR MR o 4 + lnD FR MR o 3 + lnD FR MR o 2 := by
    show addf (addf (addf (k1_pay31 (F := Ideal) w4 w14 w17 (k1_pay12 (F := Ideal)) (k1_pay15 (F := Ideal) v0 v2 v10 v12))
        (LIN (FRW 4 _ w4) (VAL 4 _ w14 w17))) (LIN (FRW 3 _ w4) (VAL 3 _ w14 w17))) (LIN (FRW 2 _ w4) (VAL 2 _ w14 w17)) (ix3 b r o) = _
    exact addf_eq _ _ _ (addf_eq _ _ _ (addf_eq _ _ _ e31 (L_at v0 v2 v10 v12 b r o 4 _ _))
      (L_at v0 v2 v10 v12 b r o 3 _ _)) (L_at v0 v2 v10 v12 b r o 2 _ _)
  have e51 : k1_pay51 (F := Ideal) w4 w14 w17 (ix3 b r o) = lnD FR MR o 1 := L_at v0 v2 v10 v12 b r o 1 _ _
  rw [e47, e51, zero_add]
  unfold Cert.Spec.sumlinG
  rw [Fin.sum_univ_eight]
  rfl

/-- The step to the next event where both are unmasked is `Spec.udtG`. -/
private theorem udt_apply :
    (w17 (ix3 b r 0) * w18 (ix3 b r 0)) * (w16 (ix3 b r 0) - w15 (ix3 b r 0)) = Cert.Spec.udtG TR MR :=
  mul_congr (mul_congr (pay9_apply v10 v12 b r 0) (pay10_apply v10 v12 b r 0))
    (sub_congr (pay8_apply v5 v7 b r 0) (pay7_apply v5 v7 b r 0))

end Sums

/-! ## The claim -/

theorem paySim_apply (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32) (v184 : Vec Ideal S1x8 .f32)
    (b : Fin 32) (r : Fin 64) (s' : Fin 8) (o : Fin 64) :
    paySim (F := Ideal) v0 v2 v5 v7 v10 v12 v184 (ix4 b r s' o)
      = Cert.Spec.simG (fun d j => Cert.Spec.win3 v0 v2 b (r.val + d) j) (fun d => Cert.Spec.win3 v5 v7 b (r.val + d) 0)
          (fun d => Cert.Spec.win3 v10 v12 b (r.val + d) 0) (fun s => v184 (ix2 0 s)) s' o := by
  unfold paySim
  refine (pay2_apply _ _ _ _ _ _ _ _ _ _ _ b r s' o).trans ?_
  unfold Cert.Spec.simG
  exact add_congr (sim0_apply v0 v2 v5 v7 v10 v12 b r o)
    (mul_congr (mul_congr (udt_apply v5 v7 v10 v12 b r) rfl) (sumlin_apply v0 v2 v10 v12 b r o))

end Cert.KernelIdeal.Val

end
-- ==== Proof.Val.K1a.lean ====
/-
  The output block the second kernel's body stores, read at an index, at the exact reals: entry (b, r, p, o) is the
  cell formed from rows r … r + 9 of the block-and-lookahead pairs of staging buffers.
-/
import proofs.«158136_j57621281243745_1_alg».proof.Proof.Fr.Data
import proofs.«158136_j57621281243745_1_alg».proof.Proof.Val.Spec
import proofs.«158136_j57621281243745_1_alg».proof.Proof.Val.K1aReal
import proofs.«158136_j57621281243745_1_alg».proof.Proof.Val.K1aSim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-- The zero offsets of a whole-buffer rectangle, rank 3 and rank 2. -/
private theorem zero3 : (![0, 0, 0] : Fin 3 → ℕ) = fun _ => 0 :=
  funext fun a => match a with | ⟨0, _⟩ => rfl | ⟨1, _⟩ => rfl | ⟨2, _⟩ => rfl
private theorem zero2 : (![0, 0] : Fin 2 → ℕ) = fun _ => 0 :=
  funext fun a => match a with | ⟨0, _⟩ => rfl | ⟨1, _⟩ => rfl

/-- Plane 0 is not among the planes 1 … 8 the later store covers. -/
private theorem plane0_not_mem (b : Fin 32) (r : Fin 64) (p : Fin 9) (o : Fin 64) (hp : p.val = 0) :
    ix4 b r p o ∉ (r1_sim).set := by
  intro hm
  have h2 := (Rect.mem_set_unit.mp hm) 2
  have h1 : 1 ≤ p.val := h2.1
  omega

/-- Plane 0 is the earlier store's one plane. -/
private theorem plane0_emb (b : Fin 32) (r : Fin 64) (p : Fin 9) (o : Fin 64) (hp : p.val = 0) :
    ix4 b r p o = r1_real.emb (ix4 b r (0 : Fin 1) o) := by
  funext a; apply Fin.ext
  match a with
  | ⟨0, _⟩ => show b.val = 0 + 1 * b.val; omega
  | ⟨1, _⟩ => show r.val = 0 + 1 * r.val; omega
  | ⟨2, _⟩ => show p.val = 0 + 1 * 0; omega
  | ⟨3, _⟩ => show o.val = 0 + 1 * o.val; omega

/-- Plane p ≥ 1 is plane p - 1 of the later store. -/
private theorem planeS_emb (b : Fin 32) (r : Fin 64) (p : Fin 9) (o : Fin 64) (hp : ¬ p.val = 0) (hlt : p.val - 1 < 8) :
    ix4 b r p o = r1_sim.emb (ix4 b r (⟨p.val - 1, hlt⟩ : Fin 8) o) := by
  funext a; apply Fin.ext
  match a with
  | ⟨0, _⟩ => show b.val = 0 + 1 * b.val; omega
  | ⟨1, _⟩ => show r.val = 0 + 1 * r.val; omega
  | ⟨2, _⟩ => show p.val = 1 + 1 * (p.val - 1); omega
  | ⟨3, _⟩ => show o.val = 0 + 1 * o.val; omega

theorem out1_7_apply (x0 : Vec Ideal S32x64x128 .f32) (x1 : Vec Ideal S32x8x128 .f32) (x2 : Vec Ideal S32x64x1 .f32)
    (x3 : Vec Ideal S32x16x1 .f32) (x4 : Vec Ideal S32x64x1 .f32) (x5 : Vec Ideal S32x16x1 .f32) (x6 : Vec Ideal S1x8 .f32)
    (b : Fin 32) (r : Fin 64) (p : Fin 9) (o : Fin 64) :
    out1_7 (F := Ideal) x0 x1 x2 x3 x4 x5 x6 (ix4 b r p o)
      = Cert.Spec.cellG (fun d j => Cert.Spec.win3 x0 x1 b (r.val + d) j) (fun d => Cert.Spec.win3 x2 x3 b (r.val + d) 0)
          (fun d => Cert.Spec.win3 x4 x5 b (r.val + d) 0) (fun s => x6 (ix2 0 s)) p o := by
  unfold out1_7
  -- a load of a whole buffer reads its contents
  have e0 : View.ld x0 r1_f = x0 := View.ld_unit_zero (S := S32x64x128) zero3 _ x0
  have e1 : View.ld x1 r1_fn = x1 := View.ld_unit_zero (S := S32x8x128) zero3 _ x1
  have e2 : View.ld x2 r1_t = x2 := View.ld_unit_zero (S := S32x64x1) zero3 _ x2
  have e3 : View.ld x3 r1_tn = x3 := View.ld_unit_zero (S := S32x16x1) zero3 _ x3
  have e4 : View.ld x4 r1_t = x4 := View.ld_unit_zero (S := S32x64x1) zero3 _ x4
  have e5 : View.ld x5 r1_tn = x5 := View.ld_unit_zero (S := S32x16x1) zero3 _ x5
  have e6 : View.ld x6 r1_u = x6 := View.ld_unit_zero (S := S1x8) zero2 _ x6
  rw [e0, e1, e2, e3, e4, e5, e6]
  unfold Cert.Spec.cellG
  by_cases hp : p.val = 0
  · -- plane 0: off the later store, under the earlier one
    rw [dif_pos hp]
    refine (View.canon_cons_of_not_mem (Val := Elt Ideal)
      (⟨r1_sim, paySim (F := Ideal) x0 x1 x2 x3 x4 x5 x6⟩ : View.Piece (Elt Ideal) S32x64x9x64 .f32) _
      (plane0_not_mem b r p o hp)).trans ?_
    rw [plane0_emb b r p o hp]
    exact (View.canon_cons_emb (Val := Elt Ideal) r1_real _ _ _).trans (payReal_apply x0 x1 x2 x3 x4 x5 b r o)
  · -- plane p ≥ 1: under the later store
    rw [dif_neg hp]
    have hlt : p.val - 1 < 8 := by have := p.isLt; omega
    rw [planeS_emb b r p o hp hlt]
    exact (View.canon_cons_emb (Val := Elt Ideal) r1_sim _ _ _).trans (paySim_apply x0 x1 x2 x3 x4 x5 x6 b r ⟨p.val - 1, hlt⟩ o)

end Cert.KernelIdeal.Val

end
-- ==== Proof.Val.K1.lean ====
/-
  What region 1 leaves in its (32, 2048, 9, 64) output array, at the exact reals: cell (b, l, p, o) is the padded
  form's cell of the four arrays the region reads.

  At grid point t the output window's block is rows 64 t … 64 t + 63 of the array, written back at every point, and
  the 32 blocks cover it. What a point writes back is the body's output block of the seven staging buffers, which
  hold rows 64 t … 64 t + 71 of the padded features and rows 64 t … 64 t + 79 of the padded times and mask (a block
  and the rows after it, side by side) and the sample positions; entry (b, r, p, o) of it is the cell formed from rows
  r … r + 9 of those pairs, that is from rows l … l + 9 of the padded arrays at event l = 64 t + r.
-/
import proofs.«158136_j57621281243745_1_alg».proof.Proof.Fr.Data
import proofs.«158136_j57621281243745_1_alg».proof.Proof.Val.Spec
import proofs.«158136_j57621281243745_1_alg».proof.Proof.Val.K1a
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-! ## A cell reads rows d ≤ 8 of the features and d ≤ 9 of the times and of the mask, and no others -/

private theorem cellG_congr {fr fr' : ℕ → Fin 128 → EReal} {tr tr' mr mr' : ℕ → EReal} {us us' : Fin 8 → EReal}
    (hf : ∀ d, d ≤ 8 → fr d = fr' d) (ht : ∀ d, d ≤ 9 → tr d = tr' d) (hm : ∀ d, d ≤ 9 → mr d = mr' d)
    (hu : us = us') (p : Fin 9) (o : Fin 64) :
    Cert.Spec.cellG fr tr mr us p o = Cert.Spec.cellG fr' tr' mr' us' p o := by
  subst hu
  have hv : ∀ s, Cert.Spec.validG mr s = Cert.Spec.validG mr' s := fun s => by
    unfold Cert.Spec.validG; rw [hm (8 - s) (by omega), hm 8 (by omega)]
  have hl : ∀ s, Cert.Spec.linG fr mr o s = Cert.Spec.linG fr' mr' o s := fun s => by
    unfold Cert.Spec.linG; rw [hf (8 - s) (by omega), hv s]
  have hT : ∀ s, Cert.Spec.termG fr tr mr o s = Cert.Spec.termG fr' tr' mr' o s := fun s => by
    unfold Cert.Spec.termG; rw [hv s, hl s, ht 8 (by omega), ht (8 - s) (by omega), hf (8 - s) (by omega)]
  have hR : Cert.Spec.realG fr tr mr o = Cert.Spec.realG fr' tr' mr' o := by
    unfold Cert.Spec.realG; exact Finset.sum_congr rfl fun i _ => hT _
  have hS : Cert.Spec.sim0G fr tr mr o = Cert.Spec.sim0G fr' tr' mr' o := by
    unfold Cert.Spec.sim0G; exact Finset.sum_congr rfl fun i _ => hT _
  have hL : Cert.Spec.sumlinG fr mr o = Cert.Spec.sumlinG fr' mr' o := by
    unfold Cert.Spec.sumlinG; exact Finset.sum_congr rfl fun i _ => hl _
  have hU : Cert.Spec.udtG tr mr = Cert.Spec.udtG tr' mr' := by
    unfold Cert.Spec.udtG; rw [hm 8 (by omega), hm 9 (by omega), ht 9 (by omega), ht 8 (by omega)]
  unfold Cert.Spec.cellG Cert.Spec.simG
  rw [hR, hS, hL, hU]

/-! ## A 64-row block and the K rows after it, both rows of one array -/

/-- When the block is rows base … base + 63 of `A` and the lookahead rows base + 64 … base + 64 + K - 1, row `row` of the
    pair is row base + row of `A`. -/
private theorem win3_rows {K C N : ℕ} (xa : (⟨3, ![32, 64, C]⟩ : Shape).Idx → EReal) (xb : (⟨3, ![32, K, C]⟩ : Shape).Idx → EReal)
    (A : (⟨3, ![32, N, C]⟩ : Shape).Idx → EReal) (base : ℕ)
    (ha : ∀ (b : Fin 32) (r : Fin 64) (j : Fin C) (h : base + r.val < N), xa (ix3 b r j) = A (ix3 b ⟨base + r.val, h⟩ j))
    (hb : ∀ (b : Fin 32) (r : Fin K) (j : Fin C) (h : base + 64 + r.val < N), xb (ix3 b r j) = A (ix3 b ⟨base + 64 + r.val, h⟩ j))
    (b : Fin 32) (row : ℕ) (hrow : row < 64 + K) (j : Fin C) (h : base + row < N) :
    Cert.Spec.win3 xa xb b row j = A (ix3 b ⟨base + row, h⟩ j) := by
  unfold Cert.Spec.win3
  split
  · next h1 => exact ha b ⟨row, h1⟩ j h
  · next h1 =>
    have h2 : row - 64 < K := by omega
    rw [dif_pos h2]
    refine (hb b ⟨row - 64, h2⟩ j (by show base + 64 + (row - 64) < N; omega)).trans ?_
    exact congrArg (fun q : Fin N => A (ix3 b q j)) (Fin.ext (by show base + 64 + (row - 64) = base + row; omega))

/-- The features: rows l … l + 8 of the pair are the padded array's rows at event l = base + r. -/
private theorem win3_eq_fP (x0 : S32x64x128.Idx → EReal) (x1 : S32x8x128.Idx → EReal) (fp : S32x2056x128.Idx → EReal)
    (base : ℕ) (hbase : base + 64 ≤ 2048)
    (ha : ∀ (b : Fin 32) (r : Fin 64) (j : Fin 128) (h : base + r.val < 2056), x0 (ix3 b r j) = fp (ix3 b ⟨base + r.val, h⟩ j))
    (hb : ∀ (b : Fin 32) (r : Fin 8) (j : Fin 128) (h : base + 64 + r.val < 2056), x1 (ix3 b r j) = fp (ix3 b ⟨base + 64 + r.val, h⟩ j))
    (b : Fin 32) (r : Fin 64) (hl : base + r.val < 2048) (d : ℕ) (hd : d ≤ 8) :
    (fun j => Cert.Spec.win3 x0 x1 b (r.val + d) j) = Cert.Spec.fP fp b ⟨base + r.val, hl⟩ d := by
  funext j
  have hr := r.isLt
  unfold Cert.Spec.fP
  rw [dif_pos hd]
  refine (win3_rows x0 x1 fp base ha hb b (r.val + d) (by omega) j (by omega)).trans ?_
  exact congrArg (fun q : Fin 2056 => fp (ix3 b q j)) (Fin.ext (by show base + (r.val + d) = base + r.val + d; omega))

/-- The times (and the mask): rows l … l + 9 of the pair are the padded array's rows at event l = base + r. -/
private theorem win3_eq_tP (x2 : S32x64x1.Idx → EReal) (x3 : S32x16x1.Idx → EReal) (tp : S32x2064x1.Idx → EReal)
    (base : ℕ) (hbase : base + 64 ≤ 2048)
    (ha : ∀ (b : Fin 32) (r : Fin 64) (j : Fin 1) (h : base + r.val < 2064), x2 (ix3 b r j) = tp (ix3 b ⟨base + r.val, h⟩ j))
    (hb : ∀ (b : Fin 32) (r : Fin 16) (j : Fin 1) (h : base + 64 + r.val < 2064), x3 (ix3 b r j) = tp (ix3 b ⟨base + 64 + r.val, h⟩ j))
    (b : Fin 32) (r : Fin 64) (hl : base + r.val < 2048) (d : ℕ) (hd : d ≤ 9) :
    Cert.Spec.win3 x2 x3 b (r.val + d) 0 = Cert.Spec.tP tp b ⟨base + r.val, hl⟩ d := by
  have hr := r.isLt
  unfold Cert.Spec.tP
  rw [dif_pos hd]
  refine (win3_rows x2 x3 tp base ha hb b (r.val + d) (by omega) 0 (by omega)).trans ?_
  exact congrArg (fun q : Fin 2064 => tp (ix3 b q 0)) (Fin.ext (by show base + (r.val + d) = base + r.val + d; omega))

/-- The mask read as numbers, padded like the times: the same rows. -/
private theorem win3_eq_mP (x4 : S32x64x1.Idx → EReal) (x5 : S32x16x1.Idx → EReal) (mp : S32x2064x1.Idx → EReal)
    (base : ℕ) (hbase : base + 64 ≤ 2048)
    (ha : ∀ (b : Fin 32) (r : Fin 64) (j : Fin 1) (h : base + r.val < 2064), x4 (ix3 b r j) = mp (ix3 b ⟨base + r.val, h⟩ j))
    (hb : ∀ (b : Fin 32) (r : Fin 16) (j : Fin 1) (h : base + 64 + r.val < 2064), x5 (ix3 b r j) = mp (ix3 b ⟨base + 64 + r.val, h⟩ j))
    (b : Fin 32) (r : Fin 64) (hl : base + r.val < 2048) (d : ℕ) (hd : d ≤ 9) :
    Cert.Spec.win3 x4 x5 b (r.val + d) 0 = Cert.Spec.mP mp b ⟨base + r.val, hl⟩ d := by
  have hr := r.isLt
  unfold Cert.Spec.mP
  rw [dif_pos hd]
  refine (win3_rows x4 x5 mp base ha hb b (r.val + d) (by omega) 0 (by omega)).trans ?_
  exact congrArg (fun q : Fin 2064 => mp (ix3 b q 0)) (Fin.ext (by show base + (r.val + d) = base + r.val + d; omega))

variable (V : (c : Dev nD) → (b : Ref sig .tc) → Buf (Elt Ideal) ((c : Thread nD τ).loc b))

/-! ## An uncut fetch fills the whole staging buffer -/

private theorem fill_apply_of_clip_none {G : Pipeline.Grid} (w : Pipeline.Window sig G) {α : Type} (i : G.Coords)
    (h : ∀ a, w.clip i a = none) (d : w.block.Idx → α) (g : (w.xblock i).Idx → α) (j : w.block.Idx) :
    w.fill i d g j = g fun a => ⟨(j a).val, by show (j a).val < (w.clip i a).extent (w.size a); rw [h a]; exact (j a).isLt⟩ := by
  have hm : w.moved i j = true :=
    (w.moved_iff i j).mpr fun a => by unfold Pipeline.Window.xsize; rw [h a]; exact (j a).isLt
  unfold Pipeline.Window.fill; rw [dif_pos hm]

/-! ## The windows' block indices and cuts, decided over the grid

At point t the 64-row windows (0, 2, 4 and the output, 7) sit at block index t of their row axis; the lookahead
windows at block index 8 (t + 1) of size 8 (window 1) and 4 (t + 1) of size 16 (windows 3, 5): rows 64 t + 64 on.
No block of the grid overhangs its array: every cut is none. -/

private theorem N1 (t : Fin cfg1.N) : t.val < 32 := t.isLt.trans_eq N_1

private theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)
private theorem idx1_1 : ∀ t : Fin cfg1.N, win1_1.index t (0 : Fin 3) = 0 ∧ win1_1.index t (1 : Fin 3) = 8 * (t.val + 1) ∧ win1_1.index t (2 : Fin 3) = 0 :=
  (by decide +kernel : ∀ t : Fin grid1.N, _)
private theorem idx1_2 : ∀ t : Fin cfg1.N, win1_2.index t (0 : Fin 3) = 0 ∧ win1_2.index t (1 : Fin 3) = t.val ∧ win1_2.index t (2 : Fin 3) = 0 :=
  (by decide +kernel : ∀ t : Fin grid1.N, _)
private theorem idx1_3 : ∀ t : Fin cfg1.N, win1_3.index t (0 : Fin 3) = 0 ∧ win1_3.index t (1 : Fin 3) = 4 * (t.val + 1) ∧ win1_3.index t (2 : Fin 3) = 0 :=
  (by decide +kernel : ∀ t : Fin grid1.N, _)
private theorem idx1_4 : ∀ t : Fin cfg1.N, win1_4.index t (0 : Fin 3) = 0 ∧ win1_4.index t (1 : Fin 3) = t.val ∧ win1_4.index t (2 : Fin 3) = 0 :=
  (by decide +kernel : ∀ t : Fin grid1.N, _)
private theorem idx1_5 : ∀ t : Fin cfg1.N, win1_5.index t (0 : Fin 3) = 0 ∧ win1_5.index t (1 : Fin 3) = 4 * (t.val + 1) ∧ win1_5.index t (2 : Fin 3) = 0 :=
  (by decide +kernel : ∀ t : Fin grid1.N, _)
private theorem idx1_6 : ∀ t : Fin cfg1.N, win1_6.index t (0 : Fin 2) = 0 ∧ win1_6.index t (1 : Fin 2) = 0 :=
  (by decide +kernel : ∀ t : Fin grid1.N, _)
private theorem idx1_7 : ∀ t : Fin cfg1.N, win1_7.index t (0 : Fin 4) = 0 ∧ win1_7.index t (1 : Fin 4) = t.val ∧ win1_7.index t (2 : Fin 4) = 0
    ∧ win1_7.index t (3 : Fin 4) = 0 :=
  (by decide +kernel : ∀ t : Fin grid1.N, _)
private theorem clip1_0 : ∀ (t : Fin cfg1.N) (a : Fin 3), win1_0.clip (grid1.coords t) a = none :=
  (by decide +kernel : ∀ (t : Fin grid1.N) (a : Fin 3), _)
private theorem clip1_2 : ∀ (t : Fin cfg1.N) (a : Fin 3), win1_2.clip (grid1.coords t) a = none :=
  (by decide +kernel : ∀ (t : Fin grid1.N) (a : Fin 3), _)
private theorem clip1_4 : ∀ (t : Fin cfg1.N) (a : Fin 3), win1_4.clip (grid1.coords t) a = none :=
  (by decide +kernel : ∀ (t : Fin grid1.N) (a : Fin 3), _)

/-! ## A staging buffer's entry is an entry of the window's array

The buffer holds the block (nothing is cut), the block is the array read through the window's rectangle, and the
rectangle's entry sits at block index times block size plus the entry's own coordinate. -/

private theorem sblk1_0_apply (c : Dev nD) (t : Fin cfg1.N) (b : Fin 32) (r : Fin 64) (j : Fin 128) (h : 64 * t.val + r.val < 2056) :
    (sblk1 (F := Ideal) V c 0 t : S32x64x128.Idx → EReal) (ix3 b r j)
      = (V c main_v5 : S32x2056x128.Idx → EReal) (ix3 b ⟨64 * t.val + r.val, h⟩ j) := by
  unfold sblk1
  refine (fill_apply_of_clip_none (cfg1.win 0) (cfg1.grid.coords t) (clip1_0 t) _ _ _).trans ?_
  unfold iblk1
  show (V c main_v5 : S32x2056x128.Idx → EReal) (((cfg1.win 0).blk t).view.emb _) = _
  refine congrArg (V c main_v5 : S32x2056x128.Idx → EReal) (funext fun a => Fin.ext ?_)
  obtain ⟨e0, e1, e2⟩ := idx1_0 t
  match a with
  | ⟨0, _⟩ => show win1_0.index t (0 : Fin 3) * 32 + 1 * b.val = b.val; omega
  | ⟨1, _⟩ => show win1_0.index t (1 : Fin 3) * 64 + 1 * r.val = 64 * t.val + r.val; omega
  | ⟨2, _⟩ => show win1_0.index t (2 : Fin 3) * 128 + 1 * j.val = j.val; omega

private theorem sblk1_1_apply (c : Dev nD) (t : Fin cfg1.N) (b : Fin 32) (r : Fin 8) (j : Fin 128) (h : 64 * t.val + 64 + r.val < 2056) :
    (sblk1 (F := Ideal) V c 1 t : S32x8x128.Idx → EReal) (ix3 b r j)
      = (V c main_v5 : S32x2056x128.Idx → EReal) (ix3 b ⟨64 * t.val + 64 + r.val, h⟩ j) := by
  unfold sblk1
  refine (fill_apply_of_clip_none (cfg1.win 1) (cfg1.grid.coords t) (fun _ => rfl) _ _ _).trans ?_
  unfold iblk1
  show (V c main_v5 : S32x2056x128.Idx → EReal) (((cfg1.win 1).blk t).view.emb _) = _
  refine congrArg (V c main_v5 : S32x2056x128.Idx → EReal) (funext fun a => Fin.ext ?_)
  obtain ⟨e0, e1, e2⟩ := idx1_1 t
  match a with
  | ⟨0, _⟩ => show win1_1.index t (0 : Fin 3) * 32 + 1 * b.val = b.val; omega
  | ⟨1, _⟩ => show win1_1.index t (1 : Fin 3) * 8 + 1 * r.val = 64 * t.val + 64 + r.val; omega
  | ⟨2, _⟩ => show win1_1.index t (2 : Fin 3) * 128 + 1 * j.val = j.val; omega

private theorem sblk1_2_apply (c : Dev nD) (t : Fin cfg1.N) (b : Fin 32) (r : Fin 64) (j : Fin 1) (h : 64 * t.val + r.val < 2064) :
    (sblk1 (F := Ideal) V c 2 t : S32x64x1.Idx → EReal) (ix3 b r j)
      = (V c main_v8 : S32x2064x1.Idx → EReal) (ix3 b ⟨64 * t.val + r.val, h⟩ j) := by
  unfold sblk1
  refine (fill_apply_of_clip_none (cfg1.win 2) (cfg1.grid.coords t) (clip1_2 t) _ _ _).trans ?_
  unfold iblk1
  show (V c main_v8 : S32x2064x1.Idx → EReal) (((cfg1.win 2).blk t).view.emb _) = _
  refine congrArg (V c main_v8 : S32x2064x1.Idx → EReal) (funext fun a => Fin.ext ?_)
  obtain ⟨e0, e1, e2⟩ := idx1_2 t
  match a with
  | ⟨0, _⟩ => show win1_2.index t (0 : Fin 3) * 32 + 1 * b.val = b.val; omega
  | ⟨1, _⟩ => show win1_2.index t (1 : Fin 3) * 64 + 1 * r.val = 64 * t.val + r.val; omega
  | ⟨2, _⟩ => show win1_2.index t (2 : Fin 3) * 1 + 1 * j.val = j.val; omega

private theorem sblk1_3_apply (c : Dev nD) (t : Fin cfg1.N) (b : Fin 32) (r : Fin 16) (j : Fin 1) (h : 64 * t.val + 64 + r.val < 2064) :
    (sblk1 (F := Ideal) V c 3 t : S32x16x1.Idx → EReal) (ix3 b r j)
      = (V c main_v8 : S32x2064x1.Idx → EReal) (ix3 b ⟨64 * t.val + 64 + r.val, h⟩ j) := by
  unfold sblk1
  refine (fill_apply_of_clip_none (cfg1.win 3) (cfg1.grid.coords t) (fun _ => rfl) _ _ _).trans ?_
  unfold iblk1
  show (V c main_v8 : S32x2064x1.Idx → EReal) (((cfg1.win 3).blk t).view.emb _) = _
  refine congrArg (V c main_v8 : S32x2064x1.Idx → EReal) (funext fun a => Fin.ext ?_)
  obtain ⟨e0, e1, e2⟩ := idx1_3 t
  match a with
  | ⟨0, _⟩ => show win1_3.index t (0 : Fin 3) * 32 + 1 * b.val = b.val; omega
  | ⟨1, _⟩ => show win1_3.index t (1 : Fin 3) * 16 + 1 * r.val = 64 * t.val + 64 + r.val; omega
  | ⟨2, _⟩ => show win1_3.index t (2 : Fin 3) * 1 + 1 * j.val = j.val; omega

private theorem sblk1_4_apply (c : Dev nD) (t : Fin cfg1.N) (b : Fin 32) (r : Fin 64) (j : Fin 1) (h : 64 * t.val + r.val < 2064) :
    (sblk1 (F := Ideal) V c 4 t : S32x64x1.Idx → EReal) (ix3 b r j)
      = (V c main_v10 : S32x2064x1.Idx → EReal) (ix3 b ⟨64 * t.val + r.val, h⟩ j) := by
  unfold sblk1
  refine (fill_apply_of_clip_none (cfg1.win 4) (cfg1.grid.coords t) (clip1_4 t) _ _ _).trans ?_
  unfold iblk1
  show (V c main_v10 : S32x2064x1.Idx → EReal) (((cfg1.win 4).blk t).view.emb _) = _
  refine congrArg (V c main_v10 : S32x2064x1.Idx → EReal) (funext fun a => Fin.ext ?_)
  obtain ⟨e0, e1, e2⟩ := idx1_4 t
  match a with
  | ⟨0, _⟩ => show win1_4.index t (0 : Fin 3) * 32 + 1 * b.val = b.val; omega
  | ⟨1, _⟩ => show win1_4.index t (1 : Fin 3) * 64 + 1 * r.val = 64 * t.val + r.val; omega
  | ⟨2, _⟩ => show win1_4.index t (2 : Fin 3) * 1 + 1 * j.val = j.val; omega

private theorem sblk1_5_apply (c : Dev nD) (t : Fin cfg1.N) (b : Fin 32) (r : Fin 16) (j : Fin 1) (h : 64 * t.val + 64 + r.val < 2064) :
    (sblk1 (F := Ideal) V c 5 t : S32x16x1.Idx → EReal) (ix3 b r j)
      = (V c main_v10 : S32x2064x1.Idx → EReal) (ix3 b ⟨64 * t.val + 64 + r.val, h⟩ j) := by
  unfold sblk1
  refine (fill_apply_of_clip_none (cfg1.win 5) (cfg1.grid.coords t) (fun _ => rfl) _ _ _).trans ?_
  unfold iblk1
  show (V c main_v10 : S32x2064x1.Idx → EReal) (((cfg1.win 5).blk t).view.emb _) = _
  refine congrArg (V c main_v10 : S32x2064x1.Idx → EReal) (funext fun a => Fin.ext ?_)
  obtain ⟨e0, e1, e2⟩ := idx1_5 t
  match a with
  | ⟨0, _⟩ => show win1_5.index t (0 : Fin 3) * 32 + 1 * b.val = b.val; omega
  | ⟨1, _⟩ => show win1_5.index t (1 : Fin 3) * 16 + 1 * r.val = 64 * t.val + 64 + r.val; omega
  | ⟨2, _⟩ => show win1_5.index t (2 : Fin 3) * 1 + 1 * j.val = j.val; omega

private theorem sblk1_6_apply (c : Dev nD) (t : Fin cfg1.N) (z : Fin 1) (s : Fin 8) :
    (sblk1 (F := Ideal) V c 6 t : S1x8.Idx → EReal) (ix2 z s) = (V c main_v11 : S1x8.Idx → EReal) (ix2 z s) := by
  unfold sblk1
  refine (fill_apply_of_clip_none (cfg1.win 6) (cfg1.grid.coords t) (fun _ => rfl) _ _ _).trans ?_
  unfold iblk1
  show (V c main_v11 : S1x8.Idx → EReal) (((cfg1.win 6).blk t).view.emb _) = _
  refine congrArg (V c main_v11 : S1x8.Idx → EReal) (funext fun a => Fin.ext ?_)
  obtain ⟨e0, e1⟩ := idx1_6 t
  match a with
  | ⟨0, _⟩ => show win1_6.index t (0 : Fin 2) * 1 + 1 * z.val = z.val; omega
  | ⟨1, _⟩ => show win1_6.index t (1 : Fin 2) * 8 + 1 * s.val = s.val; omega

/-! ## What a point writes back -/

/-- The array the region leaves: at cell (b, l, p, o) the padded form's cell of the four arrays it reads. -/
private abbrev G1 (c : Dev nD) : S32x2048x9x64.Idx → EReal := fun i =>
  Cert.Spec.cellP (V c main_v5 : S32x2056x128.Idx → EReal) (V c main_v8 : S32x2064x1.Idx → EReal)
    (V c main_v10 : S32x2064x1.Idx → EReal) (V c main_v11 : S1x8.Idx → EReal) (i 0) (i 1) (i 2) (i 3)

/-- Entry (b, r, p, o) of the output staging buffer after the body at point t is the cell of event l = 64 t + r:
    the pairs of staging buffers are rows 64 t … of the padded arrays, and a cell reads rows l … l + 9 only. -/
private theorem after7_apply (c : Dev nD) (t : Fin cfg1.N) (b : Fin 32) (r : Fin 64) (p : Fin 9) (o : Fin 64)
    (hl : 64 * t.val + r.val < 2048) :
    ((dat1 (F := Ideal) V c).after 7 t : S32x64x9x64.Idx → EReal) (ix4 b r p o)
      = Cert.Spec.cellP (V c main_v5 : S32x2056x128.Idx → EReal) (V c main_v8 : S32x2064x1.Idx → EReal)
          (V c main_v10 : S32x2064x1.Idx → EReal) (V c main_v11 : S1x8.Idx → EReal) b ⟨64 * t.val + r.val, hl⟩ p o := by
  have ht := N1 t
  refine (congrFun (after1_7 V c t) _).trans ?_
  refine (out1_7_apply _ _ _ _ _ _ _ b r p o).trans ?_
  unfold Cert.Spec.cellP
  refine cellG_congr
    (fun d hd => win3_eq_fP _ _ _ (64 * t.val) (by omega) (fun b r j h => sblk1_0_apply V c t b r j h)
      (fun b r j h => sblk1_1_apply V c t b r j h) b r hl d hd)
    (fun d hd => win3_eq_tP _ _ _ (64 * t.val) (by omega) (fun b r j h => sblk1_2_apply V c t b r j h)
      (fun b r j h => sblk1_3_apply V c t b r j h) b r hl d hd)
    (fun d hd => win3_eq_mP _ _ _ (64 * t.val) (by omega) (fun b r j h => sblk1_4_apply V c t b r j h)
      (fun b r j h => sblk1_5_apply V c t b r j h) b r hl d hd)
    (funext fun s => sblk1_6_apply V c t 0 s) p o

/-- What point t writes back is its block of that array. -/
private theorem flushed7_eq (c : Dev nD) (t : Fin cfg1.N) :
    (dat1 (F := Ideal) V c).flushed 7 t = ((cfg1.win 7).blk t).view.read (Elt Ideal) (G1 V c) := by
  funext j
  have ht := N1 t
  have hj1 : (j 1).val < 64 := (j 1).isLt
  have hl : 64 * t.val + (j 1).val < 2048 := by omega
  have hx : (cfg1.win 7).xinj (grid1.coords t) j = ix4 (j 0 : Fin 32) (j 1 : Fin 64) (j 2 : Fin 9) (j 3 : Fin 64) := by
    funext a
    match a with
    | ⟨0, _⟩ => rfl
    | ⟨1, _⟩ => rfl
    | ⟨2, _⟩ => rfl
    | ⟨3, _⟩ => rfl
  have hemb : ((cfg1.win 7).blk t).view.emb j
      = ix4 (j 0 : Fin 32) (⟨64 * t.val + (j 1).val, hl⟩ : Fin 2048) (j 2 : Fin 9) (j 3 : Fin 64) := by
    funext a
    apply Fin.ext
    obtain ⟨e0, e1, e2, e3⟩ := idx1_7 t
    match a with
    | ⟨0, _⟩ => show win1_7.index t (0 : Fin 4) * 32 + 1 * (j 0).val = (j 0).val; omega
    | ⟨1, _⟩ => show win1_7.index t (1 : Fin 4) * 64 + 1 * (j 1).val = 64 * t.val + (j 1).val; omega
    | ⟨2, _⟩ => show win1_7.index t (2 : Fin 4) * 9 + 1 * (j 2).val = (j 2).val; omega
    | ⟨3, _⟩ => show win1_7.index t (3 : Fin 4) * 64 + 1 * (j 3).val = (j 3).val; omega
  show (dat1 (F := Ideal) V c).after 7 t ((cfg1.win 7).xinj (grid1.coords t) j) = G1 V c (((cfg1.win 7).blk t).view.emb j)
  rw [hx, hemb]
  exact after7_apply V c t (j 0) (j 1) (j 2) (j 3) hl

/-! ## The blocks cover the array: row l lies in point l / 64's block -/

private theorem mem_blk7 (t : Fin cfg1.N) (i : S32x2048x9x64.Idx) :
    i ∈ ((cfg1.win 7).blk t).view.set ↔ ∀ a : Fin 4, win1_7.index t a * S32x64x9x64.size a ≤ (i a).val
      ∧ (i a).val < win1_7.index t a * S32x64x9x64.size a + S32x64x9x64.size a := by
  show i ∈ ((View.whole main_v12).slice (win1_7.rect t)).set ↔ _
  rw [View.set_slice_whole, Rect.mem_set_unit]
  exact Iff.rfl

private theorem cover7 (i : S32x2048x9x64.Idx) :
    ∃ t : Fin cfg1.N, (cfg1.win 7).flush t = true ∧ i ∈ ((cfg1.win 7).blk t).view.set := by
  have h0 : (i 0).val < 32 := (i 0).isLt
  have h1 : (i 1).val < 2048 := (i 1).isLt
  have h2 : (i 2).val < 9 := (i 2).isLt
  have h3 : (i 3).val < 64 := (i 3).isLt
  obtain ⟨t, et⟩ : ∃ t : Fin cfg1.N, t.val = (i 1).val / 64 :=
    ⟨⟨(i 1).val / 64, (show (i 1).val / 64 < 32 by omega).trans_eq N_1.symm⟩, rfl⟩
  refine ⟨t, flush1_7 t, (mem_blk7 t i).mpr fun a => ?_⟩
  obtain ⟨e0, e1, e2, e3⟩ := idx1_7 t
  match a with
  | ⟨0, _⟩ => show win1_7.index t (0 : Fin 4) * 32 ≤ (i 0).val ∧ (i 0).val < win1_7.index t (0 : Fin 4) * 32 + 32; omega
  | ⟨1, _⟩ => show win1_7.index t (1 : Fin 4) * 64 ≤ (i 1).val ∧ (i 1).val < win1_7.index t (1 : Fin 4) * 64 + 64; omega
  | ⟨2, _⟩ => show win1_7.index t (2 : Fin 4) * 9 ≤ (i 2).val ∧ (i 2).val < win1_7.index t (2 : Fin 4) * 9 + 9; omega
  | ⟨3, _⟩ => show win1_7.index t (3 : Fin 4) * 64 ≤ (i 3).val ∧ (i 3).val < win1_7.index t (3 : Fin 4) * 64 + 64; omega

/-! ## The array after the run -/

theorem arrAt1 (c : Dev nD) :
    ((dat1 (F := Ideal) V c).arrAt 7 cfg1.N : S32x2048x9x64.Idx → EReal)
      = fun i => Cert.Spec.cellP (V c main_v5 : S32x2056x128.Idx → EReal) (V c main_v8 : S32x2064x1.Idx → EReal)
          (V c main_v10 : S32x2064x1.Idx → EReal) (V c main_v11 : S1x8.Idx → EReal) (i 0) (i 1) (i 2) (i 3) :=
  (dat1 (F := Ideal) V c).arrAt_eq_of_cover 7 (G1 V c) (fun t _ => flushed7_eq V c t) cover7

end Cert.KernelIdeal.Val

end
-- ==== Proof.Val.KHostCell.lean ====
/-
  One cell of the second kernel's output, read off the zero-padded arrays it is handed, is the cell of the plain
  (unpadded) sequences: padded row l + d of event l is position l + d - 8 of the sequence, zero outside it, so the row
  s events back (d = 8 - s) is the read `s` steps back, and row 9 the read one step ahead.
-/
import proofs.«158136_j57621281243745_1_alg».proof.Proof.Val.Spec
import Idealize.ShloMosaic.Lib.ValueIdx

noncomputable section

namespace Cert.KHost

open Idealize.ShloMosaic Idealize.ShloMosaic.ValueIdx
open Cert.Spec

/-- A (32, 2048, 128) array given by coordinates, with 8 zero rows put in front on axis 1. -/
def padF (Pj : Fin 32 → Fin 2048 → Fin 128 → EReal) : (⟨3, ![32, 2056, 128]⟩ : Shape).Idx → EReal :=
  fun i => if h : 8 ≤ (i 1).val then Pj (i 0) ⟨(i 1).val - 8, by have := (i 1).isLt; simp at this; omega⟩ (i 2) else 0

/-- A (32, 2048) array given by coordinates, as a one-column array with 8 zero rows in front and 8 behind. -/
def padT (t : Fin 32 → Fin 2048 → EReal) : (⟨3, ![32, 2064, 1]⟩ : Shape).Idx → EReal :=
  fun i => if h : 8 ≤ (i 1).val ∧ (i 1).val < 2056 then t (i 0) ⟨(i 1).val - 8, by omega⟩ else 0

variable (t : Fin 32 → Fin 2048 → EReal) (Pj : Fin 32 → Fin 2048 → Fin 128 → EReal)
  (mk : Fin 32 → Fin 2048 → BitVec 1) (u : Fin 8 → EReal)

/-- Padded row l + (8 - s) of the projected features is the read `s` steps back. -/
theorem fP_pad (b : Fin 32) (l : Fin 2048) (s : ℕ) (hs : s ≤ 8) (j : Fin 128) :
    fP (padF Pj) b l (8 - s) j = pB Pj b l s j := by
  have hl := l.isLt
  unfold fP pB
  rw [dif_pos (show 8 - s ≤ 8 by omega)]
  show (if h : 8 ≤ l.val + (8 - s) then Pj b ⟨l.val + (8 - s) - 8, _⟩ j else 0) = _
  by_cases h : s ≤ l.val
  · rw [dif_pos h, dif_pos (show 8 ≤ l.val + (8 - s) by omega)]
    exact congrArg (fun r => Pj b r j) (Fin.ext (by show l.val + (8 - s) - 8 = l.val - s; omega))
  · rw [dif_neg h, dif_neg (show ¬ 8 ≤ l.val + (8 - s) by omega)]

/-- Padded row l + (8 - s) of a one-column padded sequence is the read `s` steps back. -/
theorem tP_pad (b : Fin 32) (l : Fin 2048) (s : ℕ) (hs : s ≤ 8) :
    tP (padT t) b l (8 - s) = tB t b l s := by
  have hl := l.isLt
  unfold tP tB
  rw [dif_pos (show 8 - s ≤ 9 by omega)]
  show (if h : 8 ≤ l.val + (8 - s) ∧ l.val + (8 - s) < 2056 then t b ⟨l.val + (8 - s) - 8, _⟩ else 0) = _
  by_cases h : s ≤ l.val
  · rw [dif_pos h, dif_pos (show 8 ≤ l.val + (8 - s) ∧ l.val + (8 - s) < 2056 by omega)]
    exact congrArg (fun r => t b r) (Fin.ext (by show l.val + (8 - s) - 8 = l.val - s; omega))
  · rw [dif_neg h, dif_neg (show ¬ (8 ≤ l.val + (8 - s) ∧ l.val + (8 - s) < 2056) by omega)]

/-- Padded row l + 9 is the read one step ahead. -/
theorem tP_pad_next (b : Fin 32) (l : Fin 2048) : tP (padT t) b l 9 = tN t b l := by
  have hl := l.isLt
  unfold tP tN
  rw [dif_pos (show 9 ≤ 9 by omega)]
  show (if h : 8 ≤ l.val + 9 ∧ l.val + 9 < 2056 then t b ⟨l.val + 9 - 8, _⟩ else 0) = _
  by_cases h : l.val + 1 < 2048
  · rw [dif_pos h, dif_pos (show 8 ≤ l.val + 9 ∧ l.val + 9 < 2056 by omega)]
    exact congrArg (fun r => t b r) (Fin.ext (by show l.val + 9 - 8 = l.val + 1; omega))
  · rw [dif_neg h, dif_neg (show ¬ (8 ≤ l.val + 9 ∧ l.val + 9 < 2056) by omega)]

/-- The read zero steps back is the value at the event. -/
theorem tB_zero (b : Fin 32) (l : Fin 2048) : tB t b l 0 = t b l := by
  unfold tB
  rw [dif_pos (Nat.zero_le _)]
  exact congrArg (fun r => t b r) (Fin.ext (by show l.val - 0 = l.val; omega))

/-- Padded row l + 8 is the event's own. -/
theorem tP_pad_self (b : Fin 32) (l : Fin 2048) : tP (padT t) b l 8 = t b l :=
  (tP_pad t b l 0 (Nat.zero_le _)).trans (tB_zero t b l)

/-- The mask read `s` steps back, as a number, is the read of the mask-as-numbers. -/
theorem mB_eq (b : Fin 32) (l : Fin 2048) (s : ℕ) : mB mk b l s = tB (mf mk) b l s := rfl
theorem mN_eq (b : Fin 32) (l : Fin 2048) : mN mk b l = tN (mf mk) b l := rfl
theorem mP_eq (mp : (⟨3, ![32, 2064, 1]⟩ : Shape).Idx → EReal) (b : Fin 32) (l : Fin 2048) (d : ℕ) :
    mP mp b l d = tP mp b l d := rfl

section Cell

variable (b : Fin 32) (l : Fin 2048)

local notation "fr" => fP (padF Pj) b l
local notation "tr" => tP (padT t) b l
local notation "mr" => mP (padT (mf mk)) b l

theorem validG_pad (s : ℕ) (hs : s ≤ 8) : validG mr s = validK mk b l s := by
  unfold validG validK
  rw [mP_eq, mP_eq, tP_pad (mf mk) b l s hs, tP_pad_self (mf mk) b l, mB_eq]

theorem linG_pad (o : Fin 64) (s : ℕ) (hs : s ≤ 8) : linG fr mr o s = linK Pj mk b l o s := by
  unfold linG linK
  rw [fP_pad Pj b l s hs, validG_pad mk b l s hs]

theorem termG_pad (o : Fin 64) (s : ℕ) (hs : s ≤ 8) : termG fr tr mr o s = termK t Pj mk b l o s := by
  unfold termG termK
  rw [validG_pad mk b l s hs, linG_pad Pj mk b l o s hs, fP_pad Pj b l s hs, tP_pad t b l s hs, tP_pad_self t b l]

theorem realG_pad (o : Fin 64) : realG fr tr mr o = realK t Pj mk b l o := by
  unfold realG realK
  exact Finset.sum_congr rfl fun i _ => termG_pad t Pj mk b l o (i.val + 1) (by have := i.isLt; omega)

theorem sim0G_pad (o : Fin 64) : sim0G fr tr mr o = sim0K t Pj mk b l o := by
  unfold sim0G sim0K
  exact Finset.sum_congr rfl fun i _ => termG_pad t Pj mk b l o i.val (by have := i.isLt; omega)

theorem sumlinG_pad (o : Fin 64) : sumlinG fr mr o = sumlinK Pj mk b l o := by
  unfold sumlinG sumlinK
  exact Finset.sum_congr rfl fun i _ => linG_pad Pj mk b l o i.val (by have := i.isLt; omega)

theorem udtG_pad : udtG tr mr = udtK t mk b l := by
  unfold udtG udtK
  rw [mP_eq, mP_eq, tP_pad_self (mf mk) b l, tP_pad_next (mf mk) b l, tP_pad_next t b l, tP_pad_self t b l, mN_eq]

/-- THE CELL: the padded form's cell at an event is the plain form's. -/
theorem cellP_pad (u2 : (⟨2, ![1, 8]⟩ : Shape).Idx → EReal) (hu : ∀ s : Fin 8, u2 (ix2 0 s) = u s) (p : Fin 9) (o : Fin 64) :
    cellP (padF Pj) (padT t) (padT (mf mk)) u2 b l p o = cellK t Pj mk u b l p o := by
  unfold cellP cellG cellK
  by_cases hp : p.val = 0
  · rw [dif_pos hp, dif_pos hp]; exact realG_pad t Pj mk b l o
  · rw [dif_neg hp, dif_neg hp]
    unfold simG simK
    rw [sim0G_pad t Pj mk b l o, udtG_pad t mk b l, sumlinG_pad Pj mk b l o]
    exact congrArg (fun x => sim0K t Pj mk b l o + udtK t mk b l * x * sumlinK Pj mk b l o) (hu _)

end Cell

end Cert.KHost

end
-- ==== Proof.Val.KHostProj.lean ====
/-
  The first kernel's product array is the projection: row 2048 b + l of the flattened features against column j of the
  stacked matrix [Wᵀ | bias] is the sum over c of feature (b, l, c) times W (j, c) for j < 64, times bias (c, j - 64) else.
-/
import proofs.«158136_j57621281243745_1_alg».proof.Proof.Val.Spec
import Idealize.ShloMosaic.Lib.ValueIdx

noncomputable section

namespace Cert.KHost

open Idealize.ShloMosaic Idealize.ShloMosaic.ValueIdx
open Cert.Spec

theorem matmul_proj (a1 : (⟨3, ![32, 2048, 64]⟩ : Shape).Idx → EReal) (a4 a5 : (⟨2, ![64, 64]⟩ : Shape).Idx → EReal)
    (x : (⟨2, ![65536, 64]⟩ : Shape).Idx → EReal) (w : (⟨2, ![64, 128]⟩ : Shape).Idx → EReal)
    (hx : ∀ (b : Fin 32) (l : Fin 2048) (k : Fin 64) (r : Fin 65536), r.val = 2048 * b.val + l.val → x (ix2 r k) = a1 (ix3 b l k))
    (hw0 : ∀ (k : Fin 64) (j : Fin 128) (h : j.val < 64), w (ix2 k j) = a4 (ix2 ⟨j.val, h⟩ k))
    (hw1 : ∀ (k : Fin 64) (j : Fin 128) (h : ¬ j.val < 64), w (ix2 k j) = a5 (ix2 k ⟨j.val - 64, by have := j.isLt; omega⟩))
    (b : Fin 32) (l : Fin 2048) (j : Fin 128) (r : Fin 65536) (hr : r.val = 2048 * b.val + l.val) :
    matmulSpec x w (ix2 r j) = proj (fOf a1) (WOf a4) (BOf a5) b l j := by
  unfold matmulSpec proj
  show ∑ k : Fin 64, x (ix2 r k) * w (ix2 k j) = _
  by_cases h : j.val < 64
  · rw [dif_pos h]
    exact Finset.sum_congr rfl fun k _ => by rw [hx b l k r hr, hw0 k j h]; rfl
  · rw [dif_neg h]
    exact Finset.sum_congr rfl fun k _ => by rw [hx b l k r hr, hw1 k j h]; rfl

end Cert.KHost

end
-- ==== Proof.LibLayout.lean ====
/-
  Layout operations read at an index, at the shapes of the kernel program and of the reference.

  A padded array read at an index is the operand at the index moved back by the low padding where that lands
  inside the operand, and the padding value elsewhere. A concatenation read at an index is the piece whose span
  along the joined axis holds the index's coordinate there, read at that coordinate less the extents of the
  pieces before it. Each statement is at an index spelled by its coordinates, over literal extents.
-/
import Idealize.ShloMosaic.PureOps.Ideal
import Idealize.ShloMosaic.Lib.ValueIdx
import Idealize.ShloMosaic.Lib.Pipeline.Value
import Idealize.ShloMosaic.Lib.KernelVsHost

namespace Cert.LibLayout

open Idealize.ShloMosaic Idealize.ShloMosaic.ValueIdx

variable {α : Type}

/-! ## A padded array at an index -/

/-- With no interior padding, the padded array at index j is the operand at j - lo when, on every axis a,
    lo a ≤ j a < lo a + (the operand's extent on a); at every other index it is the padding value. -/
theorem pad_apply {s t : Shape} (lo hi interior : Fin s.rank → Nat) (hint : ∀ a, interior a = 0) (x : s.Idx → α)
    {u : Shape} (v : u.Idx → α) (h : s.Pads lo hi interior t) (hu : 0 < u.numel) (j : t.Idx) :
    pad t lo hi interior x v h hu j
      = if hin : ∀ a : Fin s.rank, lo a ≤ (j (a.cast h.1)).val ∧ (j (a.cast h.1)).val < lo a + s.size a then
          x fun a => ⟨(j (a.cast h.1)).val - lo a, by have := hin a; omega⟩
        else v (Shape.Idx.first hu) := by
  by_cases hin : ∀ a : Fin s.rank, lo a ≤ (j (a.cast h.1)).val ∧ (j (a.cast h.1)).val < lo a + s.size a
  · rw [dif_pos hin]
    refine pad_apply_of_inside lo hi interior x v h hu j _ fun a => ?_
    have := hin a
    show (j (a.cast h.1)).val = lo a + ((j (a.cast h.1)).val - lo a) * (interior a + 1)
    rw [hint a]; omega
  · rw [dif_neg hin]
    obtain ⟨a, ha⟩ := not_forall.mp hin
    refine pad_apply_of_not_inside lo hi interior x v h hu j a fun hc => ha ⟨hc.1, ?_⟩
    have h3 := hc.2.2
    rw [hint a, Nat.zero_add, Nat.div_one] at h3
    omega

/-- Rank 2, padded along axis 1 by p entries in front and q behind: entry (b, j) is the operand's entry
    (b, j - p) when p ≤ j < p + N, the padding value otherwise. -/
theorem pad_r2_apply {B N M p q : Nat} (x : (⟨2, ![B, N]⟩ : Shape).Idx → α) {u : Shape} (v : u.Idx → α)
    (h : (⟨2, ![B, N]⟩ : Shape).Pads ![0, p] ![0, q] ![0, 0] ⟨2, ![B, M]⟩) (hu : 0 < u.numel) (b : Fin B) (j : Fin M) :
    pad ⟨2, ![B, M]⟩ ![0, p] ![0, q] ![0, 0] x v h hu (ix2 b j)
      = if hj : p ≤ j.val ∧ j.val < p + N then x (ix2 b ⟨j.val - p, by omega⟩) else v (Shape.Idx.first hu) := by
  by_cases hj : p ≤ j.val ∧ j.val < p + N
  · rw [dif_pos hj]
    refine pad_apply_of_inside _ _ _ x v h hu _ (ix2 b ⟨j.val - p, by omega⟩) fun a => ?_
    match a with
    | ⟨0, _⟩ => show b.val = 0 + b.val * (0 + 1); omega
    | ⟨1, _⟩ => show j.val = p + (j.val - p) * (0 + 1); omega
  · rw [dif_neg hj]
    refine pad_apply_of_not_inside _ _ _ x v h hu _ (⟨1, by decide⟩ : Fin 2) fun hc => hj ?_
    have h1 : p ≤ j.val := hc.1
    have h3 : (j.val - p) / (0 + 1) < N := hc.2.2
    rw [Nat.zero_add, Nat.div_one] at h3
    omega

/-- Rank 3, padded along axis 1 by p entries in front and q behind: entry (b, j, l) is the operand's entry
    (b, j - p, l) when p ≤ j < p + N, the padding value otherwise. -/
theorem pad_r3_apply {B N M D p q : Nat} (x : (⟨3, ![B, N, D]⟩ : Shape).Idx → α) {u : Shape} (v : u.Idx → α)
    (h : (⟨3, ![B, N, D]⟩ : Shape).Pads ![0, p, 0] ![0, q, 0] ![0, 0, 0] ⟨3, ![B, M, D]⟩) (hu : 0 < u.numel)
    (b : Fin B) (j : Fin M) (l : Fin D) :
    pad ⟨3, ![B, M, D]⟩ ![0, p, 0] ![0, q, 0] ![0, 0, 0] x v h hu (ix3 b j l)
      = if hj : p ≤ j.val ∧ j.val < p + N then x (ix3 b ⟨j.val - p, by omega⟩ l) else v (Shape.Idx.first hu) := by
  by_cases hj : p ≤ j.val ∧ j.val < p + N
  · rw [dif_pos hj]
    refine pad_apply_of_inside _ _ _ x v h hu _ (ix3 b ⟨j.val - p, by omega⟩ l) fun a => ?_
    match a with
    | ⟨0, _⟩ => show b.val = 0 + b.val * (0 + 1); omega
    | ⟨1, _⟩ => show j.val = p + (j.val - p) * (0 + 1); omega
    | ⟨2, _⟩ => show l.val = 0 + l.val * (0 + 1); omega
  · rw [dif_neg hj]
    refine pad_apply_of_not_inside _ _ _ x v h hu _ (⟨1, by decide⟩ : Fin 3) fun hc => hj ?_
    have h1 : p ≤ j.val := hc.1
    have h3 : (j.val - p) / (0 + 1) < N := hc.2.2
    rw [Nat.zero_add, Nat.div_one] at h3
    omega

/-! ### The three pads of the programs -/

/-- (32, 2048) padded by 8 columns in front to (32, 2056): column j ≥ 8 is the operand's column j - 8, the
    first 8 columns are the padding value. -/
theorem pad_32x2056_apply (x : (⟨2, ![32, 2048]⟩ : Shape).Idx → α) {u : Shape} (v : u.Idx → α)
    (h : (⟨2, ![32, 2048]⟩ : Shape).Pads ![0, 8] ![0, 0] ![0, 0] ⟨2, ![32, 2056]⟩) (hu : 0 < u.numel) (b : Fin 32) (j : Fin 2056) :
    pad ⟨2, ![32, 2056]⟩ ![0, 8] ![0, 0] ![0, 0] x v h hu (ix2 b j)
      = if hj : 8 ≤ j.val then x (ix2 b ⟨j.val - 8, by omega⟩) else v (Shape.Idx.first hu) := by
  rw [pad_r2_apply x v h hu b j]
  by_cases hj : 8 ≤ j.val
  · rw [dif_pos hj, dif_pos ⟨hj, by omega⟩]
  · rw [dif_neg hj, dif_neg fun hc => hj hc.1]

theorem pad_32x2056_apply_of_le (x : (⟨2, ![32, 2048]⟩ : Shape).Idx → α) {u : Shape} (v : u.Idx → α)
    (h : (⟨2, ![32, 2048]⟩ : Shape).Pads ![0, 8] ![0, 0] ![0, 0] ⟨2, ![32, 2056]⟩) (hu : 0 < u.numel) (b : Fin 32) (j : Fin 2056)
    (hj : 8 ≤ j.val) :
    pad ⟨2, ![32, 2056]⟩ ![0, 8] ![0, 0] ![0, 0] x v h hu (ix2 b j) = x (ix2 b ⟨j.val - 8, by omega⟩) := by
  rw [pad_32x2056_apply, dif_pos hj]

theorem pad_32x2056_apply_of_lt (x : (⟨2, ![32, 2048]⟩ : Shape).Idx → α) {u : Shape} (v : u.Idx → α)
    (h : (⟨2, ![32, 2048]⟩ : Shape).Pads ![0, 8] ![0, 0] ![0, 0] ⟨2, ![32, 2056]⟩) (hu : 0 < u.numel) (b : Fin 32) (j : Fin 2056)
    (hj : j.val < 8) :
    pad ⟨2, ![32, 2056]⟩ ![0, 8] ![0, 0] ![0, 0] x v h hu (ix2 b j) = v (Shape.Idx.first hu) := by
  rw [pad_32x2056_apply, dif_neg (by omega)]

/-- (32, 2048, 128) padded by 8 rows in front along axis 1 to (32, 2056, 128): row j ≥ 8 is the operand's row
    j - 8, the first 8 rows are the padding value. -/
theorem pad_32x2056x128_apply (x : (⟨3, ![32, 2048, 128]⟩ : Shape).Idx → α) {u : Shape} (v : u.Idx → α)
    (h : (⟨3, ![32, 2048, 128]⟩ : Shape).Pads ![0, 8, 0] ![0, 0, 0] ![0, 0, 0] ⟨3, ![32, 2056, 128]⟩) (hu : 0 < u.numel)
    (b : Fin 32) (j : Fin 2056) (l : Fin 128) :
    pad ⟨3, ![32, 2056, 128]⟩ ![0, 8, 0] ![0, 0, 0] ![0, 0, 0] x v h hu (ix3 b j l)
      = if hj : 8 ≤ j.val then x (ix3 b ⟨j.val - 8, by omega⟩ l) else v (Shape.Idx.first hu) := by
  rw [pad_r3_apply x v h hu b j l]
  by_cases hj : 8 ≤ j.val
  · rw [dif_pos hj, dif_pos ⟨hj, by omega⟩]
  · rw [dif_neg hj, dif_neg fun hc => hj hc.1]

theorem pad_32x2056x128_apply_of_le (x : (⟨3, ![32, 2048, 128]⟩ : Shape).Idx → α) {u : Shape} (v : u.Idx → α)
    (h : (⟨3, ![32, 2048, 128]⟩ : Shape).Pads ![0, 8, 0] ![0, 0, 0] ![0, 0, 0] ⟨3, ![32, 2056, 128]⟩) (hu : 0 < u.numel)
    (b : Fin 32) (j : Fin 2056) (l : Fin 128) (hj : 8 ≤ j.val) :
    pad ⟨3, ![32, 2056, 128]⟩ ![0, 8, 0] ![0, 0, 0] ![0, 0, 0] x v h hu (ix3 b j l) = x (ix3 b ⟨j.val - 8, by omega⟩ l) := by
  rw [pad_32x2056x128_apply, dif_pos hj]

theorem pad_32x2056x128_apply_of_lt (x : (⟨3, ![32, 2048, 128]⟩ : Shape).Idx → α) {u : Shape} (v : u.Idx → α)
    (h : (⟨3, ![32, 2048, 128]⟩ : Shape).Pads ![0, 8, 0] ![0, 0, 0] ![0, 0, 0] ⟨3, ![32, 2056, 128]⟩) (hu : 0 < u.numel)
    (b : Fin 32) (j : Fin 2056) (l : Fin 128) (hj : j.val < 8) :
    pad ⟨3, ![32, 2056, 128]⟩ ![0, 8, 0] ![0, 0, 0] ![0, 0, 0] x v h hu (ix3 b j l) = v (Shape.Idx.first hu) := by
  rw [pad_32x2056x128_apply, dif_neg (by omega)]

/-- (32, 2048, 1) padded by 8 rows in front and 8 behind along axis 1 to (32, 2064, 1): row j with
    8 ≤ j < 2056 is the operand's row j - 8, the first 8 and the last 8 rows are the padding value. -/
theorem pad_32x2064x1_apply (x : (⟨3, ![32, 2048, 1]⟩ : Shape).Idx → α) {u : Shape} (v : u.Idx → α)
    (h : (⟨3, ![32, 2048, 1]⟩ : Shape).Pads ![0, 8, 0] ![0, 8, 0] ![0, 0, 0] ⟨3, ![32, 2064, 1]⟩) (hu : 0 < u.numel)
    (b : Fin 32) (j : Fin 2064) (l : Fin 1) :
    pad ⟨3, ![32, 2064, 1]⟩ ![0, 8, 0] ![0, 8, 0] ![0, 0, 0] x v h hu (ix3 b j l)
      = if hj : 8 ≤ j.val ∧ j.val < 2056 then x (ix3 b ⟨j.val - 8, by omega⟩ l) else v (Shape.Idx.first hu) :=
  pad_r3_apply x v h hu b j l

theorem pad_32x2064x1_apply_of_mem (x : (⟨3, ![32, 2048, 1]⟩ : Shape).Idx → α) {u : Shape} (v : u.Idx → α)
    (h : (⟨3, ![32, 2048, 1]⟩ : Shape).Pads ![0, 8, 0] ![0, 8, 0] ![0, 0, 0] ⟨3, ![32, 2064, 1]⟩) (hu : 0 < u.numel)
    (b : Fin 32) (j : Fin 2064) (l : Fin 1) (hj : 8 ≤ j.val) (hj' : j.val < 2056) :
    pad ⟨3, ![32, 2064, 1]⟩ ![0, 8, 0] ![0, 8, 0] ![0, 0, 0] x v h hu (ix3 b j l) = x (ix3 b ⟨j.val - 8, by omega⟩ l) := by
  rw [pad_32x2064x1_apply, dif_pos ⟨hj, hj'⟩]

theorem pad_32x2064x1_apply_of_not_mem (x : (⟨3, ![32, 2048, 1]⟩ : Shape).Idx → α) {u : Shape} (v : u.Idx → α)
    (h : (⟨3, ![32, 2048, 1]⟩ : Shape).Pads ![0, 8, 0] ![0, 8, 0] ![0, 0, 0] ⟨3, ![32, 2064, 1]⟩) (hu : 0 < u.numel)
    (b : Fin 32) (j : Fin 2064) (l : Fin 1) (hj : j.val < 8 ∨ 2056 ≤ j.val) :
    pad ⟨3, ![32, 2064, 1]⟩ ![0, 8, 0] ![0, 8, 0] ![0, 0, 0] x v h hu (ix3 b j l) = v (Shape.Idx.first hu) := by
  rw [pad_32x2064x1_apply, dif_neg (by omega)]

/-! ## A concatenation at an index

Two pieces joined along an axis: a coordinate below the first piece's extent there reads the first piece at the same
index; a coordinate at or past it reads the second piece, that extent less. -/

/-- Rank 2 along axis 1 (the columns): column j < N₁ from the first piece, column j ≥ N₁ from the second at j - N₁. -/
theorem concat2_r2a1_apply {A N₁ N₂ M : Nat} (hM : M = N₁ + N₂) (x₁ : (⟨2, ![A, N₁]⟩ : Shape).Idx → α) (x₂ : (⟨2, ![A, N₂]⟩ : Shape).Idx → α)
    (h : Shape.Concatenates [⟨2, ![A, N₁]⟩, ⟨2, ![A, N₂]⟩] ⟨2, ![A, M]⟩ 1) (a : Fin A) (j : Fin M) :
    concatenate ⟨2, ![A, M]⟩ 1 [⟨⟨2, ![A, N₁]⟩, x₁⟩, ⟨⟨2, ![A, N₂]⟩, x₂⟩] h (ix2 a j)
      = if hj : j.val < N₁ then x₁ (ix2 a ⟨j.val, hj⟩) else x₂ (ix2 a ⟨j.val - N₁, by omega⟩) := by
  by_cases hj : j.val < N₁
  · rw [dif_pos hj]
    refine concatenate_pair_apply_left _ x₁ x₂ h (ix2 a j) rfl (ix2 a ⟨j.val, hj⟩) fun c => ?_
    match c with
    | ⟨0, _⟩ => rfl
    | ⟨1, _⟩ => rfl
  · rw [dif_neg hj]
    refine concatenate_pair_apply_right _ x₁ x₂ h (ix2 a j) rfl rfl (ix2 a ⟨j.val - N₁, by omega⟩) (fun c hc => ?_) ?_
    · match c with
      | ⟨0, _⟩ => rfl
      | ⟨1, _⟩ => exact absurd rfl hc
    · show j.val - N₁ + N₁ = j.val; omega

/-- Rank 3 along axis 1: row j < N₁ from the first piece, row j ≥ N₁ from the second at j - N₁. -/
theorem concat2_r3a1_apply {A N₁ N₂ M D : Nat} (hM : M = N₁ + N₂) (x₁ : (⟨3, ![A, N₁, D]⟩ : Shape).Idx → α) (x₂ : (⟨3, ![A, N₂, D]⟩ : Shape).Idx → α)
    (h : Shape.Concatenates [⟨3, ![A, N₁, D]⟩, ⟨3, ![A, N₂, D]⟩] ⟨3, ![A, M, D]⟩ 1) (a : Fin A) (j : Fin M) (l : Fin D) :
    concatenate ⟨3, ![A, M, D]⟩ 1 [⟨⟨3, ![A, N₁, D]⟩, x₁⟩, ⟨⟨3, ![A, N₂, D]⟩, x₂⟩] h (ix3 a j l)
      = if hj : j.val < N₁ then x₁ (ix3 a ⟨j.val, hj⟩ l) else x₂ (ix3 a ⟨j.val - N₁, by omega⟩ l) := by
  by_cases hj : j.val < N₁
  · rw [dif_pos hj]
    refine concatenate_pair_apply_left _ x₁ x₂ h (ix3 a j l) rfl (ix3 a ⟨j.val, hj⟩ l) fun c => ?_
    match c with
    | ⟨0, _⟩ => rfl
    | ⟨1, _⟩ => rfl
    | ⟨2, _⟩ => rfl
  · rw [dif_neg hj]
    refine concatenate_pair_apply_right _ x₁ x₂ h (ix3 a j l) rfl rfl (ix3 a ⟨j.val - N₁, by omega⟩ l) (fun c hc => ?_) ?_
    · match c with
      | ⟨0, _⟩ => rfl
      | ⟨1, _⟩ => exact absurd rfl hc
      | ⟨2, _⟩ => rfl
    · show j.val - N₁ + N₁ = j.val; omega

/-- Rank 3 along axis 2 (the last): column j < N₁ from the first piece, column j ≥ N₁ from the second at j - N₁. -/
theorem concat2_r3a2_apply {A B N₁ N₂ M : Nat} (hM : M = N₁ + N₂) (x₁ : (⟨3, ![A, B, N₁]⟩ : Shape).Idx → α) (x₂ : (⟨3, ![A, B, N₂]⟩ : Shape).Idx → α)
    (h : Shape.Concatenates [⟨3, ![A, B, N₁]⟩, ⟨3, ![A, B, N₂]⟩] ⟨3, ![A, B, M]⟩ 2) (a : Fin A) (b : Fin B) (j : Fin M) :
    concatenate ⟨3, ![A, B, M]⟩ 2 [⟨⟨3, ![A, B, N₁]⟩, x₁⟩, ⟨⟨3, ![A, B, N₂]⟩, x₂⟩] h (ix3 a b j)
      = if hj : j.val < N₁ then x₁ (ix3 a b ⟨j.val, hj⟩) else x₂ (ix3 a b ⟨j.val - N₁, by omega⟩) := by
  by_cases hj : j.val < N₁
  · rw [dif_pos hj]
    refine concatenate_pair_apply_left _ x₁ x₂ h (ix3 a b j) rfl (ix3 a b ⟨j.val, hj⟩) fun c => ?_
    match c with
    | ⟨0, _⟩ => rfl
    | ⟨1, _⟩ => rfl
    | ⟨2, _⟩ => rfl
  · rw [dif_neg hj]
    refine concatenate_pair_apply_right _ x₁ x₂ h (ix3 a b j) rfl rfl (ix3 a b ⟨j.val - N₁, by omega⟩) (fun c hc => ?_) ?_
    · match c with
      | ⟨0, _⟩ => rfl
      | ⟨1, _⟩ => rfl
      | ⟨2, _⟩ => exact absurd rfl hc
    · show j.val - N₁ + N₁ = j.val; omega

/-- Rank 4 along axis 2: plane j < N₁ from the first piece, plane j ≥ N₁ from the second at j - N₁. -/
theorem concat2_r4a2_apply {A B N₁ N₂ M D : Nat} (hM : M = N₁ + N₂) (x₁ : (⟨4, ![A, B, N₁, D]⟩ : Shape).Idx → α) (x₂ : (⟨4, ![A, B, N₂, D]⟩ : Shape).Idx → α)
    (h : Shape.Concatenates [⟨4, ![A, B, N₁, D]⟩, ⟨4, ![A, B, N₂, D]⟩] ⟨4, ![A, B, M, D]⟩ 2) (a : Fin A) (b : Fin B) (j : Fin M) (l : Fin D) :
    concatenate ⟨4, ![A, B, M, D]⟩ 2 [⟨⟨4, ![A, B, N₁, D]⟩, x₁⟩, ⟨⟨4, ![A, B, N₂, D]⟩, x₂⟩] h (ix4 a b j l)
      = if hj : j.val < N₁ then x₁ (ix4 a b ⟨j.val, hj⟩ l) else x₂ (ix4 a b ⟨j.val - N₁, by omega⟩ l) := by
  by_cases hj : j.val < N₁
  · rw [dif_pos hj]
    refine concatenate_pair_apply_left _ x₁ x₂ h (ix4 a b j l) rfl (ix4 a b ⟨j.val, hj⟩ l) fun c => ?_
    match c with
    | ⟨0, _⟩ => rfl
    | ⟨1, _⟩ => rfl
    | ⟨2, _⟩ => rfl
    | ⟨3, _⟩ => rfl
  · rw [dif_neg hj]
    refine concatenate_pair_apply_right _ x₁ x₂ h (ix4 a b j l) rfl rfl (ix4 a b ⟨j.val - N₁, by omega⟩ l) (fun c hc => ?_) ?_
    · match c with
      | ⟨0, _⟩ => rfl
      | ⟨1, _⟩ => rfl
      | ⟨2, _⟩ => exact absurd rfl hc
      | ⟨3, _⟩ => rfl
    · show j.val - N₁ + N₁ = j.val; omega

/-! ### The four two-piece concatenations of the programs -/

/-- (32, 2048, 64) and (32, 2048, 64) joined along the last axis to (32, 2048, 128): column j < 64 from the first,
    column j ≥ 64 from the second at j - 64. -/
theorem concat_32x2048x128_apply (x₁ x₂ : (⟨3, ![32, 2048, 64]⟩ : Shape).Idx → α)
    (h : Shape.Concatenates [⟨3, ![32, 2048, 64]⟩, ⟨3, ![32, 2048, 64]⟩] ⟨3, ![32, 2048, 128]⟩ 2) (a : Fin 32) (b : Fin 2048) (j : Fin 128) :
    concatenate ⟨3, ![32, 2048, 128]⟩ 2 [⟨⟨3, ![32, 2048, 64]⟩, x₁⟩, ⟨⟨3, ![32, 2048, 64]⟩, x₂⟩] h (ix3 a b j)
      = if hj : j.val < 64 then x₁ (ix3 a b ⟨j.val, hj⟩) else x₂ (ix3 a b ⟨j.val - 64, by omega⟩) :=
  concat2_r3a2_apply rfl x₁ x₂ h a b j

theorem concat_32x2048x128_apply_of_lt (x₁ x₂ : (⟨3, ![32, 2048, 64]⟩ : Shape).Idx → α)
    (h : Shape.Concatenates [⟨3, ![32, 2048, 64]⟩, ⟨3, ![32, 2048, 64]⟩] ⟨3, ![32, 2048, 128]⟩ 2) (a : Fin 32) (b : Fin 2048) (j : Fin 128)
    (hj : j.val < 64) :
    concatenate ⟨3, ![32, 2048, 128]⟩ 2 [⟨⟨3, ![32, 2048, 64]⟩, x₁⟩, ⟨⟨3, ![32, 2048, 64]⟩, x₂⟩] h (ix3 a b j) = x₁ (ix3 a b ⟨j.val, hj⟩) := by
  rw [concat_32x2048x128_apply, dif_pos hj]

theorem concat_32x2048x128_apply_of_le (x₁ x₂ : (⟨3, ![32, 2048, 64]⟩ : Shape).Idx → α)
    (h : Shape.Concatenates [⟨3, ![32, 2048, 64]⟩, ⟨3, ![32, 2048, 64]⟩] ⟨3, ![32, 2048, 128]⟩ 2) (a : Fin 32) (b : Fin 2048) (j : Fin 128)
    (hj : 64 ≤ j.val) :
    concatenate ⟨3, ![32, 2048, 128]⟩ 2 [⟨⟨3, ![32, 2048, 64]⟩, x₁⟩, ⟨⟨3, ![32, 2048, 64]⟩, x₂⟩] h (ix3 a b j)
      = x₂ (ix3 a b ⟨j.val - 64, by omega⟩) := by
  rw [concat_32x2048x128_apply, dif_neg (by omega)]

/-- (64, 64) and (64, 64) joined along the columns to (64, 128): column j < 64 from the first, column j ≥ 64 from the
    second at j - 64. -/
theorem concat_64x128_apply (x₁ x₂ : (⟨2, ![64, 64]⟩ : Shape).Idx → α)
    (h : Shape.Concatenates [⟨2, ![64, 64]⟩, ⟨2, ![64, 64]⟩] ⟨2, ![64, 128]⟩ 1) (a : Fin 64) (j : Fin 128) :
    concatenate ⟨2, ![64, 128]⟩ 1 [⟨⟨2, ![64, 64]⟩, x₁⟩, ⟨⟨2, ![64, 64]⟩, x₂⟩] h (ix2 a j)
      = if hj : j.val < 64 then x₁ (ix2 a ⟨j.val, hj⟩) else x₂ (ix2 a ⟨j.val - 64, by omega⟩) :=
  concat2_r2a1_apply rfl x₁ x₂ h a j

theorem concat_64x128_apply_of_lt (x₁ x₂ : (⟨2, ![64, 64]⟩ : Shape).Idx → α)
    (h : Shape.Concatenates [⟨2, ![64, 64]⟩, ⟨2, ![64, 64]⟩] ⟨2, ![64, 128]⟩ 1) (a : Fin 64) (j : Fin 128) (hj : j.val < 64) :
    concatenate ⟨2, ![64, 128]⟩ 1 [⟨⟨2, ![64, 64]⟩, x₁⟩, ⟨⟨2, ![64, 64]⟩, x₂⟩] h (ix2 a j) = x₁ (ix2 a ⟨j.val, hj⟩) := by
  rw [concat_64x128_apply, dif_pos hj]

theorem concat_64x128_apply_of_le (x₁ x₂ : (⟨2, ![64, 64]⟩ : Shape).Idx → α)
    (h : Shape.Concatenates [⟨2, ![64, 64]⟩, ⟨2, ![64, 64]⟩] ⟨2, ![64, 128]⟩ 1) (a : Fin 64) (j : Fin 128) (hj : 64 ≤ j.val) :
    concatenate ⟨2, ![64, 128]⟩ 1 [⟨⟨2, ![64, 64]⟩, x₁⟩, ⟨⟨2, ![64, 64]⟩, x₂⟩] h (ix2 a j) = x₂ (ix2 a ⟨j.val - 64, by omega⟩) := by
  rw [concat_64x128_apply, dif_neg (by omega)]

/-- (32, 18423, 64) and (32, 1, 64) joined along axis 1 to (32, 18424, 64): row j < 18423 from the first, the last
    row from the second piece's one row. -/
theorem concat_32x18424x64_apply (x₁ : (⟨3, ![32, 18423, 64]⟩ : Shape).Idx → α) (x₂ : (⟨3, ![32, 1, 64]⟩ : Shape).Idx → α)
    (h : Shape.Concatenates [⟨3, ![32, 18423, 64]⟩, ⟨3, ![32, 1, 64]⟩] ⟨3, ![32, 18424, 64]⟩ 1) (a : Fin 32) (j : Fin 18424) (l : Fin 64) :
    concatenate ⟨3, ![32, 18424, 64]⟩ 1 [⟨⟨3, ![32, 18423, 64]⟩, x₁⟩, ⟨⟨3, ![32, 1, 64]⟩, x₂⟩] h (ix3 a j l)
      = if hj : j.val < 18423 then x₁ (ix3 a ⟨j.val, hj⟩ l) else x₂ (ix3 a (0 : Fin 1) l) := by
  rw [concat2_r3a1_apply rfl x₁ x₂ h a j l]
  by_cases hj : j.val < 18423
  · rw [dif_pos hj, dif_pos hj]
  · rw [dif_neg hj, dif_neg hj]
    exact congrArg (fun r : Fin 1 => x₂ (ix3 a r l)) (Fin.ext (by show j.val - 18423 = 0; omega))

theorem concat_32x18424x64_apply_of_lt (x₁ : (⟨3, ![32, 18423, 64]⟩ : Shape).Idx → α) (x₂ : (⟨3, ![32, 1, 64]⟩ : Shape).Idx → α)
    (h : Shape.Concatenates [⟨3, ![32, 18423, 64]⟩, ⟨3, ![32, 1, 64]⟩] ⟨3, ![32, 18424, 64]⟩ 1) (a : Fin 32) (j : Fin 18424) (l : Fin 64)
    (hj : j.val < 18423) :
    concatenate ⟨3, ![32, 18424, 64]⟩ 1 [⟨⟨3, ![32, 18423, 64]⟩, x₁⟩, ⟨⟨3, ![32, 1, 64]⟩, x₂⟩] h (ix3 a j l) = x₁ (ix3 a ⟨j.val, hj⟩ l) := by
  rw [concat_32x18424x64_apply, dif_pos hj]

theorem concat_32x18424x64_apply_of_eq (x₁ : (⟨3, ![32, 18423, 64]⟩ : Shape).Idx → α) (x₂ : (⟨3, ![32, 1, 64]⟩ : Shape).Idx → α)
    (h : Shape.Concatenates [⟨3, ![32, 18423, 64]⟩, ⟨3, ![32, 1, 64]⟩] ⟨3, ![32, 18424, 64]⟩ 1) (a : Fin 32) (j : Fin 18424) (l : Fin 64)
    (hj : j.val = 18423) :
    concatenate ⟨3, ![32, 18424, 64]⟩ 1 [⟨⟨3, ![32, 18423, 64]⟩, x₁⟩, ⟨⟨3, ![32, 1, 64]⟩, x₂⟩] h (ix3 a j l) = x₂ (ix3 a (0 : Fin 1) l) := by
  rw [concat_32x18424x64_apply, dif_neg (by omega)]

/-- (32, 2047, 1, 64) and (32, 2047, 8, 64) joined along axis 2 to (32, 2047, 9, 64): plane 0 is the first piece's
    one plane, plane k ≥ 1 the second piece's plane k - 1. -/
theorem concat_32x2047x9x64_apply (x₁ : (⟨4, ![32, 2047, 1, 64]⟩ : Shape).Idx → α) (x₂ : (⟨4, ![32, 2047, 8, 64]⟩ : Shape).Idx → α)
    (h : Shape.Concatenates [⟨4, ![32, 2047, 1, 64]⟩, ⟨4, ![32, 2047, 8, 64]⟩] ⟨4, ![32, 2047, 9, 64]⟩ 2)
    (a : Fin 32) (b : Fin 2047) (k : Fin 9) (l : Fin 64) :
    concatenate ⟨4, ![32, 2047, 9, 64]⟩ 2 [⟨⟨4, ![32, 2047, 1, 64]⟩, x₁⟩, ⟨⟨4, ![32, 2047, 8, 64]⟩, x₂⟩] h (ix4 a b k l)
      = if hk : k.val = 0 then x₁ (ix4 a b (0 : Fin 1) l) else x₂ (ix4 a b ⟨k.val - 1, by omega⟩ l) := by
  rw [concat2_r4a2_apply rfl x₁ x₂ h a b k l]
  by_cases hk : k.val = 0
  · rw [dif_pos hk, dif_pos (by omega)]
    exact congrArg (fun r : Fin 1 => x₁ (ix4 a b r l)) (Fin.ext (by show k.val = 0; exact hk))
  · rw [dif_neg hk, dif_neg (by omega)]

theorem concat_32x2047x9x64_apply_zero (x₁ : (⟨4, ![32, 2047, 1, 64]⟩ : Shape).Idx → α) (x₂ : (⟨4, ![32, 2047, 8, 64]⟩ : Shape).Idx → α)
    (h : Shape.Concatenates [⟨4, ![32, 2047, 1, 64]⟩, ⟨4, ![32, 2047, 8, 64]⟩] ⟨4, ![32, 2047, 9, 64]⟩ 2)
    (a : Fin 32) (b : Fin 2047) (k : Fin 9) (l : Fin 64) (hk : k.val = 0) :
    concatenate ⟨4, ![32, 2047, 9, 64]⟩ 2 [⟨⟨4, ![32, 2047, 1, 64]⟩, x₁⟩, ⟨⟨4, ![32, 2047, 8, 64]⟩, x₂⟩] h (ix4 a b k l)
      = x₁ (ix4 a b (0 : Fin 1) l) := by
  rw [concat_32x2047x9x64_apply, dif_pos hk]

theorem concat_32x2047x9x64_apply_pos (x₁ : (⟨4, ![32, 2047, 1, 64]⟩ : Shape).Idx → α) (x₂ : (⟨4, ![32, 2047, 8, 64]⟩ : Shape).Idx → α)
    (h : Shape.Concatenates [⟨4, ![32, 2047, 1, 64]⟩, ⟨4, ![32, 2047, 8, 64]⟩] ⟨4, ![32, 2047, 9, 64]⟩ 2)
    (a : Fin 32) (b : Fin 2047) (k : Fin 9) (l : Fin 64) (hk : 1 ≤ k.val) :
    concatenate ⟨4, ![32, 2047, 9, 64]⟩ 2 [⟨⟨4, ![32, 2047, 1, 64]⟩, x₁⟩, ⟨⟨4, ![32, 2047, 8, 64]⟩, x₂⟩] h (ix4 a b k l)
      = x₂ (ix4 a b ⟨k.val - 1, by omega⟩ l) := by
  rw [concat_32x2047x9x64_apply, dif_neg (by omega)]

/-! ## Nine unit pieces stacked along an axis

Nine pieces whose extent along axis 1 is one, joined along it: the result's slice k along that axis is piece k. -/

/-- Rank 3: entry (a, k, l) of the stack is piece k at (a, 0, l). -/
theorem concat9_r3a1_apply {A N : Nat} (x0 x1 x2 x3 x4 x5 x6 x7 x8 : (⟨3, ![A, 1, N]⟩ : Shape).Idx → α)
    (h : Shape.Concatenates [⟨3, ![A, 1, N]⟩, ⟨3, ![A, 1, N]⟩, ⟨3, ![A, 1, N]⟩, ⟨3, ![A, 1, N]⟩, ⟨3, ![A, 1, N]⟩, ⟨3, ![A, 1, N]⟩,
      ⟨3, ![A, 1, N]⟩, ⟨3, ![A, 1, N]⟩, ⟨3, ![A, 1, N]⟩] ⟨3, ![A, 9, N]⟩ 1) (a : Fin A) (k : Fin 9) (l : Fin N) :
    concatenate ⟨3, ![A, 9, N]⟩ 1 [⟨⟨3, ![A, 1, N]⟩, x0⟩, ⟨⟨3, ![A, 1, N]⟩, x1⟩, ⟨⟨3, ![A, 1, N]⟩, x2⟩, ⟨⟨3, ![A, 1, N]⟩, x3⟩,
        ⟨⟨3, ![A, 1, N]⟩, x4⟩, ⟨⟨3, ![A, 1, N]⟩, x5⟩, ⟨⟨3, ![A, 1, N]⟩, x6⟩, ⟨⟨3, ![A, 1, N]⟩, x7⟩, ⟨⟨3, ![A, 1, N]⟩, x8⟩] h (ix3 a k l)
      = (![x0, x1, x2, x3, x4, x5, x6, x7, x8] k) (ix3 a (0 : Fin 1) l) := by
  refine concatenate_ofFn_unit_apply (t := ⟨3, ![A, 9, N]⟩) (s₁ := ⟨3, ![A, 1, N]⟩) 1 (N := 9) ![x0, x1, x2, x3, x4, x5, x6, x7, x8] h rfl rfl
    (ix3 a k l) k rfl (ix3 a (0 : Fin 1) l) fun c hc => ?_
  match c with
  | ⟨0, _⟩ => rfl
  | ⟨1, _⟩ => exact absurd rfl hc
  | ⟨2, _⟩ => rfl

/-- Rank 4: entry (a, k, l, d) of the stack is piece k at (a, 0, l, d). -/
theorem concat9_r4a1_apply {A N D : Nat} (x0 x1 x2 x3 x4 x5 x6 x7 x8 : (⟨4, ![A, 1, N, D]⟩ : Shape).Idx → α)
    (h : Shape.Concatenates [⟨4, ![A, 1, N, D]⟩, ⟨4, ![A, 1, N, D]⟩, ⟨4, ![A, 1, N, D]⟩, ⟨4, ![A, 1, N, D]⟩, ⟨4, ![A, 1, N, D]⟩, ⟨4, ![A, 1, N, D]⟩,
      ⟨4, ![A, 1, N, D]⟩, ⟨4, ![A, 1, N, D]⟩, ⟨4, ![A, 1, N, D]⟩] ⟨4, ![A, 9, N, D]⟩ 1) (a : Fin A) (k : Fin 9) (l : Fin N) (d : Fin D) :
    concatenate ⟨4, ![A, 9, N, D]⟩ 1 [⟨⟨4, ![A, 1, N, D]⟩, x0⟩, ⟨⟨4, ![A, 1, N, D]⟩, x1⟩, ⟨⟨4, ![A, 1, N, D]⟩, x2⟩, ⟨⟨4, ![A, 1, N, D]⟩, x3⟩,
        ⟨⟨4, ![A, 1, N, D]⟩, x4⟩, ⟨⟨4, ![A, 1, N, D]⟩, x5⟩, ⟨⟨4, ![A, 1, N, D]⟩, x6⟩, ⟨⟨4, ![A, 1, N, D]⟩, x7⟩, ⟨⟨4, ![A, 1, N, D]⟩, x8⟩] h (ix4 a k l d)
      = (![x0, x1, x2, x3, x4, x5, x6, x7, x8] k) (ix4 a (0 : Fin 1) l d) := by
  refine concatenate_ofFn_unit_apply (t := ⟨4, ![A, 9, N, D]⟩) (s₁ := ⟨4, ![A, 1, N, D]⟩) 1 (N := 9) ![x0, x1, x2, x3, x4, x5, x6, x7, x8] h rfl rfl
    (ix4 a k l d) k rfl (ix4 a (0 : Fin 1) l d) fun c hc => ?_
  match c with
  | ⟨0, _⟩ => rfl
  | ⟨1, _⟩ => exact absurd rfl hc
  | ⟨2, _⟩ => rfl
  | ⟨3, _⟩ => rfl

/-! ### The two nine-piece stacks of the reference -/

/-- Nine (32, 1, 2048) pieces stacked along axis 1 to (32, 9, 2048): entry (b, k, l) is piece k at (b, 0, l). -/
theorem concat_32x9x2048_apply (x0 x1 x2 x3 x4 x5 x6 x7 x8 : (⟨3, ![32, 1, 2048]⟩ : Shape).Idx → α)
    (h : Shape.Concatenates [⟨3, ![32, 1, 2048]⟩, ⟨3, ![32, 1, 2048]⟩, ⟨3, ![32, 1, 2048]⟩, ⟨3, ![32, 1, 2048]⟩, ⟨3, ![32, 1, 2048]⟩,
      ⟨3, ![32, 1, 2048]⟩, ⟨3, ![32, 1, 2048]⟩, ⟨3, ![32, 1, 2048]⟩, ⟨3, ![32, 1, 2048]⟩] ⟨3, ![32, 9, 2048]⟩ 1)
    (b : Fin 32) (k : Fin 9) (l : Fin 2048) :
    concatenate ⟨3, ![32, 9, 2048]⟩ 1 [⟨⟨3, ![32, 1, 2048]⟩, x0⟩, ⟨⟨3, ![32, 1, 2048]⟩, x1⟩, ⟨⟨3, ![32, 1, 2048]⟩, x2⟩,
        ⟨⟨3, ![32, 1, 2048]⟩, x3⟩, ⟨⟨3, ![32, 1, 2048]⟩, x4⟩, ⟨⟨3, ![32, 1, 2048]⟩, x5⟩, ⟨⟨3, ![32, 1, 2048]⟩, x6⟩,
        ⟨⟨3, ![32, 1, 2048]⟩, x7⟩, ⟨⟨3, ![32, 1, 2048]⟩, x8⟩] h (ix3 b k l)
      = (![x0, x1, x2, x3, x4, x5, x6, x7, x8] k) (ix3 b (0 : Fin 1) l) :=
  concat9_r3a1_apply x0 x1 x2 x3 x4 x5 x6 x7 x8 h b k l

/-- The same with the pieces given as a family u over Fin 9: entry (b, k, l) is u k at (b, 0, l). -/
theorem concat_32x9x2048_apply_fn (u : Fin 9 → (⟨3, ![32, 1, 2048]⟩ : Shape).Idx → α)
    (h : Shape.Concatenates [⟨3, ![32, 1, 2048]⟩, ⟨3, ![32, 1, 2048]⟩, ⟨3, ![32, 1, 2048]⟩, ⟨3, ![32, 1, 2048]⟩, ⟨3, ![32, 1, 2048]⟩,
      ⟨3, ![32, 1, 2048]⟩, ⟨3, ![32, 1, 2048]⟩, ⟨3, ![32, 1, 2048]⟩, ⟨3, ![32, 1, 2048]⟩] ⟨3, ![32, 9, 2048]⟩ 1)
    (b : Fin 32) (k : Fin 9) (l : Fin 2048) :
    concatenate ⟨3, ![32, 9, 2048]⟩ 1 [⟨⟨3, ![32, 1, 2048]⟩, u 0⟩, ⟨⟨3, ![32, 1, 2048]⟩, u 1⟩, ⟨⟨3, ![32, 1, 2048]⟩, u 2⟩,
        ⟨⟨3, ![32, 1, 2048]⟩, u 3⟩, ⟨⟨3, ![32, 1, 2048]⟩, u 4⟩, ⟨⟨3, ![32, 1, 2048]⟩, u 5⟩, ⟨⟨3, ![32, 1, 2048]⟩, u 6⟩,
        ⟨⟨3, ![32, 1, 2048]⟩, u 7⟩, ⟨⟨3, ![32, 1, 2048]⟩, u 8⟩] h (ix3 b k l)
      = u k (ix3 b (0 : Fin 1) l) := by
  rw [concat_32x9x2048_apply]
  exact congrFun (congrFun (funext fun k : Fin 9 => by fin_cases k <;> rfl :
    (![u 0, u 1, u 2, u 3, u 4, u 5, u 6, u 7, u 8] : Fin 9 → _) = u) k) _

/-- Nine (32, 1, 2048, 128) pieces stacked along axis 1 to (32, 9, 2048, 128): entry (b, k, l, d) is piece k at
    (b, 0, l, d). -/
theorem concat_32x9x2048x128_apply (x0 x1 x2 x3 x4 x5 x6 x7 x8 : (⟨4, ![32, 1, 2048, 128]⟩ : Shape).Idx → α)
    (h : Shape.Concatenates [⟨4, ![32, 1, 2048, 128]⟩, ⟨4, ![32, 1, 2048, 128]⟩, ⟨4, ![32, 1, 2048, 128]⟩, ⟨4, ![32, 1, 2048, 128]⟩,
      ⟨4, ![32, 1, 2048, 128]⟩, ⟨4, ![32, 1, 2048, 128]⟩, ⟨4, ![32, 1, 2048, 128]⟩, ⟨4, ![32, 1, 2048, 128]⟩, ⟨4, ![32, 1, 2048, 128]⟩]
      ⟨4, ![32, 9, 2048, 128]⟩ 1)
    (b : Fin 32) (k : Fin 9) (l : Fin 2048) (d : Fin 128) :
    concatenate ⟨4, ![32, 9, 2048, 128]⟩ 1 [⟨⟨4, ![32, 1, 2048, 128]⟩, x0⟩, ⟨⟨4, ![32, 1, 2048, 128]⟩, x1⟩, ⟨⟨4, ![32, 1, 2048, 128]⟩, x2⟩,
        ⟨⟨4, ![32, 1, 2048, 128]⟩, x3⟩, ⟨⟨4, ![32, 1, 2048, 128]⟩, x4⟩, ⟨⟨4, ![32, 1, 2048, 128]⟩, x5⟩, ⟨⟨4, ![32, 1, 2048, 128]⟩, x6⟩,
        ⟨⟨4, ![32, 1, 2048, 128]⟩, x7⟩, ⟨⟨4, ![32, 1, 2048, 128]⟩, x8⟩] h (ix4 b k l d)
      = (![x0, x1, x2, x3, x4, x5, x6, x7, x8] k) (ix4 b (0 : Fin 1) l d) :=
  concat9_r4a1_apply x0 x1 x2 x3 x4 x5 x6 x7 x8 h b k l d

/-- The same with the pieces given as a family u over Fin 9: entry (b, k, l, d) is u k at (b, 0, l, d). -/
theorem concat_32x9x2048x128_apply_fn (u : Fin 9 → (⟨4, ![32, 1, 2048, 128]⟩ : Shape).Idx → α)
    (h : Shape.Concatenates [⟨4, ![32, 1, 2048, 128]⟩, ⟨4, ![32, 1, 2048, 128]⟩, ⟨4, ![32, 1, 2048, 128]⟩, ⟨4, ![32, 1, 2048, 128]⟩,
      ⟨4, ![32, 1, 2048, 128]⟩, ⟨4, ![32, 1, 2048, 128]⟩, ⟨4, ![32, 1, 2048, 128]⟩, ⟨4, ![32, 1, 2048, 128]⟩, ⟨4, ![32, 1, 2048, 128]⟩]
      ⟨4, ![32, 9, 2048, 128]⟩ 1)
    (b : Fin 32) (k : Fin 9) (l : Fin 2048) (d : Fin 128) :
    concatenate ⟨4, ![32, 9, 2048, 128]⟩ 1 [⟨⟨4, ![32, 1, 2048, 128]⟩, u 0⟩, ⟨⟨4, ![32, 1, 2048, 128]⟩, u 1⟩, ⟨⟨4, ![32, 1, 2048, 128]⟩, u 2⟩,
        ⟨⟨4, ![32, 1, 2048, 128]⟩, u 3⟩, ⟨⟨4, ![32, 1, 2048, 128]⟩, u 4⟩, ⟨⟨4, ![32, 1, 2048, 128]⟩, u 5⟩, ⟨⟨4, ![32, 1, 2048, 128]⟩, u 6⟩,
        ⟨⟨4, ![32, 1, 2048, 128]⟩, u 7⟩, ⟨⟨4, ![32, 1, 2048, 128]⟩, u 8⟩] h (ix4 b k l d)
      = u k (ix4 b (0 : Fin 1) l d) := by
  rw [concat_32x9x2048x128_apply]
  exact congrFun (congrFun (funext fun k : Fin 9 => by fin_cases k <;> rfl :
    (![u 0, u 1, u 2, u 3, u 4, u 5, u 6, u 7, u 8] : Fin 9 → _) = u) k) _

end Cert.LibLayout
-- ==== Proof.Val.KHostIdx.lean ====
/-
  The layout operations of the host glue read at an index given by coordinates, at the program's literal shapes:
  the four reshapes (a row-major position written two ways), the two slices of the second kernel's output, and the
  broadcasts that add a unit axis.
-/
import Idealize.ShloMosaic.Lib.Pipeline.Value
import Idealize.ShloMosaic.Lib.ValueIdx

noncomputable section

namespace Cert.KHost

open Idealize.ShloMosaic Idealize.ShloMosaic.ValueIdx

variable {α : Type}

/-! ## Reshapes: one row-major position, two spellings -/

/-- (32, 2048, 64) as (65536, 64): row 2048 b + l is (b, l). -/
theorem reshape_feat (x : (⟨3, ![32, 2048, 64]⟩ : Shape).Idx → α)
    (h : (⟨3, ![32, 2048, 64]⟩ : Shape).ShapeCasts ⟨2, ![65536, 64]⟩)
    (b : Fin 32) (l : Fin 2048) (k : Fin 64) (r : Fin 65536) (hr : r.val = 2048 * b.val + l.val) :
    shapeCast ⟨2, ![65536, 64]⟩ x h (ix2 r k) = x (ix3 b l k) :=
  shapeCast_apply x h _ _ (by
    rw [Shape.rowMajor_val_three, Shape.rowMajor_val_two]
    show (b.val * 2048 + l.val) * 64 + k.val = r.val * 64 + k.val
    omega)

/-- (65536, 128) as (32, 2048, 128): (b, l) is row 2048 b + l. -/
theorem reshape_prod (x : (⟨2, ![65536, 128]⟩ : Shape).Idx → α)
    (h : (⟨2, ![65536, 128]⟩ : Shape).ShapeCasts ⟨3, ![32, 2048, 128]⟩)
    (b : Fin 32) (l : Fin 2048) (j : Fin 128) (r : Fin 65536) (hr : r.val = 2048 * b.val + l.val) :
    shapeCast ⟨3, ![32, 2048, 128]⟩ x h (ix3 b l j) = x (ix2 r j) :=
  shapeCast_apply x h _ _ (by
    rw [Shape.rowMajor_val_three, Shape.rowMajor_val_two]
    show r.val * 128 + j.val = (b.val * 2048 + l.val) * 128 + j.val
    omega)

/-- (32, 1, 1, 64) as (32, 64). -/
theorem reshape_last (x : (⟨4, ![32, 1, 1, 64]⟩ : Shape).Idx → α)
    (h : (⟨4, ![32, 1, 1, 64]⟩ : Shape).ShapeCasts ⟨2, ![32, 64]⟩) (b : Fin 32) (o : Fin 64) :
    shapeCast ⟨2, ![32, 64]⟩ x h (ix2 b o) = x (ix4 b (0 : Fin 1) (0 : Fin 1) o) :=
  shapeCast_apply x h _ _ (by
    rw [Shape.rowMajor_val_four, Shape.rowMajor_val_two]
    show ((b.val * 1 + 0) * 1 + 0) * 64 + o.val = b.val * 64 + o.val
    omega)

/-- (32, 2047, 9, 64) as (32, 18423, 64): row 9 l + p is (l, p). -/
theorem reshape_rows (x : (⟨4, ![32, 2047, 9, 64]⟩ : Shape).Idx → α)
    (h : (⟨4, ![32, 2047, 9, 64]⟩ : Shape).ShapeCasts ⟨3, ![32, 18423, 64]⟩)
    (b : Fin 32) (l : Fin 2047) (p : Fin 9) (o : Fin 64) (n : Fin 18423) (hn : n.val = 9 * l.val + p.val) :
    shapeCast ⟨3, ![32, 18423, 64]⟩ x h (ix3 b n o) = x (ix4 b l p o) :=
  shapeCast_apply x h _ _ (by
    rw [Shape.rowMajor_val_four, Shape.rowMajor_val_three]
    show ((b.val * 2047 + l.val) * 9 + p.val) * 64 + o.val = (b.val * 18423 + n.val) * 64 + o.val
    omega)

/-! ## The two slices of the (32, 2048, 9, 64) array -/

/-- The last event's plane 0. -/
theorem slice_last (x : (⟨4, ![32, 2048, 9, 64]⟩ : Shape).Idx → α)
    (h : (⟨4, ![32, 2048, 9, 64]⟩ : Shape).Slices ![0, 2047, 0, 0] ⟨4, ![32, 1, 1, 64]⟩)
    (b : Fin 32) (y z : Fin 1) (o : Fin 64) :
    extractStridedSlice ⟨4, ![32, 1, 1, 64]⟩ ![0, 2047, 0, 0] x h (ix4 b y z o)
      = x (ix4 b (⟨2047, by decide⟩ : Fin 2048) (⟨0, by decide⟩ : Fin 9) o) :=
  extractStridedSlice_apply _ _ _ _ _ (fun ax => by
    match ax with
    | ⟨0, _⟩ => exact (Nat.zero_add _).symm
    | ⟨1, _⟩ => show 2047 = 2047 + y.val; omega
    | ⟨2, _⟩ => show 0 = 0 + z.val; omega
    | ⟨3, _⟩ => exact (Nat.zero_add _).symm)

/-- All events but the last. -/
theorem slice_rows (x : (⟨4, ![32, 2048, 9, 64]⟩ : Shape).Idx → α)
    (h : (⟨4, ![32, 2048, 9, 64]⟩ : Shape).Slices ![0, 0, 0, 0] ⟨4, ![32, 2047, 9, 64]⟩)
    (b : Fin 32) (l : Fin 2047) (p : Fin 9) (o : Fin 64) :
    extractStridedSlice ⟨4, ![32, 2047, 9, 64]⟩ ![0, 0, 0, 0] x h (ix4 b l p o)
      = x (ix4 b (⟨l.val, by have := l.isLt; omega⟩ : Fin 2048) p o) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-! ## Broadcasts that add a unit axis -/

/-- (32, 2048) as (32, 2048, 1). -/
theorem bcast_col (x : (⟨2, ![32, 2048]⟩ : Shape).Idx → α)
    (h : (⟨2, ![32, 2048]⟩ : Shape).BroadcastsInDim ⟨3, ![32, 2048, 1]⟩ (![0, 1] : Fin 2 → Fin 3))
    (b : Fin 32) (l : Fin 2048) (z : Fin 1) :
    broadcastInDim ⟨3, ![32, 2048, 1]⟩ (![0, 1] : Fin 2 → Fin 3) h x (ix3 b l z) = x (ix2 b l) :=
  broadcastInDim_apply _ h x _ _ (fun ax => by
    match ax with
    | ⟨0, _⟩ => show b.val = if (32 : ℕ) = 1 then 0 else b.val; rw [if_neg (by decide)]
    | ⟨1, _⟩ => show l.val = if (2048 : ℕ) = 1 then 0 else l.val; rw [if_neg (by decide)])

/-- (32, 64) as (32, 1, 64). -/
theorem bcast_mid (x : (⟨2, ![32, 64]⟩ : Shape).Idx → α)
    (h : (⟨2, ![32, 64]⟩ : Shape).BroadcastsInDim ⟨3, ![32, 1, 64]⟩ (![0, 2] : Fin 2 → Fin 3))
    (b : Fin 32) (z : Fin 1) (o : Fin 64) :
    broadcastInDim ⟨3, ![32, 1, 64]⟩ (![0, 2] : Fin 2 → Fin 3) h x (ix3 b z o) = x (ix2 b o) :=
  broadcastInDim_apply _ h x _ _ (fun ax => by
    match ax with
    | ⟨0, _⟩ => show b.val = if (32 : ℕ) = 1 then 0 else b.val; rw [if_neg (by decide)]
    | ⟨1, _⟩ => show o.val = if (64 : ℕ) = 1 then 0 else o.val; rw [if_neg (by decide)])

end Cert.KHost

end
-- ==== Proof.Val.KHostOps.lean ====
/-
  What each stretch of host operations leaves in the buffers it writes, as the operations' term over the stretch's
  entry contents `X` (any valuation): the fold over the stretch's list, read at one result buffer.
-/
import proofs.«158136_j57621281243745_1_alg».proof.Proof.Gen.KernelIdeal.Launch
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.StableHlo

variable (X : Valuation τ sig (Elt Ideal))

/-- The stacked weight matrix: the transposed linear weight beside the bias parameter. -/
theorem ops0_v1 : (after hostOps0 X main_v1 : S64x128.Idx → EReal)
    = concatenate S64x128 1 [⟨S64x64, transpose S64x64 [1, 0] (X main_arg4 : S64x64.Idx → EReal) transposes_S64x64_S64x64_1_0⟩,
        ⟨S64x64, (X main_arg5 : S64x64.Idx → EReal)⟩] concatenates_S64x64_S64x64_S64x128_d1 := by
  dsimp only [hostOps0]
  after_results
  all_goals rfl

/-- The flattened features. -/
theorem ops0_v2 : (after hostOps0 X main_v2 : S65536x64.Idx → EReal)
    = shapeCast S65536x64 (X main_arg1 : S32x2048x64.Idx → EReal) shapeCasts_S32x2048x64_S65536x64 := by
  dsimp only [hostOps0]
  after_results
  all_goals rfl

/-- The product array, by sequence and event. -/
theorem ops1_v4 : (after hostOps1 X main_v4 : S32x2048x128.Idx → EReal)
    = shapeCast S32x2048x128 (X main_v3 : S65536x128.Idx → EReal) shapeCasts_S65536x128_S32x2048x128 := by
  dsimp only [hostOps1]
  after_results
  all_goals rfl

theorem ops1_c : (after hostOps1 X main_c : S_.Idx → BitVec 32) = constantI S_ 32 0#32 := by
  dsimp only [hostOps1]
  after_results
  all_goals rfl

/-- The projected features, 8 rows of the converted integer zero in front. -/
theorem ops1_1_v5 : (after hostOps1_1 X main_v5 : S32x2056x128.Idx → EReal)
    = pad S32x2056x128 ![0, 8, 0] ![0, 0, 0] ![0, 0, 0] (X main_v4 : S32x2048x128.Idx → EReal)
        (sitofp (F := Ideal) .f32 (X main_c : S_.Idx → BitVec 32)) pads_S32x2048x128_S32x2056x128_000_800_000 h_S_ := by
  dsimp only [hostOps1_1]
  after_results
  all_goals rfl

/-- The mask as numbers, the times as a one-column array. -/
theorem ops1_2_v6 : (after hostOps1_2 X main_v6 : S32x2048.Idx → EReal)
    = uitofp (F := Ideal) .f32 (X main_arg2 : S32x2048.Idx → BitVec 1) := by
  dsimp only [hostOps1_2]
  after_results
  all_goals rfl

theorem ops1_2_v7 : (after hostOps1_2 X main_v7 : S32x2048x1.Idx → EReal)
    = broadcastInDim S32x2048x1 ![0, 1] bcast_S32x2048_S32x2048x1_0_1 (X main_arg0 : S32x2048.Idx → EReal) := by
  dsimp only [hostOps1_2]
  after_results
  all_goals rfl

theorem ops1_2_c0 : (after hostOps1_2 X main_c_0 : S_.Idx → BitVec 32) = constantI S_ 32 0#32 := by
  dsimp only [hostOps1_2]
  after_results
  all_goals rfl

/-- The times, 8 rows of zero in front and 8 behind. -/
theorem ops1_3_v8 : (after hostOps1_3 X main_v8 : S32x2064x1.Idx → EReal)
    = pad S32x2064x1 ![0, 8, 0] ![0, 8, 0] ![0, 0, 0] (X main_v7 : S32x2048x1.Idx → EReal)
        (sitofp (F := Ideal) .f32 (X main_c_0 : S_.Idx → BitVec 32)) pads_S32x2048x1_S32x2064x1_000_880_000 h_S_ := by
  dsimp only [hostOps1_3]
  after_results
  all_goals rfl

/-- The mask as a one-column array. -/
theorem ops1_4_v9 : (after hostOps1_4 X main_v9 : S32x2048x1.Idx → EReal)
    = broadcastInDim S32x2048x1 ![0, 1] bcast_S32x2048_S32x2048x1_0_1 (X main_v6 : S32x2048.Idx → EReal) := by
  dsimp only [hostOps1_4]
  after_results
  all_goals rfl

theorem ops1_4_c1 : (after hostOps1_4 X main_c_1 : S_.Idx → BitVec 32) = constantI S_ 32 0#32 := by
  dsimp only [hostOps1_4]
  after_results
  all_goals rfl

/-- The mask, 8 rows of zero in front and 8 behind. -/
theorem ops1_5_v10 : (after hostOps1_5 X main_v10 : S32x2064x1.Idx → EReal)
    = pad S32x2064x1 ![0, 8, 0] ![0, 8, 0] ![0, 0, 0] (X main_v9 : S32x2048x1.Idx → EReal)
        (sitofp (F := Ideal) .f32 (X main_c_1 : S_.Idx → BitVec 32)) pads_S32x2048x1_S32x2064x1_000_880_000 h_S_ := by
  dsimp only [hostOps1_5]
  after_results
  all_goals rfl

/-- The sample positions as a one-row array. -/
theorem ops1_6_v11 : (after hostOps1_6 X main_v11 : S1x8.Idx → EReal)
    = shapeCast S1x8 (X main_arg3 : S8.Idx → EReal) shapeCasts_S8_S1x8 := by
  dsimp only [hostOps1_6]
  after_results
  all_goals rfl

/-- The result: all events but the last with their nine planes as rows, then the last event's plane 0. -/
theorem ops2_v18 : (after hostOps2 X main_v18 : S32x18424x64.Idx → EReal)
    = concatenate S32x18424x64 1
        [⟨S32x18423x64, shapeCast S32x18423x64
            (extractStridedSlice S32x2047x9x64 ![0, 0, 0, 0] (X main_v12 : S32x2048x9x64.Idx → EReal) slices_S32x2048x9x64_S32x2047x9x64_0_0_0_0)
            shapeCasts_S32x2047x9x64_S32x18423x64⟩,
         ⟨S32x1x64, broadcastInDim S32x1x64 ![0, 2] bcast_S32x64_S32x1x64_0_2
            (shapeCast S32x64
              (extractStridedSlice S32x1x1x64 ![0, 2047, 0, 0] (X main_v12 : S32x2048x9x64.Idx → EReal) slices_S32x2048x9x64_S32x1x1x64_0_2047_0_0)
              shapeCasts_S32x1x1x64_S32x64)⟩]
        concatenates_S32x18423x64_S32x1x64_S32x18424x64_d1 := by
  dsimp only [hostOps2]
  after_results
  all_goals rfl

end Cert.KernelIdeal.Val

end
-- ==== Proof.Val.KHostIn.lean ====
/-
  The arrays the two kernel regions are entered at, as functions of the argument arrays (and, for the second region,
  of what the first left in the product array): the stacked weights by columns, the flattened features by sequence and
  event, the projected features / the times / the mask as numbers each zero-padded along the events, the sample
  positions as a row.
-/
import proofs.«158136_j57621281243745_1_alg».proof.Proof.Fr.Outs
import proofs.«158136_j57621281243745_1_alg».proof.Proof.Val.Spec
import proofs.«158136_j57621281243745_1_alg».proof.Proof.LibLayout
import proofs.«158136_j57621281243745_1_alg».proof.Proof.Val.KHostCell
import proofs.«158136_j57621281243745_1_alg».proof.Proof.Val.KHostIdx
import proofs.«158136_j57621281243745_1_alg».proof.Proof.Val.KHostOps
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx
open Cert.KHost Cert.Spec

variable (m : (ℓ : Loc nD τ sig) → Buf (Elt Ideal) ℓ) (o : Outs (F := Ideal)) (c : Dev nD)

/-! ## The arguments, where the stretches read them -/

theorem V4_arg0 : V4 m o c main_arg0 = m ((c.tc : Thread nD τ).loc main_arg0) :=
  (V4_of m o c main_arg0 (by decide)).trans <| (V3_of m o c main_arg0 (by decide)).trans <|
    (V2_of m o c main_arg0 (by decide)).trans <| (V1_of m c main_arg0 (by decide)).trans rfl
theorem V4_arg2 : V4 m o c main_arg2 = m ((c.tc : Thread nD τ).loc main_arg2) :=
  (V4_of m o c main_arg2 (by decide)).trans <| (V3_of m o c main_arg2 (by decide)).trans <|
    (V2_of m o c main_arg2 (by decide)).trans <| (V1_of m c main_arg2 (by decide)).trans rfl
theorem V8_arg3 : V8 m o c main_arg3 = m ((c.tc : Thread nD τ).loc main_arg3) :=
  (V8_of m o c main_arg3 (by decide)).trans <| (V7_of m o c main_arg3 (by decide)).trans <|
    (V6_of m o c main_arg3 (by decide)).trans <| (V5_of m o c main_arg3 (by decide)).trans <|
    (V4_of m o c main_arg3 (by decide)).trans <| (V3_of m o c main_arg3 (by decide)).trans <|
    (V2_of m o c main_arg3 (by decide)).trans <| (V1_of m c main_arg3 (by decide)).trans rfl

/-- The converted integer zero is the number zero. -/
theorem pad_zero (x : S_.Idx → BitVec 32) (hx : x = constantI S_ 32 0#32) (i : S_.Idx) :
    (sitofp (F := Ideal) .f32 x : S_.Idx → EReal) i = 0 := by
  subst hx
  show ((((0#32 : BitVec 32).toInt : ℤ) : ℝ) : EReal) = 0
  simp

/-! ## Region 0's operands -/

/-- Column j < 64 of the stacked weights is row j of the linear weight, -/
theorem in_v1_lt (k : Fin 64) (j : Fin 128) (h : j.val < 64) :
    (V1 m c main_v1 : S64x128.Idx → EReal) (ix2 k j)
      = (m ((c.tc : Thread nD τ).loc main_arg4) : S64x64.Idx → EReal) (ix2 ⟨j.val, h⟩ k) := by
  refine (congrFun (ops0_v1 (V0 m c)) _).trans ?_
  refine (Cert.LibLayout.concat_64x128_apply_of_lt _ _ _ k j h).trans ?_
  exact transpose_ix2_apply _ _ k ⟨j.val, h⟩

/-- and column j ≥ 64 is column j - 64 of the bias parameter. -/
theorem in_v1_ge (k : Fin 64) (j : Fin 128) (h : ¬ j.val < 64) :
    (V1 m c main_v1 : S64x128.Idx → EReal) (ix2 k j)
      = (m ((c.tc : Thread nD τ).loc main_arg5) : S64x64.Idx → EReal) (ix2 k ⟨j.val - 64, by have := j.isLt; omega⟩) := by
  refine (congrFun (ops0_v1 (V0 m c)) _).trans ?_
  exact Cert.LibLayout.concat_64x128_apply_of_le _ _ _ k j (by omega)

/-- Row 2048 b + l of the flattened features is event l of sequence b. -/
theorem in_v2 (b : Fin 32) (l : Fin 2048) (k : Fin 64) (r : Fin 65536) (hr : r.val = 2048 * b.val + l.val) :
    (V1 m c main_v2 : S65536x64.Idx → EReal) (ix2 r k)
      = (m ((c.tc : Thread nD τ).loc main_arg1) : S32x2048x64.Idx → EReal) (ix3 b l k) := by
  refine (congrFun (ops0_v2 (V0 m c)) _).trans ?_
  exact reshape_feat _ _ b l k r hr

/-! ## Region 1's operands -/

/-- The product array by sequence, event and column. -/
def prodOf (P : S65536x128.Idx → EReal) (b : Fin 32) (l : Fin 2048) (j : Fin 128) : EReal :=
  P (ix2 ⟨2048 * b.val + l.val, by have := b.isLt; have := l.isLt; omega⟩ j)

theorem in_v5 : (V9 m o c main_v5 : S32x2056x128.Idx → EReal) = padF (prodOf (o 2 main_v3 c)) := by
  have e : (V9 m o c main_v5 : S32x2056x128.Idx → EReal) = V4 m o c main_v5 :=
    (V9_of m o c main_v5 (by decide)).trans <| (V8_of m o c main_v5 (by decide)).trans <|
      (V7_of m o c main_v5 (by decide)).trans <| (V6_of m o c main_v5 (by decide)).trans (V5_of m o c main_v5 (by decide))
  have h3 : V2 m o c main_v3 = o 2 main_v3 c := Function.update_self _ _ _
  have e4 : (V3 m o c main_v4 : S32x2048x128.Idx → EReal)
      = shapeCast S32x2048x128 (o 2 main_v3 c : S65536x128.Idx → EReal) shapeCasts_S65536x128_S32x2048x128 :=
    (ops1_v4 (V2 m o c)).trans (congrArg (fun x => shapeCast S32x2048x128 x shapeCasts_S65536x128_S32x2048x128) h3)
  funext i
  obtain ⟨b, r, j, rfl⟩ : ∃ b r j, i = ix3 b r j := ⟨i 0, i 1, i 2, eq_ix3 i⟩
  refine (congrFun e _).trans ?_
  refine (congrFun (ops1_1_v5 (V3 m o c)) _).trans ?_
  refine (Cert.LibLayout.pad_32x2056x128_apply _ _ _ _ b r j).trans ?_
  unfold padF
  show _ = if h : 8 ≤ r.val then prodOf (o 2 main_v3 c) b ⟨r.val - 8, _⟩ j else 0
  by_cases hr : 8 ≤ r.val
  · rw [dif_pos hr, dif_pos hr]
    refine (congrFun e4 _).trans ?_
    exact reshape_prod _ _ b _ j _ rfl
  · rw [dif_neg hr, dif_neg hr]
    exact pad_zero _ (ops1_c (V2 m o c)) _

theorem in_v8 : (V9 m o c main_v8 : S32x2064x1.Idx → EReal)
    = padT (tOf (m ((c.tc : Thread nD τ).loc main_arg0))) := by
  have e : (V9 m o c main_v8 : S32x2064x1.Idx → EReal) = V6 m o c main_v8 :=
    (V9_of m o c main_v8 (by decide)).trans <| (V8_of m o c main_v8 (by decide)).trans (V7_of m o c main_v8 (by decide))
  have e7 : (V5 m o c main_v7 : S32x2048x1.Idx → EReal)
      = broadcastInDim S32x2048x1 ![0, 1] bcast_S32x2048_S32x2048x1_0_1
          (m ((c.tc : Thread nD τ).loc main_arg0) : S32x2048.Idx → EReal) :=
    (ops1_2_v7 (V4 m o c)).trans
      (congrArg (fun x => broadcastInDim S32x2048x1 ![0, 1] bcast_S32x2048_S32x2048x1_0_1 x) (V4_arg0 m o c))
  funext i
  obtain ⟨b, r, z, rfl⟩ : ∃ b r z, i = ix3 b r z := ⟨i 0, i 1, i 2, eq_ix3 i⟩
  refine (congrFun e _).trans ?_
  refine (congrFun (ops1_3_v8 (V5 m o c)) _).trans ?_
  refine (Cert.LibLayout.pad_32x2064x1_apply _ _ _ _ b r z).trans ?_
  unfold padT
  show _ = if h : 8 ≤ r.val ∧ r.val < 2056 then tOf (m ((c.tc : Thread nD τ).loc main_arg0)) b ⟨r.val - 8, _⟩ else 0
  by_cases hr : 8 ≤ r.val ∧ r.val < 2056
  · rw [dif_pos hr, dif_pos hr]
    refine (congrFun e7 _).trans ?_
    exact bcast_col _ _ b _ z
  · rw [dif_neg hr, dif_neg hr]
    exact pad_zero _ (ops1_2_c0 (V4 m o c)) _

theorem in_v10 : (V9 m o c main_v10 : S32x2064x1.Idx → EReal)
    = padT (mf (mkOf (m ((c.tc : Thread nD τ).loc main_arg2)))) := by
  have e : (V9 m o c main_v10 : S32x2064x1.Idx → EReal) = V8 m o c main_v10 := V9_of m o c main_v10 (by decide)
  have e6 : (V6 m o c main_v6 : S32x2048.Idx → EReal)
      = uitofp (F := Ideal) .f32 (V4 m o c main_arg2 : S32x2048.Idx → BitVec 1) :=
    (V6_of m o c main_v6 (by decide)).trans (ops1_2_v6 (V4 m o c))
  have e2 : (V4 m o c main_arg2 : S32x2048.Idx → BitVec 1) = m ((c.tc : Thread nD τ).loc main_arg2) := V4_arg2 m o c
  funext i
  obtain ⟨b, r, z, rfl⟩ : ∃ b r z, i = ix3 b r z := ⟨i 0, i 1, i 2, eq_ix3 i⟩
  refine (congrFun e _).trans ?_
  refine (congrFun (ops1_5_v10 (V7 m o c)) _).trans ?_
  refine (Cert.LibLayout.pad_32x2064x1_apply _ _ _ _ b r z).trans ?_
  unfold padT
  show _ = if h : 8 ≤ r.val ∧ r.val < 2056 then mf (mkOf (m ((c.tc : Thread nD τ).loc main_arg2))) b ⟨r.val - 8, _⟩ else 0
  by_cases hr : 8 ≤ r.val ∧ r.val < 2056
  · rw [dif_pos hr, dif_pos hr]
    refine (congrFun (ops1_4_v9 (V6 m o c)) _).trans ?_
    refine (bcast_col _ _ b _ z).trans ?_
    refine (congrFun e6 _).trans ?_
    show (((((V4 m o c main_arg2 : S32x2048.Idx → BitVec 1) (ix2 b ⟨r.val - 8, _⟩)).toNat : ℝ) : EReal))
      = ((((m ((c.tc : Thread nD τ).loc main_arg2) : S32x2048.Idx → BitVec 1) (ix2 b ⟨r.val - 8, _⟩)).toNat : ℝ) : EReal)
    rw [e2]
  · rw [dif_neg hr, dif_neg hr]
    exact pad_zero _ (ops1_4_c1 (V6 m o c)) _

theorem in_v11 (s : Fin 8) :
    (V9 m o c main_v11 : S1x8.Idx → EReal) (ix2 0 s) = uOf (m ((c.tc : Thread nD τ).loc main_arg3)) s := by
  refine (congrFun (ops1_6_v11 (V8 m o c)) _).trans ?_
  refine (shapeCast_a_1a_apply _ _ 0 s).trans ?_
  exact congrFun (V8_arg3 m o c) _

end Cert.KernelIdeal.Val

end
-- ==== Proof.Val.KHostOut.lean ====
/-
  The kernel program's result read at an index, in terms of what region 1 leaves in its (32, 2048, 9, 64) array: row
  n < 18423 of batch b is plane n % 9 of event n / 9 (the first 2047 events' nine planes laid out as rows, 18423 = 2047 · 9),
  and the last row, 18423, is plane 0 of event 2047.

  The last host stretch is two slices of that array, two reshapes, a broadcast to a unit row axis and a concatenation
  along the row axis; each is read at an index spelled by its coordinates: a slice shifts by its offsets, a reshape
  keeps the row-major position, the broadcast reads the two kept axes, the concatenation reads the piece whose span
  holds the row.
-/
import proofs.«158136_j57621281243745_1_alg».proof.Proof.Fr.Outs
import proofs.«158136_j57621281243745_1_alg».proof.Proof.LibLayout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

/-! ## The last host stretch as one term -/

/-- From any entry contents `X`, the result array is the concatenation, along the row axis, of the first 2047 events'
    nine planes laid out as rows and of the last event's plane 0 as one more row. -/
private theorem host2_v18 (X : Valuation τ sig (Elt Ideal)) :
    (StableHlo.after hostOps2 X main_v18 : S32x18424x64.Idx → EReal)
      = concatenate S32x18424x64 1
          [⟨S32x18423x64, shapeCast S32x18423x64
              (extractStridedSlice S32x2047x9x64 ![0, 0, 0, 0] (X main_v12 : S32x2048x9x64.Idx → EReal)
                slices_S32x2048x9x64_S32x2047x9x64_0_0_0_0)
              shapeCasts_S32x2047x9x64_S32x18423x64⟩,
           ⟨S32x1x64, broadcastInDim S32x1x64 ![0, 2] bcast_S32x64_S32x1x64_0_2
              (shapeCast S32x64
                (extractStridedSlice S32x1x1x64 ![0, 2047, 0, 0] (X main_v12 : S32x2048x9x64.Idx → EReal)
                  slices_S32x2048x9x64_S32x1x1x64_0_2047_0_0)
                shapeCasts_S32x1x1x64_S32x64)⟩]
          concatenates_S32x18423x64_S32x1x64_S32x18424x64_d1 := by
  dsimp only [hostOps2]
  after_results
  all_goals rfl

/-! ## The two pieces at an index -/

/-- Row `n` of the first piece is plane `n % 9` of event `n / 9`: the reshape keeps the row-major position,
    and 18423 = 2047 · 9; the slice starts at the origin. -/
private theorem rows_apply (Y : S32x2048x9x64.Idx → EReal) (b : Fin 32) (n : Fin 18424) (o : Fin 64) (h : n.val < 18423) :
    shapeCast S32x18423x64
        (extractStridedSlice S32x2047x9x64 ![0, 0, 0, 0] Y slices_S32x2048x9x64_S32x2047x9x64_0_0_0_0)
        shapeCasts_S32x2047x9x64_S32x18423x64 (ix3 b (⟨n.val, h⟩ : Fin 18423) o)
      = Y (ix4 b ⟨n.val / 9, by omega⟩ ⟨n.val % 9, Nat.mod_lt _ (by decide)⟩ o) := by
  have hb : b.val < 32 := b.isLt
  have ho : o.val < 64 := o.isLt
  refine (shapeCast_apply _ shapeCasts_S32x2047x9x64_S32x18423x64 (ix3 b (⟨n.val, h⟩ : Fin 18423) o)
    (ix4 b (⟨n.val / 9, by omega⟩ : Fin 2047) (⟨n.val % 9, Nat.mod_lt _ (by decide)⟩ : Fin 9) o) ?_).trans ?_
  · rw [Shape.rowMajor_val_four, Shape.rowMajor_val_three]
    show ((b.val * 2047 + n.val / 9) * 9 + n.val % 9) * 64 + o.val = (b.val * 18423 + n.val) * 64 + o.val
    omega
  · refine extractStridedSlice_apply ![0, 0, 0, 0] Y slices_S32x2048x9x64_S32x2047x9x64_0_0_0_0 _
      (ix4 b ⟨n.val / 9, by omega⟩ ⟨n.val % 9, Nat.mod_lt _ (by decide)⟩ o) fun a => ?_
    match a with
    | ⟨0, _⟩ => show b.val = 0 + b.val; omega
    | ⟨1, _⟩ => show n.val / 9 = 0 + n.val / 9; omega
    | ⟨2, _⟩ => show n.val % 9 = 0 + n.val % 9; omega
    | ⟨3, _⟩ => show o.val = 0 + o.val; omega

/-- The one row of the second piece is plane 0 of event 2047: the broadcast reads the two kept axes, the reshape drops
    the two unit axes, the slice starts at event 2047. -/
private theorem last_apply (Y : S32x2048x9x64.Idx → EReal) (b : Fin 32) (o : Fin 64) :
    broadcastInDim S32x1x64 ![0, 2] bcast_S32x64_S32x1x64_0_2
        (shapeCast S32x64
          (extractStridedSlice S32x1x1x64 ![0, 2047, 0, 0] Y slices_S32x2048x9x64_S32x1x1x64_0_2047_0_0)
          shapeCasts_S32x1x1x64_S32x64) (ix3 b (0 : Fin 1) o)
      = Y (ix4 b ⟨2047, by decide⟩ ⟨0, by decide⟩ o) := by
  have hb : b.val < 32 := b.isLt
  have ho : o.val < 64 := o.isLt
  refine (broadcastInDim_apply ![0, 2] bcast_S32x64_S32x1x64_0_2 _ (ix3 b (0 : Fin 1) o) (ix2 b o) fun a => ?_).trans ?_
  · match a with
    | ⟨0, _⟩ => show b.val = if (32 : ℕ) = 1 then 0 else b.val; rw [if_neg (by decide)]
    | ⟨1, _⟩ => show o.val = if (64 : ℕ) = 1 then 0 else o.val; rw [if_neg (by decide)]
  refine (shapeCast_apply _ shapeCasts_S32x1x1x64_S32x64 (ix2 b o) (ix4 b (0 : Fin 1) (0 : Fin 1) o) ?_).trans ?_
  · rw [Shape.rowMajor_val_four, Shape.rowMajor_val_two]
    show ((b.val * 1 + 0) * 1 + 0) * 64 + o.val = b.val * 64 + o.val
    omega
  · refine extractStridedSlice_apply ![0, 2047, 0, 0] Y slices_S32x2048x9x64_S32x1x1x64_0_2047_0_0 _
      (ix4 b ⟨2047, by decide⟩ ⟨0, by decide⟩ o) fun a => ?_
    match a with
    | ⟨0, _⟩ => show b.val = 0 + b.val; omega
    | ⟨1, _⟩ => show 2047 = 2047 + 0; omega
    | ⟨2, _⟩ => show 0 = 0 + 0; omega
    | ⟨3, _⟩ => show o.val = 0 + o.val; omega

/-! ## The result at an index -/

variable (m : (ℓ : Loc nD τ sig) → Buf (Elt Ideal) ℓ)

/-- Region 1's output array enters the last host stretch as region 1 left it. -/
private theorem entry_v12 (c : Dev nD) :
    (V10 m (outs m) c main_v12 : S32x2048x9x64.Idx → EReal) = (o12 m c : S32x2048x9x64.Idx → EReal) := by
  show Function.update (V9 m (outs m) c) main_v12 (outs m 10 main_v12 c) main_v12 = _
  rw [Function.update_self, outs_v12]

theorem out_apply (c : Dev nD) (b : Fin 32) (n : Fin 18424) (o : Fin 64) :
    (V11 m (outs m) c main_v18 : S32x18424x64.Idx → EReal) (ix3 b n o)
      = if h : n.val < 18423 then (o12 m c : S32x2048x9x64.Idx → EReal) (ix4 b ⟨n.val / 9, by omega⟩ ⟨n.val % 9, Nat.mod_lt _ (by decide)⟩ o)
        else (o12 m c : S32x2048x9x64.Idx → EReal) (ix4 b ⟨2047, by decide⟩ ⟨0, by decide⟩ o) := by
  show (StableHlo.after hostOps2 (V10 m (outs m) c) main_v18 : S32x18424x64.Idx → EReal) (ix3 b n o) = _
  rw [host2_v18, entry_v12]
  by_cases h : n.val < 18423
  · rw [dif_pos h]
    exact (Cert.LibLayout.concat_32x18424x64_apply_of_lt _ _ _ b n o h).trans (rows_apply _ b n o h)
  · rw [dif_neg h]
    have hn : n.val = 18423 := by have := n.isLt; omega
    exact (Cert.LibLayout.concat_32x18424x64_apply_of_eq _ _ _ b n o hn).trans (last_apply _ b o)

end Cert.KernelIdeal.Val

end
-- ==== Proof.Val.KHost.lean ====
/-
  The kernel program's result as a function of its arguments, at the exact reals: the host operations around the
  two regions (the stacked weight matrix, the flattened features, the zero padding of the projected features, of the
  times and of the mask, the final slices, reshape and concatenation) read index by index, region 0's product and
  region 1's cells put in.
-/
import proofs.«158136_j57621281243745_1_alg».proof.Proof.Fr.Outs
import proofs.«158136_j57621281243745_1_alg».proof.Proof.Val.K0
import proofs.«158136_j57621281243745_1_alg».proof.Proof.Val.K1
import proofs.«158136_j57621281243745_1_alg».proof.Proof.Val.KHostCell
import proofs.«158136_j57621281243745_1_alg».proof.Proof.Val.KHostProj
import proofs.«158136_j57621281243745_1_alg».proof.Proof.Val.KHostIn
import proofs.«158136_j57621281243745_1_alg».proof.Proof.Val.KHostOut
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open ValueIdx

variable (m : (ℓ : Loc nD τ sig) → Buf (Elt Ideal) ℓ)

/-- What region 0 leaves, by sequence, event and column, is the projection of the features: the product of the
    flattened features with the stacked weights, read through the two reshapes. -/
theorem prod_proj (c : Dev nD) :
    prodOf (outs3 m 2 main_v3 c)
      = Cert.Spec.proj (Cert.Spec.fOf (m ((c.tc : Thread nD τ).loc main_arg1)))
          (Cert.Spec.WOf (m ((c.tc : Thread nD τ).loc main_arg4))) (Cert.Spec.BOf (m ((c.tc : Thread nD τ).loc main_arg5))) := by
  funext b l j
  have h0 : (outs3 m 2 main_v3 c : S65536x128.Idx → EReal)
      = Cert.Spec.matmulSpec (V1 m c main_v2 : S65536x64.Idx → EReal) (V1 m c main_v1 : S64x128.Idx → EReal) :=
    (outs3_v3 m 2 c).trans (arrAt0 (E0 m) c)
  unfold prodOf
  rw [h0]
  exact Cert.KHost.matmul_proj _ _ _ _ _ (fun b l k r hr => in_v2 m c b l k r hr) (fun k j h => in_v1_lt m c k j h)
    (fun k j h => in_v1_ge m c k j h) b l j _ rfl

/-- One cell of what region 1 leaves is the plain form's cell of the arguments. -/
theorem o12_cell (c : Dev nD) (b : Fin 32) (l : Fin 2048) (p : Fin 9) (o : Fin 64) :
    (o12 m c : S32x2048x9x64.Idx → EReal) (ix4 b l p o)
      = Cert.Spec.cellK (Cert.Spec.tOf (m ((c.tc : Thread nD τ).loc main_arg0)))
          (Cert.Spec.proj (Cert.Spec.fOf (m ((c.tc : Thread nD τ).loc main_arg1)))
            (Cert.Spec.WOf (m ((c.tc : Thread nD τ).loc main_arg4))) (Cert.Spec.BOf (m ((c.tc : Thread nD τ).loc main_arg5))))
          (Cert.Spec.mkOf (m ((c.tc : Thread nD τ).loc main_arg2))) (Cert.Spec.uOf (m ((c.tc : Thread nD τ).loc main_arg3)))
          b l p o := by
  have h12 : (o12 m c : S32x2048x9x64.Idx → EReal)
      = fun i => Cert.Spec.cellP (V9 m (outs3 m) c main_v5 : S32x2056x128.Idx → EReal)
          (V9 m (outs3 m) c main_v8 : S32x2064x1.Idx → EReal) (V9 m (outs3 m) c main_v10 : S32x2064x1.Idx → EReal)
          (V9 m (outs3 m) c main_v11 : S1x8.Idx → EReal) (i 0) (i 1) (i 2) (i 3) := arrAt1 (E1 m) c
  refine (congrFun h12 _).trans ?_
  show Cert.Spec.cellP (V9 m (outs3 m) c main_v5 : S32x2056x128.Idx → EReal)
          (V9 m (outs3 m) c main_v8 : S32x2064x1.Idx → EReal) (V9 m (outs3 m) c main_v10 : S32x2064x1.Idx → EReal)
          (V9 m (outs3 m) c main_v11 : S1x8.Idx → EReal) b l p o = _
  rw [in_v5 m (outs3 m) c, in_v8 m (outs3 m) c, in_v10 m (outs3 m) c, prod_proj m c]
  exact Cert.KHost.cellP_pad _ _ _ _ b l _ (fun s => in_v11 m (outs3 m) c s) p o

theorem kernel_value (c : Dev nD) :
    (V11 m (outs m) c main_v18 : S32x18424x64.Idx → EReal)
      = Cert.Spec.resultK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨b, n, o, rfl⟩ : ∃ b n o, i = ix3 b n o := ⟨i 0, i 1, i 2, eq_ix3 i⟩
  refine (out_apply m c b n o).trans ?_
  unfold Cert.Spec.resultK Cert.Spec.outK
  show _ = if h : n.val < 18423 then _ else _
  by_cases h : n.val < 18423
  · rw [dif_pos h, dif_pos h]
    exact o12_cell m c b _ _ o
  · rw [dif_neg h, dif_neg h]
    exact o12_cell m c b _ _ o

end Cert.KernelIdeal.Val

end
-- ==== Proof.Val.RefA.lean ====
/-
  The reference's stages up to the masked windows, read at an index: the nine shifted slices of the front-padded
  times, projected features and mask, stacked; the window's validity bit; the selected time differences and the
  selected projected features.
-/
import proofs.«158136_j57621281243745_1_alg».proof.Proof.RefReadP
import proofs.«158136_j57621281243745_1_alg».proof.Proof.Val.Spec
import proofs.«158136_j57621281243745_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem
open ValueIdx

/-! ## The times: padded in front by eight zeros, nine shifted slices, stacked -/

/-- The value the times are padded with: the integer 0 as a real. -/
private theorem padT_val (i : S_.Idx) : val_main_call0_v0 (F := Ideal) i = (0 : EReal) := by
  show (((0#32 : BitVec 32).toInt : ℝ) : EReal) = 0
  rw [BitVec.toInt_zero, Int.cast_zero, EReal.coe_zero]

/-- The padded times at row r: the time at r - 8 from row 8 on, 0 before. -/
private theorem v3_at (x0 : (⟨S32x2048, .f32⟩ : BufTy).Contents (Elt Ideal)) (b : Fin 32) (r : Fin 2056) :
    val_main_v3 (F := Ideal) x0 (ix2 b r)
      = if h : 8 ≤ r.val then x0 (ix2 b ⟨r.val - 8, by have := r.isLt; omega⟩) else 0 := by
  unfold val_main_v3
  refine (Cert.LibLayout.pad_32x2056_apply x0 _ pads_S32x2048_S32x2056_000_800 h_S_ b r).trans ?_
  by_cases h : 8 ≤ r.val
  · rw [dif_pos h, dif_pos h]
  · rw [dif_neg h, dif_neg h]
    exact padT_val _

/-! Slice k, as one row of the stack, at (b, 0, l) is the padded times at row k + l. -/

private theorem pieceT_0 (x0 : (⟨S32x2048, .f32⟩ : BufTy).Contents (Elt Ideal)) (b : Fin 32) (l : Fin 2048) :
    val_main_v15 (F := Ideal) x0 (ix3 b (0 : Fin 1) l)
      = val_main_v3 (F := Ideal) x0 (ix2 b ⟨0 + l.val, by have := l.isLt; omega⟩) := by
  rw [val_main_v15_apply, val_main_v6_apply]
  exact congrArg (val_main_v3 (F := Ideal) x0) (funext fun a => match a with
    | ⟨0, _⟩ => rfl
    | ⟨1, _⟩ => Fin.ext (Nat.zero_add _).symm)
private theorem pieceT_1 (x0 : (⟨S32x2048, .f32⟩ : BufTy).Contents (Elt Ideal)) (b : Fin 32) (l : Fin 2048) :
    val_main_v16 (F := Ideal) x0 (ix3 b (0 : Fin 1) l)
      = val_main_v3 (F := Ideal) x0 (ix2 b ⟨1 + l.val, by have := l.isLt; omega⟩) := by
  rw [val_main_v16_apply, val_main_v7_apply]
  exact congrArg (val_main_v3 (F := Ideal) x0) (funext fun a => match a with
    | ⟨0, _⟩ => rfl
    | ⟨1, _⟩ => rfl)
private theorem pieceT_2 (x0 : (⟨S32x2048, .f32⟩ : BufTy).Contents (Elt Ideal)) (b : Fin 32) (l : Fin 2048) :
    val_main_v17 (F := Ideal) x0 (ix3 b (0 : Fin 1) l)
      = val_main_v3 (F := Ideal) x0 (ix2 b ⟨2 + l.val, by have := l.isLt; omega⟩) := by
  rw [val_main_v17_apply, val_main_v8_apply]
  exact congrArg (val_main_v3 (F := Ideal) x0) (funext fun a => match a with
    | ⟨0, _⟩ => rfl
    | ⟨1, _⟩ => rfl)
private theorem pieceT_3 (x0 : (⟨S32x2048, .f32⟩ : BufTy).Contents (Elt Ideal)) (b : Fin 32) (l : Fin 2048) :
    val_main_v18 (F := Ideal) x0 (ix3 b (0 : Fin 1) l)
      = val_main_v3 (F := Ideal) x0 (ix2 b ⟨3 + l.val, by have := l.isLt; omega⟩) := by
  rw [val_main_v18_apply, val_main_v9_apply]
  exact congrArg (val_main_v3 (F := Ideal) x0) (funext fun a => match a with
    | ⟨0, _⟩ => rfl
    | ⟨1, _⟩ => rfl)
private theorem pieceT_4 (x0 : (⟨S32x2048, .f32⟩ : BufTy).Contents (Elt Ideal)) (b : Fin 32) (l : Fin 2048) :
    val_main_v19 (F := Ideal) x0 (ix3 b (0 : Fin 1) l)
      = val_main_v3 (F := Ideal) x0 (ix2 b ⟨4 + l.val, by have := l.isLt; omega⟩) := by
  rw [val_main_v19_apply, val_main_v10_apply]
  exact congrArg (val_main_v3 (F := Ideal) x0) (funext fun a => match a with
    | ⟨0, _⟩ => rfl
    | ⟨1, _⟩ => rfl)
private theorem pieceT_5 (x0 : (⟨S32x2048, .f32⟩ : BufTy).Contents (Elt Ideal)) (b : Fin 32) (l : Fin 2048) :
    val_main_v20 (F := Ideal) x0 (ix3 b (0 : Fin 1) l)
      = val_main_v3 (F := Ideal) x0 (ix2 b ⟨5 + l.val, by have := l.isLt; omega⟩) := by
  rw [val_main_v20_apply, val_main_v11_apply]
  exact congrArg (val_main_v3 (F := Ideal) x0) (funext fun a => match a with
    | ⟨0, _⟩ => rfl
    | ⟨1, _⟩ => rfl)
private theorem pieceT_6 (x0 : (⟨S32x2048, .f32⟩ : BufTy).Contents (Elt Ideal)) (b : Fin 32) (l : Fin 2048) :
    val_main_v21 (F := Ideal) x0 (ix3 b (0 : Fin 1) l)
      = val_main_v3 (F := Ideal) x0 (ix2 b ⟨6 + l.val, by have := l.isLt; omega⟩) := by
  rw [val_main_v21_apply, val_main_v12_apply]
  exact congrArg (val_main_v3 (F := Ideal) x0) (funext fun a => match a with
    | ⟨0, _⟩ => rfl
    | ⟨1, _⟩ => rfl)
private theorem pieceT_7 (x0 : (⟨S32x2048, .f32⟩ : BufTy).Contents (Elt Ideal)) (b : Fin 32) (l : Fin 2048) :
    val_main_v22 (F := Ideal) x0 (ix3 b (0 : Fin 1) l)
      = val_main_v3 (F := Ideal) x0 (ix2 b ⟨7 + l.val, by have := l.isLt; omega⟩) := by
  rw [val_main_v22_apply, val_main_v13_apply]
  exact congrArg (val_main_v3 (F := Ideal) x0) (funext fun a => match a with
    | ⟨0, _⟩ => rfl
    | ⟨1, _⟩ => rfl)
private theorem pieceT_8 (x0 : (⟨S32x2048, .f32⟩ : BufTy).Contents (Elt Ideal)) (b : Fin 32) (l : Fin 2048) :
    val_main_v23 (F := Ideal) x0 (ix3 b (0 : Fin 1) l)
      = val_main_v3 (F := Ideal) x0 (ix2 b ⟨8 + l.val, by have := l.isLt; omega⟩) := by
  rw [val_main_v23_apply, val_main_v14_apply]
  exact congrArg (val_main_v3 (F := Ideal) x0) (funext fun a => match a with
    | ⟨0, _⟩ => rfl
    | ⟨1, _⟩ => rfl)

/-- The stack at (b, k, l) is the padded times at row k + l. -/
private theorem rowT (x0 : (⟨S32x2048, .f32⟩ : BufTy).Contents (Elt Ideal)) (b : Fin 32) (k : Fin 9) (l : Fin 2048) :
    val_main_v24 (F := Ideal) x0 (ix3 b k l)
      = val_main_v3 (F := Ideal) x0 (ix2 b ⟨k.val + l.val, by have := k.isLt; have := l.isLt; omega⟩) := by
  unfold val_main_v24
  refine (Cert.LibLayout.concat_32x9x2048_apply _ _ _ _ _ _ _ _ _ _ b k l).trans ?_
  match k with
    | ⟨0, _⟩ => exact pieceT_0 x0 b l
    | ⟨1, _⟩ => exact pieceT_1 x0 b l
    | ⟨2, _⟩ => exact pieceT_2 x0 b l
    | ⟨3, _⟩ => exact pieceT_3 x0 b l
    | ⟨4, _⟩ => exact pieceT_4 x0 b l
    | ⟨5, _⟩ => exact pieceT_5 x0 b l
    | ⟨6, _⟩ => exact pieceT_6 x0 b l
    | ⟨7, _⟩ => exact pieceT_7 x0 b l
    | ⟨8, _⟩ => exact pieceT_8 x0 b l

/-- (A1) The stacked slices of the padded times are the times at position k + l - 8, 0 before the start. -/
theorem stage_v24 (x0 : (⟨S32x2048, .f32⟩ : BufTy).Contents (Elt Ideal)) (b : Fin 32) (k : Fin 9) (l : Fin 2048) :
    val_main_v24 (F := Ideal) x0 (ix3 b k l) = Cert.Spec.tR (Cert.Spec.tOf x0) b l k.val := by
  rw [rowT, v3_at]
  unfold Cert.Spec.tR Cert.Spec.tOf
  by_cases h : 8 ≤ k.val + l.val
  · rw [dif_pos h, dif_pos (show 8 ≤ k.val + l.val ∧ k.val ≤ 8 from ⟨h, by have := k.isLt; omega⟩)]
  · rw [dif_neg h, dif_neg (fun hh : 8 ≤ k.val + l.val ∧ k.val ≤ 8 => h hh.1)]

/-! ## The projected features: two products side by side, padded, sliced, stacked -/

private theorem padP_val (i : S_.Idx) : val_main_call1_v0 (F := Ideal) i = (0 : EReal) := by
  show (((0#32 : BitVec 32).toInt : ℝ) : EReal) = 0
  rw [BitVec.toInt_zero, Int.cast_zero, EReal.coe_zero]

/-- The linear part: the features times the weight's rows. -/
private theorem v0_at (x1 : (⟨S32x2048x64, .f32⟩ : BufTy).Contents (Elt Ideal)) (x4 x5 : (⟨S64x64, .f32⟩ : BufTy).Contents (Elt Ideal)) (b : Fin 32) (l : Fin 2048) (o : Fin 64) :
    val_main_v0 (F := Ideal) x1 x4 (ix3 b l o) = ∑ c : Fin 64, x1 (ix3 b l c) * x4 (ix2 o c) := by
  rw [val_main_v0_apply]
  refine Finset.sum_congr rfl fun c _ => ?_
  rw [show lidx_main_v0 (ix3 b l o) c = ix3 b l c from funext fun a => match a with
        | ⟨0, _⟩ => rfl | ⟨1, _⟩ => rfl | ⟨2, _⟩ => rfl,
      show ridx_main_v0 (ix3 b l o) c = ix2 o c from funext fun a => match a with
        | ⟨0, _⟩ => rfl | ⟨1, _⟩ => rfl]

/-- The bias part: the features times the bias parameter's columns. -/
private theorem v1_at (x1 : (⟨S32x2048x64, .f32⟩ : BufTy).Contents (Elt Ideal)) (x4 x5 : (⟨S64x64, .f32⟩ : BufTy).Contents (Elt Ideal)) (b : Fin 32) (l : Fin 2048) (o : Fin 64) :
    val_main_v1 (F := Ideal) x1 x5 (ix3 b l o) = ∑ c : Fin 64, x1 (ix3 b l c) * x5 (ix2 c o) := by
  rw [val_main_v1_apply]
  refine Finset.sum_congr rfl fun c _ => ?_
  rw [show lidx_main_v1 (ix3 b l o) c = ix3 b l c from funext fun a => match a with
        | ⟨0, _⟩ => rfl | ⟨1, _⟩ => rfl | ⟨2, _⟩ => rfl,
      show ridx_main_v1 (ix3 b l o) c = ix2 c o from funext fun a => match a with
        | ⟨0, _⟩ => rfl | ⟨1, _⟩ => rfl]

/-- Side by side they are the projected features: columns 0 … 63 the linear part, 64 … 127 the bias part. -/
private theorem v2_at (x1 : (⟨S32x2048x64, .f32⟩ : BufTy).Contents (Elt Ideal)) (x4 x5 : (⟨S64x64, .f32⟩ : BufTy).Contents (Elt Ideal)) (b : Fin 32) (l : Fin 2048) (j : Fin 128) :
    val_main_v2 (F := Ideal) x1 x4 x5 (ix3 b l j) = (Cert.Spec.proj (Cert.Spec.fOf x1) (Cert.Spec.WOf x4) (Cert.Spec.BOf x5)) b l j := by
  unfold val_main_v2
  refine (Cert.LibLayout.concat_32x2048x128_apply _ _ concatenates_S32x2048x64_S32x2048x64_S32x2048x128_d2 b l j).trans ?_
  unfold Cert.Spec.proj
  by_cases h : j.val < 64
  · rw [dif_pos h, dif_pos h]
    exact v0_at x1 x4 x5 b l ⟨j.val, h⟩
  · rw [dif_neg h, dif_neg h]
    exact v1_at x1 x4 x5 b l ⟨j.val - 64, by have := j.isLt; omega⟩

/-- The padded projected features at row r: those at r - 8 from row 8 on, 0 before. -/
private theorem v4_at (x1 : (⟨S32x2048x64, .f32⟩ : BufTy).Contents (Elt Ideal)) (x4 x5 : (⟨S64x64, .f32⟩ : BufTy).Contents (Elt Ideal)) (b : Fin 32) (r : Fin 2056) (j : Fin 128) :
    val_main_v4 (F := Ideal) x1 x4 x5 (ix3 b r j)
      = if h : 8 ≤ r.val then (Cert.Spec.proj (Cert.Spec.fOf x1) (Cert.Spec.WOf x4) (Cert.Spec.BOf x5)) b ⟨r.val - 8, by have := r.isLt; omega⟩ j else 0 := by
  unfold val_main_v4
  refine (Cert.LibLayout.pad_32x2056x128_apply _ _ pads_S32x2048x128_S32x2056x128_000_800_000 h_S_ b r j).trans ?_
  by_cases h : 8 ≤ r.val
  · rw [dif_pos h, dif_pos h]
    exact v2_at x1 x4 x5 b _ j
  · rw [dif_neg h, dif_neg h]
    exact padP_val _

private theorem pieceP_0 (x1 : (⟨S32x2048x64, .f32⟩ : BufTy).Contents (Elt Ideal)) (x4 x5 : (⟨S64x64, .f32⟩ : BufTy).Contents (Elt Ideal)) (b : Fin 32) (l : Fin 2048) (j : Fin 128) :
    val_main_v34 (F := Ideal) x1 x4 x5 (ix4 b (0 : Fin 1) l j)
      = val_main_v4 (F := Ideal) x1 x4 x5 (ix3 b ⟨0 + l.val, by have := l.isLt; omega⟩ j) := by
  rw [val_main_v34_apply, val_main_v25_apply]
  exact congrArg (val_main_v4 (F := Ideal) x1 x4 x5) (funext fun a => match a with
    | ⟨0, _⟩ => rfl
    | ⟨1, _⟩ => Fin.ext (Nat.zero_add _).symm
    | ⟨2, _⟩ => rfl)
private theorem pieceP_1 (x1 : (⟨S32x2048x64, .f32⟩ : BufTy).Contents (Elt Ideal)) (x4 x5 : (⟨S64x64, .f32⟩ : BufTy).Contents (Elt Ideal)) (b : Fin 32) (l : Fin 2048) (j : Fin 128) :
    val_main_v35 (F := Ideal) x1 x4 x5 (ix4 b (0 : Fin 1) l j)
      = val_main_v4 (F := Ideal) x1 x4 x5 (ix3 b ⟨1 + l.val, by have := l.isLt; omega⟩ j) := by
  rw [val_main_v35_apply, val_main_v26_apply]
  exact congrArg (val_main_v4 (F := Ideal) x1 x4 x5) (funext fun a => match a with
    | ⟨0, _⟩ => rfl
    | ⟨1, _⟩ => rfl
    | ⟨2, _⟩ => rfl)
private theorem pieceP_2 (x1 : (⟨S32x2048x64, .f32⟩ : BufTy).Contents (Elt Ideal)) (x4 x5 : (⟨S64x64, .f32⟩ : BufTy).Contents (Elt Ideal)) (b : Fin 32) (l : Fin 2048) (j : Fin 128) :
    val_main_v36 (F := Ideal) x1 x4 x5 (ix4 b (0 : Fin 1) l j)
      = val_main_v4 (F := Ideal) x1 x4 x5 (ix3 b ⟨2 + l.val, by have := l.isLt; omega⟩ j) := by
  rw [val_main_v36_apply, val_main_v27_apply]
  exact congrArg (val_main_v4 (F := Ideal) x1 x4 x5) (funext fun a => match a with
    | ⟨0, _⟩ => rfl
    | ⟨1, _⟩ => rfl
    | ⟨2, _⟩ => rfl)
private theorem pieceP_3 (x1 : (⟨S32x2048x64, .f32⟩ : BufTy).Contents (Elt Ideal)) (x4 x5 : (⟨S64x64, .f32⟩ : BufTy).Contents (Elt Ideal)) (b : Fin 32) (l : Fin 2048) (j : Fin 128) :
    val_main_v37 (F := Ideal) x1 x4 x5 (ix4 b (0 : Fin 1) l j)
      = val_main_v4 (F := Ideal) x1 x4 x5 (ix3 b ⟨3 + l.val, by have := l.isLt; omega⟩ j) := by
  rw [val_main_v37_apply, val_main_v28_apply]
  exact congrArg (val_main_v4 (F := Ideal) x1 x4 x5) (funext fun a => match a with
    | ⟨0, _⟩ => rfl
    | ⟨1, _⟩ => rfl
    | ⟨2, _⟩ => rfl)
private theorem pieceP_4 (x1 : (⟨S32x2048x64, .f32⟩ : BufTy).Contents (Elt Ideal)) (x4 x5 : (⟨S64x64, .f32⟩ : BufTy).Contents (Elt Ideal)) (b : Fin 32) (l : Fin 2048) (j : Fin 128) :
    val_main_v38 (F := Ideal) x1 x4 x5 (ix4 b (0 : Fin 1) l j)
      = val_main_v4 (F := Ideal) x1 x4 x5 (ix3 b ⟨4 + l.val, by have := l.isLt; omega⟩ j) := by
  rw [val_main_v38_apply, val_main_v29_apply]
  exact congrArg (val_main_v4 (F := Ideal) x1 x4 x5) (funext fun a => match a with
    | ⟨0, _⟩ => rfl
    | ⟨1, _⟩ => rfl
    | ⟨2, _⟩ => rfl)
private theorem pieceP_5 (x1 : (⟨S32x2048x64, .f32⟩ : BufTy).Contents (Elt Ideal)) (x4 x5 : (⟨S64x64, .f32⟩ : BufTy).Contents (Elt Ideal)) (b : Fin 32) (l : Fin 2048) (j : Fin 128) :
    val_main_v39 (F := Ideal) x1 x4 x5 (ix4 b (0 : Fin 1) l j)
      = val_main_v4 (F := Ideal) x1 x4 x5 (ix3 b ⟨5 + l.val, by have := l.isLt; omega⟩ j) := by
  rw [val_main_v39_apply, val_main_v30_apply]
  exact congrArg (val_main_v4 (F := Ideal) x1 x4 x5) (funext fun a => match a with
    | ⟨0, _⟩ => rfl
    | ⟨1, _⟩ => rfl
    | ⟨2, _⟩ => rfl)
private theorem pieceP_6 (x1 : (⟨S32x2048x64, .f32⟩ : BufTy).Contents (Elt Ideal)) (x4 x5 : (⟨S64x64, .f32⟩ : BufTy).Contents (Elt Ideal)) (b : Fin 32) (l : Fin 2048) (j : Fin 128) :
    val_main_v40 (F := Ideal) x1 x4 x5 (ix4 b (0 : Fin 1) l j)
      = val_main_v4 (F := Ideal) x1 x4 x5 (ix3 b ⟨6 + l.val, by have := l.isLt; omega⟩ j) := by
  rw [val_main_v40_apply, val_main_v31_apply]
  exact congrArg (val_main_v4 (F := Ideal) x1 x4 x5) (funext fun a => match a with
    | ⟨0, _⟩ => rfl
    | ⟨1, _⟩ => rfl
    | ⟨2, _⟩ => rfl)
private theorem pieceP_7 (x1 : (⟨S32x2048x64, .f32⟩ : BufTy).Contents (Elt Ideal)) (x4 x5 : (⟨S64x64, .f32⟩ : BufTy).Contents (Elt Ideal)) (b : Fin 32) (l : Fin 2048) (j : Fin 128) :
    val_main_v41 (F := Ideal) x1 x4 x5 (ix4 b (0 : Fin 1) l j)
      = val_main_v4 (F := Ideal) x1 x4 x5 (ix3 b ⟨7 + l.val, by have := l.isLt; omega⟩ j) := by
  rw [val_main_v41_apply, val_main_v32_apply]
  exact congrArg (val_main_v4 (F := Ideal) x1 x4 x5) (funext fun a => match a with
    | ⟨0, _⟩ => rfl
    | ⟨1, _⟩ => rfl
    | ⟨2, _⟩ => rfl)
private theorem pieceP_8 (x1 : (⟨S32x2048x64, .f32⟩ : BufTy).Contents (Elt Ideal)) (x4 x5 : (⟨S64x64, .f32⟩ : BufTy).Contents (Elt Ideal)) (b : Fin 32) (l : Fin 2048) (j : Fin 128) :
    val_main_v42 (F := Ideal) x1 x4 x5 (ix4 b (0 : Fin 1) l j)
      = val_main_v4 (F := Ideal) x1 x4 x5 (ix3 b ⟨8 + l.val, by have := l.isLt; omega⟩ j) := by
  rw [val_main_v42_apply, val_main_v33_apply]
  exact congrArg (val_main_v4 (F := Ideal) x1 x4 x5) (funext fun a => match a with
    | ⟨0, _⟩ => rfl
    | ⟨1, _⟩ => rfl
    | ⟨2, _⟩ => rfl)

/-- The stack at (b, k, l, j) is the padded projected features at row k + l. -/
private theorem rowP (x1 : (⟨S32x2048x64, .f32⟩ : BufTy).Contents (Elt Ideal)) (x4 x5 : (⟨S64x64, .f32⟩ : BufTy).Contents (Elt Ideal)) (b : Fin 32) (k : Fin 9) (l : Fin 2048) (j : Fin 128) :
    val_main_v43 (F := Ideal) x1 x4 x5 (ix4 b k l j)
      = val_main_v4 (F := Ideal) x1 x4 x5 (ix3 b ⟨k.val + l.val, by have := k.isLt; have := l.isLt; omega⟩ j) := by
  unfold val_main_v43
  refine (Cert.LibLayout.concat_32x9x2048x128_apply _ _ _ _ _ _ _ _ _ _ b k l j).trans ?_
  match k with
    | ⟨0, _⟩ => exact pieceP_0 x1 x4 x5 b l j
    | ⟨1, _⟩ => exact pieceP_1 x1 x4 x5 b l j
    | ⟨2, _⟩ => exact pieceP_2 x1 x4 x5 b l j
    | ⟨3, _⟩ => exact pieceP_3 x1 x4 x5 b l j
    | ⟨4, _⟩ => exact pieceP_4 x1 x4 x5 b l j
    | ⟨5, _⟩ => exact pieceP_5 x1 x4 x5 b l j
    | ⟨6, _⟩ => exact pieceP_6 x1 x4 x5 b l j
    | ⟨7, _⟩ => exact pieceP_7 x1 x4 x5 b l j
    | ⟨8, _⟩ => exact pieceP_8 x1 x4 x5 b l j

/-- (A2) The stacked slices of the padded projected features are those at position k + l - 8, 0 before the start. -/
theorem stage_v43 (x1 : (⟨S32x2048x64, .f32⟩ : BufTy).Contents (Elt Ideal)) (x4 x5 : (⟨S64x64, .f32⟩ : BufTy).Contents (Elt Ideal)) (b : Fin 32) (k : Fin 9) (l : Fin 2048) (j : Fin 128) :
    val_main_v43 (F := Ideal) x1 x4 x5 (ix4 b k l j) = Cert.Spec.pR (Cert.Spec.proj (Cert.Spec.fOf x1) (Cert.Spec.WOf x4) (Cert.Spec.BOf x5)) b l k.val j := by
  rw [rowP, v4_at]
  unfold Cert.Spec.pR
  by_cases h : 8 ≤ k.val + l.val
  · rw [dif_pos h, dif_pos (show 8 ≤ k.val + l.val ∧ k.val ≤ 8 from ⟨h, by have := k.isLt; omega⟩)]
  · rw [dif_neg h, dif_neg (fun hh : 8 ≤ k.val + l.val ∧ k.val ≤ 8 => h hh.1)]

/-! ## The mask: padded in front by eight cleared bits, nine shifted slices, stacked -/

/-- The bit the mask is padded with: 0 ≠ 0, cleared. -/
private theorem padM_val (i : S_.Idx) : val_main_call2_v2 (F := Ideal) i = 0#1 := by
  rw [val_main_call2_v2_apply, val_main_call2_v1_apply, val_main_c_1_apply, val_main_call2_v0_apply,
    val_main_call2_c_apply]
  decide

/-- The padded mask at row r: the mask at r - 8 from row 8 on, cleared before. -/
private theorem v5_at (x2 : (⟨S32x2048, .i1⟩ : BufTy).Contents (Elt Ideal)) (b : Fin 32) (r : Fin 2056) :
    val_main_v5 (F := Ideal) x2 (ix2 b r)
      = if h : 8 ≤ r.val then x2 (ix2 b ⟨r.val - 8, by have := r.isLt; omega⟩) else 0#1 := by
  unfold val_main_v5
  refine (Cert.LibLayout.pad_32x2056_apply x2 _ pads_S32x2048_S32x2056_000_800 h_S_ b r).trans ?_
  by_cases h : 8 ≤ r.val
  · rw [dif_pos h, dif_pos h]
  · rw [dif_neg h, dif_neg h]
    exact padM_val _

private theorem pieceM_0 (x2 : (⟨S32x2048, .i1⟩ : BufTy).Contents (Elt Ideal)) (b : Fin 32) (l : Fin 2048) :
    val_main_v53 (F := Ideal) x2 (ix3 b (0 : Fin 1) l)
      = val_main_v5 (F := Ideal) x2 (ix2 b ⟨0 + l.val, by have := l.isLt; omega⟩) := by
  rw [val_main_v53_apply, val_main_v44_apply]
  exact congrArg (val_main_v5 (F := Ideal) x2) (funext fun a => match a with
    | ⟨0, _⟩ => rfl
    | ⟨1, _⟩ => Fin.ext (Nat.zero_add _).symm)
private theorem pieceM_1 (x2 : (⟨S32x2048, .i1⟩ : BufTy).Contents (Elt Ideal)) (b : Fin 32) (l : Fin 2048) :
    val_main_v54 (F := Ideal) x2 (ix3 b (0 : Fin 1) l)
      = val_main_v5 (F := Ideal) x2 (ix2 b ⟨1 + l.val, by have := l.isLt; omega⟩) := by
  rw [val_main_v54_apply, val_main_v45_apply]
  exact congrArg (val_main_v5 (F := Ideal) x2) (funext fun a => match a with
    | ⟨0, _⟩ => rfl
    | ⟨1, _⟩ => rfl)
private theorem pieceM_2 (x2 : (⟨S32x2048, .i1⟩ : BufTy).Contents (Elt Ideal)) (b : Fin 32) (l : Fin 2048) :
    val_main_v55 (F := Ideal) x2 (ix3 b (0 : Fin 1) l)
      = val_main_v5 (F := Ideal) x2 (ix2 b ⟨2 + l.val, by have := l.isLt; omega⟩) := by
  rw [val_main_v55_apply, val_main_v46_apply]
  exact congrArg (val_main_v5 (F := Ideal) x2) (funext fun a => match a with
    | ⟨0, _⟩ => rfl
    | ⟨1, _⟩ => rfl)
private theorem pieceM_3 (x2 : (⟨S32x2048, .i1⟩ : BufTy).Contents (Elt Ideal)) (b : Fin 32) (l : Fin 2048) :
    val_main_v56 (F := Ideal) x2 (ix3 b (0 : Fin 1) l)
      = val_main_v5 (F := Ideal) x2 (ix2 b ⟨3 + l.val, by have := l.isLt; omega⟩) := by
  rw [val_main_v56_apply, val_main_v47_apply]
  exact congrArg (val_main_v5 (F := Ideal) x2) (funext fun a => match a with
    | ⟨0, _⟩ => rfl
    | ⟨1, _⟩ => rfl)
private theorem pieceM_4 (x2 : (⟨S32x2048, .i1⟩ : BufTy).Contents (Elt Ideal)) (b : Fin 32) (l : Fin 2048) :
    val_main_v57 (F := Ideal) x2 (ix3 b (0 : Fin 1) l)
      = val_main_v5 (F := Ideal) x2 (ix2 b ⟨4 + l.val, by have := l.isLt; omega⟩) := by
  rw [val_main_v57_apply, val_main_v48_apply]
  exact congrArg (val_main_v5 (F := Ideal) x2) (funext fun a => match a with
    | ⟨0, _⟩ => rfl
    | ⟨1, _⟩ => rfl)
private theorem pieceM_5 (x2 : (⟨S32x2048, .i1⟩ : BufTy).Contents (Elt Ideal)) (b : Fin 32) (l : Fin 2048) :
    val_main_v58 (F := Ideal) x2 (ix3 b (0 : Fin 1) l)
      = val_main_v5 (F := Ideal) x2 (ix2 b ⟨5 + l.val, by have := l.isLt; omega⟩) := by
  rw [val_main_v58_apply, val_main_v49_apply]
  exact congrArg (val_main_v5 (F := Ideal) x2) (funext fun a => match a with
    | ⟨0, _⟩ => rfl
    | ⟨1, _⟩ => rfl)
private theorem pieceM_6 (x2 : (⟨S32x2048, .i1⟩ : BufTy).Contents (Elt Ideal)) (b : Fin 32) (l : Fin 2048) :
    val_main_v59 (F := Ideal) x2 (ix3 b (0 : Fin 1) l)
      = val_main_v5 (F := Ideal) x2 (ix2 b ⟨6 + l.val, by have := l.isLt; omega⟩) := by
  rw [val_main_v59_apply, val_main_v50_apply]
  exact congrArg (val_main_v5 (F := Ideal) x2) (funext fun a => match a with
    | ⟨0, _⟩ => rfl
    | ⟨1, _⟩ => rfl)
private theorem pieceM_7 (x2 : (⟨S32x2048, .i1⟩ : BufTy).Contents (Elt Ideal)) (b : Fin 32) (l : Fin 2048) :
    val_main_v60 (F := Ideal) x2 (ix3 b (0 : Fin 1) l)
      = val_main_v5 (F := Ideal) x2 (ix2 b ⟨7 + l.val, by have := l.isLt; omega⟩) := by
  rw [val_main_v60_apply, val_main_v51_apply]
  exact congrArg (val_main_v5 (F := Ideal) x2) (funext fun a => match a with
    | ⟨0, _⟩ => rfl
    | ⟨1, _⟩ => rfl)
private theorem pieceM_8 (x2 : (⟨S32x2048, .i1⟩ : BufTy).Contents (Elt Ideal)) (b : Fin 32) (l : Fin 2048) :
    val_main_v61 (F := Ideal) x2 (ix3 b (0 : Fin 1) l)
      = val_main_v5 (F := Ideal) x2 (ix2 b ⟨8 + l.val, by have := l.isLt; omega⟩) := by
  rw [val_main_v61_apply, val_main_v52_apply]
  exact congrArg (val_main_v5 (F := Ideal) x2) (funext fun a => match a with
    | ⟨0, _⟩ => rfl
    | ⟨1, _⟩ => rfl)

/-- The stack at (b, k, l) is the padded mask at row k + l. -/
private theorem rowM (x2 : (⟨S32x2048, .i1⟩ : BufTy).Contents (Elt Ideal)) (b : Fin 32) (k : Fin 9) (l : Fin 2048) :
    val_main_v62 (F := Ideal) x2 (ix3 b k l)
      = val_main_v5 (F := Ideal) x2 (ix2 b ⟨k.val + l.val, by have := k.isLt; have := l.isLt; omega⟩) := by
  unfold val_main_v62
  refine (Cert.LibLayout.concat_32x9x2048_apply _ _ _ _ _ _ _ _ _ _ b k l).trans ?_
  match k with
    | ⟨0, _⟩ => exact pieceM_0 x2 b l
    | ⟨1, _⟩ => exact pieceM_1 x2 b l
    | ⟨2, _⟩ => exact pieceM_2 x2 b l
    | ⟨3, _⟩ => exact pieceM_3 x2 b l
    | ⟨4, _⟩ => exact pieceM_4 x2 b l
    | ⟨5, _⟩ => exact pieceM_5 x2 b l
    | ⟨6, _⟩ => exact pieceM_6 x2 b l
    | ⟨7, _⟩ => exact pieceM_7 x2 b l
    | ⟨8, _⟩ => exact pieceM_8 x2 b l

/-- (A3) The stacked slices of the padded mask are the mask at position k + l - 8, cleared before the start. -/
theorem stage_v62 (x2 : (⟨S32x2048, .i1⟩ : BufTy).Contents (Elt Ideal)) (b : Fin 32) (k : Fin 9) (l : Fin 2048) :
    val_main_v62 (F := Ideal) x2 (ix3 b k l) = Cert.Spec.mR (Cert.Spec.mkOf x2) b l k.val := by
  rw [rowM, v5_at]
  unfold Cert.Spec.mR Cert.Spec.mkOf
  by_cases h : 8 ≤ k.val + l.val
  · rw [dif_pos h, dif_pos (show 8 ≤ k.val + l.val ∧ k.val ≤ 8 from ⟨h, by have := k.isLt; omega⟩)]
  · rw [dif_neg h, dif_neg (fun hh : 8 ≤ k.val + l.val ∧ k.val ≤ 8 => h hh.1)]

/-- (A4) The window's validity bit: the stacked mask and the event's own mask bit. -/
theorem stage_v65 (x2 : (⟨S32x2048, .i1⟩ : BufTy).Contents (Elt Ideal)) (b : Fin 32) (k : Fin 9) (l : Fin 2048) :
    val_main_v65 (F := Ideal) x2 (ix3 b k l) = Cert.Spec.dtm (Cert.Spec.mkOf x2) b l k.val := by
  rw [val_main_v65_apply, stage_v62, val_main_v64_apply, val_main_v63_apply,
    show idx_main_v63 (idx_main_v64 (ix3 b k l)) = ix2 b l from funext fun a => match a with
      | ⟨0, _⟩ => rfl | ⟨1, _⟩ => rfl]
  rfl

/-! ## The selections by the validity bit -/

/-- The value selected where the window is not valid: the constant 0. -/
private theorem elseT_val (i : S32x9x2048.Idx) : val_main_call3_v1 (F := Ideal) i = (0 : EReal) := by
  rw [val_main_call3_v1_apply, val_main_call3_v0_apply, val_main_cst_apply]
  exact Ideal.ofBits_zero_f32

private theorem elseP_val (i : S32x9x2048x128.Idx) : val_main_call4_v2 (F := Ideal) i = (0 : EReal) := by
  rw [val_main_call4_v2_apply, val_main_call4_v0_apply, val_main_cst_2_apply]
  exact Ideal.ofBits_zero_f32

/-- (A5) The selected time differences: t(l) minus the window's time where valid, else 0. -/
theorem stage_v69 (x0 : (⟨S32x2048, .f32⟩ : BufTy).Contents (Elt Ideal)) (x2 : (⟨S32x2048, .i1⟩ : BufTy).Contents (Elt Ideal)) (b : Fin 32) (k : Fin 9) (l : Fin 2048) :
    val_main_v69 (F := Ideal) x0 x2 (ix3 b k l)
      = Cert.Spec.deltaR (Cert.Spec.tOf x0) (Cert.Spec.mkOf x2) b l k.val := by
  rw [val_main_v69_apply, stage_v65, val_main_v68_apply, stage_v24, val_main_v67_apply, val_main_v66_apply,
    show idx_main_v66 (idx_main_v67 (ix3 b k l)) = ix2 b l from funext fun a => match a with
      | ⟨0, _⟩ => rfl | ⟨1, _⟩ => rfl,
    elseT_val]
  rfl

/-- (A6) The selected projected features: the window's where valid, else 0. -/
theorem stage_v71 (x1 : (⟨S32x2048x64, .f32⟩ : BufTy).Contents (Elt Ideal)) (x2 : (⟨S32x2048, .i1⟩ : BufTy).Contents (Elt Ideal))
    (x4 x5 : (⟨S64x64, .f32⟩ : BufTy).Contents (Elt Ideal)) (b : Fin 32) (k : Fin 9) (l : Fin 2048) (j : Fin 128) :
    val_main_v71 (F := Ideal) x1 x2 x4 x5 (ix4 b k l j)
      = Cert.Spec.preR (Cert.Spec.proj (Cert.Spec.fOf x1) (Cert.Spec.WOf x4) (Cert.Spec.BOf x5)) (Cert.Spec.mkOf x2) b l k.val j := by
  rw [val_main_v71_apply, val_main_call4_v1_apply, val_main_v70_apply,
    show idx_main_v70 (idx_main_call4_v1 (ix4 b k l j)) = ix3 b k l from funext fun a => match a with
      | ⟨0, _⟩ => rfl | ⟨1, _⟩ => rfl | ⟨2, _⟩ => rfl,
    stage_v65, stage_v43, elseP_val]
  rfl

end Cert.ReferenceIdeal.RefValue

end
-- ==== Proof.Val.RefB.lean ====
/-
  The reference program's window sum over the first eight shifts (the "real" plane) and its step to the next event,
  read at an index from the selected time differences and the selected projected features.
-/
import proofs.«158136_j57621281243745_1_alg».proof.Proof.RefReadP
import proofs.«158136_j57621281243745_1_alg».proof.Proof.Val.Spec
import Idealize.ShloMosaic.Lib.Pipeline.Value
import Idealize.ShloMosaic.Lib.ValueIdx
import Idealize.ShloMosaic.Lib.ValueLayout
import Idealize.ShloMosaic.PureOps.Ideal.Laws
import proofs.«158136_j57621281243745_1_alg».proof.Proof.Val.RefA

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem
open ValueIdx

/-! ## Two indices with the same coordinates are one index -/

private theorem ext1 {n0 : Nat} (i j : (⟨1, ![n0]⟩ : Shape).Idx) (h0 : i 0 = j 0) : i = j := by
  funext a; match a with
  | ⟨0, _⟩ => exact h0

private theorem ext2 {n0 n1 : Nat} (i j : (⟨2, ![n0, n1]⟩ : Shape).Idx) (h0 : i 0 = j 0) (h1 : i 1 = j 1) : i = j := by
  funext a; match a with
  | ⟨0, _⟩ => exact h0
  | ⟨1, _⟩ => exact h1

private theorem ext3 {n0 n1 n2 : Nat} (i j : (⟨3, ![n0, n1, n2]⟩ : Shape).Idx) (h0 : i 0 = j 0) (h1 : i 1 = j 1)
    (h2 : i 2 = j 2) : i = j := by
  funext a; match a with
  | ⟨0, _⟩ => exact h0
  | ⟨1, _⟩ => exact h1
  | ⟨2, _⟩ => exact h2

private theorem ext4 {n0 n1 n2 n3 : Nat} (i j : (⟨4, ![n0, n1, n2, n3]⟩ : Shape).Idx) (h0 : i 0 = j 0) (h1 : i 1 = j 1)
    (h2 : i 2 = j 2) (h3 : i 3 = j 3) : i = j := by
  funext a; match a with
  | ⟨0, _⟩ => exact h0
  | ⟨1, _⟩ => exact h1
  | ⟨2, _⟩ => exact h2
  | ⟨3, _⟩ => exact h3

variable (x0 : (⟨S32x2048, .f32⟩ : BufTy).Contents (Elt Ideal)) (x1 : (⟨S32x2048x64, .f32⟩ : BufTy).Contents (Elt Ideal))
  (x2 : (⟨S32x2048, .i1⟩ : BufTy).Contents (Elt Ideal)) (x3 : (⟨S8, .f32⟩ : BufTy).Contents (Elt Ideal))
  (x4 x5 : (⟨S64x64, .f32⟩ : BufTy).Contents (Elt Ideal))

/-! ## The linear and the bias halves of the selected features -/

private theorem stage_v72 (b : Fin 32) (k : Fin 9) (l : Fin 2048) (o : Fin 64) :
    val_main_v72 (F := Ideal) x1 x2 x4 x5 (ix4 b k l o)
      = Cert.Spec.preR (Cert.Spec.proj (Cert.Spec.fOf x1) (Cert.Spec.WOf x4) (Cert.Spec.BOf x5)) (Cert.Spec.mkOf x2) b l k.val
          (Cert.Spec.lo o) := by
  rw [val_main_v72_apply,
    show idx_main_v72 (ix4 b k l o) = ix4 b k l (Cert.Spec.lo o) from ext4 _ _ rfl rfl rfl rfl]
  exact stage_v71 x1 x2 x4 x5 b k l (Cert.Spec.lo o)

private theorem stage_v73 (b : Fin 32) (k : Fin 9) (l : Fin 2048) (o : Fin 64) :
    val_main_v73 (F := Ideal) x1 x2 x4 x5 (ix4 b k l o)
      = Cert.Spec.preR (Cert.Spec.proj (Cert.Spec.fOf x1) (Cert.Spec.WOf x4) (Cert.Spec.BOf x5)) (Cert.Spec.mkOf x2) b l k.val
          (Cert.Spec.hi o) := by
  rw [val_main_v73_apply,
    show idx_main_v73 (ix4 b k l o) = ix4 b k l (Cert.Spec.hi o) from
      ext4 _ _ rfl rfl rfl (Fin.ext (by show 64 + o.val = o.val + 64; omega))]
  exact stage_v71 x1 x2 x4 x5 b k l (Cert.Spec.hi o)

/-! ## One term of the window sums, and the sum over the first eight shifts -/

private theorem stage_v82 (b : Fin 32) (k : Fin 8) (l : Fin 2048) (o : Fin 64) :
    val_main_v82 (F := Ideal) x0 x1 x2 x4 x5 (ix4 b k l o)
      = Cert.Spec.termR (Cert.Spec.tOf x0) (Cert.Spec.proj (Cert.Spec.fOf x1) (Cert.Spec.WOf x4) (Cert.Spec.BOf x5))
          (Cert.Spec.mkOf x2) b l o k.val := by
  rw [val_main_v82_apply, val_main_v80_apply, val_main_v79_apply, val_main_v77_apply, val_main_v76_apply,
    val_main_v78_apply, val_main_v81_apply,
    show idx_main_v76 (idx_main_v77 (idx_main_v79 (ix4 b k l o))) = ix3 b (⟨k.val, by have := k.isLt; omega⟩ : Fin 9) l from
      ext3 _ _ rfl rfl rfl,
    show idx_main_v78 (ix4 b k l o) = ix4 b (⟨k.val, by have := k.isLt; omega⟩ : Fin 9) l o from ext4 _ _ rfl rfl rfl rfl,
    show idx_main_v81 (ix4 b k l o) = ix4 b (⟨k.val, by have := k.isLt; omega⟩ : Fin 9) l o from ext4 _ _ rfl rfl rfl rfl,
    stage_v69, stage_v72, stage_v73]
  rfl

theorem stage_v83 (b : Fin 32) (l : Fin 2048) (o : Fin 64) :
    val_main_v83 (F := Ideal) x0 x1 x2 x4 x5 (ix3 b l o)
      = Cert.Spec.realR (Cert.Spec.tOf x0) (Cert.Spec.proj (Cert.Spec.fOf x1) (Cert.Spec.WOf x4) (Cert.Spec.BOf x5))
          (Cert.Spec.mkOf x2) b l o := by
  rw [val_main_v83_apply]
  unfold Cert.Spec.realR
  refine congrArg₂ (· + ·) Ideal.ofBits_zero_f32 (Finset.sum_congr rfl fun k _ => ?_)
  rw [show idx_main_v83 (ix3 b l o) k = ix4 b k l o from ext4 _ _ rfl rfl rfl rfl]
  exact stage_v82 x0 x1 x2 x4 x5 b k l o

/-! ## The step to the next event: the time difference at the next position, one shift back -/

theorem stage_v75 (b : Fin 32) (l' : Fin 2047) :
    val_main_v75 (F := Ideal) x0 x2 (ix2 b l')
      = Cert.Spec.udtR (Cert.Spec.tOf x0) (Cert.Spec.mkOf x2) b ⟨l'.val, by have := l'.isLt; omega⟩ := by
  unfold Cert.Spec.udtR
  rw [dif_pos (show (⟨l'.val, by have := l'.isLt; omega⟩ : Fin 2048).val + 1 < 2048 from by
      have := l'.isLt; show l'.val + 1 < 2048; omega),
    val_main_v75_apply, val_main_v74_apply,
    show idx_main_v74 (idx_main_v75 (ix2 b l'))
        = ix3 b (7 : Fin 9) (⟨l'.val + 1, by have := l'.isLt; omega⟩ : Fin 2048) from
      ext3 _ _ (Fin.ext (by show (b.val * 2047 + l'.val) / 2047 = b.val; have := l'.isLt; omega))
        (Fin.ext (by show 7 + 0 = 7; rfl))
        (Fin.ext (by show 1 + (b.val * 2047 + l'.val) % 2047 = l'.val + 1; have := l'.isLt; omega))]
  exact stage_v69 x0 x2 b 7 ⟨l'.val + 1, by have := l'.isLt; omega⟩

end Cert.ReferenceIdeal.RefValue

end
-- ==== Proof.Val.RefB2.lean ====
/-
  The reference's two sums over the windows k = 1 … 8 at the events l' = 0 … 2046, read at an index: the sum of
  (time difference · linear part + bias part), and the sum of the linear parts.
-/
import proofs.«158136_j57621281243745_1_alg».proof.Proof.Val.RefA

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem
open ValueIdx

/-! ## The sums start from the constant 0 -/

private theorem init91_val : val_main_cst_4 (F := Ideal) (Shape.Idx.first h_S_) = (0 : EReal) := by
  rw [val_main_cst_4_apply]
  exact Ideal.ofBits_zero_f32

private theorem init93_val : val_main_cst_5 (F := Ideal) (Shape.Idx.first h_S_) = (0 : EReal) := by
  rw [val_main_cst_5_apply]
  exact Ideal.ofBits_zero_f32

/-! ## Window k + 1 at event l': slice k of [1:9] along the windows is window 1 + k, columns 0 … 63 of the selected
projected features are the linear part, columns 64 … 127 (column 64 + o) the bias part -/

/-- The selected time difference of window k + 1. -/
private theorem delta_at (x0 : (⟨S32x2048, .f32⟩ : BufTy).Contents (Elt Ideal)) (x2 : (⟨S32x2048, .i1⟩ : BufTy).Contents (Elt Ideal)) (b : Fin 32) (k : Fin 8) (l' : Fin 2047) (o : Fin 64) :
    val_main_v87 (F := Ideal) x0 x2 (ix4 b k l' o)
      = Cert.Spec.deltaR (Cert.Spec.tOf x0) (Cert.Spec.mkOf x2) b ⟨l'.val, by have := l'.isLt; omega⟩ (k.val + 1) := by
  rw [val_main_v87_apply, val_main_v85_apply, val_main_v84_apply,
    show idx_main_v84 (idx_main_v85 (idx_main_v87 (ix4 b k l' o))) = ix3 b (⟨k.val + 1, by have := k.isLt; omega⟩ : Fin 9) (⟨l'.val, by have := l'.isLt; omega⟩ : Fin 2048) from
      funext fun a => match a with
        | ⟨0, _⟩ => rfl
        | ⟨1, _⟩ => Fin.ext (Nat.add_comm 1 k.val)
        | ⟨2, _⟩ => rfl,
    stage_v69]

/-- The linear part of window k + 1, as the first sum reads it, -/
private theorem lin_at (x1 : (⟨S32x2048x64, .f32⟩ : BufTy).Contents (Elt Ideal)) (x2 : (⟨S32x2048, .i1⟩ : BufTy).Contents (Elt Ideal)) (x4 x5 : (⟨S64x64, .f32⟩ : BufTy).Contents (Elt Ideal)) (b : Fin 32) (k : Fin 8) (l' : Fin 2047) (o : Fin 64) :
    val_main_v86 (F := Ideal) x1 x2 x4 x5 (ix4 b k l' o)
      = Cert.Spec.preR (Cert.Spec.proj (Cert.Spec.fOf x1) (Cert.Spec.WOf x4) (Cert.Spec.BOf x5)) (Cert.Spec.mkOf x2) b ⟨l'.val, by have := l'.isLt; omega⟩ (k.val + 1) (Cert.Spec.lo o) := by
  rw [val_main_v86_apply, val_main_v72_apply,
    show idx_main_v72 (idx_main_v86 (ix4 b k l' o)) = ix4 b (⟨k.val + 1, by have := k.isLt; omega⟩ : Fin 9) (⟨l'.val, by have := l'.isLt; omega⟩ : Fin 2048) (Cert.Spec.lo o) from
      funext fun a => match a with
        | ⟨0, _⟩ => rfl
        | ⟨1, _⟩ => Fin.ext (Nat.add_comm 1 k.val)
        | ⟨2, _⟩ => rfl
        | ⟨3, _⟩ => rfl,
    stage_v71]

/-- and as the second sum reads it (the same slice, printed again). -/
private theorem lin2_at (x1 : (⟨S32x2048x64, .f32⟩ : BufTy).Contents (Elt Ideal)) (x2 : (⟨S32x2048, .i1⟩ : BufTy).Contents (Elt Ideal)) (x4 x5 : (⟨S64x64, .f32⟩ : BufTy).Contents (Elt Ideal)) (b : Fin 32) (k : Fin 8) (l' : Fin 2047) (o : Fin 64) :
    val_main_v92 (F := Ideal) x1 x2 x4 x5 (ix4 b k l' o)
      = Cert.Spec.preR (Cert.Spec.proj (Cert.Spec.fOf x1) (Cert.Spec.WOf x4) (Cert.Spec.BOf x5)) (Cert.Spec.mkOf x2) b ⟨l'.val, by have := l'.isLt; omega⟩ (k.val + 1) (Cert.Spec.lo o) := by
  rw [val_main_v92_apply, val_main_v72_apply,
    show idx_main_v72 (idx_main_v92 (ix4 b k l' o)) = ix4 b (⟨k.val + 1, by have := k.isLt; omega⟩ : Fin 9) (⟨l'.val, by have := l'.isLt; omega⟩ : Fin 2048) (Cert.Spec.lo o) from
      funext fun a => match a with
        | ⟨0, _⟩ => rfl
        | ⟨1, _⟩ => Fin.ext (Nat.add_comm 1 k.val)
        | ⟨2, _⟩ => rfl
        | ⟨3, _⟩ => rfl,
    stage_v71]

/-- The bias part of window k + 1. -/
private theorem bia_at (x1 : (⟨S32x2048x64, .f32⟩ : BufTy).Contents (Elt Ideal)) (x2 : (⟨S32x2048, .i1⟩ : BufTy).Contents (Elt Ideal)) (x4 x5 : (⟨S64x64, .f32⟩ : BufTy).Contents (Elt Ideal)) (b : Fin 32) (k : Fin 8) (l' : Fin 2047) (o : Fin 64) :
    val_main_v89 (F := Ideal) x1 x2 x4 x5 (ix4 b k l' o)
      = Cert.Spec.preR (Cert.Spec.proj (Cert.Spec.fOf x1) (Cert.Spec.WOf x4) (Cert.Spec.BOf x5)) (Cert.Spec.mkOf x2) b ⟨l'.val, by have := l'.isLt; omega⟩ (k.val + 1) (Cert.Spec.hi o) := by
  rw [val_main_v89_apply, val_main_v73_apply,
    show idx_main_v73 (idx_main_v89 (ix4 b k l' o)) = ix4 b (⟨k.val + 1, by have := k.isLt; omega⟩ : Fin 9) (⟨l'.val, by have := l'.isLt; omega⟩ : Fin 2048) (Cert.Spec.hi o) from
      funext fun a => match a with
        | ⟨0, _⟩ => rfl
        | ⟨1, _⟩ => Fin.ext (Nat.add_comm 1 k.val)
        | ⟨2, _⟩ => rfl
        | ⟨3, _⟩ => Fin.ext (Nat.add_comm 64 o.val),
    stage_v71]

/-! ## The two sums -/

/-- (B2) The sum over the windows 1 … 8 of time difference · linear part + bias part, from 0. -/
theorem stage_v91 (x0 : (⟨S32x2048, .f32⟩ : BufTy).Contents (Elt Ideal)) (x1 : (⟨S32x2048x64, .f32⟩ : BufTy).Contents (Elt Ideal)) (x2 : (⟨S32x2048, .i1⟩ : BufTy).Contents (Elt Ideal)) (x4 x5 : (⟨S64x64, .f32⟩ : BufTy).Contents (Elt Ideal)) (b : Fin 32) (l' : Fin 2047) (o : Fin 64) :
    val_main_v91 (F := Ideal) x0 x1 x2 x4 x5 (ix3 b l' o)
      = Cert.Spec.sim0R (Cert.Spec.tOf x0) (Cert.Spec.proj (Cert.Spec.fOf x1) (Cert.Spec.WOf x4) (Cert.Spec.BOf x5)) (Cert.Spec.mkOf x2) b ⟨l'.val, by have := l'.isLt; omega⟩ o := by
  rw [val_main_v91_apply, init91_val]
  unfold Cert.Spec.sim0R
  refine congrArg (fun s => (0 : EReal) + s) (Finset.sum_congr rfl fun k _ => ?_)
  rw [show idx_main_v91 (ix3 b l' o) k = ix4 b k l' o from funext fun a => match a with
        | ⟨0, _⟩ => rfl | ⟨1, _⟩ => rfl | ⟨2, _⟩ => rfl | ⟨3, _⟩ => rfl,
    val_main_v90_apply, val_main_v88_apply, delta_at, lin_at, bia_at]
  rfl

/-- (B3) The sum over the windows 1 … 8 of the linear parts, from 0. -/
theorem stage_v93 (x1 : (⟨S32x2048x64, .f32⟩ : BufTy).Contents (Elt Ideal)) (x2 : (⟨S32x2048, .i1⟩ : BufTy).Contents (Elt Ideal)) (x4 x5 : (⟨S64x64, .f32⟩ : BufTy).Contents (Elt Ideal)) (b : Fin 32) (l' : Fin 2047) (o : Fin 64) :
    val_main_v93 (F := Ideal) x1 x2 x4 x5 (ix3 b l' o)
      = Cert.Spec.sumlinR (Cert.Spec.proj (Cert.Spec.fOf x1) (Cert.Spec.WOf x4) (Cert.Spec.BOf x5)) (Cert.Spec.mkOf x2) b ⟨l'.val, by have := l'.isLt; omega⟩ o := by
  rw [val_main_v93_apply, init93_val]
  unfold Cert.Spec.sumlinR
  refine congrArg (fun s => (0 : EReal) + s) (Finset.sum_congr rfl fun k _ => ?_)
  rw [show idx_main_v93 (ix3 b l' o) k = ix4 b k l' o from funext fun a => match a with
        | ⟨0, _⟩ => rfl | ⟨1, _⟩ => rfl | ⟨2, _⟩ => rfl | ⟨3, _⟩ => rfl,
    lin2_at]

end Cert.ReferenceIdeal.RefValue

end
-- ==== Proof.Val.Ref.lean ====
/-
  The reference program's result as a function of its arguments, at the exact reals, read operation by operation.

  This file reads the program's tail: from the four per-event quantities (the window sum ending one step back,
  the window sum ending at the event, the sum of the window's linear parts, the step to the next event) it
  forms the eight interpolated sums, lays the nine planes side by side, flattens (event, plane) into one row
  axis and appends the last event's window sum as the last row.
-/
import proofs.«158136_j57621281243745_1_alg».proof.Proof.RefReadP
import proofs.«158136_j57621281243745_1_alg».proof.Proof.Val.Spec
import proofs.«158136_j57621281243745_1_alg».proof.Proof.LibLayout
import proofs.«158136_j57621281243745_1_alg».proof.Proof.Val.RefB
import proofs.«158136_j57621281243745_1_alg».proof.Proof.Val.RefB2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem
open ValueIdx

section Tail

variable (x0 : (⟨S32x2048, .f32⟩ : BufTy).Contents (Elt Ideal)) (x1 : (⟨S32x2048x64, .f32⟩ : BufTy).Contents (Elt Ideal))
  (x2 : (⟨S32x2048, .i1⟩ : BufTy).Contents (Elt Ideal)) (x3 : (⟨S8, .f32⟩ : BufTy).Contents (Elt Ideal))
  (x4 x5 : (⟨S64x64, .f32⟩ : BufTy).Contents (Elt Ideal))

/-- The times, the projected features and the mask of the specification, read off the arguments. -/
local notation "tt" => Cert.Spec.tOf x0
local notation "PP" => Cert.Spec.proj (Cert.Spec.fOf x1) (Cert.Spec.WOf x4) (Cert.Spec.BOf x5)
local notation "mm" => Cert.Spec.mkOf x2
local notation "uu" => Cert.Spec.uOf x3

/-! ## The interpolated sums

Each of the eight planes adds to the window sum ending at the event the step to the next event, scaled by the
plane's sample position, times the sum of the window's linear parts. The program spreads each factor over the
(sequence, event, plane, channel) axes first; read at an index, a spread is the factor at the coordinates it has. -/

/-- The window sum ending at the event, spread over one plane. -/
theorem v94_ix (b : Fin 32) (l' : Fin 2047) (z : Fin 1) (o : Fin 64) :
    val_main_v94 (F := Ideal) x0 x1 x2 x4 x5 (ix4 b l' z o)
      = Cert.Spec.sim0R tt PP mm b ⟨l'.val, by have := l'.isLt; omega⟩ o := by
  rw [val_main_v94_apply,
    show idx_main_v94 (ix4 b l' z o) = ix3 b l' o from funext fun a => by
      match a with | ⟨0, _⟩ => rfl | ⟨1, _⟩ => rfl | ⟨2, _⟩ => rfl,
    stage_v91]

/-- The step to the next event, spread over one plane and one channel. -/
theorem v95_ix (b : Fin 32) (l' : Fin 2047) (z z' : Fin 1) :
    val_main_v95 (F := Ideal) x0 x2 (ix4 b l' z z') = Cert.Spec.udtR tt mm b ⟨l'.val, by have := l'.isLt; omega⟩ := by
  rw [val_main_v95_apply,
    show idx_main_v95 (ix4 b l' z z') = ix2 b l' from funext fun a => by
      match a with | ⟨0, _⟩ => rfl | ⟨1, _⟩ => rfl,
    stage_v75]

/-- The sample positions along the plane axis. -/
theorem v96_ix (z z' : Fin 1) (s : Fin 8) (z'' : Fin 1) :
    val_main_v96 (F := Ideal) x3 (ix4 z z' s z'') = uu s := by
  rw [val_main_v96_apply,
    show idx_main_v96 (ix4 z z' s z'') = ix1 s from funext fun a => by
      match a with | ⟨0, _⟩ => rfl]
  rfl

/-- The step to the next event over the eight planes. -/
theorem v97_ix (b : Fin 32) (l' : Fin 2047) (s : Fin 8) (z : Fin 1) :
    val_main_v97 (F := Ideal) x0 x2 (ix4 b l' s z) = Cert.Spec.udtR tt mm b ⟨l'.val, by have := l'.isLt; omega⟩ := by
  rw [val_main_v97_apply,
    show idx_main_v97 (ix4 b l' s z) = ix4 b l' (0 : Fin 1) (0 : Fin 1) from funext fun a => by
      match a with | ⟨0, _⟩ => rfl | ⟨1, _⟩ => rfl | ⟨2, _⟩ => rfl | ⟨3, _⟩ => rfl,
    v95_ix]

/-- The sample positions over every sequence and event. -/
theorem v98_ix (b : Fin 32) (l' : Fin 2047) (s : Fin 8) (z : Fin 1) :
    val_main_v98 (F := Ideal) x3 (ix4 b l' s z) = uu s := by
  rw [val_main_v98_apply,
    show idx_main_v98 (ix4 b l' s z) = ix4 (0 : Fin 1) (0 : Fin 1) s (0 : Fin 1) from funext fun a => by
      match a with | ⟨0, _⟩ => rfl | ⟨1, _⟩ => rfl | ⟨2, _⟩ => rfl | ⟨3, _⟩ => rfl,
    v96_ix]

/-- The scaled step: the step to the next event times the plane's sample position. -/
theorem v99_ix (b : Fin 32) (l' : Fin 2047) (s : Fin 8) (z : Fin 1) :
    val_main_v99 (F := Ideal) x0 x2 x3 (ix4 b l' s z)
      = Cert.Spec.udtR tt mm b ⟨l'.val, by have := l'.isLt; omega⟩ * uu s := by
  rw [val_main_v99_apply, v97_ix, v98_ix]
  rfl

/-- The sum of the window's linear parts, spread over one plane. -/
theorem v100_ix (b : Fin 32) (l' : Fin 2047) (z : Fin 1) (o : Fin 64) :
    val_main_v100 (F := Ideal) x1 x2 x4 x5 (ix4 b l' z o)
      = Cert.Spec.sumlinR PP mm b ⟨l'.val, by have := l'.isLt; omega⟩ o := by
  rw [val_main_v100_apply,
    show idx_main_v100 (ix4 b l' z o) = ix3 b l' o from funext fun a => by
      match a with | ⟨0, _⟩ => rfl | ⟨1, _⟩ => rfl | ⟨2, _⟩ => rfl,
    stage_v93]

/-- The scaled step over the channels. -/
theorem v101_ix (b : Fin 32) (l' : Fin 2047) (s : Fin 8) (o : Fin 64) :
    val_main_v101 (F := Ideal) x0 x2 x3 (ix4 b l' s o)
      = Cert.Spec.udtR tt mm b ⟨l'.val, by have := l'.isLt; omega⟩ * uu s := by
  rw [val_main_v101_apply,
    show idx_main_v101 (ix4 b l' s o) = ix4 b l' s (0 : Fin 1) from funext fun a => by
      match a with | ⟨0, _⟩ => rfl | ⟨1, _⟩ => rfl | ⟨2, _⟩ => rfl | ⟨3, _⟩ => rfl,
    v99_ix]

/-- The sum of the linear parts over the eight planes. -/
theorem v102_ix (b : Fin 32) (l' : Fin 2047) (s : Fin 8) (o : Fin 64) :
    val_main_v102 (F := Ideal) x1 x2 x4 x5 (ix4 b l' s o)
      = Cert.Spec.sumlinR PP mm b ⟨l'.val, by have := l'.isLt; omega⟩ o := by
  rw [val_main_v102_apply,
    show idx_main_v102 (ix4 b l' s o) = ix4 b l' (0 : Fin 1) o from funext fun a => by
      match a with | ⟨0, _⟩ => rfl | ⟨1, _⟩ => rfl | ⟨2, _⟩ => rfl | ⟨3, _⟩ => rfl,
    v100_ix]

/-- The window sum ending at the event over the eight planes. -/
theorem v104_ix (b : Fin 32) (l' : Fin 2047) (s : Fin 8) (o : Fin 64) :
    val_main_v104 (F := Ideal) x0 x1 x2 x4 x5 (ix4 b l' s o)
      = Cert.Spec.sim0R tt PP mm b ⟨l'.val, by have := l'.isLt; omega⟩ o := by
  rw [val_main_v104_apply,
    show idx_main_v104 (ix4 b l' s o) = ix4 b l' (0 : Fin 1) o from funext fun a => by
      match a with | ⟨0, _⟩ => rfl | ⟨1, _⟩ => rfl | ⟨2, _⟩ => rfl | ⟨3, _⟩ => rfl,
    v94_ix]

/-- The interpolated sum of plane s: the window sum plus the scaled step times the sum of the linear parts. -/
theorem v105_ix (b : Fin 32) (l' : Fin 2047) (s : Fin 8) (o : Fin 64) :
    val_main_v105 (F := Ideal) x0 x1 x2 x3 x4 x5 (ix4 b l' s o)
      = Cert.Spec.simR tt PP mm uu b ⟨l'.val, by have := l'.isLt; omega⟩ s o := by
  rw [val_main_v105_apply, val_main_v103_apply, v104_ix, v101_ix, v102_ix]
  rfl

/-! ## The window sum ending one step back, as plane 0 and as the last row -/

/-- Its first 2047 events. -/
theorem v106_ix (b : Fin 32) (l' : Fin 2047) (o : Fin 64) :
    val_main_v106 (F := Ideal) x0 x1 x2 x4 x5 (ix3 b l' o)
      = Cert.Spec.realR tt PP mm b ⟨l'.val, by have := l'.isLt; omega⟩ o := by
  rw [val_main_v106_apply,
    show idx_main_v106 (ix3 b l' o) = ix3 b (⟨l'.val, by have := l'.isLt; omega⟩ : Fin 2048) o from funext fun a => by
      match a with | ⟨0, _⟩ => rfl | ⟨1, _⟩ => rfl | ⟨2, _⟩ => rfl,
    stage_v83]

/-- The same as one plane. -/
theorem v107_ix (b : Fin 32) (l' : Fin 2047) (z : Fin 1) (o : Fin 64) :
    val_main_v107 (F := Ideal) x0 x1 x2 x4 x5 (ix4 b l' z o)
      = Cert.Spec.realR tt PP mm b ⟨l'.val, by have := l'.isLt; omega⟩ o := by
  rw [val_main_v107_apply,
    show idx_main_v107 (ix4 b l' z o) = ix3 b l' o from funext fun a => by
      match a with | ⟨0, _⟩ => rfl | ⟨1, _⟩ => rfl | ⟨2, _⟩ => rfl,
    v106_ix]

/-- Its last event, as one row. -/
theorem v108_ix (b : Fin 32) (z : Fin 1) (o : Fin 64) :
    val_main_v108 (F := Ideal) x0 x1 x2 x4 x5 (ix3 b z o) = Cert.Spec.realR tt PP mm b ⟨2047, by decide⟩ o := by
  rw [val_main_v108_apply,
    show idx_main_v108 (ix3 b z o) = ix3 b (⟨2047, by decide⟩ : Fin 2048) o from funext fun a => by
      match a with
      | ⟨0, _⟩ => rfl
      | ⟨1, _⟩ => exact Fin.ext (by have := z.isLt; show 2047 + z.val = 2047; omega)
      | ⟨2, _⟩ => rfl,
    stage_v83]

/-! ## The nine planes, the flattened rows, the result -/

/-- Plane p of event l' < 2047: the window sum ending one step back at p = 0, the interpolated sum p - 1 otherwise. -/
theorem v109_ix (b : Fin 32) (l' : Fin 2047) (p : Fin 9) (o : Fin 64) :
    val_main_v109 (F := Ideal) x0 x1 x2 x3 x4 x5 (ix4 b l' p o)
      = Cert.Spec.cellR tt PP mm uu b ⟨l'.val, by have := l'.isLt; omega⟩ p o := by
  unfold val_main_v109 Cert.Spec.cellR
  rw [Cert.LibLayout.concat_32x2047x9x64_apply]
  by_cases hp : p.val = 0
  · rw [dif_pos hp, dif_pos hp, v107_ix]
  · rw [dif_neg hp, dif_neg hp, v105_ix]

/-- Row n < 18423 of the flattened array is plane n mod 9 of event n / 9: the row-major position of
    (sequence, row, channel) among 18423 x 64 per sequence is that of (sequence, event, plane, channel) among
    2047 x 9 x 64. -/
theorem v110_ix (b : Fin 32) (n : Fin 18423) (o : Fin 64) :
    val_main_v110 (F := Ideal) x0 x1 x2 x3 x4 x5 (ix3 b n o)
      = Cert.Spec.cellR tt PP mm uu b ⟨n.val / 9, by have := n.isLt; omega⟩ ⟨n.val % 9, Nat.mod_lt _ (by decide)⟩ o := by
  have hb := b.isLt; have hn := n.isLt; have ho := o.isLt
  rw [val_main_v110_apply,
    show idx_main_v110 (ix3 b n o)
        = ix4 b (⟨n.val / 9, by omega⟩ : Fin 2047) (⟨n.val % 9, Nat.mod_lt _ (by decide)⟩ : Fin 9) o from funext fun a => by
      match a with
      | ⟨0, _⟩ => exact Fin.ext (by show ((b.val * 18423 + n.val) * 64 + o.val) / 1179072 = b.val; omega)
      | ⟨1, _⟩ => exact Fin.ext (by show ((b.val * 18423 + n.val) * 64 + o.val) / 576 % 2047 = n.val / 9; omega)
      | ⟨2, _⟩ => exact Fin.ext (by show ((b.val * 18423 + n.val) * 64 + o.val) / 64 % 9 = n.val % 9; omega)
      | ⟨3, _⟩ => exact Fin.ext (by show ((b.val * 18423 + n.val) * 64 + o.val) % 64 = o.val; omega),
    v109_ix]

/-- The result at (b, n, o): the flattened rows, then the last event's window sum as row 18423. -/
theorem v111_ix (b : Fin 32) (n : Fin 18424) (o : Fin 64) :
    val_main_v111 (F := Ideal) x0 x1 x2 x3 x4 x5 (ix3 b n o) = Cert.Spec.outR tt PP mm uu b n o := by
  unfold val_main_v111 Cert.Spec.outR
  rw [Cert.LibLayout.concat_32x18424x64_apply]
  by_cases hn : n.val < 18423
  · rw [dif_pos hn, dif_pos hn, v110_ix]
  · rw [dif_neg hn, dif_neg hn, v108_ix]
    unfold Cert.Spec.cellR
    rw [dif_pos rfl]

end Tail

theorem ref_value (x0 : (⟨S32x2048, .f32⟩ : BufTy).Contents (Elt Ideal)) (x1 : (⟨S32x2048x64, .f32⟩ : BufTy).Contents (Elt Ideal))
    (x2 : (⟨S32x2048, .i1⟩ : BufTy).Contents (Elt Ideal)) (x3 : (⟨S8, .f32⟩ : BufTy).Contents (Elt Ideal))
    (x4 x5 : (⟨S64x64, .f32⟩ : BufTy).Contents (Elt Ideal)) :
    val_main_v111 (F := Ideal) x0 x1 x2 x3 x4 x5 = Cert.Spec.resultR x0 x1 x2 x3 x4 x5 := by
  funext i
  refine ((congrArg (val_main_v111 (F := Ideal) x0 x1 x2 x3 x4 x5) (eq_ix3 i)).trans
    (v111_ix x0 x1 x2 x3 x4 x5 (i 0) (i 1) (i 2))).trans ?_
  rfl

end Cert.ReferenceIdeal.RefValue

end
-- ==== Proof.Val.Alg.lean ====
/-
  The kernel's form of the result and the reference's are one function: a product with a mask that is 0 or 1 is
  the selection by that mask (0 · x = 0 and 1 · x = x for every extended real), a product of two such masks is the
  mask of the conjunction, and the sums run over the same eight terms in opposite orders.
-/
import proofs.«158136_j57621281243745_1_alg».proof.Proof.Val.Spec
import Mathlib.Data.Fin.Rev
import Mathlib.Algebra.BigOperators.Group.Finset.Defs

noncomputable section

namespace Cert.Spec

section Parts

/-! ## A bit as a number -/

/-- The number of the bit 1 is 1, -/
private theorem num_one : (((1#1 : BitVec 1).toNat : ℝ) : EReal) = 1 := by
  rw [show (1#1 : BitVec 1).toNat = 1 from rfl, Nat.cast_one, EReal.coe_one]

/-- and of the bit 0 is 0. -/
private theorem num_zero : (((0#1 : BitVec 1).toNat : ℝ) : EReal) = 0 := by
  rw [show (0#1 : BitVec 1).toNat = 0 from rfl, Nat.cast_zero, EReal.coe_zero]

/-- The product of two bits' numbers is 1 where their conjunction is set (both are 1: 1 · 1 = 1), -/
private theorem num_mul_of_and (x y : BitVec 1) (h : x &&& y = 1#1) :
    (((x.toNat : ℝ) : EReal)) * (((y.toNat : ℝ) : EReal)) = 1 := by
  rcases BitVec.eq_zero_or_eq_one x with hx | hx <;> rcases BitVec.eq_zero_or_eq_one y with hy | hy
  · subst hx; subst hy; exact absurd h (by decide)
  · subst hx; subst hy; exact absurd h (by decide)
  · subst hx; subst hy; exact absurd h (by decide)
  · subst hx; subst hy; rw [num_one, one_mul]

/-- and 0 where it is not (one of them is 0: 0 · y = 0 = x · 0). -/
private theorem num_mul_of_not_and (x y : BitVec 1) (h : ¬ x &&& y = 1#1) :
    (((x.toNat : ℝ) : EReal)) * (((y.toNat : ℝ) : EReal)) = 0 := by
  rcases BitVec.eq_zero_or_eq_one x with hx | hx <;> rcases BitVec.eq_zero_or_eq_one y with hy | hy
  · subst hx; subst hy; rw [num_zero, zero_mul]
  · subst hx; subst hy; rw [num_zero, zero_mul]
  · subst hx; subst hy; rw [num_zero, mul_zero]
  · subst hx; subst hy; exact absurd (by decide) h

variable (t : Fin 32 → Fin 2048 → EReal) (Pj : Fin 32 → Fin 2048 → Fin 128 → EReal)
  (mk : Fin 32 → Fin 2048 → BitVec 1) (u : Fin 8 → EReal)

/-! ## The shift s back from the event is the window position k = 8 - s

Position k + l - 8 with k = 8 - s is l - s, and it lies in the sequence exactly when s ≤ l. -/

private theorem tB_eq_tR (b : Fin 32) (l : Fin 2048) (s : ℕ) (hs : s ≤ 8) : tB t b l s = tR t b l (8 - s) := by
  unfold tB tR
  by_cases h : s ≤ l.val
  · rw [dif_pos h, dif_pos (show 8 ≤ 8 - s + l.val ∧ 8 - s ≤ 8 by omega)]
    exact congrArg (t b) (Fin.ext (by show l.val - s = 8 - s + l.val - 8; omega))
  · rw [dif_neg h, dif_neg (show ¬ (8 ≤ 8 - s + l.val ∧ 8 - s ≤ 8) by omega)]

private theorem pB_eq_pR (b : Fin 32) (l : Fin 2048) (s : ℕ) (hs : s ≤ 8) (j : Fin 128) :
    pB Pj b l s j = pR Pj b l (8 - s) j := by
  unfold pB pR
  by_cases h : s ≤ l.val
  · rw [dif_pos h, dif_pos (show 8 ≤ 8 - s + l.val ∧ 8 - s ≤ 8 by omega)]
    exact congrArg (fun x => Pj b x j) (Fin.ext (by show l.val - s = 8 - s + l.val - 8; omega))
  · rw [dif_neg h, dif_neg (show ¬ (8 ≤ 8 - s + l.val ∧ 8 - s ≤ 8) by omega)]

private theorem mR_of_le (b : Fin 32) (l : Fin 2048) (s : ℕ) (hs : s ≤ 8) (h : s ≤ l.val) :
    mR mk b l (8 - s) = mk b ⟨l.val - s, by have := l.isLt; omega⟩ := by
  unfold mR
  rw [dif_pos (show 8 ≤ 8 - s + l.val ∧ 8 - s ≤ 8 by omega)]
  exact congrArg (mk b) (Fin.ext (by show 8 - s + l.val - 8 = l.val - s; omega))

private theorem mR_of_not_le (b : Fin 32) (l : Fin 2048) (s : ℕ) (hs : s ≤ 8) (h : ¬ s ≤ l.val) :
    mR mk b l (8 - s) = 0#1 := by
  unfold mR
  rw [dif_neg (show ¬ (8 ≤ 8 - s + l.val ∧ 8 - s ≤ 8) by omega)]

/-- The kernel's validity number is the number of the reference's validity bit: inside the sequence it is the
    product of the two masks' numbers, the number of their conjunction; before the start it is 0 · m = 0 and the
    bit is 0 and m = 0. -/
private theorem validK_eq (b : Fin 32) (l : Fin 2048) (s : ℕ) (hs : s ≤ 8) :
    validK mk b l s = if dtm mk b l (8 - s) = 1#1 then 1 else 0 := by
  unfold validK mB dtm
  by_cases h : s ≤ l.val
  · rw [dif_pos h, mR_of_le mk b l s hs h]
    unfold mf
    by_cases hd : mk b ⟨l.val - s, by have := l.isLt; omega⟩ &&& mk b l = 1#1
    · rw [if_pos hd, num_mul_of_and _ _ hd]
    · rw [if_neg hd, num_mul_of_not_and _ _ hd]
  · rw [dif_neg h, mR_of_not_le mk b l s hs h, zero_mul,
      if_neg (show ¬ (0#1 &&& mk b l = 1#1) by rw [BitVec.zero_and]; decide)]

/-! ## Term by term -/

/-- The linear part: the product with the validity number is the selection by the validity bit
    (x · 1 = x, x · 0 = 0). -/
private theorem linK_eq_preR (b : Fin 32) (l : Fin 2048) (o : Fin 64) (s : ℕ) (hs : s ≤ 8) :
    linK Pj mk b l o s = preR Pj mk b l (8 - s) (lo o) := by
  unfold linK preR
  rw [validK_eq mk b l s hs, pB_eq_pR Pj b l s hs (lo o)]
  by_cases h : dtm mk b l (8 - s) = 1#1
  · simp only [if_pos h, mul_one]
  · simp only [if_neg h, mul_zero]

/-- One term of the sums: where valid, (1 · δ) · (x · 1) + y · 1 = δ · x + y; elsewhere
    (0 · δ) · (x · 0) + y · 0 = 0 · 0 + 0. -/
private theorem termK_eq_termR (b : Fin 32) (l : Fin 2048) (o : Fin 64) (s : ℕ) (hs : s ≤ 8) :
    termK t Pj mk b l o s = termR t Pj mk b l o (8 - s) := by
  unfold termK termR linK deltaR preR
  rw [validK_eq mk b l s hs, tB_eq_tR t b l s hs, pB_eq_pR Pj b l s hs (lo o), pB_eq_pR Pj b l s hs (hi o)]
  by_cases h : dtm mk b l (8 - s) = 1#1
  · simp only [if_pos h, one_mul, mul_one]
  · simp only [if_neg h, zero_mul, mul_zero, add_zero]

/-! ## The sums: the same eight terms, in opposite orders (i ↦ 7 - i) -/

private theorem realK_eq_realR (b : Fin 32) (l : Fin 2048) (o : Fin 64) :
    realK t Pj mk b l o = realR t Pj mk b l o := by
  unfold realK realR
  rw [zero_add]
  refine Fintype.sum_equiv Fin.revPerm _ _ (fun i => ?_)
  show termK t Pj mk b l o (i.val + 1) = termR t Pj mk b l o (Fin.revPerm i).val
  rw [termK_eq_termR t Pj mk b l o (i.val + 1) (by have := i.isLt; omega)]
  rfl

private theorem sim0K_eq_sim0R (b : Fin 32) (l : Fin 2048) (o : Fin 64) :
    sim0K t Pj mk b l o = sim0R t Pj mk b l o := by
  unfold sim0K sim0R
  rw [zero_add]
  refine Fintype.sum_equiv Fin.revPerm _ _ (fun i => ?_)
  show termK t Pj mk b l o i.val = termR t Pj mk b l o ((Fin.revPerm i).val + 1)
  rw [termK_eq_termR t Pj mk b l o i.val (by have := i.isLt; omega)]
  exact congrArg (termR t Pj mk b l o)
    (by show 8 - i.val = 8 - (i.val + 1) + 1; have := i.isLt; omega)

private theorem sumlinK_eq_sumlinR (b : Fin 32) (l : Fin 2048) (o : Fin 64) :
    sumlinK Pj mk b l o = sumlinR Pj mk b l o := by
  unfold sumlinK sumlinR
  rw [zero_add]
  refine Fintype.sum_equiv Fin.revPerm _ _ (fun i => ?_)
  show linK Pj mk b l o i.val = preR Pj mk b l ((Fin.revPerm i).val + 1) (lo o)
  rw [linK_eq_preR Pj mk b l o i.val (by have := i.isLt; omega)]
  exact congrArg (fun k => preR Pj mk b l k (lo o))
    (by show 8 - i.val = 8 - (i.val + 1) + 1; have := i.isLt; omega)

/-! ## The step to the next event

The reference reads it at the next position l + 1 with k = 7, one step back from there: position 7 + (l + 1) - 8 = l,
always inside the sequence. -/

private theorem tR_seven (b : Fin 32) (l l' : Fin 2048) (hl : l'.val = l.val + 1) : tR t b l' 7 = t b l := by
  unfold tR
  rw [dif_pos (show 8 ≤ 7 + l'.val ∧ 7 ≤ 8 by omega)]
  exact congrArg (t b) (Fin.ext (by show 7 + l'.val - 8 = l.val; omega))

private theorem mR_seven (b : Fin 32) (l l' : Fin 2048) (hl : l'.val = l.val + 1) : mR mk b l' 7 = mk b l := by
  unfold mR
  rw [dif_pos (show 8 ≤ 7 + l'.val ∧ 7 ≤ 8 by omega)]
  exact congrArg (mk b) (Fin.ext (by show 7 + l'.val - 8 = l.val; omega))

/-- Before the last event both are the step t (l + 1) - t l where both masks are set, else 0; at the last event the
    kernel's is (m · 0) · x = 0 and the reference's is 0. -/
private theorem udtK_eq_udtR (b : Fin 32) (l : Fin 2048) : udtK t mk b l = udtR t mk b l := by
  unfold udtK udtR mN tN
  by_cases h : l.val + 1 < 2048
  · simp only [dif_pos h]
    unfold deltaR dtm
    rw [tR_seven t b l ⟨l.val + 1, h⟩ rfl, mR_seven mk b l ⟨l.val + 1, h⟩ rfl]
    unfold mf
    by_cases hd : mk b l &&& mk b ⟨l.val + 1, h⟩ = 1#1
    · rw [if_pos hd, num_mul_of_and _ _ hd, one_mul]
    · rw [if_neg hd, num_mul_of_not_and _ _ hd, zero_mul]
  · simp only [dif_neg h]
    rw [mul_zero, zero_mul]

/-! ## One cell, and the result -/

private theorem simK_eq_simR (b : Fin 32) (l : Fin 2048) (s' : Fin 8) (o : Fin 64) :
    simK t Pj mk u b l s' o = simR t Pj mk u b l s' o := by
  unfold simK simR
  rw [sim0K_eq_sim0R t Pj mk b l o, udtK_eq_udtR t mk b l, sumlinK_eq_sumlinR Pj mk b l o]

private theorem cellK_eq_cellR (b : Fin 32) (l : Fin 2048) (p : Fin 9) (o : Fin 64) :
    cellK t Pj mk u b l p o = cellR t Pj mk u b l p o := by
  unfold cellK cellR
  by_cases h : p.val = 0
  · rw [dif_pos h, dif_pos h]
    exact realK_eq_realR t Pj mk b l o
  · rw [dif_neg h, dif_neg h]
    exact simK_eq_simR t Pj mk u b l _ o

end Parts

theorem outK_eq_outR (t : Fin 32 → Fin 2048 → EReal) (Pj : Fin 32 → Fin 2048 → Fin 128 → EReal)
    (mk : Fin 32 → Fin 2048 → BitVec 1) (u : Fin 8 → EReal) (b : Fin 32) (n : Fin 18424) (o : Fin 64) :
    outK t Pj mk u b n o = outR t Pj mk u b n o := by
  unfold outK outR
  by_cases h : n.val < 18423
  · rw [dif_pos h, dif_pos h]
    exact cellK_eq_cellR t Pj mk u b _ _ o
  · rw [dif_neg h, dif_neg h]
    exact cellK_eq_cellR t Pj mk u b _ _ o

theorem resultK_eq_resultR (a0 : (⟨2, ![32, 2048]⟩ : Idealize.ShloMosaic.Shape).Idx → EReal)
    (a1 : (⟨3, ![32, 2048, 64]⟩ : Idealize.ShloMosaic.Shape).Idx → EReal)
    (a2 : (⟨2, ![32, 2048]⟩ : Idealize.ShloMosaic.Shape).Idx → BitVec 1) (a3 : (⟨1, ![8]⟩ : Idealize.ShloMosaic.Shape).Idx → EReal)
    (a4 a5 : (⟨2, ![64, 64]⟩ : Idealize.ShloMosaic.Shape).Idx → EReal) :
    resultK a0 a1 a2 a3 a4 a5 = resultR a0 a1 a2 a3 a4 a5 :=
  funext fun i => outK_eq_outR _ _ _ _ _ _ _

end Cert.Spec

end
-- ==== Proof.lean ====
/-
  The certificate's five claims.

  The kernel program projects the features by one matrix product (region 0), pads the projected features, the times
  and the mask read as numbers with zero rows, forms for every event the causal window sums and their interpolations
  (region 1), and lays the cells out as rows. The reference does the same with the mask as a selection and the
  window shifts stacked on an axis of their own. Over the extended reals the two results are one function of the six
  arguments: a product with a number that is 0 or 1 is the selection by that bit, and the eight-term sums agree up to
  their order. Both kernel programs run to the end from any memory (the frames; the idealized one's run also names
  its result), the reference's run is its host operations composed, and the ideal pass rewrote nothing.
-/
import proofs.«158136_j57621281243745_1_alg».proof.Defs
import proofs.«158136_j57621281243745_1_alg».proof.Proof.Gen.Kernel
import proofs.«158136_j57621281243745_1_alg».proof.Proof.Gen.KernelIdeal
import proofs.«158136_j57621281243745_1_alg».proof.Proof.Gen.ReferenceIdeal
import proofs.«158136_j57621281243745_1_alg».proof.Proof.Gen.Pre_finite_inputs
import proofs.«158136_j57621281243745_1_alg».proof.Proof.Fr.Run
import proofs.«158136_j57621281243745_1_alg».proof.Proof.FrK.Run
import proofs.«158136_j57621281243745_1_alg».proof.Proof.RefRun
import proofs.«158136_j57621281243745_1_alg».proof.Proof.Val.KHost
import proofs.«158136_j57621281243745_1_alg».proof.Proof.Val.Ref
import proofs.«158136_j57621281243745_1_alg».proof.Proof.Val.Alg
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The word-level program runs and leaves its arguments as launched. -/
theorem frame_k : Cert.frame_Kernel := fun m ρ _ =>
  (θ_run Cert.Kernel.defs _ _).mono (fun _ h c => (h c).2) (Cert.Kernel.Fr.run_main (F := Bits) m ρ)

/-- So does the idealized program. -/
theorem frame_ki : Cert.frame_KernelIdeal := fun m ρ _ =>
  (θ_run Cert.KernelIdeal.defs _ _).mono (fun _ h c => (h c).2) (Cert.KernelIdeal.Fr.run_main (F := Ideal) m ρ)

/-- The reference is its host operations in order: it runs and writes no argument. -/
theorem frame_ri : Cert.frame_ReferenceIdeal := fun m ρ _ =>
  (θ_run Cert.ReferenceIdeal.defs _ _).mono (fun _ h c => (h c).2) (Cert.ReferenceIdeal.HandRun.run (F := Ideal) m ρ)

/-- From memories that agree on the arguments both idealized programs end with the result array at one function
    of the arguments: the kernel's form of it, which is the reference's. -/
theorem algebraic : Cert.algebraic_KernelIdeal_ReferenceIdeal := by
  intro m ρ m' ρ' _ hagree
  refine ⟨fun c => Cert.Spec.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.kernel_value m c), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.HandRun.run (F := Ideal) m' ρ')
    rw [Cert.ReferenceIdeal.RefValue.ref_value, (hagree c).1, (hagree c).2.1, (hagree c).2.2.1, (hagree c).2.2.2.1,
      (hagree c).2.2.2.2.1, (hagree c).2.2.2.2.2]
    exact (Cert.Spec.resultK_eq_resultR _ _ _ _ _ _).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
